-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S_ : Shape := ⟨0, ![]⟩
abbrev S10 : Shape := ⟨1, ![10]⟩
abbrev S11 : Shape := ⟨1, ![11]⟩
abbrev S8 : Shape := ⟨1, ![8]⟩
abbrev S2 : Shape := ⟨1, ![2]⟩
abbrev S3 : Shape := ⟨1, ![3]⟩
abbrev S1 : Shape := ⟨1, ![1]⟩
abbrev S128x1024 : Shape := ⟨2, ![128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v24 : BitVec 32 := Scalar.muli v2 c4096_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v46 : BitVec 32 := Scalar.muli v13 c1024_i32
  let v47 : BitVec 32 := Scalar.addi v46 c0_i32_30
  let v48 : BitVec 32 := Scalar.addi v24 v47
  let c0_i32_37 : BitVec 32 := 0#32
  ![v48.toNat, 0]
def k0_off2 (d0 : Dev nD) (c0_i32_30 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v46 : BitVec 32 := Scalar.muli v13 c1024_i32
  let v47 : BitVec 32 := Scalar.addi v46 c0_i32_30
  let c0_i32_38 : BitVec 32 := 0#32
  ![v47.toNat, 0]
def k0_dev4 (d0 : Dev nD) : Nat :=
  let c0_i32_34 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_33 : BitVec 32 := 4#32
  let v49 : BitVec 32 := Scalar.muli v9 c4_i32_33
  let v50 : BitVec 32 := Scalar.addi c0_i32_34 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v51 : BitVec 32 := Scalar.muli v5 c2_i32_35
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v53 : BitVec 32 := Scalar.muli v8 c1_i32_36
  let v54 : BitVec 32 := Scalar.addi v52 v53
  v54.toNat
def k0_dev5 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v64 : BitVec 32 := Scalar.muli v9 c4_i32_42
  let v65 : BitVec 32 := Scalar.addi c0_i32_43 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v66 : BitVec 32 := Scalar.muli v5 c2_i32_44
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v68 : BitVec 32 := Scalar.muli v8 c1_i32_45
  let v69 : BitVec 32 := Scalar.addi v67 v68
  v69.toNat
def k0_dev6 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v79 : BitVec 32 := Scalar.muli v9 c4_i32_51
  let v80 : BitVec 32 := Scalar.addi c0_i32_52 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v81 : BitVec 32 := Scalar.muli v5 c2_i32_53
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v83 : BitVec 32 := Scalar.muli v8 c1_i32_54
  let v84 : BitVec 32 := Scalar.addi v82 v83
  v84.toNat
def k0_dev7 (d0 : Dev nD) : Nat :=
  let c0_i32_61 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_60 : BitVec 32 := 4#32
  let v94 : BitVec 32 := Scalar.muli v9 c4_i32_60
  let v95 : BitVec 32 := Scalar.addi c0_i32_61 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v96 : BitVec 32 := Scalar.muli v5 c2_i32_62
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v98 : BitVec 32 := Scalar.muli v8 c1_i32_63
  let v99 : BitVec 32 := Scalar.addi v97 v98
  v99.toNat
def k0_dev8 (d0 : Dev nD) : Nat :=
  let c0_i32_70 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_69 : BitVec 32 := 4#32
  let v109 : BitVec 32 := Scalar.muli v9 c4_i32_69
  let v110 : BitVec 32 := Scalar.addi c0_i32_70 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v111 : BitVec 32 := Scalar.muli v5 c2_i32_71
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v113 : BitVec 32 := Scalar.muli v8 c1_i32_72
  let v114 : BitVec 32 := Scalar.addi v112 v113
  v114.toNat
def k0_dev9 (d0 : Dev nD) : Nat :=
  let c0_i32_78 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_77 : BitVec 32 := 4#32
  let v124 : BitVec 32 := Scalar.muli v9 c4_i32_77
  let v125 : BitVec 32 := Scalar.addi c0_i32_78 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v126 : BitVec 32 := Scalar.muli v5 c2_i32_79
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v128 : BitVec 32 := Scalar.muli v8 c1_i32_80
  let v129 : BitVec 32 := Scalar.addi v127 v128
  v129.toNat
def k0_dev10 (d0 : Dev nD) : Nat :=
  let c0_i32_86 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_85 : BitVec 32 := 4#32
  let v139 : BitVec 32 := Scalar.muli v9 c4_i32_85
  let v140 : BitVec 32 := Scalar.addi c0_i32_86 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v141 : BitVec 32 := Scalar.muli v5 c2_i32_87
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v143 : BitVec 32 := Scalar.muli v8 c1_i32_88
  let v144 : BitVec 32 := Scalar.addi v142 v143
  v144.toNat
def k0_dev11 (d0 : Dev nD) : Nat :=
  let c0_i32_94 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_93 : BitVec 32 := 4#32
  let v154 : BitVec 32 := Scalar.muli v9 c4_i32_93
  let v155 : BitVec 32 := Scalar.addi c0_i32_94 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v156 : BitVec 32 := Scalar.muli v5 c2_i32_95
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v158 : BitVec 32 := Scalar.muli v8 c1_i32_96
  let v159 : BitVec 32 := Scalar.addi v157 v158
  v159.toNat
def k0_off3 (d0 : Dev nD) (c768_i32_100 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v24 : BitVec 32 := Scalar.muli v2 c4096_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_99 : BitVec 32 := 1024#32
  let v166 : BitVec 32 := Scalar.muli v23 c1024_i32_99
  let v167 : BitVec 32 := Scalar.addi v166 c768_i32_100
  let v168 : BitVec 32 := Scalar.addi v24 v167
  let c0_i32_106 : BitVec 32 := 0#32
  ![v168.toNat, 0]
def k0_off4 (d0 : Dev nD) (c768_i32_100 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_99 : BitVec 32 := 1024#32
  let v166 : BitVec 32 := Scalar.muli v23 c1024_i32_99
  let v167 : BitVec 32 := Scalar.addi v166 c768_i32_100
  let c0_i32_107 : BitVec 32 := 0#32
  ![v167.toNat, 0]
def k0_dev12 (d0 : Dev nD) : Nat :=
  let c0_i32_103 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_102 : BitVec 32 := 4#32
  let v169 : BitVec 32 := Scalar.muli v9 c4_i32_102
  let v170 : BitVec 32 := Scalar.addi c0_i32_103 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v171 : BitVec 32 := Scalar.muli v5 c2_i32_104
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v173 : BitVec 32 := Scalar.muli v8 c1_i32_105
  let v174 : BitVec 32 := Scalar.addi v172 v173
  v174.toNat
def k0_dev13 (d0 : Dev nD) : Nat :=
  let c0_i32_112 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_111 : BitVec 32 := 4#32
  let v184 : BitVec 32 := Scalar.muli v9 c4_i32_111
  let v185 : BitVec 32 := Scalar.addi c0_i32_112 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v186 : BitVec 32 := Scalar.muli v5 c2_i32_113
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v188 : BitVec 32 := Scalar.muli v8 c1_i32_114
  let v189 : BitVec 32 := Scalar.addi v187 v188
  v189.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32 : BitVec 32 := 4096#32
  let v24 : BitVec 32 := Scalar.muli v2 c4096_i32
  let c0_i32_117 : BitVec 32 := 0#32
  ![v24.toNat, 0]
def k0_off6 (d0 : Dev nD) (c0_i32_119 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c4096_i32_15 : BitVec 32 := 4096#32
  let v26 : BitVec 32 := Scalar.muli v25 c4096_i32_15
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_118 : BitVec 32 := 1024#32
  let v197 : BitVec 32 := Scalar.muli v13 c1024_i32_118
  let v198 : BitVec 32 := Scalar.addi v26 v197
  let v199 : BitVec 32 := Scalar.addi v198 c0_i32_119
  let c0_i32_126 : BitVec 32 := 0#32
  ![v199.toNat, 0]
def k0_dev14 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v210 : BitVec 32 := Scalar.muli v2 c4_i32_130
  let v211 : BitVec 32 := Scalar.addi c0_i32_131 v210
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_132 : BitVec 32 := 2#32
  let v212 : BitVec 32 := Scalar.muli v10 c2_i32_132
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v214 : BitVec 32 := Scalar.muli v8 c1_i32_133
  let v215 : BitVec 32 := Scalar.addi v213 v214
  v215.toNat
def k0_dev15 (d0 : Dev nD) : Nat :=
  let c0_i32_139 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_138 : BitVec 32 := 4#32
  let v222 : BitVec 32 := Scalar.muli v2 c4_i32_138
  let v223 : BitVec 32 := Scalar.addi c0_i32_139 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_140 : BitVec 32 := 2#32
  let v224 : BitVec 32 := Scalar.muli v5 c2_i32_140
  let v225 : BitVec 32 := Scalar.addi v223 v224
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_141 : BitVec 32 := 1#32
  let v226 : BitVec 32 := Scalar.muli v11 c1_i32_141
  let v227 : BitVec 32 := Scalar.addi v225 v226
  v227.toNat
def k0_dev16 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v247 : BitVec 32 := Scalar.muli v2 c4_i32_156
  let v248 : BitVec 32 := Scalar.addi c0_i32_157 v247
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_158 : BitVec 32 := 2#32
  let v249 : BitVec 32 := Scalar.muli v10 c2_i32_158
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v251 : BitVec 32 := Scalar.muli v8 c1_i32_159
  let v252 : BitVec 32 := Scalar.addi v250 v251
  v252.toNat
def k0_dev17 (d0 : Dev nD) : Nat :=
  let c0_i32_165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_164 : BitVec 32 := 4#32
  let v259 : BitVec 32 := Scalar.muli v2 c4_i32_164
  let v260 : BitVec 32 := Scalar.addi c0_i32_165 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v261 : BitVec 32 := Scalar.muli v5 c2_i32_166
  let v262 : BitVec 32 := Scalar.addi v260 v261
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_167 : BitVec 32 := 1#32
  let v263 : BitVec 32 := Scalar.muli v11 c1_i32_167
  let v264 : BitVec 32 := Scalar.addi v262 v263
  v264.toNat
def k0_dev18 (d0 : Dev nD) : Nat :=
  let c0_i32_183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_182 : BitVec 32 := 4#32
  let v284 : BitVec 32 := Scalar.muli v2 c4_i32_182
  let v285 : BitVec 32 := Scalar.addi c0_i32_183 v284
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_184 : BitVec 32 := 2#32
  let v286 : BitVec 32 := Scalar.muli v10 c2_i32_184
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v288 : BitVec 32 := Scalar.muli v8 c1_i32_185
  let v289 : BitVec 32 := Scalar.addi v287 v288
  v289.toNat
def k0_dev19 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v296 : BitVec 32 := Scalar.muli v2 c4_i32_190
  let v297 : BitVec 32 := Scalar.addi c0_i32_191 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v298 : BitVec 32 := Scalar.muli v5 c2_i32_192
  let v299 : BitVec 32 := Scalar.addi v297 v298
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_193 : BitVec 32 := 1#32
  let v300 : BitVec 32 := Scalar.muli v11 c1_i32_193
  let v301 : BitVec 32 := Scalar.addi v299 v300
  v301.toNat
def k0_dev20 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v321 : BitVec 32 := Scalar.muli v2 c4_i32_208
  let v322 : BitVec 32 := Scalar.addi c0_i32_209 v321
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_210 : BitVec 32 := 2#32
  let v323 : BitVec 32 := Scalar.muli v10 c2_i32_210
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v325 : BitVec 32 := Scalar.muli v8 c1_i32_211
  let v326 : BitVec 32 := Scalar.addi v324 v325
  v326.toNat
def k0_dev21 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v333 : BitVec 32 := Scalar.muli v2 c4_i32_216
  let v334 : BitVec 32 := Scalar.addi c0_i32_217 v333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v335 : BitVec 32 := Scalar.muli v5 c2_i32_218
  let v336 : BitVec 32 := Scalar.addi v334 v335
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_219 : BitVec 32 := 1#32
  let v337 : BitVec 32 := Scalar.muli v11 c1_i32_219
  let v338 : BitVec 32 := Scalar.addi v336 v337
  v338.toNat
def k0_dev22 (d0 : Dev nD) : Nat :=
  let c0_i32_235 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_234 : BitVec 32 := 4#32
  let v358 : BitVec 32 := Scalar.muli v2 c4_i32_234
  let v359 : BitVec 32 := Scalar.addi c0_i32_235 v358
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_236 : BitVec 32 := 2#32
  let v360 : BitVec 32 := Scalar.muli v10 c2_i32_236
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v362 : BitVec 32 := Scalar.muli v8 c1_i32_237
  let v363 : BitVec 32 := Scalar.addi v361 v362
  v363.toNat
def k0_dev23 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v370 : BitVec 32 := Scalar.muli v2 c4_i32_242
  let v371 : BitVec 32 := Scalar.addi c0_i32_243 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v372 : BitVec 32 := Scalar.muli v5 c2_i32_244
  let v373 : BitVec 32 := Scalar.addi v371 v372
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_245 : BitVec 32 := 1#32
  let v374 : BitVec 32 := Scalar.muli v11 c1_i32_245
  let v375 : BitVec 32 := Scalar.addi v373 v374
  v375.toNat
def k0_dev24 (d0 : Dev nD) : Nat :=
  let c0_i32_261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_260 : BitVec 32 := 4#32
  let v395 : BitVec 32 := Scalar.muli v2 c4_i32_260
  let v396 : BitVec 32 := Scalar.addi c0_i32_261 v395
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_262 : BitVec 32 := 2#32
  let v397 : BitVec 32 := Scalar.muli v10 c2_i32_262
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_263 : BitVec 32 := 1#32
  let v399 : BitVec 32 := Scalar.muli v8 c1_i32_263
  let v400 : BitVec 32 := Scalar.addi v398 v399
  v400.toNat
def k0_dev25 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v407 : BitVec 32 := Scalar.muli v2 c4_i32_268
  let v408 : BitVec 32 := Scalar.addi c0_i32_269 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v409 : BitVec 32 := Scalar.muli v5 c2_i32_270
  let v410 : BitVec 32 := Scalar.addi v408 v409
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_271 : BitVec 32 := 1#32
  let v411 : BitVec 32 := Scalar.muli v11 c1_i32_271
  let v412 : BitVec 32 := Scalar.addi v410 v411
  v412.toNat
def k0_dev26 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_286 : BitVec 32 := 4#32
  let v432 : BitVec 32 := Scalar.muli v2 c4_i32_286
  let v433 : BitVec 32 := Scalar.addi c0_i32_287 v432
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_288 : BitVec 32 := 2#32
  let v434 : BitVec 32 := Scalar.muli v10 c2_i32_288
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v436 : BitVec 32 := Scalar.muli v8 c1_i32_289
  let v437 : BitVec 32 := Scalar.addi v435 v436
  v437.toNat
def k0_dev27 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_294 : BitVec 32 := 4#32
  let v444 : BitVec 32 := Scalar.muli v2 c4_i32_294
  let v445 : BitVec 32 := Scalar.addi c0_i32_295 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_296 : BitVec 32 := 2#32
  let v446 : BitVec 32 := Scalar.muli v5 c2_i32_296
  let v447 : BitVec 32 := Scalar.addi v445 v446
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_297 : BitVec 32 := 1#32
  let v448 : BitVec 32 := Scalar.muli v11 c1_i32_297
  let v449 : BitVec 32 := Scalar.addi v447 v448
  v449.toNat
def k0_dev28 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v469 : BitVec 32 := Scalar.muli v2 c4_i32_312
  let v470 : BitVec 32 := Scalar.addi c0_i32_313 v469
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_314 : BitVec 32 := 2#32
  let v471 : BitVec 32 := Scalar.muli v10 c2_i32_314
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v473 : BitVec 32 := Scalar.muli v8 c1_i32_315
  let v474 : BitVec 32 := Scalar.addi v472 v473
  v474.toNat
def k0_dev29 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v481 : BitVec 32 := Scalar.muli v2 c4_i32_320
  let v482 : BitVec 32 := Scalar.addi c0_i32_321 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v483 : BitVec 32 := Scalar.muli v5 c2_i32_322
  let v484 : BitVec 32 := Scalar.addi v482 v483
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_323 : BitVec 32 := 1#32
  let v485 : BitVec 32 := Scalar.muli v11 c1_i32_323
  let v486 : BitVec 32 := Scalar.addi v484 v485
  v486.toNat
def k0_off7 (d0 : Dev nD) (c0_i32_327 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c4096_i32_15 : BitVec 32 := 4096#32
  let v26 : BitVec 32 := Scalar.muli v25 c4096_i32_15
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_326 : BitVec 32 := 1024#32
  let v493 : BitVec 32 := Scalar.muli v19 c1024_i32_326
  let v494 : BitVec 32 := Scalar.addi v26 v493
  let v495 : BitVec 32 := Scalar.addi v494 c0_i32_327
  let c0_i32_334 : BitVec 32 := 0#32
  ![v495.toNat, 0]
def k0_dev30 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v506 : BitVec 32 := Scalar.muli v2 c4_i32_338
  let v507 : BitVec 32 := Scalar.addi c0_i32_339 v506
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_340 : BitVec 32 := 2#32
  let v508 : BitVec 32 := Scalar.muli v10 c2_i32_340
  let v509 : BitVec 32 := Scalar.addi v507 v508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_341 : BitVec 32 := 1#32
  let v510 : BitVec 32 := Scalar.muli v8 c1_i32_341
  let v511 : BitVec 32 := Scalar.addi v509 v510
  v511.toNat
def k0_dev31 (d0 : Dev nD) : Nat :=
  let c0_i32_357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_356 : BitVec 32 := 4#32
  let v531 : BitVec 32 := Scalar.muli v2 c4_i32_356
  let v532 : BitVec 32 := Scalar.addi c0_i32_357 v531
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_358 : BitVec 32 := 2#32
  let v533 : BitVec 32 := Scalar.muli v10 c2_i32_358
  let v534 : BitVec 32 := Scalar.addi v532 v533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v535 : BitVec 32 := Scalar.muli v8 c1_i32_359
  let v536 : BitVec 32 := Scalar.addi v534 v535
  v536.toNat
def k0_dev32 (d0 : Dev nD) : Nat :=
  let c0_i32_374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_373 : BitVec 32 := 4#32
  let v556 : BitVec 32 := Scalar.muli v2 c4_i32_373
  let v557 : BitVec 32 := Scalar.addi c0_i32_374 v556
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_375 : BitVec 32 := 2#32
  let v558 : BitVec 32 := Scalar.muli v10 c2_i32_375
  let v559 : BitVec 32 := Scalar.addi v557 v558
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v560 : BitVec 32 := Scalar.muli v8 c1_i32_376
  let v561 : BitVec 32 := Scalar.addi v559 v560
  v561.toNat
def k0_off8 (d0 : Dev nD) (c384_i32_380 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c4096_i32_15 : BitVec 32 := 4096#32
  let v26 : BitVec 32 := Scalar.muli v25 c4096_i32_15
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_379 : BitVec 32 := 1024#32
  let v568 : BitVec 32 := Scalar.muli v16 c1024_i32_379
  let v569 : BitVec 32 := Scalar.addi v26 v568
  let v570 : BitVec 32 := Scalar.addi v569 c384_i32_380
  let c0_i32_387 : BitVec 32 := 0#32
  ![v570.toNat, 0]
def k0_dev33 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v581 : BitVec 32 := Scalar.muli v2 c4_i32_391
  let v582 : BitVec 32 := Scalar.addi c0_i32_392 v581
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v583 : BitVec 32 := Scalar.muli v5 c2_i32_393
  let v584 : BitVec 32 := Scalar.addi v582 v583
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_394 : BitVec 32 := 1#32
  let v585 : BitVec 32 := Scalar.muli v11 c1_i32_394
  let v586 : BitVec 32 := Scalar.addi v584 v585
  v586.toNat
def k0_dev34 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v606 : BitVec 32 := Scalar.muli v2 c4_i32_409
  let v607 : BitVec 32 := Scalar.addi c0_i32_410 v606
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v608 : BitVec 32 := Scalar.muli v5 c2_i32_411
  let v609 : BitVec 32 := Scalar.addi v607 v608
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_412 : BitVec 32 := 1#32
  let v610 : BitVec 32 := Scalar.muli v11 c1_i32_412
  let v611 : BitVec 32 := Scalar.addi v609 v610
  v611.toNat
def k0_dev35 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v631 : BitVec 32 := Scalar.muli v2 c4_i32_427
  let v632 : BitVec 32 := Scalar.addi c0_i32_428 v631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v633 : BitVec 32 := Scalar.muli v5 c2_i32_429
  let v634 : BitVec 32 := Scalar.addi v632 v633
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_430 : BitVec 32 := 1#32
  let v635 : BitVec 32 := Scalar.muli v11 c1_i32_430
  let v636 : BitVec 32 := Scalar.addi v634 v635
  v636.toNat
def k0_off9 (d0 : Dev nD) (c0_i32_534 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c4096_i32_15 : BitVec 32 := 4096#32
  let v26 : BitVec 32 := Scalar.muli v25 c4096_i32_15
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_533 : BitVec 32 := 1024#32
  let v773 : BitVec 32 := Scalar.muli v23 c1024_i32_533
  let v774 : BitVec 32 := Scalar.addi v26 v773
  let v775 : BitVec 32 := Scalar.addi v774 c0_i32_534
  let c0_i32_541 : BitVec 32 := 0#32
  ![v775.toNat, 0]

class Facts₀ : Prop where
  hamt_1 : (1#32 : BitVec 32).msb = false
  hamt_3 : (3#32 : BitVec 32).msb = false
  inb_S10_S1_0 : ∀ a, (![0] : Fin 1 → Nat) a + S1.size a ≤ S10.size a
  squeezes_S1_S_ : S1.Squeezes S_
  inb_S8_S1_0 : ∀ a, (![0] : Fin 1 → Nat) a + S1.size a ≤ S8.size a
  inb_S10_S1_1 : ∀ a, (![1] : Fin 1 → Nat) a + S1.size a ≤ S10.size a
  inb_S8_S1_1 : ∀ a, (![1] : Fin 1 → Nat) a + S1.size a ≤ S8.size a
  inb_S10_S1_2 : ∀ a, (![2] : Fin 1 → Nat) a + S1.size a ≤ S10.size a
  inb_S8_S1_2 : ∀ a, (![2] : Fin 1 → Nat) a + S1.size a ≤ S8.size a
  inb_S10_S1_3 : ∀ a, (![3] : Fin 1 → Nat) a + S1.size a ≤ S10.size a
  inb_S8_S1_3 : ∀ a, (![3] : Fin 1 → Nat) a + S1.size a ≤ S8.size a
  inb_S10_S1_4 : ∀ a, (![4] : Fin 1 → Nat) a + S1.size a ≤ S10.size a
  inb_S8_S1_4 : ∀ a, (![4] : Fin 1 → Nat) a + S1.size a ≤ S8.size a
  inb_S10_S1_5 : ∀ a, (![5] : Fin 1 → Nat) a + S1.size a ≤ S10.size a
  inb_S8_S1_5 : ∀ a, (![5] : Fin 1 → Nat) a + S1.size a ≤ S8.size a
  inb_S10_S1_6 : ∀ a, (![6] : Fin 1 → Nat) a + S1.size a ≤ S10.size a
  inb_S8_S1_6 : ∀ a, (![6] : Fin 1 → Nat) a + S1.size a ≤ S8.size a
  inb_S10_S1_7 : ∀ a, (![7] : Fin 1 → Nat) a + S1.size a ≤ S10.size a
  inb_S8_S1_7 : ∀ a, (![7] : Fin 1 → Nat) a + S1.size a ≤ S8.size a
  inb_S10_S1_8 : ∀ a, (![8] : Fin 1 → Nat) a + S1.size a ≤ S10.size a
  inb_S2_S1_0 : ∀ a, (![0] : Fin 1 → Nat) a + S1.size a ≤ S2.size a
  inb_S10_S1_9 : ∀ a, (![9] : Fin 1 → Nat) a + S1.size a ≤ S10.size a
  inb_S2_S1_1 : ∀ a, (![1] : Fin 1 → Nat) a + S1.size a ≤ S2.size a
  inb_S11_S1_0 : ∀ a, (![0] : Fin 1 → Nat) a + S1.size a ≤ S11.size a
  inb_S11_S1_1 : ∀ a, (![1] : Fin 1 → Nat) a + S1.size a ≤ S11.size a
  inb_S11_S1_2 : ∀ a, (![2] : Fin 1 → Nat) a + S1.size a ≤ S11.size a
  inb_S11_S1_3 : ∀ a, (![3] : Fin 1 → Nat) a + S1.size a ≤ S11.size a
  inb_S11_S1_4 : ∀ a, (![4] : Fin 1 → Nat) a + S1.size a ≤ S11.size a
  inb_S11_S1_5 : ∀ a, (![5] : Fin 1 → Nat) a + S1.size a ≤ S11.size a
  inb_S11_S1_6 : ∀ a, (![6] : Fin 1 → Nat) a + S1.size a ≤ S11.size a
  inb_S11_S1_7 : ∀ a, (![7] : Fin 1 → Nat) a + S1.size a ≤ S11.size a
  inb_S11_S1_8 : ∀ a, (![8] : Fin 1 → Nat) a + S1.size a ≤ S11.size a
  inb_S3_S1_0 : ∀ a, (![0] : Fin 1 → Nat) a + S1.size a ≤ S3.size a
  inb_S11_S1_9 : ∀ a, (![9] : Fin 1 → Nat) a + S1.size a ≤ S11.size a
  inb_S3_S1_1 : ∀ a, (![1] : Fin 1 → Nat) a + S1.size a ≤ S3.size a
  inb_S11_S1_10 : ∀ a, (![10] : Fin 1 → Nat) a + S1.size a ≤ S11.size a
  inb_S3_S1_2 : ∀ a, (![2] : Fin 1 → Nat) a + S1.size a ≤ S3.size a
  hcc0_scratch0 : 0 + S_.numel ≤ 65
  hcc0_scratch1 : 1 + S10.numel ≤ 65
  hcc0_scratch2 : 11 + S11.numel ≤ 65
  hcc0_scratch3 : 22 + S11.numel ≤ 65
  hcc0_scratch4 : 33 + S8.numel ≤ 65
  hcc0_scratch5 : 41 + S2.numel ≤ 65
  hcc0_scratch6 : 43 + S8.numel ≤ 65
  hcc0_scratch7 : 51 + S8.numel ≤ 65
  hcc0_scratch8 : 59 + S3.numel ≤ 65
  hcc0_scratch9 : 62 + S3.numel ≤ 65
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (128 * r.val))) a + S128x1024.size a ≤ S8192x1024.size a
  k0_off2_inb : ∀ d0 : Dev nD, ∀ (r : Fin 8), ∀ a, (k0_off2 d0 (BitVec.ofNat 32 (128 * r.val))) a + S128x1024.size a ≤ S4096x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off3_inb : ∀ d0 : Dev nD, ∀ (r : Fin 2), ∀ a, (k0_off3 d0 (BitVec.ofNat 32 (768 + 128 * r.val))) a + S128x1024.size a ≤ S8192x1024.size a
  k0_off4_inb : ∀ d0 : Dev nD, ∀ (r : Fin 2), ∀ a, (k0_off4 d0 (BitVec.ofNat 32 (768 + 128 * r.val))) a + S128x1024.size a ≤ S4096x1024.size a
  k0_dev12_lt : ∀ d0 : Dev nD, (k0_dev12 d0) < nD
  k0_dev13_lt : ∀ d0 : Dev nD, (k0_dev13 d0) < nD
  k0_off5_inb : ∀ d0 : Dev nD, ∀ a, (k0_off5 d0) a + S4096x1024.size a ≤ S8192x1024.size a
  k0_off6_inb : ∀ d0 : Dev nD, ∀ (r : Fin 8), ∀ a, (k0_off6 d0 (BitVec.ofNat 32 (128 * r.val))) a + S128x1024.size a ≤ S8192x1024.size a
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_off7_inb : ∀ d0 : Dev nD, ∀ (r : Fin 8), ∀ a, (k0_off7 d0 (BitVec.ofNat 32 (128 * r.val))) a + S128x1024.size a ≤ S8192x1024.size a
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_off8_inb : ∀ d0 : Dev nD, ∀ (r : Fin 8), ∀ a, (k0_off8 d0 (BitVec.ofNat 32 (128 * r.val))) a + S128x1024.size a ≤ S8192x1024.size a
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off9_inb : ∀ d0 : Dev nD, ∀ (r : Fin 8), ∀ a, (k0_off9 d0 (BitVec.ofNat 32 (128 * r.val))) a + S128x1024.size a ≤ S8192x1024.size a

variable [Facts₀]

abbrev cc0_scratch0 : DmaSems sig S_ := SemArray.consecutive 0 S_ hcc0_scratch0
abbrev cc0_scratch1 : DmaSems sig S10 := SemArray.consecutive 1 S10 hcc0_scratch1
abbrev cc0_scratch2 : DmaSems sig S11 := SemArray.consecutive 11 S11 hcc0_scratch2
abbrev cc0_scratch3 : DmaSems sig S11 := SemArray.consecutive 22 S11 hcc0_scratch3
abbrev cc0_scratch4 : DmaSems sig S8 := SemArray.consecutive 33 S8 hcc0_scratch4
abbrev cc0_scratch5 : DmaSems sig S2 := SemArray.consecutive 41 S2 hcc0_scratch5
abbrev cc0_scratch6 : DmaSems sig S8 := SemArray.consecutive 43 S8 hcc0_scratch6
abbrev cc0_scratch7 : DmaSems sig S8 := SemArray.consecutive 51 S8 hcc0_scratch7
abbrev cc0_scratch8 : DmaSems sig S3 := SemArray.consecutive 59 S3 hcc0_scratch8
abbrev cc0_scratch9 : DmaSems sig S3 := SemArray.consecutive 62 S3 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Base.lean ====
/-
  An all-gather of a [8192, 1024] array cut in two row blocks over a 2 x 2 x 2 mesh. Device (x, y, z) holds
  block x and must end holding both. The other block is cut in four quarters of 1024 rows and each quarter
  in eight chunks of 128 rows. A device receives 32 chunks, one per SLOT: quarter f = 2y + z from its
  x-neighbour (slots 0..7), chunks 6, 7 of the opposite quarter 3 - f from the x-neighbour too (8, 9), the
  quarter of its y-neighbour (10..17) and of its z-neighbour (18..25) forwarded by them, and chunks 0..2 and
  3..5 of the opposite quarter forwarded a second time by the y- and the z-neighbour (26..28, 29..31).
  This module fixes the vocabulary: neighbours, slots, the rows a slot covers, semaphore cells, and the final
  contents of a device's result as a function of the initial memory.
-/
import proofs.«900662_g7700000000000663_dist_ag_v7x_xyz2x2x2_x_m4096_n1024_f32_1_alg».proof.Proof.Gen.KernelIdeal
import proofs.«900662_g7700000000000663_dist_ag_v7x_xyz2x2x2_x_m4096_n1024_f32_1_alg».proof.Proof.Gen.KernelIdeal.Skeleton
import proofs.«900662_g7700000000000663_dist_ag_v7x_xyz2x2x2_x_m4096_n1024_f32_1_alg».proof.Proof.Gen.KernelIdeal.Launch
import proofs.«900662_g7700000000000663_dist_ag_v7x_xyz2x2x2_x_m4096_n1024_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh: coordinates and the three neighbours -/

/-- Device c sits at (c / 4, c / 2 % 2, c % 2). -/
def cx (c : Dev nD) : ℕ := c.val / 4
def cy (c : Dev nD) : ℕ := (c.val / 2) % 2
def cz (c : Dev nD) : ℕ := c.val % 2

/-- The neighbour along each axis: the device whose coordinate on that axis is the other one. -/
def xp (c : Dev nD) : Dev nD := ⟨(c.val + 4) % 8, Nat.mod_lt _ (by decide)⟩
def yp (c : Dev nD) : Dev nD := ⟨4 * (c.val / 4) + (c.val + 2) % 4, by have h : c.val < 8 := c.isLt; show _ < 8; omega⟩
def zp (c : Dev nD) : Dev nD := ⟨2 * (c.val / 2) + (c.val + 1) % 2, by have h : c.val < 8 := c.isLt; show _ < 8; omega⟩

/-- Direction 0, 1, 2 = along x, y, z. -/
def nb (d : Fin 3) (c : Dev nD) : Dev nD := match d with | 0 => xp c | 1 => yp c | 2 => zp c

theorem nb_nb (d : Fin 3) (c : Dev nD) : nb d (nb d c) = c := by revert d c; decide
theorem nb_ne (d : Fin 3) (c : Dev nD) : nb d c ≠ c := by revert d c; decide
theorem nb_inj (d d' : Fin 3) (c : Dev nD) (h : nb d c = nb d' c) : d = d' := by revert d d' c; decide

/-! ## Slots -/

/-- The 32 chunks a device receives. -/
abbrev Slot : Type := Fin 32

def sRx (j : Fin 8) : Slot := ⟨j.val, by omega⟩
def sRmx (i : Fin 2) : Slot := ⟨8 + i.val, by omega⟩
def sRy (j : Fin 8) : Slot := ⟨10 + j.val, by omega⟩
def sRz (j : Fin 8) : Slot := ⟨18 + j.val, by omega⟩
def sRmy (i : Fin 3) : Slot := ⟨26 + i.val, by omega⟩
def sRmz (i : Fin 3) : Slot := ⟨29 + i.val, by omega⟩

/-- The direction a slot's chunk arrives from. -/
def dir (s : Slot) : Fin 3 :=
  if s.val < 10 then 0 else if s.val < 18 then 1 else if s.val < 26 then 2 else if s.val < 29 then 1 else 2

/-- The device that fills slot s of device c (and whose slot s device c fills: the neighbours are involutions). -/
def peer (s : Slot) (c : Dev nD) : Dev nD := nb (dir s) c

theorem peer_peer (s : Slot) (c : Dev nD) : peer s (peer s c) = c := nb_nb _ _

/-- First row, in the receiver's result array, of the chunk of slot s on device c. -/
def rowOf (c : Dev nD) (s : Slot) : ℕ :=
  let fb := 4096 * (1 - cx c)
  let f := 2 * cy c + cz c
  let fy := 2 * (1 - cy c) + cz c
  let fz := 2 * cy c + (1 - cz c)
  let mq := 3 - f
  if s.val < 8 then fb + 1024 * f + 128 * s.val
  else if s.val < 10 then fb + 1024 * mq + 128 * (s.val - 8 + 6)
  else if s.val < 18 then fb + 1024 * fy + 128 * (s.val - 10)
  else if s.val < 26 then fb + 1024 * fz + 128 * (s.val - 18)
  else if s.val < 29 then fb + 1024 * mq + 128 * (s.val - 26)
  else fb + 1024 * mq + 128 * (s.val - 29 + 3)

theorem rowOf_inb (c : Dev nD) (s : Slot) : ∀ a, (![rowOf c s, 0] : Fin 2 → ℕ) a + S128x1024.size a ≤ S8192x1024.size a := by
  revert c s; decide

/-- First row of the device's own block. -/
def ownRow (c : Dev nD) : ℕ := 4096 * cx c
theorem ownRow_inb (c : Dev nD) : ∀ a, (![ownRow c, 0] : Fin 2 → ℕ) a + S4096x1024.size a ≤ S8192x1024.size a := by
  revert c; decide

/-- For the two slots filled straight from the x-neighbour's input block: first row of the chunk in that block. -/
def srcRowX (c : Dev nD) (s : Slot) : ℕ := rowOf c s - 4096 * (1 - cx c)
theorem srcRowX_inb (c : Dev nD) (s : Slot) : ∀ a, (![srcRowX c s, 0] : Fin 2 → ℕ) a + S128x1024.size a ≤ S4096x1024.size a := by
  revert c s; decide

/-! ## Memrefs -/

abbrev xM : Memref sig .tc .hbm S4096x1024 .f32 := Memref.whole main_arg0
abbrev oM : Memref sig .tc .hbm S8192x1024 .f32 := Memref.whole main_v1

/-- The chunk of slot s in device c's result array. -/
abbrev slotRect (c : Dev nD) (s : Slot) : Rect S8192x1024 := Rect.unit (s := S8192x1024) ![rowOf c s, 0] S128x1024.size (rowOf_inb c s)
abbrev outSl (c : Dev nD) (s : Slot) : Memref sig .tc .hbm S128x1024 .f32 := oM.slice (slotRect c s) (fun _ => rfl)
/-- The device's own block in its result array. -/
abbrev ownRect (c : Dev nD) : Rect S8192x1024 := Rect.unit (s := S8192x1024) ![ownRow c, 0] S4096x1024.size (ownRow_inb c)
abbrev ownSl (c : Dev nD) : Memref sig .tc .hbm S4096x1024 .f32 := oM.slice (ownRect c) (fun _ => rfl)
/-- The chunk of the INPUT block of device c' = the x-neighbour that fills slot s (s < 10) of device c. -/
abbrev inRect (c : Dev nD) (s : Slot) : Rect S4096x1024 := Rect.unit (s := S4096x1024) ![srcRowX c s, 0] S128x1024.size (srcRowX_inb c s)
abbrev inSl (c : Dev nD) (s : Slot) : Memref sig .tc .hbm S128x1024 .f32 := xM.slice (inRect c s) (fun _ => rfl)

/-- Slices of one memref at equal offsets are one memref. -/
theorem slice_unit_congr {s : Shape} {e : EltTy} {sp : Space} (M : Memref sig .tc sp s e) {off off' : Fin s.rank → ℕ} (h : off = off')
    (sz : Fin s.rank → ℕ) (inb : ∀ a, off a + sz a ≤ s.size a) (inb' : ∀ a, off' a + sz a ≤ s.size a)
    (hs : ∀ a, (Rect.unit (s := s) off sz inb).stride a = 1) (hs' : ∀ a, (Rect.unit (s := s) off' sz inb').stride a = 1) :
    M.slice (Rect.unit (s := s) off sz inb) hs = M.slice (Rect.unit (s := s) off' sz inb') hs' := by
  subst h; rfl

/-! ## Semaphore cells -/

abbrev barS : Sem sig := (SemArray.scalar (sig.barrier 0 rfl) : Sems sig S_).sem
/-- The DMA semaphores: 0 the local copy's, 1..32 the sends', 33..64 the receives' (33 + slot). -/
def locSem : DmaSem sig := ⟨0, by decide⟩
def recvSem (s : Slot) : DmaSem sig := ⟨33 + s.val, by have := s.isLt; show 33 + s.val < 65; omega⟩
def sendIdx (s : Slot) : ℕ := if s.val < 18 then s.val + 1 else if s.val < 26 then s.val + 4 else if s.val < 29 then s.val - 7 else s.val + 1
/-- The send semaphore, on the SENDER, of the transfer into slot s of its peer. -/
def sendSem (s : Slot) : DmaSem sig := ⟨sendIdx s, by have := s.isLt; show sendIdx s < 65; unfold sendIdx; split_ifs <;> omega⟩

abbrev barCell (c : Dev nD) : GSem nD τ sig := ((c : Thread nD τ), .reg barS)
abbrev locCell (c : Dev nD) : GSem nD τ sig := ((c : Thread nD τ), .dma locSem)
abbrev recvCell (c : Dev nD) (s : Slot) : GSem nD τ sig := ((c : Thread nD τ), .dma (recvSem s))
abbrev sendCell (c : Dev nD) (s : Slot) : GSem nD τ sig := ((c : Thread nD τ), .dma (sendSem s))

/-- Units of one chunk's transfer, and of the own block's. -/
abbrev N : ℕ := (outSl (0 : Dev nD) (0 : Slot)).view.dmaCredit
abbrev NL : ℕ := (ownSl (0 : Dev nD)).view.dmaCredit

/-! ## The final contents -/

/-- The device whose input block holds row i₀ of device c's final result: c itself on its own block; on the
    other block the device (1 - x, q / 2, q % 2) of the row's quarter q, except chunks 6 and 7 of the
    opposite quarter, which come straight from the x-neighbour. -/
def srcDev (c : Dev nD) (i0 : ℕ) : Dev nD :=
  let b := i0 / 4096
  let q := (i0 % 4096) / 1024
  let j := (i0 % 1024) / 128
  if b = cx c then c
  else if q = 3 - (2 * cy c + cz c) ∧ 6 ≤ j then xp c
  else ⟨(4 * (1 - cx c) + q) % 8, Nat.mod_lt _ (by decide)⟩

end Cert.KernelIdeal.AG

end
-- ==== Proof.Sched.lean ====
/-
  The protocol as a schedule of rounds. Every semaphore cell has ONE round.
  The barrier cell of a device has three duties of one unit, one per neighbour: the neighbour along axis d
  signals it and hands over, with the signal, the chunks of ITS OWN result array that this device will write
  (the slots whose direction is d), at arbitrary contents.
  A receive cell has one duty, the chunk's transfer; what lands is the chunk at its FINAL contents.
  A send cell has one duty, paid by the same transfer; it returns the share of the source that was read.
  The local copy's cell returns the own block at its final contents and the share of the input block read.
-/
import proofs.«900662_g7700000000000663_dist_ag_v7x_xyz2x2x2_x_m4096_n1024_f32_1_alg».proof.Proof.Base
import Idealize.ShloMosaic.Lib.ValueIdx
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device c's input block as launched. -/
abbrev xin (c : Dev nD) : Buf (Elt F) ((c : Thread nD τ).loc main_arg0) := m ((c : Thread nD τ).loc main_arg0)

/-- The final contents of device c's result: row i₀ is row i₀ % 4096 of the input block of srcDev c i₀. -/
def Wout (c : Dev nD) : Buf (Elt F) ((c : Thread nD τ).loc main_v1) := fun i =>
  xin m (srcDev c (i 0).val) (ValueIdx.ix2 (⟨(i 0).val % 4096, Nat.mod_lt _ (by decide)⟩ : Fin 4096) (i 1))

/-! ## Points-to assertions of the pieces -/

/-- The chunk of slot s in device c's result, at contents f. -/
def slotPts (c : Dev nD) (s : Slot) (q : PosShare TreeShare) (f : Buf (Elt F) ((c : Thread nD τ).loc main_v1)) : sProp 𝕄 :=
  (outSl c s).view.loc (c : Thread nD τ) ↦[(outSl c s).view.set]{q} f
/-- The own block in device c's result. -/
def ownPts (c : Dev nD) (f : Buf (Elt F) ((c : Thread nD τ).loc main_v1)) : sProp 𝕄 :=
  (ownSl c).view.loc (c : Thread nD τ) ↦[(ownSl c).view.set]{fullShare} f
/-- The chunk of device c's INPUT block that fills slot s (s < 10) of its x-neighbour. -/
def inPts (c : Dev nD) (s : Slot) (q : PosShare TreeShare) : sProp 𝕄 :=
  (inSl (xp c) s).view.loc (c : Thread nD τ) ↦[(inSl (xp c) s).view.set]{q} xin m c
/-- The whole input block. -/
def xPts (c : Dev nD) (q : PosShare TreeShare) : sProp 𝕄 :=
  (xM : Memref sig .tc .hbm S4096x1024 .f32).view.loc (c : Thread nD τ) ↦[(xM : Memref sig .tc .hbm S4096x1024 .f32).view.set]{q} xin m c

/-! ## Which own chunk a forward reads, and at which share -/

/-- For s ≥ 10: the own slot whose chunk the transfer into the peer's slot s reads (10 + j and 18 + j read own j;
    26 + i reads own 18 + i; 29 + i reads own 13 + i). -/
def fwdSrc (s : Slot) : Slot :=
  if h : s.val < 18 then ⟨s.val - 10, by omega⟩ else if h2 : s.val < 26 then ⟨s.val - 18, by omega⟩
  else if h3 : s.val < 29 then ⟨s.val - 26 + 18, by omega⟩ else ⟨s.val - 29 + 13, by have := s.isLt; omega⟩
/-- The two forwards of one chunk each read half of it; the second-hop forwards read the whole. -/
def fwdShare (s : Slot) : PosShare TreeShare :=
  if s.val < 18 then fullShare.left else if s.val < 26 then fullShare.right else fullShare

/-- The slots filled from direction d. -/
def slotsOf (d : Fin 3) : Finset Slot := Finset.univ.filter fun s => dir s = d

/-! ## Payloads -/

/-- With its barrier signal the neighbour along d hands device c the chunks of its own result that c fills. -/
def barPay (c : Dev nD) (d : Fin 3) : sProp 𝕄 :=
  bigSep (slotsOf d) fun s => iprop(∃ f, slotPts (F := F) (nb d c) s fullShare f)
def recvPay (c : Dev nD) (s : Slot) : sProp 𝕄 := slotPts c s fullShare (Wout m c)
def sendPay (c : Dev nD) (s : Slot) : sProp 𝕄 :=
  if s.val < 10 then inPts m c s fullShare.right else slotPts c (fwdSrc s) (fwdShare s) (Wout m c)
def locPay (c : Dev nD) : sProp 𝕄 := iprop(ownPts c (Wout m c) ∗ xPts m c fullShare.left)

/-- The slot whose transfer pays send semaphore q (1 ≤ q ≤ 32): the inverse of sendIdx. -/
def slotOfSend (q : ℕ) : Slot :=
  if q < 19 then ⟨(q - 1) % 32, Nat.mod_lt _ (by decide)⟩ else if q < 22 then ⟨(q + 7) % 32, Nat.mod_lt _ (by decide)⟩
  else if q < 30 then ⟨(q - 4) % 32, Nat.mod_lt _ (by decide)⟩ else ⟨(q - 1) % 32, Nat.mod_lt _ (by decide)⟩

theorem slotOfSend_sendIdx (s : Slot) : slotOfSend (sendIdx s) = s := by revert s; decide

/-- The payload of a DMA cell of device c, by the semaphore's index. -/
def dmaPay (c : Dev nD) (q : ℕ) : sProp 𝕄 :=
  if q = 0 then locPay m c else if 33 ≤ q then recvPay m c ⟨(q - 33) % 32, Nat.mod_lt _ (by decide)⟩ else sendPay m c (slotOfSend q)

/-! ## The schedule -/

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => if q.val = 0 then NL else N
  payload g _ d := match g.2 with | .reg _ => barPay g.1.1 d | .dma q => dmaPay m g.1.1 q.val
  amount_pos g _ _ _ := by
    rcases g with ⟨t, sm⟩
    cases sm with
    | reg _ => exact Nat.one_pos
    | dma q =>
      show 0 < (if q.val = 0 then NL else N)
      split
      · exact View.dmaCredit_pos _ (by decide)
      · exact View.dmaCredit_pos _ (by decide)

end Cert.KernelIdeal.AG

end
-- ==== Proof.State.lean ====
/-
  The assertions the per-device body proof moves between, and what each device owes and at which level each
  cell sits. A device's protocol state is a record of finite sets of slots: which receives are still pending,
  which destination chunks on its peers it holds, which transfers it has not issued yet (these are also the
  receive duties it still owes), which sends are in flight, which own chunks it holds at their final contents,
  which source shares have come back, which input chunks it holds, and which of its cells are closed.
-/
import proofs.«900662_g7700000000000663_dist_ag_v7x_xyz2x2x2_x_m4096_n1024_f32_1_alg».proof.Proof.Sched
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, indexed for the launch: 0 the barrier, 1 + q the DMA semaphore q -/

def csem (k : Fin 66) : SemLoc sig := if h : k.val = 0 then .reg barS else .dma ⟨k.val - 1, by have := k.isLt; show k.val - 1 < 65; omega⟩
abbrev kcell (ck : Dev nD × Fin 66) : GSem nD τ sig := ((ck.1 : Thread nD τ), csem ck.2)
/-- The kernel's own (scoped) semaphores, as the launch theorem indexes them: the 65 DMA semaphores. -/
abbrev osem : Fin 65 → SemLoc sig := fun q => .dma q

def kBar : Fin 66 := ⟨0, by decide⟩
def kDma (q : DmaSem sig) : Fin 66 := ⟨q.val + 1, by have : q.val < 65 := q.isLt; omega⟩
theorem csem_kBar : csem kBar = .reg barS := rfl
theorem csem_kDma (q : DmaSem sig) : csem (kDma q) = .dma q := by
  unfold csem kDma; rw [dif_neg (by simp)]; rfl

/-- Every cell's invariant, at the names the launch allocated them, and that every cell has reached round 0. -/
def records (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached ER (kcell ck) 0)

instance records_persistent (K : Dev nD × Fin 66 → ℕ) : BI.Persistent (records m K) := by unfold records; infer_instance

/-! ## What each device owes at launch; the levels -/

/-- The receive duties of the transfers in T that device c has not issued yet. -/
def Otal (c : Dev nD) (T : Finset Slot) : CellTallies nD τ sig Unit := ∑ s ∈ T, tallyAt (recvCell (peer s c) s) () N
/-- The barrier units device c still owes its neighbours along the directions in B. -/
def Obar (c : Dev nD) (B : Finset (Fin 3)) : CellTallies nD τ sig Unit := ∑ d ∈ B, tallyAt (barCell (nb d c)) () 1
def O₀ (c : Dev nD) : CellTallies nD τ sig Unit := Otal c Finset.univ + Obar c Finset.univ

def L (g : GSem nD τ sig) : Finset Unit := if g.1.2 = .tc then {()} else ∅
/-- A slot's receive cell: the first hop at 1, the forwards at 2, the second-hop forwards at 3. -/
def lvSlot (s : Slot) : ℕ := if s.val < 10 then 1 else if s.val < 26 then 2 else 3
/-- The barrier at 0, a receive cell at its slot's level, every other cell at 0. -/
def lv (g : GSem nD τ sig) (_ : Unit) : ℕ :=
  match g.2 with | .reg _ => 0 | .dma q => if 33 ≤ q.val then lvSlot ⟨(q.val - 33) % 32, Nat.mod_lt _ (by decide)⟩ else 0

/-! ## The body's state -/

/-- How much of a held chunk: 0 the whole share, 1 and 2 its two halves. -/
def shareOf (k : Fin 3) : PosShare TreeShare := match k with | 0 => fullShare | 1 => fullShare.left | 2 => fullShare.right
/-- The share a forward reads its source at, as a code. -/
def fwdCode (s : Slot) : Fin 3 := if s.val < 18 then 1 else if s.val < 26 then 2 else 0
theorem fwdShare_eq (s : Slot) : fwdShare s = shareOf (fwdCode s) := by
  unfold fwdShare fwdCode shareOf; split_ifs <;> rfl

/-- The local copy's stage: 0 not issued (half the input, the own block at any contents, the duty's token and the cell's
    position held), 1 in flight (the credit and the position), 2 landed (the own block at its final contents, half the
    input, the cell closed). -/
def locSt (c : Dev nD) (ph : Fin 3) : sProp 𝕄 := match ph with
  | 0 => iprop(xPts m c fullShare.left ∗ (∃ f, ownPts (F := F) c f) ∗ dutyTok ER (locCell c) 0 0 ∗ atPos ER (locCell c) 0 ∅ 0)
  | 1 => iprop(cred (tallyAt (locCell c) () NL) ∗ atPos ER (locCell c) 0 ∅ 0)
  | 2 => iprop(ownPts c (Wout m c) ∗ xPts m c fullShare.left ∗ semVal (locCell c) 0)

structure BSt where
  Sr : Finset Slot
  Sd : Finset Slot
  St : Finset Slot
  Ss : Finset Slot
  Sl : Finset (Slot × Fin 3)
  Sb : Finset Slot
  Sx : Finset Slot
  Sz : Finset (DmaSem sig)
  lc : Fin 3
  deriving DecidableEq

def BodySt (K : Dev nD × Fin 66 → ℕ) (c : Dev nD) (σ : BSt) : sProp 𝕄 :=
  iprop(records m K ∗ levAts L lv
    ∗ (∃ W, owes (c : Thread nD τ) (Otal c σ.St) W)
    ∗ (bigSep σ.Sr fun s => iprop(cred (tallyAt (recvCell c s) () N) ∗ atPos ER (recvCell c s) 0 ∅ 0))
    ∗ (bigSep σ.Sd fun s => iprop(∃ f, slotPts (F := F) (peer s c) s fullShare f))
    ∗ (bigSep σ.St fun s => iprop(dutyTok ER (sendCell c s) 0 0 ∗ dutyTok ER (recvCell (peer s c) s) 0 0 ∗ atPos ER (sendCell c s) 0 ∅ 0))
    ∗ (bigSep σ.Ss fun s => iprop(cred (tallyAt (sendCell c s) () N) ∗ atPos ER (sendCell c s) 0 ∅ 0))
    ∗ (bigSep σ.Sl fun p => slotPts c p.1 (shareOf p.2) (Wout m c))
    ∗ (bigSep σ.Sb fun s => sendPay m c s)
    ∗ (bigSep σ.Sx fun s => inPts m c s fullShare.right)
    ∗ (bigSep σ.Sz fun q => semVal ((c : Thread nD τ), SemLoc.dma q) 0)
    ∗ locSt m c σ.lc)

/-! ## What a device starts from, and ends with -/

/-- The protocol's ghost state of device c at launch: the records; its positions at round 0 of all its cells;
    the tokens of the duties it pays — the local copy's, for each slot its own send duty and its peer's receive
    duty, and its duty on each neighbour's barrier. -/
def ghost (K : Dev nD × Fin 66 → ℕ) (c : Dev nD) : sProp 𝕄 :=
  iprop(records m K
    ∗ atPos ER (barCell c) 0 ∅ 0
    ∗ atPos ER (locCell c) 0 ∅ 0 ∗ dutyTok ER (locCell c) 0 0
    ∗ (bigSep Finset.univ fun s : Slot => atPos ER (recvCell c s) 0 ∅ 0)
    ∗ (bigSep Finset.univ fun s : Slot => iprop(dutyTok ER (sendCell c s) 0 0 ∗ dutyTok ER (recvCell (peer s c) s) 0 0 ∗ atPos ER (sendCell c s) 0 ∅ 0))
    ∗ (bigSep Finset.univ fun d : Fin 3 => dutyTok ER (barCell (nb d c)) 0 d))

/-- With it: the credit for its barrier's three units and for each receive cell's chunk, and the level facts. -/
def start (c : Dev nD) : sProp 𝕄 :=
  iprop((∃ K, ghost m K c) ∗ cred (tallyAt (barCell c) () 3) ∗ (bigSep Finset.univ fun s : Slot => cred (tallyAt (recvCell c s) () N)) ∗ levAts L lv)

/-- Before the body: that, and both arrays whole, the input at its launch contents, the result at any. -/
def Φ₀ (c : Dev nD) : sProp 𝕄 :=
  iprop(start m c ∗ xPts m c fullShare ∗ ∃ f : Buf (Elt F) ((c : Thread nD τ).loc main_v1), (((c : Thread nD τ).loc main_v1) ↦{fullShare} f))

/-- The slots whose chunk is never forwarded: they stay held at the full share. -/
def keptSlots : Finset Slot := Finset.univ.filter fun s => (8 ≤ s.val ∧ s.val < 13) ∨ (16 ≤ s.val ∧ s.val < 18) ∨ (21 ≤ s.val)
/-- The result array covered piece by piece at its final contents (some pieces at a half share), and half of the input. -/
def outFinal (c : Dev nD) : sProp 𝕄 :=
  iprop(ownPts c (Wout m c) ∗ (bigSep keptSlots fun s => slotPts c s fullShare (Wout m c))
    ∗ (bigSep (Finset.univ.filter fun s : Slot => 10 ≤ s.val) fun s => sendPay m c s) ∗ xPts m c fullShare.left)
/-- After the body: that, and every own DMA semaphore back at zero. -/
def Φ₁ (c : Dev nD) : sProp 𝕄 :=
  iprop(outFinal m c ∗ bigSep Finset.univ fun q : DmaSem sig => semVal ((c : Thread nD τ), SemLoc.dma q) 0)

end Cert.KernelIdeal.AG

end
-- ==== Proof.SchedTables.lean ====
/-
  The schedule read cell by cell: duties, amounts, what a round expects, payloads, and the payloads of a whole round.
-/
import proofs.«900662_g7700000000000663_dist_ag_v7x_xyz2x2x2_x_m4096_n1024_f32_1_alg».proof.Proof.State
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A send semaphore's index is never 0 (that index is the local copy's). -/
private theorem sendIdx_ne_zero (s : Slot) : sendIdx s ≠ 0 := by revert s; decide
/-- A send semaphore's index stays below the receive semaphores' range. -/
private theorem sendIdx_not_ge (s : Slot) : ¬ 33 ≤ sendIdx s := by revert s; decide

section Tables
variable (c : Dev nD)

omit [FloatOps F] in
theorem duties_bar : (Rd (F := F) m).duties (barCell c) 0 = Finset.univ := by
  dsimp only [Rd]; exact if_pos ⟨rfl, rfl⟩
omit [FloatOps F] in
theorem duties_dma (q : DmaSem sig) : (Rd (F := F) m).duties ((c : Thread nD τ), .dma q) 0 = {0} := by
  dsimp only [Rd]; exact if_pos ⟨rfl, rfl⟩
omit [FloatOps F] in
theorem duties_later (g : GSem nD τ sig) : ∀ r, 1 ≤ r → (Rd (F := F) m).duties g r = ∅ := by
  intro r hr
  dsimp only [Rd]
  exact if_neg (fun h => by have := h.1; omega)

omit [FloatOps F] in
theorem amount_bar (d : Fin 3) : (Rd (F := F) m).amount (barCell c) 0 d = 1 := rfl
omit [FloatOps F] in
theorem amount_recv (s : Slot) (d : Fin 3) : (Rd (F := F) m).amount (recvCell c s) 0 d = N := by
  show (if (recvSem s).val = 0 then NL else N) = N
  exact if_neg (by show 33 + s.val ≠ 0; omega)
omit [FloatOps F] in
theorem amount_send (s : Slot) (d : Fin 3) : (Rd (F := F) m).amount (sendCell c s) 0 d = N := by
  show (if (sendSem s).val = 0 then NL else N) = N
  exact if_neg (sendIdx_ne_zero s)
omit [FloatOps F] in
theorem amount_loc (d : Fin 3) : (Rd (F := F) m).amount (locCell c) 0 d = NL := by
  show (if (locSem).val = 0 then NL else N) = NL
  exact if_pos rfl

omit [FloatOps F] in
/-- What a round expects is the sum of its duties' amounts. -/
private theorem expect_eq (g : GSem nD τ sig) (r : ℕ) :
    (Rd (F := F) m).expect g r = ∑ d ∈ (Rd (F := F) m).duties g r, (Rd (F := F) m).amount g r d := rfl

omit [FloatOps F] in
theorem expect_bar : (Rd (F := F) m).expect (barCell c) 0 = 3 := by
  rw [expect_eq, duties_bar]
  simp only [amount_bar, Finset.sum_const, Finset.card_univ, Fintype.card_fin, smul_eq_mul]
omit [FloatOps F] in
theorem expect_recv (s : Slot) : (Rd (F := F) m).expect (recvCell c s) 0 = N := by
  rw [expect_eq, duties_dma, Finset.sum_singleton]
  exact amount_recv m c s 0
omit [FloatOps F] in
theorem expect_send (s : Slot) : (Rd (F := F) m).expect (sendCell c s) 0 = N := by
  rw [expect_eq, duties_dma, Finset.sum_singleton]
  exact amount_send m c s 0
omit [FloatOps F] in
theorem expect_loc : (Rd (F := F) m).expect (locCell c) 0 = NL := by
  rw [expect_eq, duties_dma, Finset.sum_singleton]
  exact amount_loc m c 0

omit [FloatOps F] in
theorem payload_bar (d : Fin 3) : (Rd (F := F) m).payload (barCell c) 0 d = barPay c d := rfl
omit [FloatOps F] in
theorem payload_recv (s : Slot) (d : Fin 3) : (Rd (F := F) m).payload (recvCell c s) 0 d = recvPay m c s := by
  show dmaPay m c (33 + s.val) = recvPay m c s
  unfold dmaPay
  rw [if_neg (by omega), if_pos (by omega)]
  congr 1
  apply Fin.ext
  show (33 + s.val - 33) % 32 = s.val
  have := s.isLt
  omega
omit [FloatOps F] in
theorem payload_send (s : Slot) (d : Fin 3) : (Rd (F := F) m).payload (sendCell c s) 0 d = sendPay m c s := by
  show dmaPay m c (sendIdx s) = sendPay m c s
  unfold dmaPay
  rw [if_neg (sendIdx_ne_zero s), if_neg (sendIdx_not_ge s), slotOfSend_sendIdx]
omit [FloatOps F] in
theorem payload_loc (d : Fin 3) : (Rd (F := F) m).payload (locCell c) 0 d = locPay m c := by
  show dmaPay m c 0 = locPay m c
  unfold dmaPay
  rw [if_pos rfl]

omit [FloatOps F] in
/-- The whole barrier round: the three neighbours' hand-overs. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
omit [FloatOps F] in
theorem rest_recv (s : Slot) : bigSep ((Rd (F := F) m).duties (recvCell c s) 0 \ ∅) (fun d => (Rd (F := F) m).payload (recvCell c s) 0 d) = recvPay m c s := by
  rw [Finset.sdiff_empty, duties_dma, bigSep_singleton, payload_recv]
omit [FloatOps F] in
theorem rest_send (s : Slot) : bigSep ((Rd (F := F) m).duties (sendCell c s) 0 \ ∅) (fun d => (Rd (F := F) m).payload (sendCell c s) 0 d) = sendPay m c s := by
  rw [Finset.sdiff_empty, duties_dma, bigSep_singleton, payload_send]
omit [FloatOps F] in
theorem rest_loc : bigSep ((Rd (F := F) m).duties (locCell c) 0 \ ∅) (fun d => (Rd (F := F) m).payload (locCell c) 0 d) = locPay m c := by
  rw [Finset.sdiff_empty, duties_dma, bigSep_singleton, payload_loc]

end Tables

omit [FloatOps F] in
instance slotPts_storable (c : Dev nD) (s : Slot) (q : PosShare TreeShare) (f : Buf (Elt F) ((c : Thread nD τ).loc main_v1)) :
    BI.Storable (upEmb : UEmb _ 𝕄) (slotPts (F := F) c s q f) := by unfold slotPts; infer_instance
omit [FloatOps F] in
instance ownPts_storable (c : Dev nD) (f : Buf (Elt F) ((c : Thread nD τ).loc main_v1)) :
    BI.Storable (upEmb : UEmb _ 𝕄) (ownPts (F := F) c f) := by unfold ownPts; infer_instance
omit [FloatOps F] in
instance inPts_storable (c : Dev nD) (s : Slot) (q : PosShare TreeShare) :
    BI.Storable (upEmb : UEmb _ 𝕄) (inPts (F := F) m c s q) := by unfold inPts; infer_instance
omit [FloatOps F] in
instance xPts_storable (c : Dev nD) (q : PosShare TreeShare) :
    BI.Storable (upEmb : UEmb _ 𝕄) (xPts (F := F) m c q) := by unfold xPts; infer_instance
omit [FloatOps F] in
instance barPay_storable (c : Dev nD) (d : Fin 3) :
    BI.Storable (upEmb : UEmb _ 𝕄) (barPay (F := F) c d) := by unfold barPay; infer_instance
omit [FloatOps F] in
instance recvPay_storable (c : Dev nD) (s : Slot) :
    BI.Storable (upEmb : UEmb _ 𝕄) (recvPay (F := F) m c s) := by unfold recvPay; infer_instance
omit [FloatOps F] in
instance locPay_storable (c : Dev nD) :
    BI.Storable (upEmb : UEmb _ 𝕄) (locPay (F := F) m c) := by unfold locPay; infer_instance
omit [FloatOps F] in
instance sendPay_storable (c : Dev nD) (s : Slot) :
    BI.Storable (upEmb : UEmb _ 𝕄) (sendPay (F := F) m c s) := by unfold sendPay; split <;> infer_instance
omit [FloatOps F] in
instance dmaPay_storable (c : Dev nD) (q : ℕ) :
    BI.Storable (upEmb : UEmb _ 𝕄) (dmaPay (F := F) m c q) := by
  unfold dmaPay
  split
  · infer_instance
  · split <;> infer_instance

instance Rd_payload_storable (g : GSem nD τ sig) (r : ℕ) (d : Fin 3) :
    BI.Storable (upEmb : UEmb _ 𝕄) ((Rd (F := F) m).payload g r d) := by
  rcases g with ⟨t, sm⟩
  cases sm with
  | reg _ =>
    show BI.Storable upEmb (barPay (F := F) t.1 d)
    infer_instance
  | dma q =>
    show BI.Storable upEmb (dmaPay (F := F) m t.1 q.val)
    infer_instance

end Cert.KernelIdeal.AG

end
-- ==== Proof.Levels.lean ====
/-
  The deadlock argument's arithmetic: a wait is allowed while everything still owed sits at a higher level; peeling
  one due off what is owed; and the credit each device's cells are funded with at launch.
-/
import proofs.«900662_g7700000000000663_dist_ag_v7x_xyz2x2x2_x_m4096_n1024_f32_1_alg».proof.Proof.State
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem Otal_empty (c : Dev nD) : Otal c ∅ = 0 := Finset.sum_empty
omit [FloatOps F] in
theorem Otal_erase (c : Dev nD) (T : Finset Slot) (s : Slot) (hs : s ∈ T) :
    Otal c T = Otal c (T.erase s) + tallyAt (recvCell (peer s c) s) () N := by
  unfold Otal; rw [← Finset.sum_erase_add _ _ hs]
omit [FloatOps F] in
theorem Obar_erase (c : Dev nD) (B : Finset (Fin 3)) (d : Fin 3) (hd : d ∈ B) :
    Obar c B = Obar c (B.erase d) + tallyAt (barCell (nb d c)) () 1 := by
  unfold Obar; rw [← Finset.sum_erase_add _ _ hd]
omit [FloatOps F] in
theorem Obar_empty (c : Dev nD) : Obar c ∅ = 0 := Finset.sum_empty

omit [FloatOps F] in
/-- The barrier cell sits at level 0. -/
theorem lv_bar (c : Dev nD) (u : Unit) : lv (barCell c) u = 0 := rfl
omit [FloatOps F] in
/-- A receive cell sits at its slot's level: semaphore 33 + s decodes back to slot s. -/
theorem lv_recv (c : Dev nD) (s : Slot) (u : Unit) : lv (recvCell c s) u = lvSlot s := by
  have hs := s.isLt
  show (if 33 ≤ 33 + s.val then lvSlot ⟨(33 + s.val - 33) % 32, Nat.mod_lt _ (by decide)⟩ else 0) = lvSlot s
  rw [if_pos (by omega)]
  congr 1
  apply Fin.ext
  show (33 + s.val - 33) % 32 = s.val
  omega
omit [FloatOps F] in
/-- Every slot's level is at least 1, above the barrier's. -/
theorem lvSlot_pos (s : Slot) : 0 < lvSlot s := by revert s; decide
omit [FloatOps F] in
/-- Whatever is still owed among the receive duties of T is owed on the receive cell of some slot of T. -/
theorem Otal_pos (c : Dev nD) (T : Finset Slot) (g : GSem nD τ sig) (i : Unit) (h : 0 < (Otal c T) g i) :
    ∃ t ∈ T, g = recvCell (peer t c) t := by
  unfold Otal at h
  obtain ⟨t, ht, hp⟩ := Pipeline.sum_pos_exists h
  exact ⟨t, ht, (Pipeline.tallyAt_pos hp).1⟩

omit [FloatOps F] in
/-- The barrier wait, every receive duty still owed: the barrier is below them all. -/
theorem mayWait_bar (c : Dev nD) :
    (levAts L lv : sProp 𝕄) ⊢ MayWait (c : Thread nD τ) (.reg barS) () (Otal c Finset.univ) := by
  refine Pipeline.mayWait_of_levAts (by rw [L_tc]; exact Finset.mem_singleton_self _) fun g i hg => ?_
  obtain ⟨t, _, rfl⟩ := Otal_pos c _ g i hg
  refine ⟨by rw [L_tc]; exact Finset.mem_singleton_self _, ?_⟩
  show lv (barCell c) () < lv (recvCell (peer t c) t) i
  rw [lv_bar, lv_recv]; exact lvSlot_pos t
omit [FloatOps F] in
/-- A receive wait while the transfers in T are still owed, all at higher levels. -/
theorem mayWait_recv (c : Dev nD) (s : Slot) (T : Finset Slot) (h : ∀ t ∈ T, lvSlot s < lvSlot t) :
    (levAts L lv : sProp 𝕄) ⊢ MayWait (c : Thread nD τ) (.dma (recvSem s)) () (Otal c T) := by
  refine Pipeline.mayWait_of_levAts (by rw [L_tc]; exact Finset.mem_singleton_self _) fun g i hg => ?_
  obtain ⟨t, ht, rfl⟩ := Otal_pos c _ g i hg
  refine ⟨by rw [L_tc]; exact Finset.mem_singleton_self _, ?_⟩
  show lv (recvCell c s) () < lv (recvCell (peer t c) t) i
  rw [lv_recv, lv_recv]; exact h t ht

omit [FloatOps F] in
/-- The launch credit: three units on the own barrier, a chunk's on every receive cell. -/
theorem creds (c : Dev nD) :
    (Pipeline.launchCred O₀ c : sProp 𝕄) ⊢ iprop(cred (tallyAt (barCell c) () 3) ∗ bigSep Finset.univ fun s : Slot => cred (tallyAt (recvCell c s) () N)) := by
  -- what the devices owe, written as a function of the device: the receive duties plus the barrier units
  have hO : (O₀ : Dev nD → CellTallies nD τ sig Unit)
      = fun d => (∑ s : Slot, tallyAt (recvCell (peer s d) s) () N) + (∑ e : Fin 3, tallyAt (barCell (nb e d)) () 1) := rfl
  -- three single units on the barrier cell are its three units
  have h3 : (cred (tallyAt (barCell c) () 3) : sProp 𝕄) = bigSep Finset.univ fun _ : Fin 3 => cred (tallyAt (barCell c) () 1) := by
    rw [← Pipeline.cred_finsetSum, Fin.sum_univ_three, tallyAt_add, tallyAt_add]
  rw [hO, Pipeline.launchCred_add, Pipeline.launchCred_sum, Pipeline.launchCred_sum, h3]
  refine BI.sep_comm.trans (BI.sep_mono ?_ ?_)
  · exact bigSep_mono fun e _ => Pipeline.launchCred_tallyAt (.reg barS) (nb e) (nb e) (nb_nb e) (nb_nb e) () 1 c
  · exact bigSep_mono fun s _ => Pipeline.launchCred_tallyAt (.dma (recvSem s)) (peer s) (peer s) (peer_peer s) (peer_peer s) () N c

end Cert.KernelIdeal.AG

end
-- ==== Proof.Chains.lean ====
/-
  The printed program names a peer by an integer chain over the device's own id, and a chunk by an offset chain.
  Here each is tied to the mesh's neighbours and to the slots' rows: a chain whose closed form is the flip of one
  coordinate is that neighbour; an offset chain is the first row of a slot's chunk, on the sender's side seen from
  the receiver it addresses.
-/
import proofs.«900662_g7700000000000663_dist_ag_v7x_xyz2x2x2_x_m4096_n1024_f32_1_alg».proof.Proof.Base
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem xp_val (c : Dev nD) : (xp c).val = (2 * ((c.val / 2) % 2) + (c.val % 2) + 4) - 4 * (c.val / 4) := by revert c; decide
theorem yp_val (c : Dev nD) : (yp c).val = (4 * (c.val / 4) + (c.val % 2) + 2) - 2 * ((c.val / 2) % 2) := by revert c; decide
theorem zp_val (c : Dev nD) : (zp c).val = (4 * (c.val / 4) + 2 * ((c.val / 2) % 2) + 1) - (c.val % 2) := by revert c; decide

/-- A chain whose closed form flips the x coordinate names the x-neighbour; likewise y and z. -/
theorem dev_x (c : Dev nD) {n : ℕ} (hn : n < nD) (h : n = (2 * ((c.val / 2) % 2) + (c.val % 2) + 4) - 4 * (c.val / 4)) :
    (⟨n, hn⟩ : Dev nD) = xp c := Fin.ext (h.trans (xp_val c).symm)
theorem dev_y (c : Dev nD) {n : ℕ} (hn : n < nD) (h : n = (4 * (c.val / 4) + (c.val % 2) + 2) - 2 * ((c.val / 2) % 2)) :
    (⟨n, hn⟩ : Dev nD) = yp c := Fin.ext (h.trans (yp_val c).symm)
theorem dev_z (c : Dev nD) {n : ℕ} (hn : n < nD) (h : n = (4 * (c.val / 4) + 2 * ((c.val / 2) % 2) + 1) - (c.val % 2)) :
    (⟨n, hn⟩ : Dev nD) = zp c := Fin.ext (h.trans (zp_val c).symm)

theorem xp_eq_peer (c : Dev nD) (s : Slot) (hs : s.val < 10) : xp c = peer s c := by revert c s; decide
theorem peer_x (c : Dev nD) (s : Slot) (hs : s.val < 10) : peer s c = xp c := (xp_eq_peer c s hs).symm
theorem peer_y (c : Dev nD) (s : Slot) (hs : (10 ≤ s.val ∧ s.val < 18) ∨ (26 ≤ s.val ∧ s.val < 29)) : peer s c = yp c := by revert c s; decide
theorem peer_z (c : Dev nD) (s : Slot) (hs : (18 ≤ s.val ∧ s.val < 26) ∨ 29 ≤ s.val) : peer s c = zp c := by revert c s; decide

/-- The slot of chunk r of the opposite quarter: 0..2 arrive from y, 3..5 from z, 6..7 from x. -/
def slot9 (r : Fin 8) : Slot :=
  if h : r.val < 3 then sRmy ⟨r.val, h⟩ else if h2 : r.val < 6 then sRmz ⟨r.val - 3, by omega⟩ else sRmx ⟨r.val - 6, by omega⟩

/-! The sender's offset chains, read at the receiver they address. -/
theorem off1_row (c : Dev nD) (r : Fin 8) : k0_off1 c (BitVec.ofNat 32 (128 * r.val)) = ![rowOf (xp c) (sRx r), 0] :=
  (k0_off1_eq c r).trans (by revert c r; decide)
theorem off2_row (c : Dev nD) (r : Fin 8) : k0_off2 c (BitVec.ofNat 32 (128 * r.val)) = ![srcRowX (xp c) (sRx r), 0] :=
  (k0_off2_eq c r).trans (by revert c r; decide)
theorem off3_row (c : Dev nD) (r : Fin 2) : k0_off3 c (BitVec.ofNat 32 (768 + 128 * r.val)) = ![rowOf (xp c) (sRmx r), 0] :=
  (k0_off3_eq c r).trans (by revert c r; decide)
theorem off4_row (c : Dev nD) (r : Fin 2) : k0_off4 c (BitVec.ofNat 32 (768 + 128 * r.val)) = ![srcRowX (xp c) (sRmx r), 0] :=
  (k0_off4_eq c r).trans (by revert c r; decide)
theorem off5_row (c : Dev nD) : k0_off5 c = ![ownRow c, 0] :=
  (k0_off5_eq c).trans (by revert c; decide)
/-! The receiver's own offset chains. -/
theorem off6_row (c : Dev nD) (r : Fin 8) : k0_off6 c (BitVec.ofNat 32 (128 * r.val)) = ![rowOf c (sRx r), 0] :=
  (k0_off6_eq c r).trans (by revert c r; decide)
theorem off7_row (c : Dev nD) (r : Fin 8) : k0_off7 c (BitVec.ofNat 32 (128 * r.val)) = ![rowOf c (sRz r), 0] :=
  (k0_off7_eq c r).trans (by revert c r; decide)
theorem off8_row (c : Dev nD) (r : Fin 8) : k0_off8 c (BitVec.ofNat 32 (128 * r.val)) = ![rowOf c (sRy r), 0] :=
  (k0_off8_eq c r).trans (by revert c r; decide)
theorem off9_row (c : Dev nD) (r : Fin 8) : k0_off9 c (BitVec.ofNat 32 (128 * r.val)) = ![rowOf c (slot9 r), 0] :=
  (k0_off9_eq c r).trans (by revert c r; decide)

end Cert.KernelIdeal.AG

end
-- ==== Proof.Geom.lean ====
/-
  Which rows each piece covers; the result array cut into the own block and the 32 chunks, the input block cut
  into a half share of the whole and the ten chunks sent on; and what each copy lands: the chunk, or the own
  block, at its final contents.
-/
import proofs.«900662_g7700000000000663_dist_ag_v7x_xyz2x2x2_x_m4096_n1024_f32_1_alg».proof.Proof.State
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows of a piece

A piece is a band of whole rows: membership of an index only asks for its row; the column bound holds of
every index. -/

omit [FloatOps F] in
theorem mem_slotSet (c : Dev nD) (s : Slot) (i : S8192x1024.Idx) :
    i ∈ (outSl c s).view.set ↔ rowOf c s ≤ (i 0).val ∧ (i 0).val < rowOf c s + 128 := by
  have h : (outSl c s).view.set = (slotRect c s).set := View.set_slice_whole _ _
  rw [h, Rect.mem_set_unit, Fin.forall_fin_two]
  constructor
  · intro h; exact h.1
  · intro h; exact ⟨h, Nat.zero_le _, (i 1).isLt⟩
omit [FloatOps F] in
theorem mem_ownSet (c : Dev nD) (i : S8192x1024.Idx) :
    i ∈ (ownSl c).view.set ↔ ownRow c ≤ (i 0).val ∧ (i 0).val < ownRow c + 4096 := by
  have h : (ownSl c).view.set = (ownRect c).set := View.set_slice_whole _ _
  rw [h, Rect.mem_set_unit, Fin.forall_fin_two]
  constructor
  · intro h; exact h.1
  · intro h; exact ⟨h, Nat.zero_le _, (i 1).isLt⟩
omit [FloatOps F] in
theorem mem_inSet (c : Dev nD) (s : Slot) (i : S4096x1024.Idx) :
    i ∈ (inSl c s).view.set ↔ srcRowX c s ≤ (i 0).val ∧ (i 0).val < srcRowX c s + 128 := by
  have h : (inSl c s).view.set = (inRect c s).set := View.set_slice_whole _ _
  rw [h, Rect.mem_set_unit, Fin.forall_fin_two]
  constructor
  · intro h; exact h.1
  · intro h; exact ⟨h, Nat.zero_le _, (i 1).isLt⟩

/-! ## The bands against each other

Facts about first rows only, checked over the eight devices and the slots. -/

/-- Two different chunks of one device's result lie apart. -/
theorem rows_disj (c : Dev nD) (s s' : Slot) (h : s ≠ s') :
    rowOf c s + 128 ≤ rowOf c s' ∨ rowOf c s' + 128 ≤ rowOf c s := by
  revert c s s'; decide
/-- A chunk lies apart from the own block. -/
theorem rows_own_disj (c : Dev nD) (s : Slot) :
    rowOf c s + 128 ≤ ownRow c ∨ ownRow c + 4096 ≤ rowOf c s := by
  revert c s; decide
/-- Each of the 64 bands of 128 rows is inside the own block or is a chunk. -/
theorem rows_cover (c : Dev nD) (k : Fin 64) :
    (ownRow c ≤ 128 * k.val ∧ 128 * k.val + 128 ≤ ownRow c + 4096) ∨ ∃ s : Slot, rowOf c s = 128 * k.val := by
  revert c k; decide
/-- The ten chunks a device sends from its input block lie apart in that block. -/
theorem srcRows_disj (c : Dev nD) (s s' : Slot) (hs : dir s = 0) (hs' : dir s' = 0) (h : s ≠ s') :
    srcRowX c s + 128 ≤ srcRowX c s' ∨ srcRowX c s' + 128 ≤ srcRowX c s := by
  revert c s s'; decide
/-- A chunk that is not kept whole is the one some forward reads. -/
theorem fwd_cover (s : Slot) (h : s ∉ keptSlots) : ∃ t : Slot, 10 ≤ t.val ∧ fwdSrc t = s := by
  revert s; decide

omit [FloatOps F] in
/-- Every index of the result lies in the own block or in a chunk: its row's band of 128 does. -/
theorem row_cover (c : Dev nD) (i : S8192x1024.Idx) :
    i ∈ (ownSl c).view.set ∨ ∃ s : Slot, i ∈ (outSl c s).view.set := by
  have hr : (i 0).val < 8192 := (i 0).isLt
  rcases rows_cover c ⟨(i 0).val / 128, by omega⟩ with h | ⟨s, h⟩
  · left; rw [mem_ownSet]; simp only at h; omega
  · right; refine ⟨s, ?_⟩; rw [mem_slotSet]; simp only at h; omega

/-! ## Cutting the arrays -/

omit [FloatOps F] in
/-- The result array, whole at contents f, is its own block and its 32 chunks. -/
theorem out_split (c : Dev nD) (f : Buf (Elt F) ((c : Thread nD τ).loc main_v1)) :
    ((((c : Thread nD τ).loc main_v1) ↦{fullShare} f) : sProp 𝕄) ⊢ iprop(ownPts c f ∗ bigSep Finset.univ fun s : Slot => slotPts c s fullShare f) := by
  classical
  -- all indices = the own block's ∪ the union of the chunks', the 33 sets pairwise disjoint
  have hcov : (Finset.univ : Finset (Idx ((c : Thread nD τ).loc main_v1)))
      = (ownSl c).view.set ∪ Finset.univ.biUnion (fun s : Slot => (outSl c s).view.set) := by
    ext i
    simp only [Finset.mem_univ, true_iff, Finset.mem_union, Finset.mem_biUnion, true_and]
    exact row_cover c i
  have hd1 : Disjoint (ownSl c).view.set (Finset.univ.biUnion fun s : Slot => (outSl c s).view.set) := by
    rw [Finset.disjoint_biUnion_right]; intro s _; rw [Finset.disjoint_left]; intro i hi hj
    have h1 := (mem_ownSet c i).mp hi; have h2 := (mem_slotSet c s i).mp hj; have h3 := rows_own_disj c s; omega
  have hd2 : ∀ s ∈ (Finset.univ : Finset Slot), ∀ s' ∈ (Finset.univ : Finset Slot), s ≠ s' →
      Disjoint (outSl c s).view.set (outSl c s').view.set := by
    intro s _ s' _ hne; rw [Finset.disjoint_left]; intro i hi hj
    have h1 := (mem_slotSet c s i).mp hi; have h2 := (mem_slotSet c s' i).mp hj; have h3 := rows_disj c s s' hne; omega
  rw [hcov]
  refine (pointsTo_union hd1).1.trans ?_
  rw [pointsTo_biUnion _ _ hd2]
  exact .rfl

omit [FloatOps F] in
/-- The input block: half of it whole, and of the other half the ten chunks sent to the x-neighbour. -/
theorem x_split (c : Dev nD) :
    (xPts m c fullShare : sProp 𝕄) ⊢ iprop(xPts m c fullShare.left ∗ bigSep (slotsOf 0) fun s => inPts m c s fullShare.right) := by
  classical
  unfold xPts inPts
  -- the two half shares; of the right one keep the ten chunks and let the other rows go
  refine (pointsTo_share (PosShare.mem_left_op_right fullShare)).1.trans (sep_mono_r ?_)
  have hsub : (slotsOf 0).biUnion (fun s => (inSl (xp c) s).view.set)
      ⊆ (xM : Memref sig .tc .hbm S4096x1024 .f32).view.set := by
    intro i _
    have hu : (xM : Memref sig .tc .hbm S4096x1024 .f32).view.set = Finset.univ := View.set_whole _
    rw [hu]; exact Finset.mem_univ _
  have hd : ∀ s ∈ slotsOf 0, ∀ s' ∈ slotsOf 0, s ≠ s' →
      Disjoint (inSl (xp c) s).view.set (inSl (xp c) s').view.set := by
    intro s hs s' hs' hne; rw [Finset.disjoint_left]; intro i hi hj
    have h1 := (mem_inSet (xp c) s i).mp hi; have h2 := (mem_inSet (xp c) s' i).mp hj
    have h3 := srcRows_disj (xp c) s s' (Finset.mem_filter.mp hs).2 (Finset.mem_filter.mp hs').2 hne; omega
  refine (pointsTo_split_subset hsub).1.trans ?_
  rw [pointsTo_biUnion _ _ hd]
  iintro ⟨H, -⟩
  iexact H

omit [FloatOps F] in
/-- A chunk held whole is its two half shares. -/
theorem slot_halves (c : Dev nD) (s : Slot) (f : Buf (Elt F) ((c : Thread nD τ).loc main_v1)) :
    (slotPts c s fullShare f : sProp 𝕄) ⊢ iprop(slotPts c s fullShare.left f ∗ slotPts c s fullShare.right f) := by
  unfold slotPts
  exact (pointsTo_share (PosShare.mem_left_op_right fullShare)).1

/-! ## Reading the result at the end -/

omit [FloatOps F] in
/-- Every chunk of the result is among the final pieces, at some share, at its final contents: a kept chunk
    at the full share, any other as the source share some forward gave back. -/
theorem outFinal_slot (c : Dev nD) (s : Slot) : ∃ q, outFinal m c ⊢ (slotPts c s q (Wout m c) : sProp 𝕄) := by
  classical
  by_cases hk : s ∈ keptSlots
  · refine ⟨fullShare, ?_⟩
    unfold outFinal
    have hke : bigSep keptSlots (fun s => slotPts c s fullShare (Wout m c)) ⊢ (slotPts c s fullShare (Wout m c) : sProp 𝕄) :=
      bigSep_elim hk
    iintro ⟨-, Hk, -, -⟩
    iapply hke
    iexact Hk
  · obtain ⟨t, ht, hts⟩ := fwd_cover s hk
    refine ⟨fwdShare t, ?_⟩
    have e : sendPay m c t = slotPts c s (fwdShare t) (Wout m c) := by
      unfold sendPay; rw [if_neg (by omega), hts]
    have hmem : t ∈ (Finset.univ.filter fun s : Slot => 10 ≤ s.val) := Finset.mem_filter.mpr ⟨Finset.mem_univ _, ht⟩
    unfold outFinal
    have hke : bigSep (Finset.univ.filter fun s : Slot => 10 ≤ s.val) (fun s => sendPay m c s) ⊢ (sendPay m c t : sProp 𝕄) :=
      bigSep_elim hmem
    rw [← e]
    iintro ⟨-, -, Hs, -⟩
    iapply hke
    iexact Hs

omit [FloatOps F] in
/-- At the end the pieces cover the result array, and the input is held: memory is pinned at both. -/
theorem final_read (c : Dev nD) (s' : Phys nD τ sig (Elt F)) :
    iprop(outFinal m c ∗ SI s') ⊢ (⌜s'.mem.mem ((c : Thread nD τ).loc main_v1) = Wout m c ∧ s'.mem.mem ((c : Thread nD τ).loc main_arg0) = xin m c⌝ : sProp 𝕄) := by
  classical
  -- each piece, at whatever share, pins memory on its rows
  have hown : iprop(outFinal m c ∗ SI s') ⊢ (⌜∀ i ∈ (ownSl c).view.set, s'.mem.mem ((c : Thread nD τ).loc main_v1) i = Wout m c i⌝ : sProp 𝕄) := by
    unfold outFinal ownPts
    iintro ⟨⟨Hown, -, -, -⟩, HSI⟩
    icombine HSI Hown gives %h
    ipureintro; exact h
  have hslot : ∀ s : Slot, iprop(outFinal m c ∗ SI s') ⊢ (⌜∀ i ∈ (outSl c s).view.set, s'.mem.mem ((c : Thread nD τ).loc main_v1) i = Wout m c i⌝ : sProp 𝕄) := by
    intro s
    obtain ⟨q, hq⟩ := outFinal_slot m c s
    refine (sep_mono_left hq).trans ?_
    unfold slotPts
    iintro ⟨H, HSI⟩
    icombine HSI H gives %h
    ipureintro; exact h
  have hx : iprop(outFinal m c ∗ SI s') ⊢ (⌜∀ i ∈ (xM : Memref sig .tc .hbm S4096x1024 .f32).view.set, s'.mem.mem ((c : Thread nD τ).loc main_arg0) i = xin m c i⌝ : sProp 𝕄) := by
    unfold outFinal xPts
    iintro ⟨⟨-, -, -, Hx⟩, HSI⟩
    icombine HSI Hx gives %h
    ipureintro; exact h
  -- the facts are pure: all of them hold together, and the rows of the pieces are all the rows
  intro a ha
  have h1 := hown a ha
  have h2 := fun s => hslot s a ha
  have h3 := hx a ha
  show _ ∧ _
  refine ⟨?_, ?_⟩
  · funext i
    rcases row_cover c i with h | ⟨s, h⟩
    · exact h1 i h
    · exact h2 s i h
  · funext i
    refine h3 i ?_
    have hu : (xM : Memref sig .tc .hbm S4096x1024 .f32).view.set = Finset.univ := View.set_whole _
    rw [hu]; exact Finset.mem_univ _

end Cert.KernelIdeal.AG

end
-- ==== Proof.Land.lean ====
/-
  What each copy lands. A transfer writes, element by element, what it read; the final contents of a result array
  are defined row by row as some device's input row, and the device a row comes from is the same seen from the
  sender's chunk and from the receiver's: so every landing leaves the chunk, or the own block, at its final contents.
-/
import proofs.«900662_g7700000000000663_dist_ag_v7x_xyz2x2x2_x_m4096_n1024_f32_1_alg».proof.Proof.Geom
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Arithmetic of rows -/

/-- The device a row is attributed to depends on the row only through its chunk of 128 rows. -/
private theorem srcDev_chunk (c : Dev nD) (t k : ℕ) (hk : k < 128) : srcDev c (128 * t + k) = srcDev c (128 * t) := by
  have h1 : (128 * t + k) / 4096 = (128 * t) / 4096 := by omega
  have h2 : (128 * t + k) % 4096 / 1024 = (128 * t) % 4096 / 1024 := by omega
  have h3 : (128 * t + k) % 1024 / 128 = (128 * t) % 1024 / 128 := by omega
  simp only [srcDev, h1, h2, h3]

/-- Every row of a chunk that starts at a multiple of 128 is attributed as the chunk's first row is. -/
private theorem srcDev_of_chunk (c : Dev nD) (R r : ℕ) (hR : R % 128 = 0) (h1 : R ≤ r) (h2 : r < R + 128) : srcDev c r = srcDev c R := by
  obtain ⟨t, rfl⟩ : ∃ t, R = 128 * t := ⟨R / 128, by omega⟩
  obtain ⟨k, rfl⟩ : ∃ k, r = 128 * t + k := ⟨r - 128 * t, by omega⟩
  exact srcDev_chunk c t k (by omega)

/-- Every chunk starts at a multiple of 128; the own block at a multiple of 4096. -/
private theorem rowOf_mod (c : Dev nD) (s : Slot) : rowOf c s % 128 = 0 := by revert c s; decide
private theorem ownRow_mod (c : Dev nD) : ownRow c % 4096 = 0 := by revert c; decide

/-- First hop: the first row of the chunk of slot s on the x-neighbour is attributed to the sender, and is,
    within its block of 4096 rows, the first row of the input chunk the sender reads. -/
private theorem x_first (c : Dev nD) (s : Slot) (hs : s.val < 10) :
    srcDev (xp c) (rowOf (xp c) s) = c ∧ rowOf (xp c) s % 4096 = srcRowX (xp c) s := by revert c s; decide

/-- Forward: the chunk written on the peer covers the rows of the chunk read on the sender, and both devices
    attribute it to the same origin. -/
private theorem fwd_first (c : Dev nD) (s : Slot) (hs : 10 ≤ s.val) :
    rowOf (peer s c) s = rowOf c (fwdSrc s) ∧ srcDev (peer s c) (rowOf (peer s c) s) = srcDev c (rowOf c (fwdSrc s)) := by revert c s; decide

/-- Own block: row k of it is attributed to the device itself and is row k of its input. -/
private theorem loc_row (c : Dev nD) (k : ℕ) (hk : k < 4096) : srcDev c (ownRow c + k) = c ∧ (ownRow c + k) % 4096 = k := by
  have h0 := ownRow_mod c
  have hb : (ownRow c + k) / 4096 = cx c := by unfold ownRow; omega
  refine ⟨?_, by omega⟩
  simp only [srcDev, hb, if_true]

/-! ## Where a slice's index sits in its array -/

private theorem outSl_emb0 (c : Dev nD) (s : Slot) (y : S128x1024.Idx) :
    (((outSl c s).view.emb y : S8192x1024.Idx) 0).val = rowOf c s + (y 0).val := by
  show rowOf c s + 1 * (y 0).val = _; omega
private theorem outSl_emb1 (c : Dev nD) (s : Slot) (y : S128x1024.Idx) :
    (((outSl c s).view.emb y : S8192x1024.Idx) 1).val = (y 1).val := by
  show 0 + 1 * (y 1).val = _; omega
private theorem ownSl_emb0 (c : Dev nD) (y : S4096x1024.Idx) :
    (((ownSl c).view.emb y : S8192x1024.Idx) 0).val = ownRow c + (y 0).val := by
  show ownRow c + 1 * (y 0).val = _; omega
private theorem ownSl_emb1 (c : Dev nD) (y : S4096x1024.Idx) :
    (((ownSl c).view.emb y : S8192x1024.Idx) 1).val = (y 1).val := by
  show 0 + 1 * (y 1).val = _; omega
private theorem inSl_emb0 (c : Dev nD) (s : Slot) (y : S128x1024.Idx) :
    (((inSl c s).view.emb y : S4096x1024.Idx) 0).val = srcRowX c s + (y 0).val := by
  show srcRowX c s + 1 * (y 0).val = _; omega
private theorem inSl_emb1 (c : Dev nD) (s : Slot) (y : S128x1024.Idx) :
    (((inSl c s).view.emb y : S4096x1024.Idx) 1).val = (y 1).val := by
  show 0 + 1 * (y 1).val = _; omega

/-! ## The final contents at an index, by coordinates -/

omit [FloatOps F] in
/-- The final contents at index i are the input of device c' at index j as soon as row i₀ is attributed to c',
    j's row is i₀ % 4096 and the columns agree. -/
private theorem Wout_eq (c c' : Dev nD) (i : S8192x1024.Idx) (j : S4096x1024.Idx) (hd : srcDev c (i 0).val = c')
    (h0 : (j 0).val = (i 0).val % 4096) (h1 : (j 1).val = (i 1).val) : Wout m c i = xin m c' j := by
  have hj : j = ValueIdx.ix2 (⟨(i 0).val % 4096, Nat.mod_lt _ (by decide)⟩ : Fin 4096) (i 1) := by
    funext a
    match a with
    | ⟨0, _⟩ => exact Fin.ext h0
    | ⟨1, _⟩ => exact Fin.ext h1
  subst hd; rw [hj]; rfl

/-! ## The three landings -/

omit [FloatOps F] in
/-- A first-hop transfer lands the chunk at its final contents. -/
theorem land_x (c : Dev nD) (s : Slot) (hs : s.val < 10) (fd : Buf (Elt F) ((outSl (xp c) s).view.loc ((xp c : Dev nD) : Thread nD τ))) :
    (((outSl (xp c) s).view.loc ((xp c : Dev nD) : Thread nD τ) ↦[(outSl (xp c) s).view.set]{fullShare}
        ((outSl (xp c) s).view.write (Elt F) fd ((inSl (xp c) s).view.read (Elt F) (xin m c)) Finset.univ)) : sProp 𝕄)
      ⊢ recvPay m (xp c) s := by
  unfold recvPay slotPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 128 := (y 0).isLt
  have hR := rowOf_mod (xp c) s
  obtain ⟨hd, hr⟩ := x_first c s hs
  refine (Wout_eq m (xp c) c _ ((inSl (xp c) s).view.emb y) ?_ ?_ ?_).symm
  · rw [outSl_emb0, srcDev_of_chunk (xp c) (rowOf (xp c) s) _ hR (by omega) (by omega)]; exact hd
  · rw [outSl_emb0, inSl_emb0, ← hr]; omega
  · rw [outSl_emb1, inSl_emb1]

omit [FloatOps F] in
/-- A forward lands the chunk at its final contents: the sender's chunk already held them. -/
theorem land_fwd (c : Dev nD) (s : Slot) (hs : 10 ≤ s.val) (fd : Buf (Elt F) ((outSl (peer s c) s).view.loc ((peer s c : Dev nD) : Thread nD τ))) :
    (((outSl (peer s c) s).view.loc ((peer s c : Dev nD) : Thread nD τ) ↦[(outSl (peer s c) s).view.set]{fullShare}
        ((outSl (peer s c) s).view.write (Elt F) fd ((outSl c (fwdSrc s)).view.read (Elt F) (Wout m c)) Finset.univ)) : sProp 𝕄)
      ⊢ recvPay m (peer s c) s := by
  unfold recvPay slotPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 128 := (y 0).isLt
  obtain ⟨hrow, hd⟩ := fwd_first c s hs
  have hR := rowOf_mod c (fwdSrc s)
  have hR' := rowOf_mod (peer s c) s
  have e0 := outSl_emb0 c (fwdSrc s) y
  have e0' := outSl_emb0 (peer s c) s y
  refine (Wout_eq m c _ _ (ValueIdx.ix2 (⟨(((outSl c (fwdSrc s)).view.emb y : S8192x1024.Idx) 0).val % 4096, Nat.mod_lt _ (by decide)⟩ : Fin 4096) (((outSl c (fwdSrc s)).view.emb y : S8192x1024.Idx) 1)) rfl rfl rfl).trans
    (Wout_eq m (peer s c) _ _ _ ?_ ?_ ?_).symm
  · rw [e0, e0', srcDev_of_chunk (peer s c) (rowOf (peer s c) s) _ hR' (by omega) (by omega),
      srcDev_of_chunk c (rowOf c (fwdSrc s)) _ hR (by omega) (by omega)]; exact hd
  · show (((outSl c (fwdSrc s)).view.emb y : S8192x1024.Idx) 0).val % 4096 = _
    rw [e0, e0', hrow]
  · show (((outSl c (fwdSrc s)).view.emb y : S8192x1024.Idx) 1).val = _
    rw [outSl_emb1, outSl_emb1]

omit [FloatOps F] in
/-- The local copy lands the own block at its final contents. -/
theorem land_loc (c : Dev nD) (fd : Buf (Elt F) ((ownSl c).view.loc (c : Thread nD τ))) :
    (((ownSl c).view.loc (c : Thread nD τ) ↦[(ownSl c).view.set]{fullShare}
        ((ownSl c).view.write (Elt F) fd ((xM : Memref sig .tc .hbm S4096x1024 .f32).view.read (Elt F) (xin m c)) Finset.univ)) : sProp 𝕄)
      ⊢ ownPts c (Wout m c) := by
  unfold ownPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 4096 := (y 0).isLt
  refine (Wout_eq m c c _ y ?_ ?_ ?_).symm
  · rw [ownSl_emb0]; exact (loc_row c _ hk).1
  · rw [ownSl_emb0]; exact (loc_row c _ hk).2.symm
  · exact (ownSl_emb1 c y).symm

end Cert.KernelIdeal.AG

end
-- ==== Proof.Steps.lean ====
/-
  The rules one device's body is stepped with. A device's protocol state is the assertion BodySt over a record of
  finite sets of slots; each rule fires one operation of the program and moves one slot from one set to another:
  a receive wait takes the slot out of the pending receives and hands back its chunk at the final contents;
  a transfer takes the slot out of the dues and the held destinations and puts it among the sends in flight;
  a send wait takes it out of those and hands back the share of the source that was read.
-/
import proofs.«900662_g7700000000000663_dist_ag_v7x_xyz2x2x2_x_m4096_n1024_f32_1_alg».proof.Proof.State
import proofs.«900662_g7700000000000663_dist_ag_v7x_xyz2x2x2_x_m4096_n1024_f32_1_alg».proof.Proof.SchedTables
import proofs.«900662_g7700000000000663_dist_ag_v7x_xyz2x2x2_x_m4096_n1024_f32_1_alg».proof.Proof.Levels
import proofs.«900662_g7700000000000663_dist_ag_v7x_xyz2x2x2_x_m4096_n1024_f32_1_alg».proof.Proof.Chains
import proofs.«900662_g7700000000000663_dist_ag_v7x_xyz2x2x2_x_m4096_n1024_f32_1_alg».proof.Proof.Geom
import proofs.«900662_g7700000000000663_dist_ag_v7x_xyz2x2x2_x_m4096_n1024_f32_1_alg».proof.Proof.Land
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the records -/

omit [FloatOps F] in
theorem inv_at (K : Dev nD × Fin 66 → ℕ) (ck : Dev nD × Fin 66) :
    (bigSep Finset.univ fun ck : Dev nD × Fin 66 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 66) :
    (bigSep Finset.univ fun ck : Dev nD × Fin 66 => (reached ER (kcell ck) 0 : sProp 𝕄)) ⊢ reached ER (kcell ck) 0 :=
  bigSep_elim (Finset.mem_univ ck)
omit [FloatOps F] in
theorem inv_cell (K : Dev nD × Fin 66 → ℕ) (ck : Dev nD × Fin 66) : (records m K : sProp 𝕄) ⊢ cellInv ER (Rd m) (K ck) (kcell ck) := by
  unfold records; iintro ⟨HI, -⟩; iapply (inv_at m K ck); iexact HI
omit [FloatOps F] in
theorem reached_cell (K : Dev nD × Fin 66 → ℕ) (ck : Dev nD × Fin 66) : (records m K : sProp 𝕄) ⊢ reached ER (kcell ck) 0 := by
  unfold records; iintro ⟨-, HR⟩; iapply (reached_at (F := F) ck); iexact HR

omit [FloatOps F] in
/-- A big separation with one index taken out, and with one put in, in the form the proof mode opens. -/
theorem bigSep_take {I : Type} [DecidableEq I] {s : Finset I} {i : I} (hi : i ∈ s) (Φ : I → sProp 𝕄) :
    bigSep s Φ = iprop(Φ i ∗ bigSep (s.erase i) Φ) := bigSep_erase hi
omit [FloatOps F] in
theorem bigSep_put {I : Type} [DecidableEq I] {s : Finset I} {i : I} (hi : i ∉ s) (Φ : I → sProp 𝕄) :
    bigSep (insert i s) Φ = iprop(Φ i ∗ bigSep s Φ) := bigSep_insert hi

omit [FloatOps F] in
/-- The units of a transfer depend on the view's buffer, shape and element type only. -/
theorem dmaCredit_congr {sp : Space} {s : Shape} {e : EltTy} (v v' : View sig .tc sp s e) (h : v.buf = v'.buf) : v.dmaCredit = v'.dmaCredit := by
  unfold View.dmaCredit; rw [h]
omit [FloatOps F] in
theorem credit_own (c : Dev nD) : (ownSl c).view.dmaCredit = NL := dmaCredit_congr _ _ rfl
omit [FloatOps F] in
theorem credit_out (c : Dev nD) (s : Slot) : (outSl c s).view.dmaCredit = N := dmaCredit_congr _ _ rfl

omit [FloatOps F] in
/-- A forward writes, on the peer, the rows it reads on the sender: the two chunks are one memref. -/
theorem rowOf_fwd (c : Dev nD) (s : Slot) (hs : 10 ≤ s.val) : rowOf (peer s c) s = rowOf c (fwdSrc s) := by revert c s; decide
omit [FloatOps F] in
theorem outSl_fwd (c : Dev nD) (s : Slot) (hs : 10 ≤ s.val) : outSl (peer s c) s = outSl c (fwdSrc s) :=
  slice_unit_congr oM (by rw [rowOf_fwd c s hs]) _ _ _ _ _

omit [FloatOps F] in
theorem kcell_dma (c : Dev nD) (q : DmaSem sig) : kcell (c, kDma q) = ((c : Thread nD τ), SemLoc.dma q) := by
  show ((c : Thread nD τ), csem (kDma q)) = _; rw [csem_kDma]

omit [FloatOps F] in
theorem inv_dma (K : Dev nD × Fin 66 → ℕ) (c : Dev nD) (q : DmaSem sig) :
    (records m K : sProp 𝕄) ⊢ cellInv ER (Rd m) (K (c, kDma q)) ((c : Thread nD τ), SemLoc.dma q) := by
  have h := inv_cell m K (c, kDma q); rw [kcell_dma] at h; exact h
omit [FloatOps F] in
theorem reached_dma (K : Dev nD × Fin 66 → ℕ) (c : Dev nD) (q : DmaSem sig) :
    (records m K : sProp 𝕄) ⊢ reached ER ((c : Thread nD τ), SemLoc.dma q) 0 := by
  have h := reached_cell m K (c, kDma q); rw [kcell_dma] at h; exact h
omit [FloatOps F] in
theorem inv_bar (K : Dev nD × Fin 66 → ℕ) (c : Dev nD) : (records m K : sProp 𝕄) ⊢ cellInv ER (Rd m) (K (c, kBar)) (barCell c) :=
  inv_cell m K (c, kBar)
omit [FloatOps F] in
theorem reached_bar (K : Dev nD × Fin 66 → ℕ) (c : Dev nD) : (records m K : sProp 𝕄) ⊢ reached ER (barCell c) 0 :=
  reached_cell m K (c, kBar)

/-! ## A receive wait -/

/-- Waiting for slot s's chunk while the transfers still owed all sit at higher levels: the receive cell's round ends,
    the cell closes at zero, and the chunk is held, whole, at its final contents. -/
theorem step_waitRecv (K : Dev nD × Fin 66 → ℕ) (c : Dev nD) (s : Slot) (σ : BSt) (hs : s ∈ σ.Sr)
    (hlv : ∀ t ∈ σ.St, lvSlot s < lvSlot t) (hnz : recvSem s ∉ σ.Sz) (hnl : (s, (0 : Fin 3)) ∉ σ.Sl)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = recvSem s) (hN : dst.view.dmaCredit = N)
    {α : Type} {Q : α → sProp 𝕄} {k : PUnit → Prog (TpuEff nD τ sig (Elt F) Λ₀ .tc) α} :
    (BodySt m K c σ : sProp 𝕄)
      ⊢ iprop((BodySt m K c { σ with Sr := σ.Sr.erase s, Sz := insert (recvSem s) σ.Sz, Sl := insert (s, 0) σ.Sl }
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [bigSep_take hs, bigSep_put hnz, bigSep_put hnl]
  iintro ⟨#Hrec, #Hlev, ⟨%W, HO⟩, ⟨⟨Hc, Hat⟩, Hr⟩, Hd, Ht, Hss, Hl, Hb, Hx, Hz, Hlc⟩ Hk
  iapply (Rounds.wp_wait_rest_token 𝒱₀ ER (Rd m) (c : Thread nD τ) none (κ := K (c, kDma (recvSem s)))
      (wpE_waitDma2_eq 𝒱₀ (c : Thread nD τ) none Set.univ) (Set.mem_univ _) () (O := Otal c σ.St) (W := W) (R := 0) (m := 0) (T := ∅)
      (by rw [Nat.zero_add, expect_recv, hN])) $$ [Hc HO Hat]
  · isplitr; · iapply (inv_dma m K c (recvSem s)); iexact Hrec
    isplitl [Hc]; · rw [hN]; iexact Hc
    isplitl [HO]; · iexact HO
    isplitr; · iapply (mayWait_recv c s σ.St hlv); iexact Hlev
    iexact Hat
  iintro ⟨HO, Hat, -, Hpay⟩
  ihave Hp := (Entails.of_eq (rest_recv m c s)) $$ Hpay
  imod (Rounds.cell_close ER (Rd m) (Set.mem_univ (K (c, kDma (recvSem s)))) (fun h => h) (R := 0 + 1) (duties_later m (recvCell c s))) $$ [Hat] with Hzero
  · isplitr; · iapply (inv_dma m K c (recvSem s)); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl Hp]
  · isplitl [Hp]
    · unfold recvPay shareOf; iexact Hp
    · iexact Hl
  isplitl [Hb]
  · iexact Hb
  isplitl [Hx]
  · iexact Hx
  isplitl [Hz Hzero]
  · isplitl [Hzero] <;> iassumption
  iexact Hlc

/-! ## Halving a held chunk -/

/-- A chunk held whole is held as its two halves: what the two forwards of one chunk each read. -/
theorem step_halve (K : Dev nD × Fin 66 → ℕ) (c : Dev nD) (s : Slot) (σ : BSt) (hs : (s, (0 : Fin 3)) ∈ σ.Sl)
    (h1 : (s, (1 : Fin 3)) ∉ σ.Sl) (h2 : (s, (2 : Fin 3)) ∉ σ.Sl) :
    (BodySt m K c σ : sProp 𝕄) ⊢ BodySt m K c { σ with Sl := insert (s, 1) (insert (s, 2) (σ.Sl.erase (s, 0))) } := by
  have e1 : (s, (1 : Fin 3)) ∉ insert (s, (2 : Fin 3)) (σ.Sl.erase (s, 0)) := by
    rw [Finset.mem_insert, Finset.mem_erase]
    exact fun h => h.elim (fun h => absurd (congrArg Prod.snd h) (show ((1 : Fin 3)) ≠ 2 from by decide)) (fun h => h1 h.2)
  have e2 : (s, (2 : Fin 3)) ∉ σ.Sl.erase (s, 0) := by rw [Finset.mem_erase]; exact fun h => h2 h.2
  unfold BodySt
  dsimp only
  rw [bigSep_take hs, bigSep_put e1, bigSep_put e2]
  iintro ⟨#Hrec, #Hlev, ⟨%W, HO⟩, Hr, Hd, Ht, Hss, ⟨Hw, Hl⟩, Hb, Hx, Hz, Hlc⟩
  ihave Hh := (slot_halves c s (Wout m c)) $$ [Hw]
  · unfold shareOf; iexact Hw
  icases Hh with ⟨HL, HR⟩
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl HL HR]
  · isplitl [HL]
    · unfold shareOf; iexact HL
    isplitl [HR]
    · unfold shareOf; iexact HR
    · iexact Hl
  isplitl [Hb]
  · iexact Hb
  isplitl [Hx]
  · iexact Hx
  isplitl [Hz]
  · iexact Hz
  iexact Hlc

/-! ## A transfer -/

/-- Issuing the transfer into slot s of the peer from a source held at share q and contents fs: the peer's
    destination chunk and both duty tokens go in; the send credit comes back; what lands on the peer is the chunk
    at its final contents (hpay₂), what the send cell returns is the source share (hpay₁). -/
theorem step_send (K : Dev nD × Fin 66 → ℕ) (c : Dev nD) (s : Slot) (σ : BSt) (hd : s ∈ σ.Sd) (ht : s ∈ σ.St) (hns : s ∉ σ.Ss)
    {c' : Dev nD} (hc' : c' = peer s c)
    {src : Memref sig .tc .hbm S128x1024 .f32} {dst : Memref sig .tc .hbm S128x1024 .f32} (hdst : dst = outSl (peer s c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    (q : PosShare TreeShare) (fs : Buf (Elt F) (src.view.loc (c : Thread nD τ)))
    (hpay₁ : ((src.view.loc (c : Thread nD τ) ↦[src.view.set]{q} fs) : sProp 𝕄) ⊢ sendPay m c s)
    (hpay₂ : ∀ fd : Buf (Elt F) ((outSl (peer s c) s).view.loc ((peer s c : Dev nD) : Thread nD τ)),
      (((outSl (peer s c) s).view.loc ((peer s c : Dev nD) : Thread nD τ) ↦[(outSl (peer s c) s).view.set]{fullShare}
        ((outSl (peer s c) s).view.write (Elt F) fd (src.view.read (Elt F) fs) Finset.univ)) : sProp 𝕄) ⊢ recvPay m (peer s c) s)
    {α : Type} {Q : α → sProp 𝕄} {k : PUnit → Prog (TpuEff nD τ sig (Elt F) Λ₀ .tc) α} :
    iprop(BodySt m K c σ ∗ (src.view.loc (c : Thread nD τ) ↦[src.view.set]{q} fs))
      ⊢ iprop((BodySt m K c { σ with Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hc' hdst hsS hsR
  unfold BodySt slotPts
  dsimp only
  rw [bigSep_take hd, bigSep_take ht, bigSep_put hns]
  iintro ⟨⟨#Hrec, #Hlev, ⟨%W, HO⟩, Hr, ⟨⟨%fd, Hdst⟩, Hd⟩, ⟨⟨HtS, HtR, HatS⟩, Ht⟩, Hss, Hl, Hb, Hx, Hz, Hlc⟩, Hsrc⟩ Hk
  iapply (Rounds.wp_send_pointsTo 𝒱₀ ER (Rd m) (c : Thread nD τ) none (c' := ((peer s c : Dev nD) : Thread nD τ)) (src := src) (dst := outSl (peer s c) s)
      (sS := SemLoc.dma (sendSem s)) (sem := SemLoc.dma (recvSem s)) (κ₁ := K (c, kDma (sendSem s))) (κ₂ := K (peer s c, kDma (recvSem s)))
      (r₁ := 0) (r₂ := 0) (d₁ := 0) (d₂ := 0) (fd := fd) (q := q) (fs := fs)
      (by rw [duties_dma]; exact Finset.mem_singleton_self _) (by rw [duties_dma]; exact Finset.mem_singleton_self _)
      () () N (credit_out (peer s c) s) (amount_send m c s 0) (amount_recv m (peer s c) s 0) (Otal c (σ.St.erase s)) (Otal_erase c σ.St s ht) (W := W)
      (by rw [payload_send]; exact hpay₁)
      (by rw [payload_recv]; exact hpay₂ fd)) $$ [Hsrc Hdst HO HtS HtR]
  · isplitr; · iapply (inv_dma m K c (sendSem s)); iexact Hrec
    isplitr; · iapply (inv_dma m K (peer s c) (recvSem s)); iexact Hrec
    isplitl [Hsrc]; · iexact Hsrc
    isplitl [Hdst]; · iexact Hdst
    isplitl [HO]; · iexact HO
    isplitl [HtS]; · iexact HtS
    isplitr; · iapply (reached_dma m K c (sendSem s)); iexact Hrec
    isplitl [HtR]; · iexact HtR
    iapply (reached_dma m K (peer s c) (recvSem s)); iexact Hrec
  iintro ⟨HcS, HO⟩
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss HcS HatS]
  · isplitl [HcS HatS]
    · isplitl [HcS] <;> iassumption
    · iexact Hss
  isplitl [Hl]
  · iexact Hl
  isplitl [Hb]
  · iexact Hb
  isplitl [Hx]
  · iexact Hx
  isplitl [Hz]
  · iexact Hz
  iexact Hlc

/-- Taking one input chunk out of the state. -/
theorem take_in (K : Dev nD × Fin 66 → ℕ) (c : Dev nD) (s : Slot) (σ : BSt) (hx : s ∈ σ.Sx) :
    (BodySt m K c σ : sProp 𝕄) ⊢ iprop(BodySt m K c { σ with Sx := σ.Sx.erase s } ∗ inPts m c s fullShare.right) := by
  unfold BodySt
  dsimp only
  rw [bigSep_take hx]
  iintro ⟨#Hrec, #Hlev, ⟨%W, HO⟩, Hr, Hd, Ht, Hss, Hl, Hb, ⟨Hin, Hx⟩, Hz, Hlc⟩
  isplitr [Hin]
  ·
    isplitr; · iexact Hrec
    isplitr; · iexact Hlev
    isplitl [HO]
    · iexists _; iexact HO
    isplitl [Hr]
    · iexact Hr
    isplitl [Hd]
    · iexact Hd
    isplitl [Ht]
    · iexact Ht
    isplitl [Hss]
    · iexact Hss
    isplitl [Hl]
    · iexact Hl
    isplitl [Hb]
    · iexact Hb
    isplitl [Hx]
    · iexact Hx
    isplitl [Hz]
    · iexact Hz
    iexact Hlc

  · iexact Hin

/-- Taking one held piece out of the state. -/
theorem take_piece (K : Dev nD × Fin 66 → ℕ) (c : Dev nD) (p : Slot × Fin 3) (σ : BSt) (hl : p ∈ σ.Sl) :
    (BodySt m K c σ : sProp 𝕄) ⊢ iprop(BodySt m K c { σ with Sl := σ.Sl.erase p } ∗ slotPts c p.1 (shareOf p.2) (Wout m c)) := by
  unfold BodySt
  dsimp only
  rw [bigSep_take hl]
  iintro ⟨#Hrec, #Hlev, ⟨%W, HO⟩, Hr, Hd, Ht, Hss, ⟨Hsrc, Hl⟩, Hb, Hx, Hz, Hlc⟩
  isplitr [Hsrc]
  ·
    isplitr; · iexact Hrec
    isplitr; · iexact Hlev
    isplitl [HO]
    · iexists _; iexact HO
    isplitl [Hr]
    · iexact Hr
    isplitl [Hd]
    · iexact Hd
    isplitl [Ht]
    · iexact Ht
    isplitl [Hss]
    · iexact Hss
    isplitl [Hl]
    · iexact Hl
    isplitl [Hb]
    · iexact Hb
    isplitl [Hx]
    · iexact Hx
    isplitl [Hz]
    · iexact Hz
    iexact Hlc

  · iexact Hsrc

/-- A first-hop transfer: the source is the chunk of the input block held among the input chunks. -/
theorem step_sendX (K : Dev nD × Fin 66 → ℕ) (c : Dev nD) (s : Slot) (hs : s.val < 10) (σ : BSt) (hx : s ∈ σ.Sx) (hd : s ∈ σ.Sd) (ht : s ∈ σ.St) (hns : s ∉ σ.Ss)
    {c' : Dev nD} (hc' : c' = xp c)
    {src : Memref sig .tc .hbm S128x1024 .f32} (hsrc : src = inSl (xp c) s) {dst : Memref sig .tc .hbm S128x1024 .f32} (hdst : dst = outSl (xp c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    {α : Type} {Q : α → sProp 𝕄} {k : PUnit → Prog (TpuEff nD τ sig (Elt F) Λ₀ .tc) α} :
    (BodySt m K c σ : sProp 𝕄)
      ⊢ iprop((BodySt m K c { σ with Sx := σ.Sx.erase s, Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hsrc
  have hp : peer s c = xp c := peer_x c s hs
  iintro H Hk
  ihave H2 := (take_in m K c s σ hx) $$ H
  icases H2 with ⟨H, Hin⟩
  iapply (step_send m K c s { σ with Sx := σ.Sx.erase s } hd ht hns (hc'.trans hp.symm) (hdst.trans (by rw [hp])) hsS hsR fullShare.right (xin m c)
      (by unfold sendPay; rw [if_pos hs]; unfold inPts; exact BI.Entails.refl _)
      (by intro fd; rw [hp]; exact land_x m c s hs _)) $$ [H Hin]
  · isplitl [H]; · iexact H
    unfold inPts; iexact Hin
  iexact Hk

/-- A forward: the source is an own chunk, held at the share the forward reads. -/
theorem step_fwd (K : Dev nD × Fin 66 → ℕ) (c : Dev nD) (s : Slot) (hs : 10 ≤ s.val) (σ : BSt) (hl : (fwdSrc s, fwdCode s) ∈ σ.Sl) (hd : s ∈ σ.Sd) (ht : s ∈ σ.St) (hns : s ∉ σ.Ss)
    {c' : Dev nD} (hc' : c' = peer s c)
    {src : Memref sig .tc .hbm S128x1024 .f32} (hsrc : src = outSl c (fwdSrc s)) {dst : Memref sig .tc .hbm S128x1024 .f32} (hdst : dst = outSl (peer s c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    {α : Type} {Q : α → sProp 𝕄} {k : PUnit → Prog (TpuEff nD τ sig (Elt F) Λ₀ .tc) α} :
    (BodySt m K c σ : sProp 𝕄)
      ⊢ iprop((BodySt m K c { σ with Sl := σ.Sl.erase (fwdSrc s, fwdCode s), Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hsrc
  iintro H Hk
  ihave H2 := (take_piece m K c (fwdSrc s, fwdCode s) σ hl) $$ H
  icases H2 with ⟨H, Hsrc⟩
  iapply (step_send m K c s { σ with Sl := σ.Sl.erase (fwdSrc s, fwdCode s) } hd ht hns hc' hdst hsS hsR (fwdShare s) (Wout m c)
      (by unfold sendPay; rw [if_neg (by omega)]; unfold slotPts; exact BI.Entails.refl _)
      (by intro fd; exact land_fwd m c s hs _)) $$ [H Hsrc]
  · isplitl [H]; · iexact H
    rw [fwdShare_eq]; unfold slotPts; iexact Hsrc
  iexact Hk

/-! ## A send wait -/

/-- Waiting for the transfer into the peer's slot s to have left, nothing owed any more: the send cell's round
    ends, the cell closes at zero, and the source share comes back. -/
theorem step_waitSend (K : Dev nD × Fin 66 → ℕ) (c : Dev nD) (s : Slot) (σ : BSt) (hs : s ∈ σ.Ss) (h0 : σ.St = ∅)
    (hnb : s ∉ σ.Sb) (hnz : sendSem s ∉ σ.Sz)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = sendSem s) (hN : dst.view.dmaCredit = N)
    {α : Type} {Q : α → sProp 𝕄} {k : PUnit → Prog (TpuEff nD τ sig (Elt F) Λ₀ .tc) α} :
    (BodySt m K c σ : sProp 𝕄)
      ⊢ iprop((BodySt m K c { σ with Ss := σ.Ss.erase s, Sb := insert s σ.Sb, Sz := insert (sendSem s) σ.Sz }
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [bigSep_take hs, bigSep_put hnb, bigSep_put hnz, h0, Otal_empty]
  iintro ⟨#Hrec, #Hlev, ⟨%W, HO⟩, Hr, Hd, Ht, ⟨⟨Hc, Hat⟩, Hss⟩, Hl, Hb, Hx, Hz, Hlc⟩ Hk
  iapply (Rounds.wp_wait_rest_token 𝒱₀ ER (Rd m) (c : Thread nD τ) none (κ := K (c, kDma (sendSem s)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_dma m K c (sendSem s)); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c s)) $$ Hpay
  imod (Rounds.cell_close ER (Rd m) (Set.mem_univ (K (c, kDma (sendSem s)))) (fun h => h) (R := 0 + 1) (duties_later m (sendCell c s))) $$ [Hat] with Hzero
  · isplitr; · iapply (inv_dma m K c (sendSem s)); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb Hp]
  · isplitl [Hp] <;> iassumption
  isplitl [Hx]
  · iexact Hx
  isplitl [Hz Hzero]
  · isplitl [Hzero] <;> iassumption
  iexact Hlc

/-! ## The local copy -/

omit [FloatOps F] in
theorem locSt_zero (c : Dev nD) : locSt m c 0
    = iprop(xPts m c fullShare.left ∗ (∃ f, ownPts (F := F) c f) ∗ dutyTok ER (locCell c) 0 0 ∗ atPos ER (locCell c) 0 ∅ 0) := rfl
omit [FloatOps F] in
theorem locSt_one (c : Dev nD) : locSt m c 1 = iprop(cred (tallyAt (locCell c) () NL) ∗ atPos ER (locCell c) 0 ∅ 0) := rfl
omit [FloatOps F] in
theorem locSt_two (c : Dev nD) : locSt m c 2 = iprop(ownPts c (Wout m c) ∗ xPts m c fullShare.left ∗ semVal (locCell c) 0) := rfl

/-- Issuing the local copy of the input block onto the own block: half the input and the own block go in, the
    credit comes back. -/
theorem step_local (K : Dev nD × Fin 66 → ℕ) (c : Dev nD) (σ : BSt) (h : σ.lc = 0)
    {dst : Memref sig .tc .hbm S4096x1024 .f32} (hdst : dst = ownSl c) {sem : DmaSem sig} (hsem : sem = locSem)
    {hsrcW : (xM : Memref sig .tc .hbm S4096x1024 .f32).view.WordExact} {hdstW : dst.view.WordExact}
    {hsemT : DmaTarget.Typed (nD := nD) .hbm (.dma sem) (.here dst : DmaTarget nD τ sig .tc .hbm S4096x1024 .f32)}
    {α : Type} {Q : α → sProp 𝕄} {k : PUnit → Prog (TpuEff nD τ sig (Elt F) Λ₀ .tc) α} :
    (BodySt m K c σ : sProp 𝕄)
      ⊢ iprop((BodySt m K c { σ with lc := 1 } -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xM : Memref sig .tc .hbm S4096x1024 .f32) (.here dst) (.dma sem) hsrcW hdstW hsemT) k) Q) := by
  subst hdst hsem
  unfold BodySt
  dsimp only
  rw [h, locSt_zero, locSt_one]
  unfold xPts ownPts
  iintro ⟨#Hrec, #Hlev, ⟨%W, HO⟩, Hr, Hd, Ht, Hss, Hl, Hb, Hx, Hz, ⟨Hxl, ⟨%f, Hown⟩, Htok, Hat⟩⟩ Hk
  iapply (Rounds.wp_copy_pointsTo 𝒱₀ ER (Rd m) (c : Thread nD τ) none (src := (xM : Memref sig .tc .hbm S4096x1024 .f32)) (dst := ownSl c) (sem := SemLoc.dma locSem)
      (κ := K (c, kDma locSem)) (r := 0) (d := 0) (q := fullShare.left) (fs := xin m c) (fd := f)
      (by rw [duties_dma]; exact Finset.mem_singleton_self _) () NL (credit_own c) (amount_loc m c 0)
      (by rw [payload_loc]; unfold locPay xPts; exact sep_mono_left (land_loc m c f))) $$ [Hxl Hown Htok]
  · isplitr; · iapply (inv_dma m K c locSem); iexact Hrec
    isplitl [Hxl]; · iexact Hxl
    isplitl [Hown]; · iexact Hown
    isplitl [Htok]; · iexact Htok
    iapply (reached_dma m K c locSem); iexact Hrec
  iintro Hc
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb]
  · iexact Hb
  isplitl [Hx]
  · iexact Hx
  isplitl [Hz]
  · iexact Hz
  isplitl [Hc] <;> iassumption

/-- Waiting for the local copy, nothing owed any more: the own block is held at its final contents, half the input
    is back, the cell closes at zero. -/
theorem step_waitLocal (K : Dev nD × Fin 66 → ℕ) (c : Dev nD) (σ : BSt) (h : σ.lc = 1) (h0 : σ.St = ∅)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = locSem) (hN : dst.view.dmaCredit = NL)
    {α : Type} {Q : α → sProp 𝕄} {k : PUnit → Prog (TpuEff nD τ sig (Elt F) Λ₀ .tc) α} :
    (BodySt m K c σ : sProp 𝕄)
      ⊢ iprop((BodySt m K c { σ with lc := 2 } -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [h, locSt_one, locSt_two, h0, Otal_empty]
  iintro ⟨#Hrec, #Hlev, ⟨%W, HO⟩, Hr, Hd, Ht, Hss, Hl, Hb, Hx, Hz, ⟨Hc, Hat⟩⟩ Hk
  iapply (Rounds.wp_wait_rest_token 𝒱₀ ER (Rd m) (c : Thread nD τ) none (κ := K (c, kDma locSem))
      (wpE_waitDma2_eq 𝒱₀ (c : Thread nD τ) none Set.univ) (Set.mem_univ _) () (O := 0) (W := W) (R := 0) (m := 0) (T := ∅)
      (by rw [Nat.zero_add, expect_loc, hN])) $$ [Hc HO Hat]
  · isplitr; · iapply (inv_dma m K c locSem); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq ((rest_loc m c).trans (show locPay m c = iprop(ownPts c (Wout m c) ∗ xPts m c fullShare.left) from rfl))) $$ Hpay
  icases Hp with ⟨Hown, Hxl⟩
  imod (Rounds.cell_close ER (Rd m) (Set.mem_univ (K (c, kDma locSem))) (fun h => h) (R := 0 + 1) (duties_later m (locCell c))) $$ [Hat] with Hzero
  · isplitr; · iapply (inv_dma m K c locSem); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb]
  · iexact Hb
  isplitl [Hx]
  · iexact Hx
  isplitl [Hz]
  · iexact Hz
  isplitl [Hown]; · iexact Hown
  isplitl [Hxl] <;> iassumption

end Cert.KernelIdeal.AG

end
-- ==== Proof.Time.lean ====
/-
  The body's program order, as arithmetic. The body fires 102 operations: 0..2 the three barrier signals, 3 the barrier
  wait, 4..13 the ten first-hop transfers, 14 the local copy, then for each chunk j of the own quarter its receive wait
  and its two forwards (15 + 3j ..), the three second-hop forwards along y and along z each after its receive wait
  (39..50), the eighteen remaining receive waits (51..68), the 32 send waits (69..100) and the local copy's wait (101).
  For each slot: when its transfer is issued, when its chunk is waited for, when its send is waited for; and from
  those the protocol state BEFORE operation t.
-/
import proofs.«900662_g7700000000000663_dist_ag_v7x_xyz2x2x2_x_m4096_n1024_f32_1_alg».proof.Proof.State
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The step at which the transfer into the peer's slot s is issued. -/
def tS (s : Slot) : ℕ :=
  if s.val < 10 then 4 + s.val else if s.val < 18 then 16 + 3 * (s.val - 10) else if s.val < 26 then 17 + 3 * (s.val - 18)
  else if s.val < 29 then 40 + 2 * (s.val - 26) else 46 + 2 * (s.val - 29)

/-- The step at which slot s's chunk is waited for. -/
def tR (s : Slot) : ℕ :=
  if s.val < 8 then 15 + 3 * s.val                                   -- own quarter, chunk by chunk
  else if s.val < 10 then 67 + (s.val - 8)                            -- the two chunks straight from x
  else if s.val < 13 then 51 + (s.val - 10)                           -- y's quarter, chunks 0..2
  else if s.val < 16 then 45 + 2 * (s.val - 13)                       -- chunks 3..5, forwarded on along z
  else if s.val = 16 then 58 else if s.val = 17 then 60               -- chunks 6, 7
  else if s.val < 21 then 39 + 2 * (s.val - 18)                       -- z's quarter, chunks 0..2, forwarded on along y
  else if s.val < 25 then 54 + (s.val - 21)                           -- chunks 3..6
  else if s.val = 25 then 59                                          -- chunk 7
  else if s.val < 29 then 61 + (s.val - 26) else 64 + (s.val - 29)    -- the opposite quarter through y, through z

/-- The step at which the send into the peer's slot s is waited for. -/
def tW (s : Slot) : ℕ :=
  if s.val < 10 then 69 + s.val else if s.val < 18 then 79 + 2 * (s.val - 10) else if s.val < 26 then 80 + 2 * (s.val - 18)
  else if s.val < 29 then 95 + (s.val - 26) else 98 + (s.val - 29)

/-- Until which step a held piece (slot, share code) stays held: a forwarded piece until its forward is issued, a kept
    one for good. A chunk of the own quarter is held as its two halves, every other chunk whole. -/
def tUse (p : Slot × Fin 3) : ℕ :=
  if p.1.val < 8 then (if p.2 = 1 then 16 + 3 * p.1.val else if p.2 = 2 then 17 + 3 * p.1.val else 0)
  else if p.2 ≠ 0 then 0
  else if 18 ≤ p.1.val ∧ p.1.val < 21 then 40 + 2 * (p.1.val - 18)
  else if 13 ≤ p.1.val ∧ p.1.val < 16 then 46 + 2 * (p.1.val - 13)
  else 1000

/-- The protocol state before operation t (4 ≤ t ≤ 102), a chunk of the own quarter counted as halved as soon as received. -/
def σAt (t : ℕ) : BSt where
  Sr := Finset.univ.filter fun s => t ≤ tR s
  Sd := Finset.univ.filter fun s => t ≤ tS s
  St := Finset.univ.filter fun s => t ≤ tS s
  Ss := Finset.univ.filter fun s => tS s < t ∧ t ≤ tW s
  Sl := Finset.univ.filter fun p => tR p.1 < t ∧ t ≤ tUse p
  Sb := Finset.univ.filter fun s => tW s < t
  Sx := Finset.univ.filter fun s => s.val < 10 ∧ t ≤ tS s
  Sz := Finset.univ.filter fun q : DmaSem sig => ∃ s : Slot, (q = recvSem s ∧ tR s < t) ∨ (q = sendSem s ∧ tW s < t)
  lc := if t ≤ 14 then 0 else if t ≤ 101 then 1 else 2

omit [FloatOps F] in
/-- Two equal states are one assertion. -/
theorem BodySt_of_eq (K : Dev nD × Fin 66 → ℕ) (c : Dev nD) {σ σ' : BSt} (h : σ = σ') : (BodySt m K c σ : sProp 𝕄) ⊢ BodySt m K c σ' := by
  subst h; exact BI.Entails.refl _

omit [FloatOps F] in
/-- Two states with the same nine components are one state. -/
theorem BSt_eq {σ σ' : BSt} (h1 : σ.Sr = σ'.Sr) (h2 : σ.Sd = σ'.Sd) (h3 : σ.St = σ'.St) (h4 : σ.Ss = σ'.Ss) (h5 : σ.Sl = σ'.Sl)
    (h6 : σ.Sb = σ'.Sb) (h7 : σ.Sx = σ'.Sx) (h8 : σ.Sz = σ'.Sz) (h9 : σ.lc = σ'.lc) : σ = σ' := by
  cases σ; cases σ'; simp only at h1 h2 h3 h4 h5 h6 h7 h8 h9; subst_vars; rfl

/-- Equality of two concrete states, component by component. -/
macro "bst" : tactic => `(tactic| (refine BSt_eq ?_ ?_ ?_ ?_ ?_ ?_ ?_ ?_ ?_ <;> decide))

end Cert.KernelIdeal.AG

end
-- ==== Proof.Views.lean ====
/-
  The printed program names every chunk by a slice of an array at one of its nine offset chains. Here each such slice
  is identified with the chunk of a slot: on the sender's side with the peer's slot it fills, on the receiver's side
  with the own slot; and the units a wait on such a slice takes are a chunk's.
-/
import proofs.«900662_g7700000000000663_dist_ag_v7x_xyz2x2x2_x_m4096_n1024_f32_1_alg».proof.Proof.Steps
import proofs.«900662_g7700000000000663_dist_ag_v7x_xyz2x2x2_x_m4096_n1024_f32_1_alg».proof.Proof.Time
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Slices
variable (c : Dev nD)

omit [FloatOps F] in
theorem sl1 (j : Fin 8) (inb) (hs) :
    (oM : Memref sig .tc .hbm S8192x1024 .f32).slice (Rect.unit (s := S8192x1024) (k0_off1 c (BitVec.ofNat 32 (128 * j.val))) S128x1024.size inb) hs = outSl (xp c) (sRx j) :=
  slice_unit_congr oM (off1_row c j) _ _ _ _ _
omit [FloatOps F] in
theorem sl2 (j : Fin 8) (inb) (hs) :
    (xM : Memref sig .tc .hbm S4096x1024 .f32).slice (Rect.unit (s := S4096x1024) (k0_off2 c (BitVec.ofNat 32 (128 * j.val))) S128x1024.size inb) hs = inSl (xp c) (sRx j) :=
  slice_unit_congr xM (off2_row c j) _ _ _ _ _
omit [FloatOps F] in
theorem sl3 (i : Fin 2) (inb) (hs) :
    (oM : Memref sig .tc .hbm S8192x1024 .f32).slice (Rect.unit (s := S8192x1024) (k0_off3 c (BitVec.ofNat 32 (768 + 128 * i.val))) S128x1024.size inb) hs = outSl (xp c) (sRmx i) :=
  slice_unit_congr oM (off3_row c i) _ _ _ _ _
omit [FloatOps F] in
theorem sl4 (i : Fin 2) (inb) (hs) :
    (xM : Memref sig .tc .hbm S4096x1024 .f32).slice (Rect.unit (s := S4096x1024) (k0_off4 c (BitVec.ofNat 32 (768 + 128 * i.val))) S128x1024.size inb) hs = inSl (xp c) (sRmx i) :=
  slice_unit_congr xM (off4_row c i) _ _ _ _ _
omit [FloatOps F] in
theorem sl5 (inb) (hs) :
    (oM : Memref sig .tc .hbm S8192x1024 .f32).slice (Rect.unit (s := S8192x1024) (k0_off5 c) S4096x1024.size inb) hs = ownSl c :=
  slice_unit_congr oM (off5_row c) _ _ _ _ _
omit [FloatOps F] in
theorem sl6 (j : Fin 8) (inb) (hs) :
    (oM : Memref sig .tc .hbm S8192x1024 .f32).slice (Rect.unit (s := S8192x1024) (k0_off6 c (BitVec.ofNat 32 (128 * j.val))) S128x1024.size inb) hs = outSl c (sRx j) :=
  slice_unit_congr oM (off6_row c j) _ _ _ _ _
omit [FloatOps F] in
theorem sl7 (j : Fin 8) (inb) (hs) :
    (oM : Memref sig .tc .hbm S8192x1024 .f32).slice (Rect.unit (s := S8192x1024) (k0_off7 c (BitVec.ofNat 32 (128 * j.val))) S128x1024.size inb) hs = outSl c (sRz j) :=
  slice_unit_congr oM (off7_row c j) _ _ _ _ _
omit [FloatOps F] in
theorem sl8 (j : Fin 8) (inb) (hs) :
    (oM : Memref sig .tc .hbm S8192x1024 .f32).slice (Rect.unit (s := S8192x1024) (k0_off8 c (BitVec.ofNat 32 (128 * j.val))) S128x1024.size inb) hs = outSl c (sRy j) :=
  slice_unit_congr oM (off8_row c j) _ _ _ _ _

end Slices

omit [FloatOps F] in
/-- A wait on any chunk-shaped slice of either array takes a chunk's units; on the own block's slice, the block's. -/
theorem credit_chunk {sp : Space} (v : View sig .tc sp S128x1024 .f32) : v.dmaCredit = N := rfl
omit [FloatOps F] in
theorem credit_block (v : View sig .tc .hbm S4096x1024 .f32) (h : v.buf = (ownSl (0 : Dev nD)).view.buf) : v.dmaCredit = NL :=
  dmaCredit_congr _ _ h

end Cert.KernelIdeal.AG

end
-- ==== Proof.Enter.lean ====
/-
  Entering the protocol. A device cuts its result array into the own block and its 32 chunks and hands, with its signal
  to the neighbour along each axis, the chunks that neighbour will fill; it cuts its input block into the half the local
  copy reads and the ten chunks it sends on. After the barrier wait it holds, from its three neighbours, the chunks of
  THEIR result arrays that it fills: the protocol state before the first transfer.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots by direction -/

omit [FloatOps F] in
theorem univ_dirs : (Finset.univ : Finset Slot) = slotsOf 0 ∪ (slotsOf 1 ∪ slotsOf 2) := by decide
omit [FloatOps F] in
theorem disj_0 : Disjoint (slotsOf 0) (slotsOf 1 ∪ slotsOf 2) := by decide
omit [FloatOps F] in
theorem disj_12 : Disjoint (slotsOf 1) (slotsOf 2) := by decide

omit [FloatOps F] in
theorem bigSep_dirs (Φ : Slot → sProp 𝕄) :
    bigSep Finset.univ Φ = iprop(bigSep (slotsOf 0) Φ ∗ bigSep (slotsOf 1) Φ ∗ bigSep (slotsOf 2) Φ) := by
  rw [univ_dirs, bigSep_union disj_0, bigSep_union disj_12]; rfl

omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ

omit [FloatOps F] in
theorem give_one (c : Dev nD) (s : Slot) (f : Buf (Elt F) ((c : Thread nD τ).loc main_v1)) :
    (slotPts c s fullShare f : sProp 𝕄) ⊢ iprop(∃ f, slotPts (F := F) c s fullShare f) := by
  iintro H; iexists f; iexact H

omit [FloatOps F] in
/-- The own chunks of direction d, at any contents, are what the signal to the neighbour along d hands over. -/
theorem give_dir (c : Dev nD) (d : Fin 3) (f : Buf (Elt F) ((c : Thread nD τ).loc main_v1)) :
    (bigSep (slotsOf d) fun s => slotPts c s fullShare f : sProp 𝕄) ⊢ barPay (F := F) (nb d c) d := by
  unfold barPay
  rw [nb_nb]
  exact bigSep_mono fun s _ => give_one c s f

omit [FloatOps F] in
/-- What the three neighbours hand over: for every slot, the chunk of the peer's result array that this device fills. -/
theorem take_dirs (c : Dev nD) :
    iprop(barPay (F := F) c 0 ∗ barPay (F := F) c 1 ∗ barPay (F := F) c 2)
      ⊢ (bigSep Finset.univ fun s : Slot => iprop(∃ f, slotPts (F := F) (peer s c) s fullShare f) : sProp 𝕄) := by
  rw [bigSep_dirs]
  have h (d : Fin 3) : (barPay (F := F) c d : sProp 𝕄) ⊢ bigSep (slotsOf d) fun s : Slot => iprop(∃ f, slotPts (F := F) (peer s c) s fullShare f) := by
    unfold barPay
    refine Entails.of_eq (bigSep_congr fun s hs => ?_)
    have hd : dir s = d := (Finset.mem_filter.mp hs).2
    unfold peer; rw [hd]
  exact BIClass.sep_mono (h 0) (BIClass.sep_mono (h 1) (h 2))

omit [FloatOps F] in
theorem Obar_step0 (c : Dev nD) : O₀ c = (Otal c Finset.univ + Obar c (Finset.univ.erase 0)) + tallyAt (barCell (nb 0 c)) () 1 := by
  unfold O₀; rw [Obar_erase c Finset.univ 0 (Finset.mem_univ _), add_assoc]
omit [FloatOps F] in
theorem Obar_step1 (c : Dev nD) : Otal c Finset.univ + Obar c (Finset.univ.erase 0)
    = (Otal c Finset.univ + Obar c ((Finset.univ.erase 0).erase 1)) + tallyAt (barCell (nb 1 c)) () 1 := by
  rw [Obar_erase c (Finset.univ.erase 0) 1 (by decide), add_assoc]
omit [FloatOps F] in
theorem Obar_step2 (c : Dev nD) : Otal c Finset.univ + Obar c ((Finset.univ.erase 0).erase 1)
    = Otal c Finset.univ + tallyAt (barCell (nb 2 c)) () 1 := by
  rw [Obar_erase c ((Finset.univ.erase 0).erase 1) 2 (by decide), show (((Finset.univ : Finset (Fin 3)).erase 0).erase 1).erase 2 = ∅ from by decide, Obar_empty, zero_add]

/-! ## The assertion the body starts from -/

/-- Before the body: the start assertion with both arrays whole, and all the launch dues owed. -/
def Enter (c : Dev nD) : sProp 𝕄 := iprop(Φ₀ m c ∗ ∃ W, owes (c : Thread nD τ) (O₀ c) W)

variable (c : Dev nD)

set_option maxRecDepth 65536 in
set_option maxHeartbeats 1600000 in
/-- Part 2 (operations 0 to 4): the three barrier signals, each with its hand-over; the barrier wait; the first transfer. -/
theorem part2 (v2 v5 v8 v9 v10 v11 v13 v24 : BitVec 32) (Kt : PUnit → sProp 𝕄) :
    iprop(Enter m c ∗ (∀ K, BodySt m K c (σAt 5) -∗ Kt ⟨⟩))
      ⊢ wp frame (wpE (defs₀ (F := F)) 𝒱₀ (c : Thread nD τ) none) Set.univ (k0_part2 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v24 (SemArray.scalar (sig.barrier 0 rfl))) Kt := by
  simp only [k0_part2_eq_skeleton]; unfold k0_part2_skel
  simp only [semSignalWord, semWaitWord, Prog.lift, Prog.bind_op, Prog.bind_ret, Prog.pure_eq_ret]
  have e1 : (⟨k0_dev1 c, k0_dev1_lt c⟩ : Dev nD) = nb 0 c := dev_x c _ (k0_dev1_eq c)
  have e2 : (⟨k0_dev2 c, k0_dev2_lt c⟩ : Dev nD) = nb 1 c := dev_y c _ (k0_dev2_eq c)
  have e3 : (⟨k0_dev3 c, k0_dev3_lt c⟩ : Dev nD) = nb 2 c := dev_z c _ (k0_dev3_eq c)
  simp only [e1, e2, e3]
  unfold Enter Φ₀ start ghost
  rw [bigSep_fin3' (fun d : Fin 3 => dutyTok ER (barCell (nb d c)) 0 d)]
  iintro ⟨⟨⟨⟨⟨%K, #Hrec, HatB, HatL, HtokL, HatR, Htoks, Ht0, Ht1, Ht2⟩, HcB, HcR, #Hlev⟩, Hx, ⟨%f, Hout⟩⟩, ⟨%W, HO⟩⟩, Hk⟩
  ihave Hx2 := (x_split m c) $$ Hx
  icases Hx2 with ⟨Hxl, Hxs⟩
  ihave Ho2 := (out_split c f) $$ Hout
  icases Ho2 with ⟨Hown, Hsl⟩
  ihave Hsd := (Entails.of_eq (bigSep_dirs (fun s => slotPts c s fullShare f))) $$ Hsl
  icases Hsd with ⟨Hs0, Hs1, Hs2⟩
  rw [Obar_step0 c]
  -- the signal along x
  iapply (Rounds.wp_signal 𝒱₀ ER (Rd m) (c : Thread nD τ) none (dst := ((nb 0 c : Dev nD) : Thread nD τ)) (κ := K (nb 0 c, kBar))
      (d := 0) (by rw [duties_bar]; exact Finset.mem_univ _) ((amount_bar m (nb 0 c) 0).trans (by decide)) () (Otal c Finset.univ + Obar c (Finset.univ.erase 0)) rfl)
    $$ [HO Ht0 Hs0]
  · isplitr; · iapply (inv_bar m K (nb 0 c)); iexact Hrec
    isplitl [HO]; · iexact HO
    isplitl [Ht0]; · iexact Ht0
    isplitl [Hs0]; · rw [payload_bar]; iapply (give_dir c 0 f); iexact Hs0
    iapply (reached_bar m K (nb 0 c)); iexact Hrec
  iintro HO
  rw [Obar_step1 c]
  -- the signal along y
  iapply (Rounds.wp_signal 𝒱₀ ER (Rd m) (c : Thread nD τ) none (dst := ((nb 1 c : Dev nD) : Thread nD τ)) (κ := K (nb 1 c, kBar))
      (d := 1) (by rw [duties_bar]; exact Finset.mem_univ _) ((amount_bar m (nb 1 c) 1).trans (by decide)) () (Otal c Finset.univ + Obar c ((Finset.univ.erase 0).erase 1)) rfl)
    $$ [HO Ht1 Hs1]
  · isplitr; · iapply (inv_bar m K (nb 1 c)); iexact Hrec
    isplitl [HO]; · iexact HO
    isplitl [Ht1]; · iexact Ht1
    isplitl [Hs1]; · rw [payload_bar]; iapply (give_dir c 1 f); iexact Hs1
    iapply (reached_bar m K (nb 1 c)); iexact Hrec
  iintro HO
  rw [Obar_step2 c]
  -- the signal along z
  iapply (Rounds.wp_signal 𝒱₀ ER (Rd m) (c : Thread nD τ) none (dst := ((nb 2 c : Dev nD) : Thread nD τ)) (κ := K (nb 2 c, kBar))
      (d := 2) (by rw [duties_bar]; exact Finset.mem_univ _) ((amount_bar m (nb 2 c) 2).trans (by decide)) () (Otal c Finset.univ) rfl)
    $$ [HO Ht2 Hs2]
  · isplitr; · iapply (inv_bar m K (nb 2 c)); iexact Hrec
    isplitl [HO]; · iexact HO
    isplitl [Ht2]; · iexact Ht2
    isplitl [Hs2]; · rw [payload_bar]; iapply (give_dir c 2 f); iexact Hs2
    iapply (reached_bar m K (nb 2 c)); iexact Hrec
  iintro HO
  -- the barrier wait: three units, every receive duty still owed
  iapply (Rounds.wp_wait_rest_token 𝒱₀ ER (Rd m) (c : Thread nD τ) none (κ := K (c, kBar))
      (wpE_semWait_eq 𝒱₀ (c : Thread nD τ) none Set.univ) (Set.mem_univ _) () (O := Otal c Finset.univ) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, -, -, Hpay⟩
  ihave Hp := (Entails.of_eq (rest_bar m c)) $$ Hpay
  ihave Hd := (take_dirs c) $$ Hp
  -- the protocol state before the first transfer
  ihave Hr := (Entails.of_eq (bigSep_sep' Finset.univ (fun s : Slot => (cred (tallyAt (recvCell c s) () N) : sProp 𝕄)) (fun s => atPos ER (recvCell c s) 0 ∅ 0)).symm) $$ [HcR HatR]
  · isplitl [HcR] <;> iassumption
  ihave H : BodySt m K c (σAt 4) $$ [HO Hr Hd Htoks Hxs Hxl Hown HtokL HatL]
  · unfold BodySt
    rw [show (σAt 4).Sr = Finset.univ from by decide, show (σAt 4).Sd = Finset.univ from by decide, show (σAt 4).St = Finset.univ from by decide,
      show (σAt 4).Ss = ∅ from by decide, show (σAt 4).Sl = ∅ from by decide, show (σAt 4).Sb = ∅ from by decide,
      show (σAt 4).Sx = slotsOf 0 from by decide, show (σAt 4).Sz = ∅ from by decide, show (σAt 4).lc = 0 from by decide, locSt_zero]
    isplitr; · iexact Hrec
    isplitr; · iexact Hlev
    isplitl [HO]; · iexists _; iexact HO
    isplitl [Hr]; · iexact Hr
    isplitl [Hd]; · iexact Hd
    isplitl [Htoks]; · iexact Htoks
    isplitr; · rw [bigSep_empty]; iempintro
    isplitr; · rw [bigSep_empty]; iempintro
    isplitr; · rw [bigSep_empty]; iempintro
    isplitl [Hxs]; · iexact Hxs
    isplitr; · rw [bigSep_empty]; iempintro
    isplitl [Hxl]; · iexact Hxl
    isplitl [Hown]; · iexists f; iexact Hown
    isplitl [HtokL] <;> iassumption
  -- the first transfer: chunk 0 of the own quarter's counterpart goes to the x-neighbour
  iapply (step_sendX m K c (sRx 0) (by decide) (σAt 4) (by decide) (by decide) (by decide) (by decide)
      (dev_x c _ (k0_dev4_eq c)) (sl2 c 0 _ _) (sl1 c 0 _ _) rfl rfl) $$ H
  iintro H
  ihave H := (BodySt_of_eq m K c (σ' := σAt 5) (by bst)) $$ H
  rw [wp_ret]; imodintro
  iapply Hk; iexact H

end Cert.KernelIdeal.AG

end
-- ==== Proof.PartsA.lean ====
/-
  Parts 3 to 6 of the body: the nine remaining first-hop transfers, each a chunk of the input block sent to the
  x-neighbour, and the local copy of the input block onto the own block.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 3 (operations 5 and 6): chunks 1 and 2 of the x-neighbour's quarter are sent to it. -/
theorem part3 (v5 v8 v9 v13 v24 : BitVec 32) (Kt : BitVec 32 → sProp 𝕄) :
    iprop(BodySt m K c (σAt 5) ∗ (∀ r, BodySt m K c (σAt 7) -∗ Kt r))
      ⊢ wp frame (wpE (defs₀ (F := F)) 𝒱₀ (c : Thread nD τ) none) Set.univ (k0_part3 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v24) Kt := by
  simp only [k0_part3_eq_skeleton]; unfold k0_part3_skel
  simp only [Prog.lift, Prog.bind_op, Prog.bind_ret, Prog.pure_eq_ret]
  iintro ⟨H, Hk⟩
  -- chunk 1 of the x-neighbour's quarter goes into its slot 1
  iapply (step_sendX m K c (sRx 1) (by decide) (σAt 5) (by decide) (by decide) (by decide) (by decide)
      (dev_x c _ (k0_dev5_eq c)) (sl2 c 1 _ _) (sl1 c 1 _ _) rfl rfl) $$ H
  iintro H
  ihave H := (BodySt_of_eq m K c (σ' := σAt 6) (by bst)) $$ H
  -- chunk 2 of the x-neighbour's quarter goes into its slot 2
  iapply (step_sendX m K c (sRx 2) (by decide) (σAt 6) (by decide) (by decide) (by decide) (by decide)
      (dev_x c _ (k0_dev6_eq c)) (sl2 c 2 _ _) (sl1 c 2 _ _) rfl rfl) $$ H
  iintro H
  ihave H := (BodySt_of_eq m K c (σ' := σAt 7) (by bst)) $$ H
  rw [wp_ret]; imodintro
  iapply Hk; iexact H

set_option maxRecDepth 65536 in
/-- Part 4 (operations 7 and 8): chunks 3 and 4 of the x-neighbour's quarter are sent to it. -/
theorem part4 (v5 v8 v9 v13 v24 v97 : BitVec 32) (Kt : PUnit → sProp 𝕄) :
    iprop(BodySt m K c (σAt 7) ∗ (∀ r, BodySt m K c (σAt 9) -∗ Kt r))
      ⊢ wp frame (wpE (defs₀ (F := F)) 𝒱₀ (c : Thread nD τ) none) Set.univ (k0_part4 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v24 v97) Kt := by
  simp only [k0_part4_eq_skeleton]; unfold k0_part4_skel
  simp only [Prog.lift, Prog.bind_op, Prog.bind_ret, Prog.pure_eq_ret]
  iintro ⟨H, Hk⟩
  -- chunk 3 of the x-neighbour's quarter goes into its slot 3
  iapply (step_sendX m K c (sRx 3) (by decide) (σAt 7) (by decide) (by decide) (by decide) (by decide)
      (dev_x c _ (k0_dev7_eq c)) (sl2 c 3 _ _) (sl1 c 3 _ _) rfl rfl) $$ H
  iintro H
  ihave H := (BodySt_of_eq m K c (σ' := σAt 8) (by bst)) $$ H
  -- chunk 4 of the x-neighbour's quarter goes into its slot 4
  iapply (step_sendX m K c (sRx 4) (by decide) (σAt 8) (by decide) (by decide) (by decide) (by decide)
      (dev_x c _ (k0_dev8_eq c)) (sl2 c 4 _ _) (sl1 c 4 _ _) rfl rfl) $$ H
  iintro H
  ihave H := (BodySt_of_eq m K c (σ' := σAt 9) (by bst)) $$ H
  rw [wp_ret]; imodintro
  iapply Hk; iexact H

set_option maxRecDepth 65536 in
/-- Part 5 (operations 9 to 11): chunks 5, 6 and 7 of the x-neighbour's quarter are sent to it. -/
theorem part5 (v5 v8 v9 v13 v23 v24 : BitVec 32) (Kt : BitVec 32 → sProp 𝕄) :
    iprop(BodySt m K c (σAt 9) ∗ (∀ r, BodySt m K c (σAt 12) -∗ Kt r))
      ⊢ wp frame (wpE (defs₀ (F := F)) 𝒱₀ (c : Thread nD τ) none) Set.univ (k0_part5 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v23 v24) Kt := by
  simp only [k0_part5_eq_skeleton]; unfold k0_part5_skel
  simp only [Prog.lift, Prog.bind_op, Prog.bind_ret, Prog.pure_eq_ret]
  iintro ⟨H, Hk⟩
  -- chunk 5 of the x-neighbour's quarter goes into its slot 5
  iapply (step_sendX m K c (sRx 5) (by decide) (σAt 9) (by decide) (by decide) (by decide) (by decide)
      (dev_x c _ (k0_dev9_eq c)) (sl2 c 5 _ _) (sl1 c 5 _ _) rfl rfl) $$ H
  iintro H
  ihave H := (BodySt_of_eq m K c (σ' := σAt 10) (by bst)) $$ H
  -- chunk 6 of the x-neighbour's quarter goes into its slot 6
  iapply (step_sendX m K c (sRx 6) (by decide) (σAt 10) (by decide) (by decide) (by decide) (by decide)
      (dev_x c _ (k0_dev10_eq c)) (sl2 c 6 _ _) (sl1 c 6 _ _) rfl rfl) $$ H
  iintro H
  ihave H := (BodySt_of_eq m K c (σ' := σAt 11) (by bst)) $$ H
  -- chunk 7 of the x-neighbour's quarter goes into its slot 7
  iapply (step_sendX m K c (sRx 7) (by decide) (σAt 11) (by decide) (by decide) (by decide) (by decide)
      (dev_x c _ (k0_dev11_eq c)) (sl2 c 7 _ _) (sl1 c 7 _ _) rfl rfl) $$ H
  iintro H
  ihave H := (BodySt_of_eq m K c (σ' := σAt 12) (by bst)) $$ H
  rw [wp_ret]; imodintro
  iapply Hk; iexact H

set_option maxRecDepth 65536 in
/-- Part 6 (operations 12 to 14): chunks 6 and 7 of the opposite quarter are sent to the x-neighbour, and the input block
    is copied onto the own block. -/
theorem part6 (v5 v8 v9 v13 v23 v24 v26 v167 : BitVec 32) (Kt : BitVec 32 → sProp 𝕄) :
    iprop(BodySt m K c (σAt 12) ∗ (∀ r, BodySt m K c (σAt 15) -∗ Kt r))
      ⊢ wp frame (wpE (defs₀ (F := F)) 𝒱₀ (c : Thread nD τ) none) Set.univ (k0_part6 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v23 v24 v26 v167) Kt := by
  simp only [k0_part6_eq_skeleton]; unfold k0_part6_skel
  simp only [Prog.lift, Prog.bind_op, Prog.bind_ret, Prog.pure_eq_ret]
  iintro ⟨H, Hk⟩
  -- chunk 6 of the opposite quarter goes into the x-neighbour's slot 8
  iapply (step_sendX m K c (sRmx 0) (by decide) (σAt 12) (by decide) (by decide) (by decide) (by decide)
      (dev_x c _ (k0_dev12_eq c)) (sl4 c 0 _ _) (sl3 c 0 _ _) rfl rfl) $$ H
  iintro H
  ihave H := (BodySt_of_eq m K c (σ' := σAt 13) (by bst)) $$ H
  -- chunk 7 of the opposite quarter goes into the x-neighbour's slot 9
  iapply (step_sendX m K c (sRmx 1) (by decide) (σAt 13) (by decide) (by decide) (by decide) (by decide)
      (dev_x c _ (k0_dev13_eq c)) (sl4 c 1 _ _) (sl3 c 1 _ _) rfl rfl) $$ H
  iintro H
  ihave H := (BodySt_of_eq m K c (σ' := σAt 14) (by bst)) $$ H
  -- the local copy: half the input and the own block go in
  iapply (step_local m K c (σAt 14) (by decide) (sl5 c _ _) rfl) $$ H
  iintro H
  ihave H := (BodySt_of_eq m K c (σ' := σAt 15) (by bst)) $$ H
  rw [wp_ret]; imodintro
  iapply Hk; iexact H

end Cert.KernelIdeal.AG

end
-- ==== Proof.PartsB.lean ====
/-
  Parts 7 to 15 of the body: for each chunk of the own quarter, its receive wait and its two forwards.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 7 (operations 15 to 17): chunk 0 of the own quarter is waited for, halved, and forwarded along y and along z. -/
theorem part7 (v2 v5 v8 v10 v11 v13 v26 v200 : BitVec 32) (Kt : BitVec 32 → sProp 𝕄) :
    iprop(BodySt m K c (σAt 15) ∗ (∀ r, BodySt m K c (σAt 18) -∗ Kt r))
      ⊢ wp frame (wpE (defs₀ (F := F)) 𝒱₀ (c : Thread nD τ) none) Set.univ (k0_part7 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v10 v11 v13 v26 v200) Kt := by
  simp only [k0_part7_eq_skeleton]; unfold k0_part7_skel
  simp only [Prog.lift, Prog.bind_op, Prog.bind_ret, Prog.pure_eq_ret]
  iintro ⟨H, Hk⟩
  -- the wait for chunk 0
  iapply (step_waitRecv m K c (sRx 0) (σAt 15) (by decide) (by decide) (by decide) (by decide) rfl (credit_chunk _)) $$ H
  iintro H
  ihave H := (step_halve m K c (sRx 0) _ (by decide) (by decide) (by decide)) $$ H
  ihave H := (BodySt_of_eq m K c (σ' := σAt 16) (by bst)) $$ H
  -- its forward along y: the left half goes into the y-neighbour's slot 10
  iapply (step_fwd m K c (sRy 0) (by decide) (σAt 16) (by decide) (by decide) (by decide) (by decide)
      ((dev_y c _ (k0_dev14_eq c)).trans (peer_y c (sRy 0) (by decide)).symm) (sl6 c 0 _ _) ((sl6 c 0 _ _).trans (outSl_fwd c (sRy 0) (by decide)).symm) rfl rfl) $$ H
  iintro H
  ihave H := (BodySt_of_eq m K c (σ' := σAt 17) (by bst)) $$ H
  -- its forward along z: the right half goes into the z-neighbour's slot 18
  iapply (step_fwd m K c (sRz 0) (by decide) (σAt 17) (by decide) (by decide) (by decide) (by decide)
      ((dev_z c _ (k0_dev15_eq c)).trans (peer_z c (sRz 0) (by decide)).symm) (sl6 c 0 _ _) ((sl6 c 0 _ _).trans (outSl_fwd c (sRz 0) (by decide)).symm) rfl rfl) $$ H
  iintro H
  ihave H := (BodySt_of_eq m K c (σ' := σAt 18) (by bst)) $$ H
  rw [wp_ret]; imodintro
  iapply Hk; iexact H

set_option maxRecDepth 65536 in
/-- Part 8 (operations 18 and 19): chunk 1 of the own quarter is waited for and halved, and its left half forwarded along y. -/
theorem part8 (v2 v5 v8 v9 v10 v11 v235 : BitVec 32) (Kt : PUnit → sProp 𝕄) :
    iprop(BodySt m K c (σAt 18) ∗ (∀ r, BodySt m K c (σAt 20) -∗ Kt r))
      ⊢ wp frame (wpE (defs₀ (F := F)) 𝒱₀ (c : Thread nD τ) none) Set.univ (k0_part8 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v235) Kt := by
  simp only [k0_part8_eq_skeleton]; unfold k0_part8_skel
  simp only [Prog.lift, Prog.bind_op, Prog.bind_ret, Prog.pure_eq_ret]
  iintro ⟨H, Hk⟩
  -- the wait for chunk 1
  iapply (step_waitRecv m K c (sRx 1) (σAt 18) (by decide) (by decide) (by decide) (by decide) rfl (credit_chunk _)) $$ H
  iintro H
  ihave H := (step_halve m K c (sRx 1) _ (by decide) (by decide) (by decide)) $$ H
  ihave H := (BodySt_of_eq m K c (σ' := σAt 19) (by bst)) $$ H
  -- chunk 1's forward along y: the left half goes into the y-neighbour's slot 11
  iapply (step_fwd m K c (sRy 1) (by decide) (σAt 19) (by decide) (by decide) (by decide) (by decide)
      ((dev_y c _ (k0_dev16_eq c)).trans (peer_y c (sRy 1) (by decide)).symm) (sl6 c 1 _ _) ((sl6 c 1 _ _).trans (outSl_fwd c (sRy 1) (by decide)).symm) rfl rfl) $$ H
  iintro H
  ihave H := (BodySt_of_eq m K c (σ' := σAt 20) (by bst)) $$ H
  rw [wp_ret]; imodintro
  iapply Hk; iexact H

set_option maxRecDepth 65536 in
/-- Part 9 (operations 20 to 22): the right half of chunk 1 is forwarded along z; chunk 2 is waited for, halved, and forwarded along y. -/
theorem part9 (v2 v5 v8 v9 v10 v11 v13 v26 : BitVec 32) (Kt : PUnit → sProp 𝕄) :
    iprop(BodySt m K c (σAt 20) ∗ (∀ r, BodySt m K c (σAt 23) -∗ Kt r))
      ⊢ wp frame (wpE (defs₀ (F := F)) 𝒱₀ (c : Thread nD τ) none) Set.univ (k0_part9 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part9_eq_skeleton]; unfold k0_part9_skel
  simp only [Prog.lift, Prog.bind_op, Prog.bind_ret, Prog.pure_eq_ret]
  iintro ⟨H, Hk⟩
  -- chunk 1's forward along z: the right half goes into the z-neighbour's slot 19
  iapply (step_fwd m K c (sRz 1) (by decide) (σAt 20) (by decide) (by decide) (by decide) (by decide)
      ((dev_z c _ (k0_dev17_eq c)).trans (peer_z c (sRz 1) (by decide)).symm) (sl6 c 1 _ _) ((sl6 c 1 _ _).trans (outSl_fwd c (sRz 1) (by decide)).symm) rfl rfl) $$ H
  iintro H
  ihave H := (BodySt_of_eq m K c (σ' := σAt 21) (by bst)) $$ H
  -- the wait for chunk 2
  iapply (step_waitRecv m K c (sRx 2) (σAt 21) (by decide) (by decide) (by decide) (by decide) rfl (credit_chunk _)) $$ H
  iintro H
  ihave H := (step_halve m K c (sRx 2) _ (by decide) (by decide) (by decide)) $$ H
  ihave H := (BodySt_of_eq m K c (σ' := σAt 22) (by bst)) $$ H
  -- chunk 2's forward along y: the left half goes into the y-neighbour's slot 12
  iapply (step_fwd m K c (sRy 2) (by decide) (σAt 22) (by decide) (by decide) (by decide) (by decide)
      ((dev_y c _ (k0_dev18_eq c)).trans (peer_y c (sRy 2) (by decide)).symm) (sl6 c 2 _ _) ((sl6 c 2 _ _).trans (outSl_fwd c (sRy 2) (by decide)).symm) rfl rfl) $$ H
  iintro H
  ihave H := (BodySt_of_eq m K c (σ' := σAt 23) (by bst)) $$ H
  rw [wp_ret]; imodintro
  iapply Hk; iexact H

set_option maxRecDepth 65536 in
/-- Part 10 (operations 23 to 25): the right half of chunk 2 is forwarded along z; chunk 3 is waited for, halved, and forwarded along y. -/
theorem part10 (v2 v5 v8 v9 v10 v13 v26 : BitVec 32) (Kt : BitVec 32 → sProp 𝕄) :
    iprop(BodySt m K c (σAt 23) ∗ (∀ r, BodySt m K c (σAt 26) -∗ Kt r))
      ⊢ wp frame (wpE (defs₀ (F := F)) 𝒱₀ (c : Thread nD τ) none) Set.univ (k0_part10 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v13 v26) Kt := by
  simp only [k0_part10_eq_skeleton]; unfold k0_part10_skel
  simp only [Prog.lift, Prog.bind_op, Prog.bind_ret, Prog.pure_eq_ret]
  iintro ⟨H, Hk⟩
  -- chunk 2's forward along z: the right half goes into the z-neighbour's slot 20
  iapply (step_fwd m K c (sRz 2) (by decide) (σAt 23) (by decide) (by decide) (by decide) (by decide)
      ((dev_z c _ (k0_dev19_eq c)).trans (peer_z c (sRz 2) (by decide)).symm) (sl6 c 2 _ _) ((sl6 c 2 _ _).trans (outSl_fwd c (sRz 2) (by decide)).symm) rfl rfl) $$ H
  iintro H
  ihave H := (BodySt_of_eq m K c (σ' := σAt 24) (by bst)) $$ H
  -- the wait for chunk 3
  iapply (step_waitRecv m K c (sRx 3) (σAt 24) (by decide) (by decide) (by decide) (by decide) rfl (credit_chunk _)) $$ H
  iintro H
  ihave H := (step_halve m K c (sRx 3) _ (by decide) (by decide) (by decide)) $$ H
  ihave H := (BodySt_of_eq m K c (σ' := σAt 25) (by bst)) $$ H
  -- chunk 3's forward along y: the left half goes into the y-neighbour's slot 13
  iapply (step_fwd m K c (sRy 3) (by decide) (σAt 25) (by decide) (by decide) (by decide) (by decide)
      ((dev_y c _ (k0_dev20_eq c)).trans (peer_y c (sRy 3) (by decide)).symm) (sl6 c 3 _ _) ((sl6 c 3 _ _).trans (outSl_fwd c (sRy 3) (by decide)).symm) rfl rfl) $$ H
  iintro H
  ihave H := (BodySt_of_eq m K c (σ' := σAt 26) (by bst)) $$ H
  rw [wp_ret]; imodintro
  iapply Hk; iexact H

set_option maxRecDepth 65536 in
/-- Part 11 (operations 26 to 28): the right half of chunk 3 is forwarded along z; chunk 4 is waited for, halved, and forwarded along y. -/
theorem part11 (v2 v5 v8 v9 v10 v11 v13 v26 v334 : BitVec 32) (Kt : PUnit → sProp 𝕄) :
    iprop(BodySt m K c (σAt 26) ∗ (∀ r, BodySt m K c (σAt 29) -∗ Kt r))
      ⊢ wp frame (wpE (defs₀ (F := F)) 𝒱₀ (c : Thread nD τ) none) Set.univ (k0_part11 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26 v334) Kt := by
  simp only [k0_part11_eq_skeleton]; unfold k0_part11_skel
  simp only [Prog.lift, Prog.bind_op, Prog.bind_ret, Prog.pure_eq_ret]
  iintro ⟨H, Hk⟩
  -- chunk 3's forward along z: the right half goes into the z-neighbour's slot 21
  iapply (step_fwd m K c (sRz 3) (by decide) (σAt 26) (by decide) (by decide) (by decide) (by decide)
      ((dev_z c _ (k0_dev21_eq c)).trans (peer_z c (sRz 3) (by decide)).symm) (sl6 c 3 _ _) ((sl6 c 3 _ _).trans (outSl_fwd c (sRz 3) (by decide)).symm) rfl rfl) $$ H
  iintro H
  ihave H := (BodySt_of_eq m K c (σ' := σAt 27) (by bst)) $$ H
  -- the wait for chunk 4
  iapply (step_waitRecv m K c (sRx 4) (σAt 27) (by decide) (by decide) (by decide) (by decide) rfl (credit_chunk _)) $$ H
  iintro H
  ihave H := (step_halve m K c (sRx 4) _ (by decide) (by decide) (by decide)) $$ H
  ihave H := (BodySt_of_eq m K c (σ' := σAt 28) (by bst)) $$ H
  -- chunk 4's forward along y: the left half goes into the y-neighbour's slot 14
  iapply (step_fwd m K c (sRy 4) (by decide) (σAt 28) (by decide) (by decide) (by decide) (by decide)
      ((dev_y c _ (k0_dev22_eq c)).trans (peer_y c (sRy 4) (by decide)).symm) (sl6 c 4 _ _) ((sl6 c 4 _ _).trans (outSl_fwd c (sRy 4) (by decide)).symm) rfl rfl) $$ H
  iintro H
  ihave H := (BodySt_of_eq m K c (σ' := σAt 29) (by bst)) $$ H
  rw [wp_ret]; imodintro
  iapply Hk; iexact H

set_option maxRecDepth 65536 in
/-- Part 12 (operations 29 and 30): the right half of chunk 4 is forwarded along z; chunk 5 is waited for and halved. -/
theorem part12 (v2 v5 v8 v9 v10 v11 v13 v26 : BitVec 32) (Kt : PUnit → sProp 𝕄) :
    iprop(BodySt m K c (σAt 29) ∗ (∀ r, BodySt m K c (σAt 31) -∗ Kt r))
      ⊢ wp frame (wpE (defs₀ (F := F)) 𝒱₀ (c : Thread nD τ) none) Set.univ (k0_part12 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part12_eq_skeleton]; unfold k0_part12_skel
  simp only [Prog.lift, Prog.bind_op, Prog.bind_ret, Prog.pure_eq_ret]
  iintro ⟨H, Hk⟩
  -- chunk 4's forward along z: the right half goes into the z-neighbour's slot 22
  iapply (step_fwd m K c (sRz 4) (by decide) (σAt 29) (by decide) (by decide) (by decide) (by decide)
      ((dev_z c _ (k0_dev23_eq c)).trans (peer_z c (sRz 4) (by decide)).symm) (sl6 c 4 _ _) ((sl6 c 4 _ _).trans (outSl_fwd c (sRz 4) (by decide)).symm) rfl rfl) $$ H
  iintro H
  ihave H := (BodySt_of_eq m K c (σ' := σAt 30) (by bst)) $$ H
  -- the wait for chunk 5
  iapply (step_waitRecv m K c (sRx 5) (σAt 30) (by decide) (by decide) (by decide) (by decide) rfl (credit_chunk _)) $$ H
  iintro H
  ihave H := (step_halve m K c (sRx 5) _ (by decide) (by decide) (by decide)) $$ H
  ihave H := (BodySt_of_eq m K c (σ' := σAt 31) (by bst)) $$ H
  rw [wp_ret]; imodintro
  iapply Hk; iexact H

set_option maxRecDepth 65536 in
/-- Part 13 (operations 31 to 33): chunk 5 is forwarded along y and along z; chunk 6 is waited for and halved. -/
theorem part13 (v2 v5 v8 v9 v10 v11 v13 v26 : BitVec 32) (Kt : BitVec 32 → sProp 𝕄) :
    iprop(BodySt m K c (σAt 31) ∗ (∀ r, BodySt m K c (σAt 34) -∗ Kt r))
      ⊢ wp frame (wpE (defs₀ (F := F)) 𝒱₀ (c : Thread nD τ) none) Set.univ (k0_part13 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part13_eq_skeleton]; unfold k0_part13_skel
  simp only [Prog.lift, Prog.bind_op, Prog.bind_ret, Prog.pure_eq_ret]
  iintro ⟨H, Hk⟩
  -- chunk 5's forward along y: the left half goes into the y-neighbour's slot 15
  iapply (step_fwd m K c (sRy 5) (by decide) (σAt 31) (by decide) (by decide) (by decide) (by decide)
      ((dev_y c _ (k0_dev24_eq c)).trans (peer_y c (sRy 5) (by decide)).symm) (sl6 c 5 _ _) ((sl6 c 5 _ _).trans (outSl_fwd c (sRy 5) (by decide)).symm) rfl rfl) $$ H
  iintro H
  ihave H := (BodySt_of_eq m K c (σ' := σAt 32) (by bst)) $$ H
  -- chunk 5's forward along z: the right half goes into the z-neighbour's slot 23
  iapply (step_fwd m K c (sRz 5) (by decide) (σAt 32) (by decide) (by decide) (by decide) (by decide)
      ((dev_z c _ (k0_dev25_eq c)).trans (peer_z c (sRz 5) (by decide)).symm) (sl6 c 5 _ _) ((sl6 c 5 _ _).trans (outSl_fwd c (sRz 5) (by decide)).symm) rfl rfl) $$ H
  iintro H
  ihave H := (BodySt_of_eq m K c (σ' := σAt 33) (by bst)) $$ H
  -- the wait for chunk 6
  iapply (step_waitRecv m K c (sRx 6) (σAt 33) (by decide) (by decide) (by decide) (by decide) rfl (credit_chunk _)) $$ H
  iintro H
  ihave H := (step_halve m K c (sRx 6) _ (by decide) (by decide) (by decide)) $$ H
  ihave H := (BodySt_of_eq m K c (σ' := σAt 34) (by bst)) $$ H
  rw [wp_ret]; imodintro
  iapply Hk; iexact H

set_option maxRecDepth 65536 in
/-- Part 14 (operations 34 to 36): chunk 6 is forwarded along y and along z; chunk 7 is waited for and halved. -/
theorem part14 (v2 v5 v8 v9 v11 v13 v26 v435 : BitVec 32) (Kt : BitVec 32 → sProp 𝕄) :
    iprop(BodySt m K c (σAt 34) ∗ (∀ r, BodySt m K c (σAt 37) -∗ Kt r))
      ⊢ wp frame (wpE (defs₀ (F := F)) 𝒱₀ (c : Thread nD τ) none) Set.univ (k0_part14 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v13 v26 v435) Kt := by
  simp only [k0_part14_eq_skeleton]; unfold k0_part14_skel
  simp only [Prog.lift, Prog.bind_op, Prog.bind_ret, Prog.pure_eq_ret]
  iintro ⟨H, Hk⟩
  -- chunk 6's forward along y: the left half goes into the y-neighbour's slot 16
  iapply (step_fwd m K c (sRy 6) (by decide) (σAt 34) (by decide) (by decide) (by decide) (by decide)
      ((dev_y c _ (k0_dev26_eq c)).trans (peer_y c (sRy 6) (by decide)).symm) (sl6 c 6 _ _) ((sl6 c 6 _ _).trans (outSl_fwd c (sRy 6) (by decide)).symm) rfl rfl) $$ H
  iintro H
  ihave H := (BodySt_of_eq m K c (σ' := σAt 35) (by bst)) $$ H
  -- chunk 6's forward along z: the right half goes into the z-neighbour's slot 24
  iapply (step_fwd m K c (sRz 6) (by decide) (σAt 35) (by decide) (by decide) (by decide) (by decide)
      ((dev_z c _ (k0_dev27_eq c)).trans (peer_z c (sRz 6) (by decide)).symm) (sl6 c 6 _ _) ((sl6 c 6 _ _).trans (outSl_fwd c (sRz 6) (by decide)).symm) rfl rfl) $$ H
  iintro H
  ihave H := (BodySt_of_eq m K c (σ' := σAt 36) (by bst)) $$ H
  -- the wait for chunk 7
  iapply (step_waitRecv m K c (sRx 7) (σAt 36) (by decide) (by decide) (by decide) (by decide) rfl (credit_chunk _)) $$ H
  iintro H
  ihave H := (step_halve m K c (sRx 7) _ (by decide) (by decide) (by decide)) $$ H
  ihave H := (BodySt_of_eq m K c (σ' := σAt 37) (by bst)) $$ H
  rw [wp_ret]; imodintro
  iapply Hk; iexact H

set_option maxRecDepth 65536 in
/-- Part 15 (operations 37 and 38): chunk 7 is forwarded along y and along z. -/
theorem part15 (v2 v5 v8 v9 v10 v11 v19 v26 c4_i32_312 : BitVec 32) (Kt : PUnit → sProp 𝕄) :
    iprop(BodySt m K c (σAt 37) ∗ (∀ r, BodySt m K c (σAt 39) -∗ Kt r))
      ⊢ wp frame (wpE (defs₀ (F := F)) 𝒱₀ (c : Thread nD τ) none) Set.univ (k0_part15 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v19 v26 c4_i32_312) Kt := by
  simp only [k0_part15_eq_skeleton]; unfold k0_part15_skel
  simp only [Prog.lift, Prog.bind_op, Prog.bind_ret, Prog.pure_eq_ret]
  iintro ⟨H, Hk⟩
  -- chunk 7's forward along y: the left half goes into the y-neighbour's slot 17
  iapply (step_fwd m K c (sRy 7) (by decide) (σAt 37) (by decide) (by decide) (by decide) (by decide)
      ((dev_y c _ (k0_dev28_eq c)).trans (peer_y c (sRy 7) (by decide)).symm) (sl6 c 7 _ _) ((sl6 c 7 _ _).trans (outSl_fwd c (sRy 7) (by decide)).symm) rfl rfl) $$ H
  iintro H
  ihave H := (BodySt_of_eq m K c (σ' := σAt 38) (by bst)) $$ H
  -- chunk 7's forward along z: the right half goes into the z-neighbour's slot 25
  iapply (step_fwd m K c (sRz 7) (by decide) (σAt 38) (by decide) (by decide) (by decide) (by decide)
      ((dev_z c _ (k0_dev29_eq c)).trans (peer_z c (sRz 7) (by decide)).symm) (sl6 c 7 _ _) ((sl6 c 7 _ _).trans (outSl_fwd c (sRz 7) (by decide)).symm) rfl rfl) $$ H
  iintro H
  ihave H := (BodySt_of_eq m K c (σ' := σAt 39) (by bst)) $$ H
  rw [wp_ret]; imodintro
  iapply Hk; iexact H

end Cert.KernelIdeal.AG

end
-- ==== Proof.PartsC.lean ====
/-
  Parts 16 to 20 of the body: the second-hop forwards. Chunks 0..2 of the z-neighbour's quarter are waited for and sent
  on along y; chunks 3..5 of the y-neighbour's quarter are waited for and sent on along z; each forwarded chunk is held
  whole until its forward is issued. The part closes with the waits for chunks 0 and 1 of the y-neighbour's quarter.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 16 (operations 39 to 41): chunk 0 of the z-neighbour's quarter is waited for and forwarded along y; chunk 1 is waited for. -/
theorem part16 (v2 v5 v8 v9 v10 v19 v26 : BitVec 32) (Kt : PUnit → sProp 𝕄) :
    iprop(BodySt m K c (σAt 39) ∗ (∀ r, BodySt m K c (σAt 42) -∗ Kt r))
      ⊢ wp frame (wpE (defs₀ (F := F)) 𝒱₀ (c : Thread nD τ) none) Set.univ (k0_part16 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v19 v26) Kt := by
  simp only [k0_part16_eq_skeleton]; unfold k0_part16_skel
  simp only [Prog.lift, Prog.bind_op, Prog.bind_ret, Prog.pure_eq_ret]
  iintro ⟨H, Hk⟩
  -- the wait for chunk 0 of the z-neighbour's quarter
  iapply (step_waitRecv m K c (sRz 0) (σAt 39) (by decide) (by decide) (by decide) (by decide) rfl (credit_chunk _)) $$ H
  iintro H
  ihave H := (BodySt_of_eq m K c (σ' := σAt 40) (by bst)) $$ H
  -- its forward along y, whole, into the y-neighbour's slot 26
  iapply (step_fwd m K c (sRmy 0) (by decide) (σAt 40) (by decide) (by decide) (by decide) (by decide)
      ((dev_y c _ (k0_dev30_eq c)).trans (peer_y c (sRmy 0) (by decide)).symm) (sl7 c 0 _ _) ((sl7 c 0 _ _).trans (outSl_fwd c (sRmy 0) (by decide)).symm) rfl rfl) $$ H
  iintro H
  ihave H := (BodySt_of_eq m K c (σ' := σAt 41) (by bst)) $$ H
  -- the wait for chunk 1 of the z-neighbour's quarter
  iapply (step_waitRecv m K c (sRz 1) (σAt 41) (by decide) (by decide) (by decide) (by decide) rfl (credit_chunk _)) $$ H
  iintro H
  ihave H := (BodySt_of_eq m K c (σ' := σAt 42) (by bst)) $$ H
  rw [wp_ret]; imodintro
  iapply Hk; iexact H

set_option maxRecDepth 65536 in
/-- Part 17 (operations 42 to 44): chunk 1 of the z-neighbour's quarter is forwarded along y; chunk 2 is waited for and forwarded along y. -/
theorem part17 (v2 v5 v8 v9 v10 v16 v19 v26 : BitVec 32) (Kt : PUnit → sProp 𝕄) :
    iprop(BodySt m K c (σAt 42) ∗ (∀ r, BodySt m K c (σAt 45) -∗ Kt r))
      ⊢ wp frame (wpE (defs₀ (F := F)) 𝒱₀ (c : Thread nD τ) none) Set.univ (k0_part17 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v16 v19 v26) Kt := by
  simp only [k0_part17_eq_skeleton]; unfold k0_part17_skel
  simp only [Prog.lift, Prog.bind_op, Prog.bind_ret, Prog.pure_eq_ret]
  iintro ⟨H, Hk⟩
  -- chunk 1 goes, whole, into the y-neighbour's slot 27
  iapply (step_fwd m K c (sRmy 1) (by decide) (σAt 42) (by decide) (by decide) (by decide) (by decide)
      ((dev_y c _ (k0_dev31_eq c)).trans (peer_y c (sRmy 1) (by decide)).symm) (sl7 c 1 _ _) ((sl7 c 1 _ _).trans (outSl_fwd c (sRmy 1) (by decide)).symm) rfl rfl) $$ H
  iintro H
  ihave H := (BodySt_of_eq m K c (σ' := σAt 43) (by bst)) $$ H
  -- the wait for chunk 2 of the z-neighbour's quarter
  iapply (step_waitRecv m K c (sRz 2) (σAt 43) (by decide) (by decide) (by decide) (by decide) rfl (credit_chunk _)) $$ H
  iintro H
  ihave H := (BodySt_of_eq m K c (σ' := σAt 44) (by bst)) $$ H
  -- its forward along y into the y-neighbour's slot 28
  iapply (step_fwd m K c (sRmy 2) (by decide) (σAt 44) (by decide) (by decide) (by decide) (by decide)
      ((dev_y c _ (k0_dev32_eq c)).trans (peer_y c (sRmy 2) (by decide)).symm) (sl7 c 2 _ _) ((sl7 c 2 _ _).trans (outSl_fwd c (sRmy 2) (by decide)).symm) rfl rfl) $$ H
  iintro H
  ihave H := (BodySt_of_eq m K c (σ' := σAt 45) (by bst)) $$ H
  rw [wp_ret]; imodintro
  iapply Hk; iexact H

set_option maxRecDepth 65536 in
/-- Part 18 (operations 45 and 46): chunk 3 of the y-neighbour's quarter is waited for and forwarded along z. -/
theorem part18 (v2 v5 v8 v9 v11 v16 v26 : BitVec 32) (Kt : PUnit → sProp 𝕄) :
    iprop(BodySt m K c (σAt 45) ∗ (∀ r, BodySt m K c (σAt 47) -∗ Kt r))
      ⊢ wp frame (wpE (defs₀ (F := F)) 𝒱₀ (c : Thread nD τ) none) Set.univ (k0_part18 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v16 v26) Kt := by
  simp only [k0_part18_eq_skeleton]; unfold k0_part18_skel
  simp only [Prog.lift, Prog.bind_op, Prog.bind_ret, Prog.pure_eq_ret]
  iintro ⟨H, Hk⟩
  -- the wait for chunk 3 of the y-neighbour's quarter
  iapply (step_waitRecv m K c (sRy 3) (σAt 45) (by decide) (by decide) (by decide) (by decide) rfl (credit_chunk _)) $$ H
  iintro H
  ihave H := (BodySt_of_eq m K c (σ' := σAt 46) (by bst)) $$ H
  -- its forward along z, whole, into the z-neighbour's slot 29
  iapply (step_fwd m K c (sRmz 0) (by decide) (σAt 46) (by decide) (by decide) (by decide) (by decide)
      ((dev_z c _ (k0_dev33_eq c)).trans (peer_z c (sRmz 0) (by decide)).symm) (sl8 c 3 _ _) ((sl8 c 3 _ _).trans (outSl_fwd c (sRmz 0) (by decide)).symm) rfl rfl) $$ H
  iintro H
  ihave H := (BodySt_of_eq m K c (σ' := σAt 47) (by bst)) $$ H
  rw [wp_ret]; imodintro
  iapply Hk; iexact H

set_option maxRecDepth 65536 in
/-- Part 19 (operations 47 to 49): chunk 4 of the y-neighbour's quarter is waited for and forwarded along z; chunk 5 is waited for. -/
theorem part19 (v2 v5 v8 v9 v11 v16 v26 : BitVec 32) (Kt : PUnit → sProp 𝕄) :
    iprop(BodySt m K c (σAt 47) ∗ (∀ r, BodySt m K c (σAt 50) -∗ Kt r))
      ⊢ wp frame (wpE (defs₀ (F := F)) 𝒱₀ (c : Thread nD τ) none) Set.univ (k0_part19 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v16 v26) Kt := by
  simp only [k0_part19_eq_skeleton]; unfold k0_part19_skel
  simp only [Prog.lift, Prog.bind_op, Prog.bind_ret, Prog.pure_eq_ret]
  iintro ⟨H, Hk⟩
  -- the wait for chunk 4 of the y-neighbour's quarter
  iapply (step_waitRecv m K c (sRy 4) (σAt 47) (by decide) (by decide) (by decide) (by decide) rfl (credit_chunk _)) $$ H
  iintro H
  ihave H := (BodySt_of_eq m K c (σ' := σAt 48) (by bst)) $$ H
  -- its forward along z into the z-neighbour's slot 30
  iapply (step_fwd m K c (sRmz 1) (by decide) (σAt 48) (by decide) (by decide) (by decide) (by decide)
      ((dev_z c _ (k0_dev34_eq c)).trans (peer_z c (sRmz 1) (by decide)).symm) (sl8 c 4 _ _) ((sl8 c 4 _ _).trans (outSl_fwd c (sRmz 1) (by decide)).symm) rfl rfl) $$ H
  iintro H
  ihave H := (BodySt_of_eq m K c (σ' := σAt 49) (by bst)) $$ H
  -- the wait for chunk 5 of the y-neighbour's quarter
  iapply (step_waitRecv m K c (sRy 5) (σAt 49) (by decide) (by decide) (by decide) (by decide) rfl (credit_chunk _)) $$ H
  iintro H
  ihave H := (BodySt_of_eq m K c (σ' := σAt 50) (by bst)) $$ H
  rw [wp_ret]; imodintro
  iapply Hk; iexact H

set_option maxRecDepth 65536 in
/-- Part 20 (operations 50 to 52): chunk 5 of the y-neighbour's quarter is forwarded along z; chunks 0 and 1 of that quarter are waited for. -/
theorem part20 (v5 v8 v9 v16 v26 : BitVec 32) (Kt : BitVec 32 → sProp 𝕄) :
    iprop(BodySt m K c (σAt 50) ∗ (∀ r, BodySt m K c (σAt 53) -∗ Kt r))
      ⊢ wp frame (wpE (defs₀ (F := F)) 𝒱₀ (c : Thread nD τ) none) Set.univ (k0_part20 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v26) Kt := by
  simp only [k0_part20_eq_skeleton]; unfold k0_part20_skel
  simp only [Prog.lift, Prog.bind_op, Prog.bind_ret, Prog.pure_eq_ret]
  iintro ⟨H, Hk⟩
  -- chunk 5 goes, whole, into the z-neighbour's slot 31
  iapply (step_fwd m K c (sRmz 2) (by decide) (σAt 50) (by decide) (by decide) (by decide) (by decide)
      ((dev_z c _ (k0_dev35_eq c)).trans (peer_z c (sRmz 2) (by decide)).symm) (sl8 c 5 _ _) ((sl8 c 5 _ _).trans (outSl_fwd c (sRmz 2) (by decide)).symm) rfl rfl) $$ H
  iintro H
  ihave H := (BodySt_of_eq m K c (σ' := σAt 51) (by bst)) $$ H
  -- the wait for chunk 0 of the y-neighbour's quarter
  iapply (step_waitRecv m K c (sRy 0) (σAt 51) (by decide) (by decide) (by decide) (by decide) rfl (credit_chunk _)) $$ H
  iintro H
  ihave H := (BodySt_of_eq m K c (σ' := σAt 52) (by bst)) $$ H
  -- the wait for chunk 1 of the y-neighbour's quarter
  iapply (step_waitRecv m K c (sRy 1) (σAt 52) (by decide) (by decide) (by decide) (by decide) rfl (credit_chunk _)) $$ H
  iintro H
  ihave H := (BodySt_of_eq m K c (σ' := σAt 53) (by bst)) $$ H
  rw [wp_ret]; imodintro
  iapply Hk; iexact H

end Cert.KernelIdeal.AG

end
-- ==== Proof.PartsD.lean ====
/-
  Parts 21 to 27 of the body: the remaining receive waits (the rest of the y- and the z-neighbour's quarters, the
  opposite quarter's chunks forwarded a second time, and the two chunks that came straight from the x-neighbour),
  then the first three send waits.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 21 (operations 53, 54): the waits for chunk 2 of the y-neighbour's quarter and chunk 3 of the z-neighbour's. -/
theorem part21 (v5 v8 v9 v19 v26 v670 : BitVec 32) (Kt : (Σ' (_ : BitVec 32), BitVec 32) → sProp 𝕄) :
    iprop(BodySt m K c (σAt 53) ∗ (∀ r, BodySt m K c (σAt 55) -∗ Kt r))
      ⊢ wp frame (wpE (defs₀ (F := F)) 𝒱₀ (c : Thread nD τ) none) Set.univ (k0_part21 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v19 v26 v670) Kt := by
  simp only [k0_part21_eq_skeleton]; unfold k0_part21_skel
  simp only [Prog.lift, Prog.bind_op, Prog.bind_ret, Prog.pure_eq_ret]
  iintro ⟨H, Hk⟩
  -- the wait for chunk 2 of the y-neighbour's quarter (slot 12)
  iapply (step_waitRecv m K c (12 : Slot) (σAt 53) (by decide) (by decide) (by decide) (by decide) rfl (credit_chunk _)) $$ H
  iintro H
  ihave H := (BodySt_of_eq m K c (σ' := σAt 54) (by bst)) $$ H
  -- the wait for chunk 3 of the z-neighbour's quarter (slot 21)
  iapply (step_waitRecv m K c (21 : Slot) (σAt 54) (by decide) (by decide) (by decide) (by decide) rfl (credit_chunk _)) $$ H
  iintro H
  ihave H := (BodySt_of_eq m K c (σ' := σAt 55) (by bst)) $$ H
  rw [wp_ret]; imodintro
  iapply Hk; iexact H

set_option maxRecDepth 65536 in
/-- Part 22 (operations 55 to 57): the waits for chunks 4, 5, 6 of the z-neighbour's quarter. -/
theorem part22 (v5 v8 v9 v16 v19 v26 v701 c1_i32_480 : BitVec 32) (Kt : BitVec 32 → sProp 𝕄) :
    iprop(BodySt m K c (σAt 55) ∗ (∀ r, BodySt m K c (σAt 58) -∗ Kt r))
      ⊢ wp frame (wpE (defs₀ (F := F)) 𝒱₀ (c : Thread nD τ) none) Set.univ (k0_part22 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v19 v26 v701 c1_i32_480) Kt := by
  simp only [k0_part22_eq_skeleton]; unfold k0_part22_skel
  simp only [Prog.lift, Prog.bind_op, Prog.bind_ret, Prog.pure_eq_ret]
  iintro ⟨H, Hk⟩
  -- the wait for chunk 4 of the z-neighbour's quarter (slot 22)
  iapply (step_waitRecv m K c (22 : Slot) (σAt 55) (by decide) (by decide) (by decide) (by decide) rfl (credit_chunk _)) $$ H
  iintro H
  ihave H := (BodySt_of_eq m K c (σ' := σAt 56) (by bst)) $$ H
  -- the wait for chunk 5 of the z-neighbour's quarter (slot 23)
  iapply (step_waitRecv m K c (23 : Slot) (σAt 56) (by decide) (by decide) (by decide) (by decide) rfl (credit_chunk _)) $$ H
  iintro H
  ihave H := (BodySt_of_eq m K c (σ' := σAt 57) (by bst)) $$ H
  -- the wait for chunk 6 of the z-neighbour's quarter (slot 24)
  iapply (step_waitRecv m K c (24 : Slot) (σAt 57) (by decide) (by decide) (by decide) (by decide) rfl (credit_chunk _)) $$ H
  iintro H
  ihave H := (BodySt_of_eq m K c (σ' := σAt 58) (by bst)) $$ H
  rw [wp_ret]; imodintro
  iapply Hk; iexact H

set_option maxRecDepth 65536 in
/-- Part 23 (operations 58, 59): the waits for chunk 6 of the y-neighbour's quarter and chunk 7 of the z-neighbour's. -/
theorem part23 (v5 v8 v9 v16 v19 v26 v735 : BitVec 32) (Kt : (Σ' (_ : BitVec 32), BitVec 32) → sProp 𝕄) :
    iprop(BodySt m K c (σAt 58) ∗ (∀ r, BodySt m K c (σAt 60) -∗ Kt r))
      ⊢ wp frame (wpE (defs₀ (F := F)) 𝒱₀ (c : Thread nD τ) none) Set.univ (k0_part23 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v19 v26 v735) Kt := by
  simp only [k0_part23_eq_skeleton]; unfold k0_part23_skel
  simp only [Prog.lift, Prog.bind_op, Prog.bind_ret, Prog.pure_eq_ret]
  iintro ⟨H, Hk⟩
  -- the wait for chunk 6 of the y-neighbour's quarter (slot 16)
  iapply (step_waitRecv m K c (16 : Slot) (σAt 58) (by decide) (by decide) (by decide) (by decide) rfl (credit_chunk _)) $$ H
  iintro H
  ihave H := (BodySt_of_eq m K c (σ' := σAt 59) (by bst)) $$ H
  -- the wait for chunk 7 of the z-neighbour's quarter (slot 25)
  iapply (step_waitRecv m K c (25 : Slot) (σAt 59) (by decide) (by decide) (by decide) (by decide) rfl (credit_chunk _)) $$ H
  iintro H
  ihave H := (BodySt_of_eq m K c (σ' := σAt 60) (by bst)) $$ H
  rw [wp_ret]; imodintro
  iapply Hk; iexact H

set_option maxRecDepth 65536 in
/-- Part 24 (operations 60 to 62): the waits for chunk 7 of the y-neighbour's quarter and chunks 0, 1 of the opposite quarter. -/
theorem part24 (v5 v8 v9 v23 v26 v766 c1_i32_530 : BitVec 32) (Kt : BitVec 32 → sProp 𝕄) :
    iprop(BodySt m K c (σAt 60) ∗ (∀ r, BodySt m K c (σAt 63) -∗ Kt r))
      ⊢ wp frame (wpE (defs₀ (F := F)) 𝒱₀ (c : Thread nD τ) none) Set.univ (k0_part24 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v766 c1_i32_530) Kt := by
  simp only [k0_part24_eq_skeleton]; unfold k0_part24_skel
  simp only [Prog.lift, Prog.bind_op, Prog.bind_ret, Prog.pure_eq_ret]
  iintro ⟨H, Hk⟩
  -- the wait for chunk 7 of the y-neighbour's quarter (slot 17)
  iapply (step_waitRecv m K c (17 : Slot) (σAt 60) (by decide) (by decide) (by decide) (by decide) rfl (credit_chunk _)) $$ H
  iintro H
  ihave H := (BodySt_of_eq m K c (σ' := σAt 61) (by bst)) $$ H
  -- the wait for chunk 0 of the opposite quarter, through the y-neighbour (slot 26)
  iapply (step_waitRecv m K c (26 : Slot) (σAt 61) (by decide) (by decide) (by decide) (by decide) rfl (credit_chunk _)) $$ H
  iintro H
  ihave H := (BodySt_of_eq m K c (σ' := σAt 62) (by bst)) $$ H
  -- the wait for chunk 1 of the opposite quarter, through the y-neighbour (slot 27)
  iapply (step_waitRecv m K c (27 : Slot) (σAt 62) (by decide) (by decide) (by decide) (by decide) rfl (credit_chunk _)) $$ H
  iintro H
  ihave H := (BodySt_of_eq m K c (σ' := σAt 63) (by bst)) $$ H
  rw [wp_ret]; imodintro
  iapply Hk; iexact H

set_option maxRecDepth 65536 in
/-- Part 25 (operations 63, 64): the waits for chunks 2 and 3 of the opposite quarter. -/
theorem part25 (v5 v8 v9 v23 v26 v800 : BitVec 32) (Kt : (Σ' (_ : BitVec 32), BitVec 32) → sProp 𝕄) :
    iprop(BodySt m K c (σAt 63) ∗ (∀ r, BodySt m K c (σAt 65) -∗ Kt r))
      ⊢ wp frame (wpE (defs₀ (F := F)) 𝒱₀ (c : Thread nD τ) none) Set.univ (k0_part25 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v800) Kt := by
  simp only [k0_part25_eq_skeleton]; unfold k0_part25_skel
  simp only [Prog.lift, Prog.bind_op, Prog.bind_ret, Prog.pure_eq_ret]
  iintro ⟨H, Hk⟩
  -- the wait for chunk 2 of the opposite quarter, through the y-neighbour (slot 28)
  iapply (step_waitRecv m K c (28 : Slot) (σAt 63) (by decide) (by decide) (by decide) (by decide) rfl (credit_chunk _)) $$ H
  iintro H
  ihave H := (BodySt_of_eq m K c (σ' := σAt 64) (by bst)) $$ H
  -- the wait for chunk 3 of the opposite quarter, through the z-neighbour (slot 29)
  iapply (step_waitRecv m K c (29 : Slot) (σAt 64) (by decide) (by decide) (by decide) (by decide) rfl (credit_chunk _)) $$ H
  iintro H
  ihave H := (BodySt_of_eq m K c (σ' := σAt 65) (by bst)) $$ H
  rw [wp_ret]; imodintro
  iapply Hk; iexact H

set_option maxRecDepth 65536 in
/-- Part 26 (operations 65 to 67): the waits for chunks 4, 5, 6 of the opposite quarter. -/
theorem part26 (v5 v8 v9 v23 v26 v831 c1_i32_580 : BitVec 32) (Kt : BitVec 32 → sProp 𝕄) :
    iprop(BodySt m K c (σAt 65) ∗ (∀ r, BodySt m K c (σAt 68) -∗ Kt r))
      ⊢ wp frame (wpE (defs₀ (F := F)) 𝒱₀ (c : Thread nD τ) none) Set.univ (k0_part26 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v831 c1_i32_580) Kt := by
  simp only [k0_part26_eq_skeleton]; unfold k0_part26_skel
  simp only [Prog.lift, Prog.bind_op, Prog.bind_ret, Prog.pure_eq_ret]
  iintro ⟨H, Hk⟩
  -- the wait for chunk 4 of the opposite quarter, through the z-neighbour (slot 30)
  iapply (step_waitRecv m K c (30 : Slot) (σAt 65) (by decide) (by decide) (by decide) (by decide) rfl (credit_chunk _)) $$ H
  iintro H
  ihave H := (BodySt_of_eq m K c (σ' := σAt 66) (by bst)) $$ H
  -- the wait for chunk 5 of the opposite quarter, through the z-neighbour (slot 31)
  iapply (step_waitRecv m K c (31 : Slot) (σAt 66) (by decide) (by decide) (by decide) (by decide) rfl (credit_chunk _)) $$ H
  iintro H
  ihave H := (BodySt_of_eq m K c (σ' := σAt 67) (by bst)) $$ H
  -- the wait for chunk 6 of the opposite quarter, straight from the x-neighbour (slot 8)
  iapply (step_waitRecv m K c (8 : Slot) (σAt 67) (by decide) (by decide) (by decide) (by decide) rfl (credit_chunk _)) $$ H
  iintro H
  ihave H := (BodySt_of_eq m K c (σ' := σAt 68) (by bst)) $$ H
  rw [wp_ret]; imodintro
  iapply Hk; iexact H

set_option maxRecDepth 65536 in
/-- Part 27 (operations 68 to 71): the wait for chunk 7 of the opposite quarter, the last receive; then the waits for the first three transfers to the x-neighbour to have left. -/
theorem part27 (v5 v8 v9 v865 : BitVec 32) (Kt : PUnit → sProp 𝕄) :
    iprop(BodySt m K c (σAt 68) ∗ (∀ r, BodySt m K c (σAt 72) -∗ Kt r))
      ⊢ wp frame (wpE (defs₀ (F := F)) 𝒱₀ (c : Thread nD τ) none) Set.univ (k0_part27 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v865) Kt := by
  simp only [k0_part27_eq_skeleton]; unfold k0_part27_skel
  simp only [Prog.lift, Prog.bind_op, Prog.bind_ret, Prog.pure_eq_ret]
  iintro ⟨H, Hk⟩
  -- the wait for chunk 7 of the opposite quarter, straight from the x-neighbour (slot 9)
  iapply (step_waitRecv m K c (9 : Slot) (σAt 68) (by decide) (by decide) (by decide) (by decide) rfl (credit_chunk _)) $$ H
  iintro H
  ihave H := (BodySt_of_eq m K c (σ' := σAt 69) (by bst)) $$ H
  -- the wait for the transfer into the x-neighbour's slot 0 to have left
  iapply (step_waitSend m K c (0 : Slot) (σAt 69) (by decide) (by decide) (by decide) (by decide) rfl (credit_chunk _)) $$ H
  iintro H
  ihave H := (BodySt_of_eq m K c (σ' := σAt 70) (by bst)) $$ H
  -- the wait for the transfer into the x-neighbour's slot 1 to have left
  iapply (step_waitSend m K c (1 : Slot) (σAt 70) (by decide) (by decide) (by decide) (by decide) rfl (credit_chunk _)) $$ H
  iintro H
  ihave H := (BodySt_of_eq m K c (σ' := σAt 71) (by bst)) $$ H
  -- the wait for the transfer into the x-neighbour's slot 2 to have left
  iapply (step_waitSend m K c (2 : Slot) (σAt 71) (by decide) (by decide) (by decide) (by decide) rfl (credit_chunk _)) $$ H
  iintro H
  ihave H := (BodySt_of_eq m K c (σ' := σAt 72) (by bst)) $$ H
  rw [wp_ret]; imodintro
  iapply Hk; iexact H

end Cert.KernelIdeal.AG

end
-- ==== Proof.PartsE.lean ====
/-
  Parts 28 to 31 of the body: the waits for twenty-four of the sends to have left; each hands back the share of the
  source its transfer read.
-/
import proofs.«900662_g7700000000000663_dist_ag_v7x_xyz2x2x2_x_m4096_n1024_f32_1_alg».proof.Proof.Views
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 28 (operations 72 to 77): the sends into the x-neighbour's slots 3 to 8. -/
theorem part28 (Kt : PUnit → sProp 𝕄) :
    iprop(BodySt m K c (σAt 72) ∗ (∀ r, BodySt m K c (σAt 78) -∗ Kt r))
      ⊢ wp frame (wpE (defs₀ (F := F)) 𝒱₀ (c : Thread nD τ) none) Set.univ (k0_part28 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part28_eq_skeleton]; unfold k0_part28_skel
  simp only [Prog.lift, Prog.bind_op, Prog.bind_ret, Prog.pure_eq_ret]
  iintro ⟨H, Hk⟩
  -- the transfer into the x-neighbour's slot 3 has left: the input chunk's share is back
  iapply (step_waitSend m K c (3 : Slot) (σAt 72) (by decide) (by decide) (by decide) (by decide) rfl (credit_chunk _)) $$ H
  iintro H
  ihave H := (BodySt_of_eq m K c (σ' := σAt 73) (by bst)) $$ H
  -- the transfer into the x-neighbour's slot 4 has left: the input chunk's share is back
  iapply (step_waitSend m K c (4 : Slot) (σAt 73) (by decide) (by decide) (by decide) (by decide) rfl (credit_chunk _)) $$ H
  iintro H
  ihave H := (BodySt_of_eq m K c (σ' := σAt 74) (by bst)) $$ H
  -- the transfer into the x-neighbour's slot 5 has left: the input chunk's share is back
  iapply (step_waitSend m K c (5 : Slot) (σAt 74) (by decide) (by decide) (by decide) (by decide) rfl (credit_chunk _)) $$ H
  iintro H
  ihave H := (BodySt_of_eq m K c (σ' := σAt 75) (by bst)) $$ H
  -- the transfer into the x-neighbour's slot 6 has left: the input chunk's share is back
  iapply (step_waitSend m K c (6 : Slot) (σAt 75) (by decide) (by decide) (by decide) (by decide) rfl (credit_chunk _)) $$ H
  iintro H
  ihave H := (BodySt_of_eq m K c (σ' := σAt 76) (by bst)) $$ H
  -- the transfer into the x-neighbour's slot 7 has left: the input chunk's share is back
  iapply (step_waitSend m K c (7 : Slot) (σAt 76) (by decide) (by decide) (by decide) (by decide) rfl (credit_chunk _)) $$ H
  iintro H
  ihave H := (BodySt_of_eq m K c (σ' := σAt 77) (by bst)) $$ H
  -- the transfer into the x-neighbour's slot 8 has left: the input chunk's share is back
  iapply (step_waitSend m K c (8 : Slot) (σAt 77) (by decide) (by decide) (by decide) (by decide) rfl (credit_chunk _)) $$ H
  iintro H
  ihave H := (BodySt_of_eq m K c (σ' := σAt 78) (by bst)) $$ H
  rw [wp_ret]; imodintro
  iapply Hk; iexact H

set_option maxRecDepth 65536 in
/-- Part 29 (operations 78 to 83): the send into the x-neighbour's slot 9, then the two forwards of chunks 0, 1 and the
    forward along y of chunk 2 of the own quarter. -/
theorem part29 (Kt : PUnit → sProp 𝕄) :
    iprop(BodySt m K c (σAt 78) ∗ (∀ r, BodySt m K c (σAt 84) -∗ Kt r))
      ⊢ wp frame (wpE (defs₀ (F := F)) 𝒱₀ (c : Thread nD τ) none) Set.univ (k0_part29 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part29_eq_skeleton]; unfold k0_part29_skel
  simp only [Prog.lift, Prog.bind_op, Prog.bind_ret, Prog.pure_eq_ret]
  iintro ⟨H, Hk⟩
  -- the transfer into the x-neighbour's slot 9 has left: the input chunk's share is back
  iapply (step_waitSend m K c (9 : Slot) (σAt 78) (by decide) (by decide) (by decide) (by decide) rfl (credit_chunk _)) $$ H
  iintro H
  ihave H := (BodySt_of_eq m K c (σ' := σAt 79) (by bst)) $$ H
  -- the transfer into the peer's slot 10 has left: the source share is back
  iapply (step_waitSend m K c (10 : Slot) (σAt 79) (by decide) (by decide) (by decide) (by decide) rfl (credit_chunk _)) $$ H
  iintro H
  ihave H := (BodySt_of_eq m K c (σ' := σAt 80) (by bst)) $$ H
  -- the transfer into the peer's slot 18 has left: the source share is back
  iapply (step_waitSend m K c (18 : Slot) (σAt 80) (by decide) (by decide) (by decide) (by decide) rfl (credit_chunk _)) $$ H
  iintro H
  ihave H := (BodySt_of_eq m K c (σ' := σAt 81) (by bst)) $$ H
  -- the transfer into the peer's slot 11 has left: the source share is back
  iapply (step_waitSend m K c (11 : Slot) (σAt 81) (by decide) (by decide) (by decide) (by decide) rfl (credit_chunk _)) $$ H
  iintro H
  ihave H := (BodySt_of_eq m K c (σ' := σAt 82) (by bst)) $$ H
  -- the transfer into the peer's slot 19 has left: the source share is back
  iapply (step_waitSend m K c (19 : Slot) (σAt 82) (by decide) (by decide) (by decide) (by decide) rfl (credit_chunk _)) $$ H
  iintro H
  ihave H := (BodySt_of_eq m K c (σ' := σAt 83) (by bst)) $$ H
  -- the transfer into the peer's slot 12 has left: the source share is back
  iapply (step_waitSend m K c (12 : Slot) (σAt 83) (by decide) (by decide) (by decide) (by decide) rfl (credit_chunk _)) $$ H
  iintro H
  ihave H := (BodySt_of_eq m K c (σ' := σAt 84) (by bst)) $$ H
  rw [wp_ret]; imodintro
  iapply Hk; iexact H

set_option maxRecDepth 65536 in
/-- Part 30 (operations 84 to 89): the forwards of chunks 2 (along z), 3, 4 and 5 (along y) of the own quarter. -/
theorem part30 (Kt : PUnit → sProp 𝕄) :
    iprop(BodySt m K c (σAt 84) ∗ (∀ r, BodySt m K c (σAt 90) -∗ Kt r))
      ⊢ wp frame (wpE (defs₀ (F := F)) 𝒱₀ (c : Thread nD τ) none) Set.univ (k0_part30 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part30_eq_skeleton]; unfold k0_part30_skel
  simp only [Prog.lift, Prog.bind_op, Prog.bind_ret, Prog.pure_eq_ret]
  iintro ⟨H, Hk⟩
  -- the transfer into the peer's slot 20 has left: the source share is back
  iapply (step_waitSend m K c (20 : Slot) (σAt 84) (by decide) (by decide) (by decide) (by decide) rfl (credit_chunk _)) $$ H
  iintro H
  ihave H := (BodySt_of_eq m K c (σ' := σAt 85) (by bst)) $$ H
  -- the transfer into the peer's slot 13 has left: the source share is back
  iapply (step_waitSend m K c (13 : Slot) (σAt 85) (by decide) (by decide) (by decide) (by decide) rfl (credit_chunk _)) $$ H
  iintro H
  ihave H := (BodySt_of_eq m K c (σ' := σAt 86) (by bst)) $$ H
  -- the transfer into the peer's slot 21 has left: the source share is back
  iapply (step_waitSend m K c (21 : Slot) (σAt 86) (by decide) (by decide) (by decide) (by decide) rfl (credit_chunk _)) $$ H
  iintro H
  ihave H := (BodySt_of_eq m K c (σ' := σAt 87) (by bst)) $$ H
  -- the transfer into the peer's slot 14 has left: the source share is back
  iapply (step_waitSend m K c (14 : Slot) (σAt 87) (by decide) (by decide) (by decide) (by decide) rfl (credit_chunk _)) $$ H
  iintro H
  ihave H := (BodySt_of_eq m K c (σ' := σAt 88) (by bst)) $$ H
  -- the transfer into the peer's slot 22 has left: the source share is back
  iapply (step_waitSend m K c (22 : Slot) (σAt 88) (by decide) (by decide) (by decide) (by decide) rfl (credit_chunk _)) $$ H
  iintro H
  ihave H := (BodySt_of_eq m K c (σ' := σAt 89) (by bst)) $$ H
  -- the transfer into the peer's slot 15 has left: the source share is back
  iapply (step_waitSend m K c (15 : Slot) (σAt 89) (by decide) (by decide) (by decide) (by decide) rfl (credit_chunk _)) $$ H
  iintro H
  ihave H := (BodySt_of_eq m K c (σ' := σAt 90) (by bst)) $$ H
  rw [wp_ret]; imodintro
  iapply Hk; iexact H

set_option maxRecDepth 65536 in
/-- Part 31 (operations 90 to 95): the forwards of chunks 5 (along z), 6 and 7 of the own quarter, and the first second-hop
    forward along y. -/
theorem part31 (Kt : PUnit → sProp 𝕄) :
    iprop(BodySt m K c (σAt 90) ∗ (∀ r, BodySt m K c (σAt 96) -∗ Kt r))
      ⊢ wp frame (wpE (defs₀ (F := F)) 𝒱₀ (c : Thread nD τ) none) Set.univ (k0_part31 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part31_eq_skeleton]; unfold k0_part31_skel
  simp only [Prog.lift, Prog.bind_op, Prog.bind_ret, Prog.pure_eq_ret]
  iintro ⟨H, Hk⟩
  -- the transfer into the peer's slot 23 has left: the source share is back
  iapply (step_waitSend m K c (23 : Slot) (σAt 90) (by decide) (by decide) (by decide) (by decide) rfl (credit_chunk _)) $$ H
  iintro H
  ihave H := (BodySt_of_eq m K c (σ' := σAt 91) (by bst)) $$ H
  -- the transfer into the peer's slot 16 has left: the source share is back
  iapply (step_waitSend m K c (16 : Slot) (σAt 91) (by decide) (by decide) (by decide) (by decide) rfl (credit_chunk _)) $$ H
  iintro H
  ihave H := (BodySt_of_eq m K c (σ' := σAt 92) (by bst)) $$ H
  -- the transfer into the peer's slot 24 has left: the source share is back
  iapply (step_waitSend m K c (24 : Slot) (σAt 92) (by decide) (by decide) (by decide) (by decide) rfl (credit_chunk _)) $$ H
  iintro H
  ihave H := (BodySt_of_eq m K c (σ' := σAt 93) (by bst)) $$ H
  -- the transfer into the peer's slot 17 has left: the source share is back
  iapply (step_waitSend m K c (17 : Slot) (σAt 93) (by decide) (by decide) (by decide) (by decide) rfl (credit_chunk _)) $$ H
  iintro H
  ihave H := (BodySt_of_eq m K c (σ' := σAt 94) (by bst)) $$ H
  -- the transfer into the peer's slot 25 has left: the source share is back
  iapply (step_waitSend m K c (25 : Slot) (σAt 94) (by decide) (by decide) (by decide) (by decide) rfl (credit_chunk _)) $$ H
  iintro H
  ihave H := (BodySt_of_eq m K c (σ' := σAt 95) (by bst)) $$ H
  -- the transfer into the peer's slot 26 has left: the source share is back
  iapply (step_waitSend m K c (26 : Slot) (σAt 95) (by decide) (by decide) (by decide) (by decide) rfl (credit_chunk _)) $$ H
  iintro H
  ihave H := (BodySt_of_eq m K c (σ' := σAt 96) (by bst)) $$ H
  rw [wp_ret]; imodintro
  iapply Hk; iexact H

end Cert.KernelIdeal.AG

end
-- ==== Proof.Dats.lean ====
/-
  The pipeline's proof data of the one region: no window is staged, so the data are the two assertions around the
  body and what is owed before and after it.
-/
import proofs.«900662_g7700000000000663_dist_ag_v7x_xyz2x2x2_x_m4096_n1024_f32_1_alg».proof.Proof.State
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.AG

end
-- ==== Proof.Spine.lean ====
/-
  The outermost part of one device's body: the 31 parts in the order the printed body calls them, then three send waits.
-/
import proofs.«900662_g7700000000000663_dist_ag_v7x_xyz2x2x2_x_m4096_n1024_f32_1_alg».proof.Proof.Enter
import proofs.«900662_g7700000000000663_dist_ag_v7x_xyz2x2x2_x_m4096_n1024_f32_1_alg».proof.Proof.PartsA
import proofs.«900662_g7700000000000663_dist_ag_v7x_xyz2x2x2_x_m4096_n1024_f32_1_alg».proof.Proof.PartsB
import proofs.«900662_g7700000000000663_dist_ag_v7x_xyz2x2x2_x_m4096_n1024_f32_1_alg».proof.Proof.PartsC
import proofs.«900662_g7700000000000663_dist_ag_v7x_xyz2x2x2_x_m4096_n1024_f32_1_alg».proof.Proof.PartsD
import proofs.«900662_g7700000000000663_dist_ag_v7x_xyz2x2x2_x_m4096_n1024_f32_1_alg».proof.Proof.PartsE
import proofs.«900662_g7700000000000663_dist_ag_v7x_xyz2x2x2_x_m4096_n1024_f32_1_alg».proof.Proof.Dats
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The last operations: three send waits in the outermost part, two more and the local copy's wait at the root -/

set_option maxRecDepth 65536 in
set_option maxHeartbeats 3200000 in
/-- The outermost part: it calls the 31 parts in order, then waits for three more sends. -/
theorem part32 (Kt : Dev nD → sProp 𝕄) :
    iprop(Enter m c ∗ (∀ K, BodySt m K c (σAt 99) -∗ Kt c))
      ⊢ wp frame (wpE (defs₀ (F := F)) 𝒱₀ (c : Thread nD τ) none) Set.univ (k0_part32 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9) Kt := by
  simp only [k0_part32_eq_skeleton]; unfold k0_part32_skel
  simp only [k0_part1_eq_skeleton]; unfold k0_part1_skel
  simp only [Prog.lift, Prog.bind_op, Prog.bind_ret, Prog.pure_eq_ret, wp_deviceId, wp_bind]
  iintro ⟨HE, Hk⟩
  iapply (part2 m c _ _ _ _ _ _ _ _ _); isplitl [HE]; · iexact HE
  iintro %K H
  iapply (part3 m K c _ _ _ _ _ _); isplitl [H]; · iexact H
  iintro %r H
  iapply (part4 m K c _ _ _ _ _ _ _); isplitl [H]; · iexact H
  iintro %r H
  iapply (part5 m K c _ _ _ _ _ _ _); isplitl [H]; · iexact H
  iintro %r H
  iapply (part6 m K c _ _ _ _ _ _ _ _ _); isplitl [H]; · iexact H
  iintro %r H
  iapply (part7 m K c _ _ _ _ _ _ _ _ _); isplitl [H]; · iexact H
  iintro %r H
  iapply (part8 m K c _ _ _ _ _ _ _ _); isplitl [H]; · iexact H
  iintro %r H
  iapply (part9 m K c _ _ _ _ _ _ _ _ _); isplitl [H]; · iexact H
  iintro %r H
  iapply (part10 m K c _ _ _ _ _ _ _ _); isplitl [H]; · iexact H
  iintro %r H
  iapply (part11 m K c _ _ _ _ _ _ _ _ _ _); isplitl [H]; · iexact H
  iintro %r H
  iapply (part12 m K c _ _ _ _ _ _ _ _ _); isplitl [H]; · iexact H
  iintro %r H
  iapply (part13 m K c _ _ _ _ _ _ _ _ _); isplitl [H]; · iexact H
  iintro %r H
  iapply (part14 m K c _ _ _ _ _ _ _ _ _); isplitl [H]; · iexact H
  iintro %r H
  iapply (part15 m K c _ _ _ _ _ _ _ _ _ _); isplitl [H]; · iexact H
  iintro %r H
  iapply (part16 m K c _ _ _ _ _ _ _ _); isplitl [H]; · iexact H
  iintro %r H
  iapply (part17 m K c _ _ _ _ _ _ _ _ _); isplitl [H]; · iexact H
  iintro %r H
  iapply (part18 m K c _ _ _ _ _ _ _ _); isplitl [H]; · iexact H
  iintro %r H
  iapply (part19 m K c _ _ _ _ _ _ _ _); isplitl [H]; · iexact H
  iintro %r H
  iapply (part20 m K c _ _ _ _ _ _); isplitl [H]; · iexact H
  iintro %r H
  iapply (part21 m K c _ _ _ _ _ _ _); isplitl [H]; · iexact H
  iintro %r H; obtain ⟨r1, r2⟩ := r; dsimp only
  iapply (part22 m K c _ _ _ _ _ _ _ _ _); isplitl [H]; · iexact H
  iintro %r H
  iapply (part23 m K c _ _ _ _ _ _ _ _); isplitl [H]; · iexact H
  iintro %r H; obtain ⟨r1, r2⟩ := r; dsimp only
  iapply (part24 m K c _ _ _ _ _ _ _ _); isplitl [H]; · iexact H
  iintro %r H
  iapply (part25 m K c _ _ _ _ _ _ _); isplitl [H]; · iexact H
  iintro %r H; obtain ⟨r1, r2⟩ := r; dsimp only
  iapply (part26 m K c _ _ _ _ _ _ _ _); isplitl [H]; · iexact H
  iintro %r H
  iapply (part27 m K c _ _ _ _ _); isplitl [H]; · iexact H
  iintro %r H
  iapply (part28 m K c _); isplitl [H]; · iexact H
  iintro %r H
  iapply (part29 m K c _); isplitl [H]; · iexact H
  iintro %r H
  iapply (part30 m K c _); isplitl [H]; · iexact H
  iintro %r H
  iapply (part31 m K c _); isplitl [H]; · iexact H
  iintro %r H
  -- the three send waits of this part
  iapply (step_waitSend m K c (sRmy 1) (σAt 96) (by decide) (by decide) (by decide) (by decide) rfl (credit_chunk _)) $$ H
  iintro H
  ihave H := (BodySt_of_eq m K c (σ' := σAt 97) (by bst)) $$ H
  iapply (step_waitSend m K c (sRmy 2) (σAt 97) (by decide) (by decide) (by decide) (by decide) rfl (credit_chunk _)) $$ H
  iintro H
  ihave H := (BodySt_of_eq m K c (σ' := σAt 98) (by bst)) $$ H
  iapply (step_waitSend m K c (sRmz 0) (σAt 98) (by decide) (by decide) (by decide) (by decide) rfl (credit_chunk _)) $$ H
  iintro H
  ihave H := (BodySt_of_eq m K c (σ' := σAt 99) (by bst)) $$ H
  rw [wp_ret]; imodintro
  iapply Hk; iexact H

end Cert.KernelIdeal.AG

end
-- ==== Proof.Body.lean ====
/-
  One device's body, whole: the outermost part, the last two send waits and the local copy's wait; what the state is
  after the last operation; and the library's body obligation.
-/
import proofs.«900662_g7700000000000663_dist_ag_v7x_xyz2x2x2_x_m4096_n1024_f32_1_alg».proof.Proof.Spine
import proofs.«900662_g7700000000000663_dist_ag_v7x_xyz2x2x2_x_m4096_n1024_f32_1_alg».proof.Proof.Dats
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

set_option maxRecDepth 65536 in
set_option maxHeartbeats 1600000 in
/-- The whole body: from the start assertion to the protocol state after the last operation. -/
theorem sound_body (Kt : PUnit → sProp 𝕄) :
    iprop(Enter m c ∗ (∀ K, BodySt m K c (σAt 102) -∗ Kt ⟨⟩))
      ⊢ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9) Kt := by
  simp only [cc0_body_eq_skeleton]; unfold cc0_body_skel
  simp only [Prog.lift, Prog.bind_op, Prog.bind_ret, Prog.pure_eq_ret, wp_bind]
  iintro ⟨HE, Hk⟩
  iapply (part32 m c _); isplitl [HE]; · iexact HE
  iintro %K H
  iapply (step_waitSend m K c (sRmz 1) (σAt 99) (by decide) (by decide) (by decide) (by decide) rfl (credit_chunk _)) $$ H
  iintro H
  ihave H := (BodySt_of_eq m K c (σ' := σAt 100) (by bst)) $$ H
  iapply (step_waitSend m K c (sRmz 2) (σAt 100) (by decide) (by decide) (by decide) (by decide) rfl (credit_chunk _)) $$ H
  iintro H
  ihave H := (BodySt_of_eq m K c (σ' := σAt 101) (by bst)) $$ H
  iapply (step_waitLocal m K c (σAt 101) (by decide) (by decide)
      (dst := (oM : Memref sig .tc .hbm S8192x1024 .f32).slice (Rect.unit (s := S8192x1024) (k0_off5 c) S4096x1024.size (k0_off5_inb c)) (fun _ => rfl))
      rfl (dmaCredit_congr _ _ rfl)) $$ H
  iintro H
  ihave H := (BodySt_of_eq m K c (σ' := σAt 102) (by bst)) $$ H
  rw [wp_ret]; imodintro
  iapply Hk; iexact H

/-! ## After the last operation -/

omit [FloatOps F] in
/-- Of the source shares that came back, those of the forwards. -/
theorem back_fwd : (bigSep Finset.univ fun s : Slot => sendPay m c s : sProp 𝕄) ⊢ bigSep (Finset.univ.filter fun s : Slot => 10 ≤ s.val) fun s => sendPay m c s :=
  bigSep_subset (Finset.subset_univ _)

omit [FloatOps F] in
theorem kept_map : (σAt 102).Sl = keptSlots.map ⟨fun s : Slot => (s, (0 : Fin 3)), fun a b h => congrArg Prod.fst h⟩ := by decide

omit [FloatOps F] in
/-- After the last operation the state is the after-body assertion: the result array covered at its final contents, half
    the input, every own semaphore back at zero; nothing owed. -/
theorem finish (K : Dev nD × Fin 66 → ℕ) :
    (BodySt m K c (σAt 102) : sProp 𝕄) ⊢ iprop(Φ₁ m c ∗ ∃ W, owes (c : Thread nD τ) 0 W) := by
  unfold BodySt Φ₁ outFinal
  rw [show (σAt 102).St = ∅ from by decide, Otal_empty, kept_map, bigSep_map, show (σAt 102).Sb = Finset.univ from by decide,
    show (σAt 102).Sz = Finset.univ.erase locSem from by decide, show (σAt 102).lc = 2 from by decide, locSt_two,
    bigSep_take (Finset.mem_univ locSem) (fun q : DmaSem sig => semVal ((c : Thread nD τ), SemLoc.dma q) 0)]
  iintro ⟨-, -, ⟨%W, HO⟩, -, -, -, -, Hl, Hb, -, Hz, Hown, Hxl, HzL⟩
  isplitr [HO]
  · isplitr [Hz HzL]
    · isplitl [Hown]; · iexact Hown
      isplitl [Hl]; · unfold shareOf; iexact Hl
      isplitl [Hb]; · iapply (back_fwd m c); iexact Hb
      iexact Hxl
    · isplitl [HzL] <;> iassumption
  · iexists W; iexact HO

/-! ## The body obligation -/

omit [FloatOps F] in
/-- The pipeline calls the body, at its one point, on the two arrays whole and the kernel's semaphore arrays. -/
theorem body_call : defs₀ (F := F) Proc.tc cfg0.body (cfg0.bodyArgs t₀ (cfg0.slots t₀))
    = cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 := rfl

set_option maxRecDepth 8000 in
/-- The library's body obligation on device c. -/
theorem body_obligation : BodyObligation (dats (F := F) m 0 c) (defs₀ (F := F)) 𝒱₀ () Set.univ := fun t => by
  rw [fin_N t]
  rw [show (Finset.univ : Finset (Fin cfg0.W)) = ∅ from Finset.univ_eq_empty, bigSep_empty, bigSep_empty]
  unfold Dat.owesAt Pipeline.owesWithin
  rw [body_call, show (dats m 0 c).Φ t₀.castSucc = Φ₀ m c from rfl, show (dats m 0 c).Φ t₀.succ = Φ₁ m c from rfl,
    show (dats m 0 c).owed t₀.castSucc = O₀ c from rfl, show (dats m 0 c).owed t₀.succ = 0 from rfl]
  iintro ⟨HΦ, ⟨%W, %hW, HO⟩, -⟩
  iapply (sound_body m c _)
  isplitl [HΦ HO]
  · unfold Enter
    isplitl [HΦ]; · iexact HΦ
    iexists W; iexact HO
  iintro %K H
  ihave H2 := (finish m c K) $$ H
  icases H2 with ⟨HΦ1, ⟨%W', HO⟩⟩
  isplitl [HΦ1]; · iexact HΦ1
  isplitl [HO]
  · iexists W'
    isplitr; · ipureintro; exact fun _ _ => Or.inl trivial
    iexact HO
  iempintro

end Cert.KernelIdeal.AG

end
-- ==== Proof.Fund.lean ====
/-
  The protocol's ghost state at launch: every cell of every device funded at round 0, every duty's token minted, and
  then dealt: a token goes to the device that PAYS the duty — a barrier duty and a receive duty to the neighbour, a
  send duty and the local copy's to the device itself.
-/
import proofs.«900662_g7700000000000663_dist_ag_v7x_xyz2x2x2_x_m4096_n1024_f32_1_alg».proof.Proof.State
import proofs.«900662_g7700000000000663_dist_ag_v7x_xyz2x2x2_x_m4096_n1024_f32_1_alg».proof.Proof.SchedTables
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens, enumerated -/

/-- The cell index determines the semaphore: index 0 is the barrier, index 1 + q the DMA semaphore q. -/
theorem csem_injective : Function.Injective csem := by
  intro k k' h
  unfold csem at h
  split at h <;> split at h
  · exact Fin.ext (by omega)
  · cases h
  · cases h
  · have h1 := SemLoc.dma.inj h
    have h2 : k.val - 1 = k'.val - 1 := congrArg Fin.val h1
    exact Fin.ext (by omega)

theorem kcell_injective : Function.Injective (kcell : Dev nD × Fin 66 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens of a device's own cells as minted: the three duties of its barrier, and the one duty of each DMA cell. -/
def tokOf (cj : Dev nD × (Fin 3 ⊕ DmaSem sig)) : GSem nD τ sig × ℕ × Fin 3 :=
  match cj.2 with
  | .inl d => (barCell cj.1, 0, d)
  | .inr q => (((cj.1 : Thread nD τ), SemLoc.dma q), 0, 0)
theorem tokOf_injective : Function.Injective (tokOf : Dev nD × (Fin 3 ⊕ DmaSem sig) → GSem nD τ sig × ℕ × Fin 3) := by
  rintro ⟨c, j⟩ ⟨c', j'⟩ h
  have h1 : c = c' := by
    have := congrArg (fun x : GSem nD τ sig × ℕ × Fin 3 => x.1.1.1) h
    rcases j with d | q <;> rcases j' with d' | q' <;> exact this
  subst h1
  rcases j with d | q <;> rcases j' with d' | q'
  · have h2 : d = d' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma q : SemLoc sig) = SemLoc.dma q' := congrArg (fun x : GSem nD τ sig × ℕ × Fin 3 => x.1.2) h
    rw [SemLoc.dma.inj h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  bigSep Finset.univ fun j : Fin 3 ⊕ DmaSem sig => dutyTok ER (tokOf (c, j)).1 (tokOf (c, j)).2.1 (tokOf (c, j)).2.2

/-- What the launch element deals device c. -/
def G (c : Dev nD) : sProp 𝕄 :=
  iprop((bigSep Finset.univ fun k : Fin 66 => roundState ER (Rd m) (kcell (c, k)) 0)
    ∗ (bigSep Finset.univ fun k : Fin 66 => iprop(atPos ER (kcell (c, k)) 0 ∅ 0 ∗ reached ER (kcell (c, k)) 0)) ∗ toks (F := F) c)

/-- What the global step makes of it. -/
def G' (c : Dev nD) : sProp 𝕄 := iprop(∃ K, ghost m K c)

/-! ## Funding -/

omit [FloatOps F] in
/-- The launch element of the protocol's algebra is every cell's round state, position and reached-round-0 fact, and
    every duty's token, grouped by device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## A device's 66 cells, and its 65 DMA cells, sorted by role -/

/-- The 65 DMA semaphores are the local copy's, the 32 sends' and the 32 receives'. -/
def dmaEquiv : Unit ⊕ Slot ⊕ Slot ≃ DmaSem sig where
  toFun := Sum.elim (fun _ => locSem) (Sum.elim sendSem recvSem)
  invFun q := if q.val = 0 then .inl () else if 33 ≤ q.val then .inr (.inr ⟨(q.val - 33) % 32, Nat.mod_lt _ (by decide)⟩) else .inr (.inl (slotOfSend q.val))
  left_inv := by intro x; revert x; decide
  right_inv := by intro x; revert x; decide

/-- A device's 66 cells are its barrier cell and its 65 DMA cells. -/
def cellEquiv : Unit ⊕ DmaSem sig ≃ Fin 66 where
  toFun := Sum.elim (fun _ => kBar) kDma
  invFun k := if h : k.val = 0 then .inl () else .inr ⟨k.val - 1, by have := k.isLt; show k.val - 1 < 65; omega⟩
  left_inv := by intro x; revert x; decide
  right_inv := by intro x; revert x; decide

omit [FloatOps F] in
theorem bigSep_dma (Φ : DmaSem sig → sProp 𝕄) :
    bigSep Finset.univ Φ = iprop(Φ locSem ∗ (bigSep Finset.univ fun s : Slot => Φ (sendSem s)) ∗ bigSep Finset.univ fun s : Slot => Φ (recvSem s)) := by
  rw [bigSep_univ_equiv dmaEquiv Φ, bigSep_univ_sum, bigSep_univ_sum, bigSep_univ_of_subsingleton ()]
  rfl

omit [FloatOps F] in
theorem bigSep_cells (c : Dev nD) (Φ : GSem nD τ sig → sProp 𝕄) :
    (bigSep Finset.univ fun k : Fin 66 => Φ (kcell (c, k)))
      = iprop(Φ (barCell c) ∗ bigSep Finset.univ fun q : DmaSem sig => Φ ((c : Thread nD τ), SemLoc.dma q)) := by
  rw [bigSep_univ_equiv cellEquiv (fun k : Fin 66 => Φ (kcell (c, k))), bigSep_univ_sum, bigSep_univ_of_subsingleton ()]
  rfl

/-! ## The global step, device by device: every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [bigSep_cells c (fun g => semVal g 0), unscopedSems0_eq]
  exact BI.sep_comm

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k : Fin 66 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to their payers -/

/-- Device c's positions, at round 0 of each of its cells. -/
def posOf (c : Dev nD) : sProp 𝕄 :=
  iprop(atPos ER (barCell c) 0 ∅ 0 ∗ atPos ER (locCell c) 0 ∅ 0
    ∗ (bigSep Finset.univ fun s : Slot => atPos ER (sendCell c s) 0 ∅ 0)
    ∗ (bigSep Finset.univ fun s : Slot => atPos ER (recvCell c s) 0 ∅ 0))
/-- The tokens of the duties on device c's own cells, sorted by cell. -/
def ownToks (c : Dev nD) : sProp 𝕄 :=
  iprop((bigSep Finset.univ fun d : Fin 3 => dutyTok ER (barCell c) 0 d)
    ∗ dutyTok ER (locCell c) 0 0
    ∗ (bigSep Finset.univ fun s : Slot => dutyTok ER (sendCell c s) 0 0)
    ∗ (bigSep Finset.univ fun s : Slot => dutyTok ER (recvCell c s) 0 0))
/-- The tokens of the duties device c PAYS: on each neighbour's barrier, on its own local and send cells, and on
    the receive cell of each slot's peer. -/
def payToks (c : Dev nD) : sProp 𝕄 :=
  iprop((bigSep Finset.univ fun d : Fin 3 => dutyTok ER (barCell (nb d c)) 0 d)
    ∗ dutyTok ER (locCell c) 0 0
    ∗ (bigSep Finset.univ fun s : Slot => dutyTok ER (sendCell c s) 0 0)
    ∗ (bigSep Finset.univ fun s : Slot => dutyTok ER (recvCell (peer s c) s) 0 0))

omit [FloatOps F] in
theorem toks_eq (c : Dev nD) : (toks c : sProp 𝕄) = ownToks c := by
  unfold toks ownToks
  rw [bigSep_univ_sum, bigSep_dma]; rfl

omit [FloatOps F] in
theorem pos_eq (c : Dev nD) : (bigSep Finset.univ fun k : Fin 66 => (atPos ER (kcell (c, k)) 0 ∅ 0 : sProp 𝕄)) = posOf c := by
  unfold posOf
  rw [bigSep_cells c (fun g => atPos ER g 0 ∅ 0), bigSep_dma]

def nbE (d : Fin 3) : Dev nD ≃ Dev nD := ⟨nb d, nb d, nb_nb d, nb_nb d⟩
def peerE (s : Slot) : Dev nD ≃ Dev nD := ⟨peer s, peer s, peer_peer s, peer_peer s⟩

omit [FloatOps F] in
/-- A family indexed by device and by j, regrouped along one permutation of the devices per j. -/
theorem bigSep_deal {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [bigSep_univ_comm Φ, bigSep_univ_comm (fun c j => Φ (e j c) j)]
  exact bigSep_congr fun j _ => bigSep_univ_equiv (e j) (fun c => Φ c j)

omit [FloatOps F] in
/-- All devices' tokens, dealt: a barrier duty's and a receive duty's token go to the neighbour that pays it. -/
theorem toks_around : (bigSep Finset.univ fun c : Dev nD => (toks c : sProp 𝕄)) ⊢ bigSep Finset.univ fun c : Dev nD => payToks c := by
  have h : (bigSep Finset.univ fun c : Dev nD => (toks c : sProp 𝕄)) = bigSep Finset.univ fun c : Dev nD => payToks c := by
    rw [bigSep_congr (fun c _ => toks_eq c)]
    unfold ownToks payToks
    rw [bigSep_sep', bigSep_sep', bigSep_sep', bigSep_sep', bigSep_sep', bigSep_sep',
      bigSep_deal nbE (fun c d => (dutyTok ER (barCell c) 0 d : sProp 𝕄)),
      bigSep_deal peerE (fun c s => (dutyTok ER (recvCell c s) 0 0 : sProp 𝕄))]
    rfl
  exact Entails.of_eq h

omit [FloatOps F] in
theorem ghost_intro (K : Dev nD × Fin 66 → ℕ) (c : Dev nD) : iprop(records m K ∗ posOf c ∗ payToks c) ⊢ G' m c := by
  unfold posOf payToks G' ghost
  simp only [bigSep_sep']
  iintro ⟨#HR, ⟨HaB, HaL, HaS, HaV⟩, HtB, HtL, HtS, HtV⟩
  iexists K
  isplitr; · iexact HR
  isplitl [HaB]; · iexact HaB
  isplitl [HaL]; · iexact HaL
  isplitl [HtL]; · iexact HtL
  isplitl [HaV]; · iexact HaV
  isplitl [HtS HtV HaS]
  · isplitl [HtS]; · iexact HtS
    isplitl [HtV]; · iexact HtV
    iexact HaS
  iexact HtB

omit [FloatOps F] in
theorem regroup :
    (bigSep Finset.univ fun c : Dev nD => iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (Rd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) payToks).symm).trans
      (bigSep_mono fun c _ => show _ ⊢ iprop(posOf c ∗ payToks c) from Entails.of_eq (by rw [pos_eq])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.AG

end
-- ==== Proof.Launch.lean ====
/-
  The launch: the protocol's ghost state funded and dealt to the devices, each device's start assembled, and the
  run of @main on the whole mesh with every device's final arrays named.
-/
import proofs.«900662_g7700000000000663_dist_ag_v7x_xyz2x2x2_x_m4096_n1024_f32_1_alg».proof.Proof.Body
import proofs.«900662_g7700000000000663_dist_ag_v7x_xyz2x2x2_x_m4096_n1024_f32_1_alg».proof.Proof.SchedTables
import proofs.«900662_g7700000000000663_dist_ag_v7x_xyz2x2x2_x_m4096_n1024_f32_1_alg».proof.Proof.Levels
import proofs.«900662_g7700000000000663_dist_ag_v7x_xyz2x2x2_x_m4096_n1024_f32_1_alg».proof.Proof.Geom
import proofs.«900662_g7700000000000663_dist_ag_v7x_xyz2x2x2_x_m4096_n1024_f32_1_alg».proof.Proof.Fund
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The layout facts the launch takes -/

theorem ownSemFacts : Pipeline.OwnSemFacts cfg0.spec osem := by decide

theorem share_eq (c : Dev nD) (w : Fin cfg0.W) : (dats m 0 c).share w = fullShare := w.elim0

omit [FloatOps F] in
/-- The own semaphores at zero are the 65 DMA semaphores at zero. -/
theorem ownSems0_all (c : Dev nD) : (Pipeline.ownSems0 (Ix := Unit) (Name := ℕ) (U := UU) (Lvl := ℕ) (Val := Elt F) (τ := τ) osem c : sProp 𝕄)
    = bigSep Finset.univ fun q : DmaSem sig => semVal ((c : Thread nD τ), SemLoc.dma q) 0 := rfl

omit [FloatOps F] in
/-- The whole input block as a plain points-to. -/
theorem xPts_plain (c : Dev nD) (q : PosShare TreeShare) :
    xPts m c q = (((c : Thread nD τ).loc main_arg0) ↦{q} xin m c : sProp 𝕄) := by
  unfold xPts; rw [View.set_whole]

/-- What a device has after the launch has dealt the ghost state and before the arrays are cut: its start and its two
    arrays whole at their launch contents. -/
def X₀ (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(X₀ m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  imodintro
  unfold X₀ start
  isplitl
  · isplitl [HG H3 HN Hlev]
    · isplitl [HG]; · iexact HG
      isplitl [H3]; · iexact H3
      isplitl [HN]; · iexact HN
      iexact Hlev
    · isplitl [Hx] <;> iassumption
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀
  iintro ⟨⟨Hs, Hx, Ho⟩, -, -⟩
  isplitl [Hs]; · iexact Hs
  isplitl [Hx]
  · rw [xPts_plain]; iexact Hx
  · iexists (m ((c : Thread nD τ).loc main_v1)); iexact Ho

theorem phi1_exit (c : Dev nD) :
    (dats m 0 c).Φ (Fin.last cfg0.N) ⊢ iprop(outFinal m c ∗ Pipeline.ownSems0 osem c ∗ Pipeline.scopedRest cfg0.spec c) := by
  rw [show (dats m 0 c).Φ (Fin.last cfg0.N) = Φ₁ m c from rfl, scopedRest0_eq, ownSems0_all]
  unfold Φ₁
  iintro ⟨Ho, Hz⟩
  isplitl [Ho]; · iexact Ho
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w s t => w.elim0

omit [FloatOps F] in
/-- The final pieces against the state interpretation: both arrays read off, the interpretation kept. -/
theorem final_pin (c : Dev nD) (s' : Phys nD τ sig (Elt F)) :
    iprop(outFinal m c ∗ emp ∗ SI s') ⊢ (|={Set.univ}=> iprop(⌜s'.mem.mem ((c : Thread nD τ).loc main_v1) = Wout m c
      ∧ s'.mem.mem ((c : Thread nD τ).loc main_arg0) = m ((c : Thread nD τ).loc main_arg0)⌝ ∗ SI s') : sProp 𝕄) := by
  iintro ⟨HY, -, HSI⟩
  ihave H := (persistent_entails_right (final_read m c s')) $$ [HY HSI]
  · isplitl [HY] <;> iassumption
  icases H with ⟨%h, -, HSI⟩
  imodintro
  isplitr; · ipureintro; exact h
  iexact HSI

/-! ## The run -/

/-- At the compiled mesh, from any memory with every semaphore at zero: every weakly fair execution of @main terminates,
    nothing faults, and in every final state each device's result array holds its final contents and its input block
    what it held. -/
theorem run_main : θ_run defs (onTc (τ := τ) (main (F := F))) ⟨m, fun _ => 0, ρ⟩
    (fun r => ∀ c : Dev nD, r.2.mem ((c : Thread nD τ).loc main_v1) = Wout m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := X₀ m) (Y := outFinal m) (Z := fun _ => iprop(emp))
    (hX := start_intro m ρ) (hin := phi0_intro m) (hout := phi1_exit m)
    (QY := fun c s => s.mem ((c : Thread nD τ).loc main_v1) = Wout m c
      ∧ s.mem ((c : Thread nD τ).loc main_arg0) = m ((c : Thread nD τ).loc main_arg0))
    (hY := final_pin m)
    (hQ := fun _ h c => (h c).2.2)

end Cert.KernelIdeal.AG

end
-- ==== Proof.Ref.lean ====
/-
  The reference program's run. Its @main performs no operation: on its one device the program has already
  returned, so every execution ends at once in the state it was launched in, and every array still holds its
  launch contents.
-/
import proofs.«900662_g7700000000000663_dist_ag_v7x_xyz2x2x2_x_m4096_n1024_f32_1_alg».proof.Defs
import proofs.«900662_g7700000000000663_dist_ag_v7x_xyz2x2x2_x_m4096_n1024_f32_1_alg».proof.Proof.Gen.ReferenceIdeal
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

/-- The reference's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- @main is the empty line of operations. -/
theorem main_eq (c : Dev nD) : main (F := Ideal) c = seq [] := rfl

/-- From any memory with every semaphore at zero: every weakly fair execution of the reference's @main terminates,
    nothing faults, and in every final state every array of every device holds what it held at launch. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ (d : Dev Cert.ReferenceIdeal.nD) (b : Ref Cert.ReferenceIdeal.sig .tc),
        r.2.mem ((d.tc : Thread Cert.ReferenceIdeal.nD Cert.ReferenceIdeal.τ).loc b) = m' ((d.tc : Thread Cert.ReferenceIdeal.nD Cert.ReferenceIdeal.τ).loc b)) :=
  (θ_run Cert.ReferenceIdeal.defs _ _).mono (fun _ h d b => h d b)
    (run_seq scopedRefs_eq scopedSems_eq defs main (fun _ => []) main_eq (fun _ => trivial) m' g')

end Cert.ReferenceIdeal.RefRun

end
-- ==== Proof.Value.lean ====
/-
  The final contents of a device's result array, read against the whole array of which each device's input block
  is a part. The mesh cuts the 8192 rows in two blocks along its first axis: device c holds rows
  4096 * (c / 4) .. 4096 * (c / 4) + 4095. Row i₀ of the final contents is row i₀ % 4096 of the input block of a
  device whose first mesh coordinate is i₀ / 4096, that is, row i₀ of the whole array: the final contents are the
  whole array, on every device.
-/
import proofs.«900662_g7700000000000663_dist_ag_v7x_xyz2x2x2_x_m4096_n1024_f32_1_alg».proof.Proof.State
import Idealize.ShloMosaic.Lib.Layout
noncomputable section

namespace Cert.KernelIdeal.AG

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The device a row is attributed to depends on the row only through its chunk of 128 rows. -/
private theorem srcDev_same_chunk (c : Dev nD) (t k : ℕ) (hk : k < 128) : srcDev c (128 * t + k) = srcDev c (128 * t) := by
  have h1 : (128 * t + k) / 4096 = (128 * t) / 4096 := by omega
  have h2 : (128 * t + k) % 4096 / 1024 = (128 * t) % 4096 / 1024 := by omega
  have h3 : (128 * t + k) % 1024 / 128 = (128 * t) % 1024 / 128 := by omega
  simp only [srcDev, h1, h2, h3]

/-- Chunk by chunk: the device a chunk is attributed to holds, of the whole array, the block of 4096 rows the
    chunk lies in. -/
private theorem srcDev_block (c : Dev nD) (t : Fin 64) :
    Layout.meshLin [2, 2, 2] (srcDev c (128 * t.val)).val [0] = (128 * t.val) / 4096 := by revert c t; decide

/-- Row i₀ of the whole array is row i₀ % 4096 of the block held by the device row i₀ is attributed to. -/
private theorem srcDev_row (c : Dev nD) (i0 : ℕ) (hi : i0 < 8192) :
    Layout.meshLin [2, 2, 2] (srcDev c i0).val [0] * 4096 + i0 % 4096 = i0 := by
  have e : srcDev c i0 = srcDev c (128 * (i0 / 128)) := by
    have := srcDev_same_chunk c (i0 / 128) (i0 % 128) (Nat.mod_lt _ (by decide))
    rwa [Nat.div_add_mod] at this
  have hb := srcDev_block c ⟨i0 / 128, by omega⟩
  rw [e, hb]; show 128 * (i0 / 128) / 4096 * 4096 + i0 % 4096 = i0; omega

omit [FloatOps F] in
/-- If every device's input block is its block of the whole array X, every device's final contents are X. -/
theorem Wout_whole (m : (ℓ : Loc nD τ sig) → Buf (Elt F) ℓ) (X : (⟨2, ![8192, 1024]⟩ : Shape).Idx → Elt F .f32)
    (h : ∀ c : Dev nD, m ((c : Thread nD τ).loc main_arg0) = Layout.blockN ⟨2, ![4096, 1024]⟩ ⟨2, ![8192, 1024]⟩ (Layout.meshBlock [2, 2, 2] ![[0], []] c) X) (c : Dev nD) : Wout m c = X := by
  funext i
  unfold Wout
  rw [show xin m (srcDev c (i 0).val) = _ from h (srcDev c (i 0).val), Layout.blockN_apply]
  congr 1
  funext b
  apply Fin.ext
  rw [Layout.TilesN.idx_val]
  match b with
  | ⟨0, _⟩ => exact srcDev_row c (i 0).val (i 0).isLt
  | ⟨1, _⟩ => show 0 * 1024 + (i 1).val = (i 1).val; omega

end Cert.KernelIdeal.AG

end
-- ==== Proof.Claims.lean ====
/-
  The certificate's claims about the idealized kernel and the reference, assembled from the run of the kernel's
  @main on the mesh (each device's result array at its final contents, its input block unchanged), the
  reference's run (nothing changes) and the reading of the final contents as the whole array.
-/
import proofs.«900662_g7700000000000663_dist_ag_v7x_xyz2x2x2_x_m4096_n1024_f32_1_alg».proof.Defs
import proofs.«900662_g7700000000000663_dist_ag_v7x_xyz2x2x2_x_m4096_n1024_f32_1_alg».proof.Proof.Launch
import proofs.«900662_g7700000000000663_dist_ag_v7x_xyz2x2x2_x_m4096_n1024_f32_1_alg».proof.Proof.Ref
import proofs.«900662_g7700000000000663_dist_ag_v7x_xyz2x2x2_x_m4096_n1024_f32_1_alg».proof.Proof.Value
import proofs.«900662_g7700000000000663_dist_ag_v7x_xyz2x2x2_x_m4096_n1024_f32_1_alg».proof.Proof.Gen.ReferenceIdeal
import proofs.«900662_g7700000000000663_dist_ag_v7x_xyz2x2x2_x_m4096_n1024_f32_1_alg».proof.Proof.Gen.Pre_finite_inputs_Kernel
import proofs.«900662_g7700000000000663_dist_ag_v7x_xyz2x2x2_x_m4096_n1024_f32_1_alg».proof.Proof.Gen.Pre_finite_inputs_ReferenceIdeal
noncomputable section

namespace Cert.Proof.AGClaims

open Idealize.ShloMosaic Idealize.SL.Sem

/-- The idealized kernel's run with the result array dropped: its input block ends unchanged on every device. -/
theorem frame_KernelIdeal : Cert.frame_KernelIdeal := fun m g _ =>
  (θ_run Cert.KernelIdeal.defs _ _).mono (fun _ h c => (h c).2) (Cert.KernelIdeal.AG.run_main (F := Ideal) m g)

/-- The reference's run at its one array. -/
theorem frame_ReferenceIdeal : Cert.frame_ReferenceIdeal := fun m g _ =>
  (θ_run Cert.ReferenceIdeal.defs _ _).mono (fun _ h c => h c Cert.ReferenceIdeal.main_arg0) (Cert.ReferenceIdeal.RefRun.ref_run m g)

/-- The idealization rewrote no operation. -/
theorem preserves_Kernel_KernelIdeal : Cert.preserves_Kernel_KernelIdeal := trivial

/-- The all-gather against the identity: the reference returns its argument, the whole array; every device's
    result array ends at its final contents, which are the whole array as soon as each device's input block is
    its block of it. -/
theorem algebraic_KernelIdeal_ReferenceIdeal : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h c).1.trans ?_, (h c).2⟩) (Cert.KernelIdeal.AG.run_main (F := Ideal) m g)
    exact Cert.KernelIdeal.AG.Wout_whole m _ hagree c
  · exact (θ_run Cert.ReferenceIdeal.defs _ _).mono
      (fun _ h => ⟨h 0 Cert.ReferenceIdeal.main_arg0, h 0 Cert.ReferenceIdeal.main_arg0⟩) (Cert.ReferenceIdeal.RefRun.ref_run m' g')

end Cert.Proof.AGClaims

end
-- ==== Proof.Bits.Base.lean ====
/-
  An all-gather of a [8192, 1024] array cut in two row blocks over a 2 x 2 x 2 mesh. Device (x, y, z) holds
  block x and must end holding both. The other block is cut in four quarters of 1024 rows and each quarter
  in eight chunks of 128 rows. A device receives 32 chunks, one per SLOT: quarter f = 2y + z from its
  x-neighbour (slots 0..7), chunks 6, 7 of the opposite quarter 3 - f from the x-neighbour too (8, 9), the
  quarter of its y-neighbour (10..17) and of its z-neighbour (18..25) forwarded by them, and chunks 0..2 and
  3..5 of the opposite quarter forwarded a second time by the y- and the z-neighbour (26..28, 29..31).
  This module fixes the vocabulary: neighbours, slots, the rows a slot covers, semaphore cells, and the final
  contents of a device's result as a function of the initial memory.
-/
import proofs.«900662_g7700000000000663_dist_ag_v7x_xyz2x2x2_x_m4096_n1024_f32_1_alg».proof.Proof.Gen.Kernel
import proofs.«900662_g7700000000000663_dist_ag_v7x_xyz2x2x2_x_m4096_n1024_f32_1_alg».proof.Proof.Gen.Kernel.Skeleton
import proofs.«900662_g7700000000000663_dist_ag_v7x_xyz2x2x2_x_m4096_n1024_f32_1_alg».proof.Proof.Gen.Kernel.Launch
import proofs.«900662_g7700000000000663_dist_ag_v7x_xyz2x2x2_x_m4096_n1024_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh: coordinates and the three neighbours -/

/-- Device c sits at (c / 4, c / 2 % 2, c % 2). -/
def cx (c : Dev nD) : ℕ := c.val / 4
def cy (c : Dev nD) : ℕ := (c.val / 2) % 2
def cz (c : Dev nD) : ℕ := c.val % 2

/-- The neighbour along each axis: the device whose coordinate on that axis is the other one. -/
def xp (c : Dev nD) : Dev nD := ⟨(c.val + 4) % 8, Nat.mod_lt _ (by decide)⟩
def yp (c : Dev nD) : Dev nD := ⟨4 * (c.val / 4) + (c.val + 2) % 4, by have h : c.val < 8 := c.isLt; show _ < 8; omega⟩
def zp (c : Dev nD) : Dev nD := ⟨2 * (c.val / 2) + (c.val + 1) % 2, by have h : c.val < 8 := c.isLt; show _ < 8; omega⟩

/-- Direction 0, 1, 2 = along x, y, z. -/
def nb (d : Fin 3) (c : Dev nD) : Dev nD := match d with | 0 => xp c | 1 => yp c | 2 => zp c

theorem nb_nb (d : Fin 3) (c : Dev nD) : nb d (nb d c) = c := by revert d c; decide
theorem nb_ne (d : Fin 3) (c : Dev nD) : nb d c ≠ c := by revert d c; decide
theorem nb_inj (d d' : Fin 3) (c : Dev nD) (h : nb d c = nb d' c) : d = d' := by revert d d' c; decide

/-! ## Slots -/

/-- The 32 chunks a device receives. -/
abbrev Slot : Type := Fin 32

def sRx (j : Fin 8) : Slot := ⟨j.val, by omega⟩
def sRmx (i : Fin 2) : Slot := ⟨8 + i.val, by omega⟩
def sRy (j : Fin 8) : Slot := ⟨10 + j.val, by omega⟩
def sRz (j : Fin 8) : Slot := ⟨18 + j.val, by omega⟩
def sRmy (i : Fin 3) : Slot := ⟨26 + i.val, by omega⟩
def sRmz (i : Fin 3) : Slot := ⟨29 + i.val, by omega⟩

/-- The direction a slot's chunk arrives from. -/
def dir (s : Slot) : Fin 3 :=
  if s.val < 10 then 0 else if s.val < 18 then 1 else if s.val < 26 then 2 else if s.val < 29 then 1 else 2

/-- The device that fills slot s of device c (and whose slot s device c fills: the neighbours are involutions). -/
def peer (s : Slot) (c : Dev nD) : Dev nD := nb (dir s) c

theorem peer_peer (s : Slot) (c : Dev nD) : peer s (peer s c) = c := nb_nb _ _

/-- First row, in the receiver's result array, of the chunk of slot s on device c. -/
def rowOf (c : Dev nD) (s : Slot) : ℕ :=
  let fb := 4096 * (1 - cx c)
  let f := 2 * cy c + cz c
  let fy := 2 * (1 - cy c) + cz c
  let fz := 2 * cy c + (1 - cz c)
  let mq := 3 - f
  if s.val < 8 then fb + 1024 * f + 128 * s.val
  else if s.val < 10 then fb + 1024 * mq + 128 * (s.val - 8 + 6)
  else if s.val < 18 then fb + 1024 * fy + 128 * (s.val - 10)
  else if s.val < 26 then fb + 1024 * fz + 128 * (s.val - 18)
  else if s.val < 29 then fb + 1024 * mq + 128 * (s.val - 26)
  else fb + 1024 * mq + 128 * (s.val - 29 + 3)

theorem rowOf_inb (c : Dev nD) (s : Slot) : ∀ a, (![rowOf c s, 0] : Fin 2 → ℕ) a + S128x1024.size a ≤ S8192x1024.size a := by
  revert c s; decide

/-- First row of the device's own block. -/
def ownRow (c : Dev nD) : ℕ := 4096 * cx c
theorem ownRow_inb (c : Dev nD) : ∀ a, (![ownRow c, 0] : Fin 2 → ℕ) a + S4096x1024.size a ≤ S8192x1024.size a := by
  revert c; decide

/-- For the two slots filled straight from the x-neighbour's input block: first row of the chunk in that block. -/
def srcRowX (c : Dev nD) (s : Slot) : ℕ := rowOf c s - 4096 * (1 - cx c)
theorem srcRowX_inb (c : Dev nD) (s : Slot) : ∀ a, (![srcRowX c s, 0] : Fin 2 → ℕ) a + S128x1024.size a ≤ S4096x1024.size a := by
  revert c s; decide

/-! ## Memrefs -/

abbrev xM : Memref sig .tc .hbm S4096x1024 .f32 := Memref.whole main_arg0
abbrev oM : Memref sig .tc .hbm S8192x1024 .f32 := Memref.whole main_v1

/-- The chunk of slot s in device c's result array. -/
abbrev slotRect (c : Dev nD) (s : Slot) : Rect S8192x1024 := Rect.unit (s := S8192x1024) ![rowOf c s, 0] S128x1024.size (rowOf_inb c s)
abbrev outSl (c : Dev nD) (s : Slot) : Memref sig .tc .hbm S128x1024 .f32 := oM.slice (slotRect c s) (fun _ => rfl)
/-- The device's own block in its result array. -/
abbrev ownRect (c : Dev nD) : Rect S8192x1024 := Rect.unit (s := S8192x1024) ![ownRow c, 0] S4096x1024.size (ownRow_inb c)
abbrev ownSl (c : Dev nD) : Memref sig .tc .hbm S4096x1024 .f32 := oM.slice (ownRect c) (fun _ => rfl)
/-- The chunk of the INPUT block of device c' = the x-neighbour that fills slot s (s < 10) of device c. -/
abbrev inRect (c : Dev nD) (s : Slot) : Rect S4096x1024 := Rect.unit (s := S4096x1024) ![srcRowX c s, 0] S128x1024.size (srcRowX_inb c s)
abbrev inSl (c : Dev nD) (s : Slot) : Memref sig .tc .hbm S128x1024 .f32 := xM.slice (inRect c s) (fun _ => rfl)

/-- Slices of one memref at equal offsets are one memref. -/
theorem slice_unit_congr {s : Shape} {e : EltTy} {sp : Space} (M : Memref sig .tc sp s e) {off off' : Fin s.rank → ℕ} (h : off = off')
    (sz : Fin s.rank → ℕ) (inb : ∀ a, off a + sz a ≤ s.size a) (inb' : ∀ a, off' a + sz a ≤ s.size a)
    (hs : ∀ a, (Rect.unit (s := s) off sz inb).stride a = 1) (hs' : ∀ a, (Rect.unit (s := s) off' sz inb').stride a = 1) :
    M.slice (Rect.unit (s := s) off sz inb) hs = M.slice (Rect.unit (s := s) off' sz inb') hs' := by
  subst h; rfl

/-! ## Semaphore cells -/

abbrev barS : Sem sig := (SemArray.scalar (sig.barrier 0 rfl) : Sems sig S_).sem
/-- The DMA semaphores: 0 the local copy's, 1..32 the sends', 33..64 the receives' (33 + slot). -/
def locSem : DmaSem sig := ⟨0, by decide⟩
def recvSem (s : Slot) : DmaSem sig := ⟨33 + s.val, by have := s.isLt; show 33 + s.val < 65; omega⟩
def sendIdx (s : Slot) : ℕ := if s.val < 18 then s.val + 1 else if s.val < 26 then s.val + 4 else if s.val < 29 then s.val - 7 else s.val + 1
/-- The send semaphore, on the SENDER, of the transfer into slot s of its peer. -/
def sendSem (s : Slot) : DmaSem sig := ⟨sendIdx s, by have := s.isLt; show sendIdx s < 65; unfold sendIdx; split_ifs <;> omega⟩

abbrev barCell (c : Dev nD) : GSem nD τ sig := ((c : Thread nD τ), .reg barS)
abbrev locCell (c : Dev nD) : GSem nD τ sig := ((c : Thread nD τ), .dma locSem)
abbrev recvCell (c : Dev nD) (s : Slot) : GSem nD τ sig := ((c : Thread nD τ), .dma (recvSem s))
abbrev sendCell (c : Dev nD) (s : Slot) : GSem nD τ sig := ((c : Thread nD τ), .dma (sendSem s))

/-- Units of one chunk's transfer, and of the own block's. -/
abbrev N : ℕ := (outSl (0 : Dev nD) (0 : Slot)).view.dmaCredit
abbrev NL : ℕ := (ownSl (0 : Dev nD)).view.dmaCredit

/-! ## The final contents -/

/-- The device whose input block holds row i₀ of device c's final result: c itself on its own block; on the
    other block the device (1 - x, q / 2, q % 2) of the row's quarter q, except chunks 6 and 7 of the
    opposite quarter, which come straight from the x-neighbour. -/
def srcDev (c : Dev nD) (i0 : ℕ) : Dev nD :=
  let b := i0 / 4096
  let q := (i0 % 4096) / 1024
  let j := (i0 % 1024) / 128
  if b = cx c then c
  else if q = 3 - (2 * cy c + cz c) ∧ 6 ≤ j then xp c
  else ⟨(4 * (1 - cx c) + q) % 8, Nat.mod_lt _ (by decide)⟩

end Cert.Kernel.AG

end
-- ==== Proof.Bits.Sched.lean ====
/-
  The protocol as a schedule of rounds. Every semaphore cell has ONE round.
  The barrier cell of a device has three duties of one unit, one per neighbour: the neighbour along axis d
  signals it and hands over, with the signal, the chunks of ITS OWN result array that this device will write
  (the slots whose direction is d), at arbitrary contents.
  A receive cell has one duty, the chunk's transfer; what lands is the chunk at its FINAL contents.
  A send cell has one duty, paid by the same transfer; it returns the share of the source that was read.
  The local copy's cell returns the own block at its final contents and the share of the input block read.
-/
import proofs.«900662_g7700000000000663_dist_ag_v7x_xyz2x2x2_x_m4096_n1024_f32_1_alg».proof.Proof.Bits.Base
import Idealize.ShloMosaic.Lib.ValueIdx
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device c's input block as launched. -/
abbrev xin (c : Dev nD) : Buf (Elt F) ((c : Thread nD τ).loc main_arg0) := m ((c : Thread nD τ).loc main_arg0)

/-- The final contents of device c's result: row i₀ is row i₀ % 4096 of the input block of srcDev c i₀. -/
def Wout (c : Dev nD) : Buf (Elt F) ((c : Thread nD τ).loc main_v1) := fun i =>
  xin m (srcDev c (i 0).val) (ValueIdx.ix2 (⟨(i 0).val % 4096, Nat.mod_lt _ (by decide)⟩ : Fin 4096) (i 1))

/-! ## Points-to assertions of the pieces -/

/-- The chunk of slot s in device c's result, at contents f. -/
def slotPts (c : Dev nD) (s : Slot) (q : PosShare TreeShare) (f : Buf (Elt F) ((c : Thread nD τ).loc main_v1)) : sProp 𝕄 :=
  (outSl c s).view.loc (c : Thread nD τ) ↦[(outSl c s).view.set]{q} f
/-- The own block in device c's result. -/
def ownPts (c : Dev nD) (f : Buf (Elt F) ((c : Thread nD τ).loc main_v1)) : sProp 𝕄 :=
  (ownSl c).view.loc (c : Thread nD τ) ↦[(ownSl c).view.set]{fullShare} f
/-- The chunk of device c's INPUT block that fills slot s (s < 10) of its x-neighbour. -/
def inPts (c : Dev nD) (s : Slot) (q : PosShare TreeShare) : sProp 𝕄 :=
  (inSl (xp c) s).view.loc (c : Thread nD τ) ↦[(inSl (xp c) s).view.set]{q} xin m c
/-- The whole input block. -/
def xPts (c : Dev nD) (q : PosShare TreeShare) : sProp 𝕄 :=
  (xM : Memref sig .tc .hbm S4096x1024 .f32).view.loc (c : Thread nD τ) ↦[(xM : Memref sig .tc .hbm S4096x1024 .f32).view.set]{q} xin m c

/-! ## Which own chunk a forward reads, and at which share -/

/-- For s ≥ 10: the own slot whose chunk the transfer into the peer's slot s reads (10 + j and 18 + j read own j;
    26 + i reads own 18 + i; 29 + i reads own 13 + i). -/
def fwdSrc (s : Slot) : Slot :=
  if h : s.val < 18 then ⟨s.val - 10, by omega⟩ else if h2 : s.val < 26 then ⟨s.val - 18, by omega⟩
  else if h3 : s.val < 29 then ⟨s.val - 26 + 18, by omega⟩ else ⟨s.val - 29 + 13, by have := s.isLt; omega⟩
/-- The two forwards of one chunk each read half of it; the second-hop forwards read the whole. -/
def fwdShare (s : Slot) : PosShare TreeShare :=
  if s.val < 18 then fullShare.left else if s.val < 26 then fullShare.right else fullShare

/-- The slots filled from direction d. -/
def slotsOf (d : Fin 3) : Finset Slot := Finset.univ.filter fun s => dir s = d

/-! ## Payloads -/

/-- With its barrier signal the neighbour along d hands device c the chunks of its own result that c fills. -/
def barPay (c : Dev nD) (d : Fin 3) : sProp 𝕄 :=
  bigSep (slotsOf d) fun s => iprop(∃ f, slotPts (F := F) (nb d c) s fullShare f)
def recvPay (c : Dev nD) (s : Slot) : sProp 𝕄 := slotPts c s fullShare (Wout m c)
def sendPay (c : Dev nD) (s : Slot) : sProp 𝕄 :=
  if s.val < 10 then inPts m c s fullShare.right else slotPts c (fwdSrc s) (fwdShare s) (Wout m c)
def locPay (c : Dev nD) : sProp 𝕄 := iprop(ownPts c (Wout m c) ∗ xPts m c fullShare.left)

/-- The slot whose transfer pays send semaphore q (1 ≤ q ≤ 32): the inverse of sendIdx. -/
def slotOfSend (q : ℕ) : Slot :=
  if q < 19 then ⟨(q - 1) % 32, Nat.mod_lt _ (by decide)⟩ else if q < 22 then ⟨(q + 7) % 32, Nat.mod_lt _ (by decide)⟩
  else if q < 30 then ⟨(q - 4) % 32, Nat.mod_lt _ (by decide)⟩ else ⟨(q - 1) % 32, Nat.mod_lt _ (by decide)⟩

theorem slotOfSend_sendIdx (s : Slot) : slotOfSend (sendIdx s) = s := by revert s; decide

/-- The payload of a DMA cell of device c, by the semaphore's index. -/
def dmaPay (c : Dev nD) (q : ℕ) : sProp 𝕄 :=
  if q = 0 then locPay m c else if 33 ≤ q then recvPay m c ⟨(q - 33) % 32, Nat.mod_lt _ (by decide)⟩ else sendPay m c (slotOfSend q)

/-! ## The schedule -/

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => if q.val = 0 then NL else N
  payload g _ d := match g.2 with | .reg _ => barPay g.1.1 d | .dma q => dmaPay m g.1.1 q.val
  amount_pos g _ _ _ := by
    rcases g with ⟨t, sm⟩
    cases sm with
    | reg _ => exact Nat.one_pos
    | dma q =>
      show 0 < (if q.val = 0 then NL else N)
      split
      · exact View.dmaCredit_pos _ (by decide)
      · exact View.dmaCredit_pos _ (by decide)

end Cert.Kernel.AG

end
-- ==== Proof.Bits.State.lean ====
/-
  The assertions the per-device body proof moves between, and what each device owes and at which level each
  cell sits. A device's protocol state is a record of finite sets of slots: which receives are still pending,
  which destination chunks on its peers it holds, which transfers it has not issued yet (these are also the
  receive duties it still owes), which sends are in flight, which own chunks it holds at their final contents,
  which source shares have come back, which input chunks it holds, and which of its cells are closed.
-/
import proofs.«900662_g7700000000000663_dist_ag_v7x_xyz2x2x2_x_m4096_n1024_f32_1_alg».proof.Proof.Bits.Sched
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, indexed for the launch: 0 the barrier, 1 + q the DMA semaphore q -/

def csem (k : Fin 66) : SemLoc sig := if h : k.val = 0 then .reg barS else .dma ⟨k.val - 1, by have := k.isLt; show k.val - 1 < 65; omega⟩
abbrev kcell (ck : Dev nD × Fin 66) : GSem nD τ sig := ((ck.1 : Thread nD τ), csem ck.2)
/-- The kernel's own (scoped) semaphores, as the launch theorem indexes them: the 65 DMA semaphores. -/
abbrev osem : Fin 65 → SemLoc sig := fun q => .dma q

def kBar : Fin 66 := ⟨0, by decide⟩
def kDma (q : DmaSem sig) : Fin 66 := ⟨q.val + 1, by have : q.val < 65 := q.isLt; omega⟩
theorem csem_kBar : csem kBar = .reg barS := rfl
theorem csem_kDma (q : DmaSem sig) : csem (kDma q) = .dma q := by
  unfold csem kDma; rw [dif_neg (by simp)]; rfl

/-- Every cell's invariant, at the names the launch allocated them, and that every cell has reached round 0. -/
def records (K : Dev nD × Fin 66 → ℕ) : sProp 𝕄 :=
  iprop((bigSep Finset.univ fun ck : Dev nD × Fin 66 => cellInv ER (Rd m) (K ck) (kcell ck))
    ∗ bigSep Finset.univ fun ck : Dev nD × Fin 66 => reached ER (kcell ck) 0)

instance records_persistent (K : Dev nD × Fin 66 → ℕ) : BI.Persistent (records m K) := by unfold records; infer_instance

/-! ## What each device owes at launch; the levels -/

/-- The receive duties of the transfers in T that device c has not issued yet. -/
def Otal (c : Dev nD) (T : Finset Slot) : CellTallies nD τ sig Unit := ∑ s ∈ T, tallyAt (recvCell (peer s c) s) () N
/-- The barrier units device c still owes its neighbours along the directions in B. -/
def Obar (c : Dev nD) (B : Finset (Fin 3)) : CellTallies nD τ sig Unit := ∑ d ∈ B, tallyAt (barCell (nb d c)) () 1
def O₀ (c : Dev nD) : CellTallies nD τ sig Unit := Otal c Finset.univ + Obar c Finset.univ

def L (g : GSem nD τ sig) : Finset Unit := if g.1.2 = .tc then {()} else ∅
/-- A slot's receive cell: the first hop at 1, the forwards at 2, the second-hop forwards at 3. -/
def lvSlot (s : Slot) : ℕ := if s.val < 10 then 1 else if s.val < 26 then 2 else 3
/-- The barrier at 0, a receive cell at its slot's level, every other cell at 0. -/
def lv (g : GSem nD τ sig) (_ : Unit) : ℕ :=
  match g.2 with | .reg _ => 0 | .dma q => if 33 ≤ q.val then lvSlot ⟨(q.val - 33) % 32, Nat.mod_lt _ (by decide)⟩ else 0

/-! ## The body's state -/

/-- How much of a held chunk: 0 the whole share, 1 and 2 its two halves. -/
def shareOf (k : Fin 3) : PosShare TreeShare := match k with | 0 => fullShare | 1 => fullShare.left | 2 => fullShare.right
/-- The share a forward reads its source at, as a code. -/
def fwdCode (s : Slot) : Fin 3 := if s.val < 18 then 1 else if s.val < 26 then 2 else 0
theorem fwdShare_eq (s : Slot) : fwdShare s = shareOf (fwdCode s) := by
  unfold fwdShare fwdCode shareOf; split_ifs <;> rfl

/-- The local copy's stage: 0 not issued (half the input, the own block at any contents, the duty's token and the cell's
    position held), 1 in flight (the credit and the position), 2 landed (the own block at its final contents, half the
    input, the cell closed). -/
def locSt (c : Dev nD) (ph : Fin 3) : sProp 𝕄 := match ph with
  | 0 => iprop(xPts m c fullShare.left ∗ (∃ f, ownPts (F := F) c f) ∗ dutyTok ER (locCell c) 0 0 ∗ atPos ER (locCell c) 0 ∅ 0)
  | 1 => iprop(cred (tallyAt (locCell c) () NL) ∗ atPos ER (locCell c) 0 ∅ 0)
  | 2 => iprop(ownPts c (Wout m c) ∗ xPts m c fullShare.left ∗ semVal (locCell c) 0)

structure BSt where
  Sr : Finset Slot
  Sd : Finset Slot
  St : Finset Slot
  Ss : Finset Slot
  Sl : Finset (Slot × Fin 3)
  Sb : Finset Slot
  Sx : Finset Slot
  Sz : Finset (DmaSem sig)
  lc : Fin 3
  deriving DecidableEq

def BodySt (K : Dev nD × Fin 66 → ℕ) (c : Dev nD) (σ : BSt) : sProp 𝕄 :=
  iprop(records m K ∗ levAts L lv
    ∗ (∃ W, owes (c : Thread nD τ) (Otal c σ.St) W)
    ∗ (bigSep σ.Sr fun s => iprop(cred (tallyAt (recvCell c s) () N) ∗ atPos ER (recvCell c s) 0 ∅ 0))
    ∗ (bigSep σ.Sd fun s => iprop(∃ f, slotPts (F := F) (peer s c) s fullShare f))
    ∗ (bigSep σ.St fun s => iprop(dutyTok ER (sendCell c s) 0 0 ∗ dutyTok ER (recvCell (peer s c) s) 0 0 ∗ atPos ER (sendCell c s) 0 ∅ 0))
    ∗ (bigSep σ.Ss fun s => iprop(cred (tallyAt (sendCell c s) () N) ∗ atPos ER (sendCell c s) 0 ∅ 0))
    ∗ (bigSep σ.Sl fun p => slotPts c p.1 (shareOf p.2) (Wout m c))
    ∗ (bigSep σ.Sb fun s => sendPay m c s)
    ∗ (bigSep σ.Sx fun s => inPts m c s fullShare.right)
    ∗ (bigSep σ.Sz fun q => semVal ((c : Thread nD τ), SemLoc.dma q) 0)
    ∗ locSt m c σ.lc)

/-! ## What a device starts from, and ends with -/

/-- The protocol's ghost state of device c at launch: the records; its positions at round 0 of all its cells;
    the tokens of the duties it pays — the local copy's, for each slot its own send duty and its peer's receive
    duty, and its duty on each neighbour's barrier. -/
def ghost (K : Dev nD × Fin 66 → ℕ) (c : Dev nD) : sProp 𝕄 :=
  iprop(records m K
    ∗ atPos ER (barCell c) 0 ∅ 0
    ∗ atPos ER (locCell c) 0 ∅ 0 ∗ dutyTok ER (locCell c) 0 0
    ∗ (bigSep Finset.univ fun s : Slot => atPos ER (recvCell c s) 0 ∅ 0)
    ∗ (bigSep Finset.univ fun s : Slot => iprop(dutyTok ER (sendCell c s) 0 0 ∗ dutyTok ER (recvCell (peer s c) s) 0 0 ∗ atPos ER (sendCell c s) 0 ∅ 0))
    ∗ (bigSep Finset.univ fun d : Fin 3 => dutyTok ER (barCell (nb d c)) 0 d))

/-- With it: the credit for its barrier's three units and for each receive cell's chunk, and the level facts. -/
def start (c : Dev nD) : sProp 𝕄 :=
  iprop((∃ K, ghost m K c) ∗ cred (tallyAt (barCell c) () 3) ∗ (bigSep Finset.univ fun s : Slot => cred (tallyAt (recvCell c s) () N)) ∗ levAts L lv)

/-- Before the body: that, and both arrays whole, the input at its launch contents, the result at any. -/
def Φ₀ (c : Dev nD) : sProp 𝕄 :=
  iprop(start m c ∗ xPts m c fullShare ∗ ∃ f : Buf (Elt F) ((c : Thread nD τ).loc main_v1), (((c : Thread nD τ).loc main_v1) ↦{fullShare} f))

/-- The slots whose chunk is never forwarded: they stay held at the full share. -/
def keptSlots : Finset Slot := Finset.univ.filter fun s => (8 ≤ s.val ∧ s.val < 13) ∨ (16 ≤ s.val ∧ s.val < 18) ∨ (21 ≤ s.val)
/-- The result array covered piece by piece at its final contents (some pieces at a half share), and half of the input. -/
def outFinal (c : Dev nD) : sProp 𝕄 :=
  iprop(ownPts c (Wout m c) ∗ (bigSep keptSlots fun s => slotPts c s fullShare (Wout m c))
    ∗ (bigSep (Finset.univ.filter fun s : Slot => 10 ≤ s.val) fun s => sendPay m c s) ∗ xPts m c fullShare.left)
/-- After the body: that, and every own DMA semaphore back at zero. -/
def Φ₁ (c : Dev nD) : sProp 𝕄 :=
  iprop(outFinal m c ∗ bigSep Finset.univ fun q : DmaSem sig => semVal ((c : Thread nD τ), SemLoc.dma q) 0)

end Cert.Kernel.AG

end
-- ==== Proof.Bits.SchedTables.lean ====
/-
  The schedule read cell by cell: duties, amounts, what a round expects, payloads, and the payloads of a whole round.
-/
import proofs.«900662_g7700000000000663_dist_ag_v7x_xyz2x2x2_x_m4096_n1024_f32_1_alg».proof.Proof.Bits.State
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A send semaphore's index is never 0 (that index is the local copy's). -/
private theorem sendIdx_ne_zero (s : Slot) : sendIdx s ≠ 0 := by revert s; decide
/-- A send semaphore's index stays below the receive semaphores' range. -/
private theorem sendIdx_not_ge (s : Slot) : ¬ 33 ≤ sendIdx s := by revert s; decide

section Tables
variable (c : Dev nD)

omit [FloatOps F] in
theorem duties_bar : (Rd (F := F) m).duties (barCell c) 0 = Finset.univ := by
  dsimp only [Rd]; exact if_pos ⟨rfl, rfl⟩
omit [FloatOps F] in
theorem duties_dma (q : DmaSem sig) : (Rd (F := F) m).duties ((c : Thread nD τ), .dma q) 0 = {0} := by
  dsimp only [Rd]; exact if_pos ⟨rfl, rfl⟩
omit [FloatOps F] in
theorem duties_later (g : GSem nD τ sig) : ∀ r, 1 ≤ r → (Rd (F := F) m).duties g r = ∅ := by
  intro r hr
  dsimp only [Rd]
  exact if_neg (fun h => by have := h.1; omega)

omit [FloatOps F] in
theorem amount_bar (d : Fin 3) : (Rd (F := F) m).amount (barCell c) 0 d = 1 := rfl
omit [FloatOps F] in
theorem amount_recv (s : Slot) (d : Fin 3) : (Rd (F := F) m).amount (recvCell c s) 0 d = N := by
  show (if (recvSem s).val = 0 then NL else N) = N
  exact if_neg (by show 33 + s.val ≠ 0; omega)
omit [FloatOps F] in
theorem amount_send (s : Slot) (d : Fin 3) : (Rd (F := F) m).amount (sendCell c s) 0 d = N := by
  show (if (sendSem s).val = 0 then NL else N) = N
  exact if_neg (sendIdx_ne_zero s)
omit [FloatOps F] in
theorem amount_loc (d : Fin 3) : (Rd (F := F) m).amount (locCell c) 0 d = NL := by
  show (if (locSem).val = 0 then NL else N) = NL
  exact if_pos rfl

omit [FloatOps F] in
/-- What a round expects is the sum of its duties' amounts. -/
private theorem expect_eq (g : GSem nD τ sig) (r : ℕ) :
    (Rd (F := F) m).expect g r = ∑ d ∈ (Rd (F := F) m).duties g r, (Rd (F := F) m).amount g r d := rfl

omit [FloatOps F] in
theorem expect_bar : (Rd (F := F) m).expect (barCell c) 0 = 3 := by
  rw [expect_eq, duties_bar]
  simp only [amount_bar, Finset.sum_const, Finset.card_univ, Fintype.card_fin, smul_eq_mul]
omit [FloatOps F] in
theorem expect_recv (s : Slot) : (Rd (F := F) m).expect (recvCell c s) 0 = N := by
  rw [expect_eq, duties_dma, Finset.sum_singleton]
  exact amount_recv m c s 0
omit [FloatOps F] in
theorem expect_send (s : Slot) : (Rd (F := F) m).expect (sendCell c s) 0 = N := by
  rw [expect_eq, duties_dma, Finset.sum_singleton]
  exact amount_send m c s 0
omit [FloatOps F] in
theorem expect_loc : (Rd (F := F) m).expect (locCell c) 0 = NL := by
  rw [expect_eq, duties_dma, Finset.sum_singleton]
  exact amount_loc m c 0

omit [FloatOps F] in
theorem payload_bar (d : Fin 3) : (Rd (F := F) m).payload (barCell c) 0 d = barPay c d := rfl
omit [FloatOps F] in
theorem payload_recv (s : Slot) (d : Fin 3) : (Rd (F := F) m).payload (recvCell c s) 0 d = recvPay m c s := by
  show dmaPay m c (33 + s.val) = recvPay m c s
  unfold dmaPay
  rw [if_neg (by omega), if_pos (by omega)]
  congr 1
  apply Fin.ext
  show (33 + s.val - 33) % 32 = s.val
  have := s.isLt
  omega
omit [FloatOps F] in
theorem payload_send (s : Slot) (d : Fin 3) : (Rd (F := F) m).payload (sendCell c s) 0 d = sendPay m c s := by
  show dmaPay m c (sendIdx s) = sendPay m c s
  unfold dmaPay
  rw [if_neg (sendIdx_ne_zero s), if_neg (sendIdx_not_ge s), slotOfSend_sendIdx]
omit [FloatOps F] in
theorem payload_loc (d : Fin 3) : (Rd (F := F) m).payload (locCell c) 0 d = locPay m c := by
  show dmaPay m c 0 = locPay m c
  unfold dmaPay
  rw [if_pos rfl]

omit [FloatOps F] in
/-- The whole barrier round: the three neighbours' hand-overs. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
omit [FloatOps F] in
theorem rest_recv (s : Slot) : bigSep ((Rd (F := F) m).duties (recvCell c s) 0 \ ∅) (fun d => (Rd (F := F) m).payload (recvCell c s) 0 d) = recvPay m c s := by
  rw [Finset.sdiff_empty, duties_dma, bigSep_singleton, payload_recv]
omit [FloatOps F] in
theorem rest_send (s : Slot) : bigSep ((Rd (F := F) m).duties (sendCell c s) 0 \ ∅) (fun d => (Rd (F := F) m).payload (sendCell c s) 0 d) = sendPay m c s := by
  rw [Finset.sdiff_empty, duties_dma, bigSep_singleton, payload_send]
omit [FloatOps F] in
theorem rest_loc : bigSep ((Rd (F := F) m).duties (locCell c) 0 \ ∅) (fun d => (Rd (F := F) m).payload (locCell c) 0 d) = locPay m c := by
  rw [Finset.sdiff_empty, duties_dma, bigSep_singleton, payload_loc]

end Tables

omit [FloatOps F] in
instance slotPts_storable (c : Dev nD) (s : Slot) (q : PosShare TreeShare) (f : Buf (Elt F) ((c : Thread nD τ).loc main_v1)) :
    BI.Storable (upEmb : UEmb _ 𝕄) (slotPts (F := F) c s q f) := by unfold slotPts; infer_instance
omit [FloatOps F] in
instance ownPts_storable (c : Dev nD) (f : Buf (Elt F) ((c : Thread nD τ).loc main_v1)) :
    BI.Storable (upEmb : UEmb _ 𝕄) (ownPts (F := F) c f) := by unfold ownPts; infer_instance
omit [FloatOps F] in
instance inPts_storable (c : Dev nD) (s : Slot) (q : PosShare TreeShare) :
    BI.Storable (upEmb : UEmb _ 𝕄) (inPts (F := F) m c s q) := by unfold inPts; infer_instance
omit [FloatOps F] in
instance xPts_storable (c : Dev nD) (q : PosShare TreeShare) :
    BI.Storable (upEmb : UEmb _ 𝕄) (xPts (F := F) m c q) := by unfold xPts; infer_instance
omit [FloatOps F] in
instance barPay_storable (c : Dev nD) (d : Fin 3) :
    BI.Storable (upEmb : UEmb _ 𝕄) (barPay (F := F) c d) := by unfold barPay; infer_instance
omit [FloatOps F] in
instance recvPay_storable (c : Dev nD) (s : Slot) :
    BI.Storable (upEmb : UEmb _ 𝕄) (recvPay (F := F) m c s) := by unfold recvPay; infer_instance
omit [FloatOps F] in
instance locPay_storable (c : Dev nD) :
    BI.Storable (upEmb : UEmb _ 𝕄) (locPay (F := F) m c) := by unfold locPay; infer_instance
omit [FloatOps F] in
instance sendPay_storable (c : Dev nD) (s : Slot) :
    BI.Storable (upEmb : UEmb _ 𝕄) (sendPay (F := F) m c s) := by unfold sendPay; split <;> infer_instance
omit [FloatOps F] in
instance dmaPay_storable (c : Dev nD) (q : ℕ) :
    BI.Storable (upEmb : UEmb _ 𝕄) (dmaPay (F := F) m c q) := by
  unfold dmaPay
  split
  · infer_instance
  · split <;> infer_instance

instance Rd_payload_storable (g : GSem nD τ sig) (r : ℕ) (d : Fin 3) :
    BI.Storable (upEmb : UEmb _ 𝕄) ((Rd (F := F) m).payload g r d) := by
  rcases g with ⟨t, sm⟩
  cases sm with
  | reg _ =>
    show BI.Storable upEmb (barPay (F := F) t.1 d)
    infer_instance
  | dma q =>
    show BI.Storable upEmb (dmaPay (F := F) m t.1 q.val)
    infer_instance

end Cert.Kernel.AG

end
-- ==== Proof.Bits.Levels.lean ====
/-
  The deadlock argument's arithmetic: a wait is allowed while everything still owed sits at a higher level; peeling
  one due off what is owed; and the credit each device's cells are funded with at launch.
-/
import proofs.«900662_g7700000000000663_dist_ag_v7x_xyz2x2x2_x_m4096_n1024_f32_1_alg».proof.Proof.Bits.State
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl

omit [FloatOps F] in
theorem Otal_empty (c : Dev nD) : Otal c ∅ = 0 := Finset.sum_empty
omit [FloatOps F] in
theorem Otal_erase (c : Dev nD) (T : Finset Slot) (s : Slot) (hs : s ∈ T) :
    Otal c T = Otal c (T.erase s) + tallyAt (recvCell (peer s c) s) () N := by
  unfold Otal; rw [← Finset.sum_erase_add _ _ hs]
omit [FloatOps F] in
theorem Obar_erase (c : Dev nD) (B : Finset (Fin 3)) (d : Fin 3) (hd : d ∈ B) :
    Obar c B = Obar c (B.erase d) + tallyAt (barCell (nb d c)) () 1 := by
  unfold Obar; rw [← Finset.sum_erase_add _ _ hd]
omit [FloatOps F] in
theorem Obar_empty (c : Dev nD) : Obar c ∅ = 0 := Finset.sum_empty

omit [FloatOps F] in
/-- The barrier cell sits at level 0. -/
theorem lv_bar (c : Dev nD) (u : Unit) : lv (barCell c) u = 0 := rfl
omit [FloatOps F] in
/-- A receive cell sits at its slot's level: semaphore 33 + s decodes back to slot s. -/
theorem lv_recv (c : Dev nD) (s : Slot) (u : Unit) : lv (recvCell c s) u = lvSlot s := by
  have hs := s.isLt
  show (if 33 ≤ 33 + s.val then lvSlot ⟨(33 + s.val - 33) % 32, Nat.mod_lt _ (by decide)⟩ else 0) = lvSlot s
  rw [if_pos (by omega)]
  congr 1
  apply Fin.ext
  show (33 + s.val - 33) % 32 = s.val
  omega
omit [FloatOps F] in
/-- Every slot's level is at least 1, above the barrier's. -/
theorem lvSlot_pos (s : Slot) : 0 < lvSlot s := by revert s; decide
omit [FloatOps F] in
/-- Whatever is still owed among the receive duties of T is owed on the receive cell of some slot of T. -/
theorem Otal_pos (c : Dev nD) (T : Finset Slot) (g : GSem nD τ sig) (i : Unit) (h : 0 < (Otal c T) g i) :
    ∃ t ∈ T, g = recvCell (peer t c) t := by
  unfold Otal at h
  obtain ⟨t, ht, hp⟩ := Pipeline.sum_pos_exists h
  exact ⟨t, ht, (Pipeline.tallyAt_pos hp).1⟩

omit [FloatOps F] in
/-- The barrier wait, every receive duty still owed: the barrier is below them all. -/
theorem mayWait_bar (c : Dev nD) :
    (levAts L lv : sProp 𝕄) ⊢ MayWait (c : Thread nD τ) (.reg barS) () (Otal c Finset.univ) := by
  refine Pipeline.mayWait_of_levAts (by rw [L_tc]; exact Finset.mem_singleton_self _) fun g i hg => ?_
  obtain ⟨t, _, rfl⟩ := Otal_pos c _ g i hg
  refine ⟨by rw [L_tc]; exact Finset.mem_singleton_self _, ?_⟩
  show lv (barCell c) () < lv (recvCell (peer t c) t) i
  rw [lv_bar, lv_recv]; exact lvSlot_pos t
omit [FloatOps F] in
/-- A receive wait while the transfers in T are still owed, all at higher levels. -/
theorem mayWait_recv (c : Dev nD) (s : Slot) (T : Finset Slot) (h : ∀ t ∈ T, lvSlot s < lvSlot t) :
    (levAts L lv : sProp 𝕄) ⊢ MayWait (c : Thread nD τ) (.dma (recvSem s)) () (Otal c T) := by
  refine Pipeline.mayWait_of_levAts (by rw [L_tc]; exact Finset.mem_singleton_self _) fun g i hg => ?_
  obtain ⟨t, ht, rfl⟩ := Otal_pos c _ g i hg
  refine ⟨by rw [L_tc]; exact Finset.mem_singleton_self _, ?_⟩
  show lv (recvCell c s) () < lv (recvCell (peer t c) t) i
  rw [lv_recv, lv_recv]; exact h t ht

omit [FloatOps F] in
/-- The launch credit: three units on the own barrier, a chunk's on every receive cell. -/
theorem creds (c : Dev nD) :
    (Pipeline.launchCred O₀ c : sProp 𝕄) ⊢ iprop(cred (tallyAt (barCell c) () 3) ∗ bigSep Finset.univ fun s : Slot => cred (tallyAt (recvCell c s) () N)) := by
  -- what the devices owe, written as a function of the device: the receive duties plus the barrier units
  have hO : (O₀ : Dev nD → CellTallies nD τ sig Unit)
      = fun d => (∑ s : Slot, tallyAt (recvCell (peer s d) s) () N) + (∑ e : Fin 3, tallyAt (barCell (nb e d)) () 1) := rfl
  -- three single units on the barrier cell are its three units
  have h3 : (cred (tallyAt (barCell c) () 3) : sProp 𝕄) = bigSep Finset.univ fun _ : Fin 3 => cred (tallyAt (barCell c) () 1) := by
    rw [← Pipeline.cred_finsetSum, Fin.sum_univ_three, tallyAt_add, tallyAt_add]
  rw [hO, Pipeline.launchCred_add, Pipeline.launchCred_sum, Pipeline.launchCred_sum, h3]
  refine BI.sep_comm.trans (BI.sep_mono ?_ ?_)
  · exact bigSep_mono fun e _ => Pipeline.launchCred_tallyAt (.reg barS) (nb e) (nb e) (nb_nb e) (nb_nb e) () 1 c
  · exact bigSep_mono fun s _ => Pipeline.launchCred_tallyAt (.dma (recvSem s)) (peer s) (peer s) (peer_peer s) (peer_peer s) () N c

end Cert.Kernel.AG

end
-- ==== Proof.Bits.Chains.lean ====
/-
  The printed program names a peer by an integer chain over the device's own id, and a chunk by an offset chain.
  Here each is tied to the mesh's neighbours and to the slots' rows: a chain whose closed form is the flip of one
  coordinate is that neighbour; an offset chain is the first row of a slot's chunk, on the sender's side seen from
  the receiver it addresses.
-/
import proofs.«900662_g7700000000000663_dist_ag_v7x_xyz2x2x2_x_m4096_n1024_f32_1_alg».proof.Proof.Bits.Base
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem xp_val (c : Dev nD) : (xp c).val = (2 * ((c.val / 2) % 2) + (c.val % 2) + 4) - 4 * (c.val / 4) := by revert c; decide
theorem yp_val (c : Dev nD) : (yp c).val = (4 * (c.val / 4) + (c.val % 2) + 2) - 2 * ((c.val / 2) % 2) := by revert c; decide
theorem zp_val (c : Dev nD) : (zp c).val = (4 * (c.val / 4) + 2 * ((c.val / 2) % 2) + 1) - (c.val % 2) := by revert c; decide

/-- A chain whose closed form flips the x coordinate names the x-neighbour; likewise y and z. -/
theorem dev_x (c : Dev nD) {n : ℕ} (hn : n < nD) (h : n = (2 * ((c.val / 2) % 2) + (c.val % 2) + 4) - 4 * (c.val / 4)) :
    (⟨n, hn⟩ : Dev nD) = xp c := Fin.ext (h.trans (xp_val c).symm)
theorem dev_y (c : Dev nD) {n : ℕ} (hn : n < nD) (h : n = (4 * (c.val / 4) + (c.val % 2) + 2) - 2 * ((c.val / 2) % 2)) :
    (⟨n, hn⟩ : Dev nD) = yp c := Fin.ext (h.trans (yp_val c).symm)
theorem dev_z (c : Dev nD) {n : ℕ} (hn : n < nD) (h : n = (4 * (c.val / 4) + 2 * ((c.val / 2) % 2) + 1) - (c.val % 2)) :
    (⟨n, hn⟩ : Dev nD) = zp c := Fin.ext (h.trans (zp_val c).symm)

theorem xp_eq_peer (c : Dev nD) (s : Slot) (hs : s.val < 10) : xp c = peer s c := by revert c s; decide
theorem peer_x (c : Dev nD) (s : Slot) (hs : s.val < 10) : peer s c = xp c := (xp_eq_peer c s hs).symm
theorem peer_y (c : Dev nD) (s : Slot) (hs : (10 ≤ s.val ∧ s.val < 18) ∨ (26 ≤ s.val ∧ s.val < 29)) : peer s c = yp c := by revert c s; decide
theorem peer_z (c : Dev nD) (s : Slot) (hs : (18 ≤ s.val ∧ s.val < 26) ∨ 29 ≤ s.val) : peer s c = zp c := by revert c s; decide

/-- The slot of chunk r of the opposite quarter: 0..2 arrive from y, 3..5 from z, 6..7 from x. -/
def slot9 (r : Fin 8) : Slot :=
  if h : r.val < 3 then sRmy ⟨r.val, h⟩ else if h2 : r.val < 6 then sRmz ⟨r.val - 3, by omega⟩ else sRmx ⟨r.val - 6, by omega⟩

/-! The sender's offset chains, read at the receiver they address. -/
theorem off1_row (c : Dev nD) (r : Fin 8) : k0_off1 c (BitVec.ofNat 32 (128 * r.val)) = ![rowOf (xp c) (sRx r), 0] :=
  (k0_off1_eq c r).trans (by revert c r; decide)
theorem off2_row (c : Dev nD) (r : Fin 8) : k0_off2 c (BitVec.ofNat 32 (128 * r.val)) = ![srcRowX (xp c) (sRx r), 0] :=
  (k0_off2_eq c r).trans (by revert c r; decide)
theorem off3_row (c : Dev nD) (r : Fin 2) : k0_off3 c (BitVec.ofNat 32 (768 + 128 * r.val)) = ![rowOf (xp c) (sRmx r), 0] :=
  (k0_off3_eq c r).trans (by revert c r; decide)
theorem off4_row (c : Dev nD) (r : Fin 2) : k0_off4 c (BitVec.ofNat 32 (768 + 128 * r.val)) = ![srcRowX (xp c) (sRmx r), 0] :=
  (k0_off4_eq c r).trans (by revert c r; decide)
theorem off5_row (c : Dev nD) : k0_off5 c = ![ownRow c, 0] :=
  (k0_off5_eq c).trans (by revert c; decide)
/-! The receiver's own offset chains. -/
theorem off6_row (c : Dev nD) (r : Fin 8) : k0_off6 c (BitVec.ofNat 32 (128 * r.val)) = ![rowOf c (sRx r), 0] :=
  (k0_off6_eq c r).trans (by revert c r; decide)
theorem off7_row (c : Dev nD) (r : Fin 8) : k0_off7 c (BitVec.ofNat 32 (128 * r.val)) = ![rowOf c (sRz r), 0] :=
  (k0_off7_eq c r).trans (by revert c r; decide)
theorem off8_row (c : Dev nD) (r : Fin 8) : k0_off8 c (BitVec.ofNat 32 (128 * r.val)) = ![rowOf c (sRy r), 0] :=
  (k0_off8_eq c r).trans (by revert c r; decide)
theorem off9_row (c : Dev nD) (r : Fin 8) : k0_off9 c (BitVec.ofNat 32 (128 * r.val)) = ![rowOf c (slot9 r), 0] :=
  (k0_off9_eq c r).trans (by revert c r; decide)

end Cert.Kernel.AG

end
-- ==== Proof.Bits.Geom.lean ====
/-
  Which rows each piece covers; the result array cut into the own block and the 32 chunks, the input block cut
  into a half share of the whole and the ten chunks sent on; and what each copy lands: the chunk, or the own
  block, at its final contents.
-/
import proofs.«900662_g7700000000000663_dist_ag_v7x_xyz2x2x2_x_m4096_n1024_f32_1_alg».proof.Proof.Bits.State
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rows of a piece

A piece is a band of whole rows: membership of an index only asks for its row; the column bound holds of
every index. -/

omit [FloatOps F] in
theorem mem_slotSet (c : Dev nD) (s : Slot) (i : S8192x1024.Idx) :
    i ∈ (outSl c s).view.set ↔ rowOf c s ≤ (i 0).val ∧ (i 0).val < rowOf c s + 128 := by
  have h : (outSl c s).view.set = (slotRect c s).set := View.set_slice_whole _ _
  rw [h, Rect.mem_set_unit, Fin.forall_fin_two]
  constructor
  · intro h; exact h.1
  · intro h; exact ⟨h, Nat.zero_le _, (i 1).isLt⟩
omit [FloatOps F] in
theorem mem_ownSet (c : Dev nD) (i : S8192x1024.Idx) :
    i ∈ (ownSl c).view.set ↔ ownRow c ≤ (i 0).val ∧ (i 0).val < ownRow c + 4096 := by
  have h : (ownSl c).view.set = (ownRect c).set := View.set_slice_whole _ _
  rw [h, Rect.mem_set_unit, Fin.forall_fin_two]
  constructor
  · intro h; exact h.1
  · intro h; exact ⟨h, Nat.zero_le _, (i 1).isLt⟩
omit [FloatOps F] in
theorem mem_inSet (c : Dev nD) (s : Slot) (i : S4096x1024.Idx) :
    i ∈ (inSl c s).view.set ↔ srcRowX c s ≤ (i 0).val ∧ (i 0).val < srcRowX c s + 128 := by
  have h : (inSl c s).view.set = (inRect c s).set := View.set_slice_whole _ _
  rw [h, Rect.mem_set_unit, Fin.forall_fin_two]
  constructor
  · intro h; exact h.1
  · intro h; exact ⟨h, Nat.zero_le _, (i 1).isLt⟩

/-! ## The bands against each other

Facts about first rows only, checked over the eight devices and the slots. -/

/-- Two different chunks of one device's result lie apart. -/
theorem rows_disj (c : Dev nD) (s s' : Slot) (h : s ≠ s') :
    rowOf c s + 128 ≤ rowOf c s' ∨ rowOf c s' + 128 ≤ rowOf c s := by
  revert c s s'; decide
/-- A chunk lies apart from the own block. -/
theorem rows_own_disj (c : Dev nD) (s : Slot) :
    rowOf c s + 128 ≤ ownRow c ∨ ownRow c + 4096 ≤ rowOf c s := by
  revert c s; decide
/-- Each of the 64 bands of 128 rows is inside the own block or is a chunk. -/
theorem rows_cover (c : Dev nD) (k : Fin 64) :
    (ownRow c ≤ 128 * k.val ∧ 128 * k.val + 128 ≤ ownRow c + 4096) ∨ ∃ s : Slot, rowOf c s = 128 * k.val := by
  revert c k; decide
/-- The ten chunks a device sends from its input block lie apart in that block. -/
theorem srcRows_disj (c : Dev nD) (s s' : Slot) (hs : dir s = 0) (hs' : dir s' = 0) (h : s ≠ s') :
    srcRowX c s + 128 ≤ srcRowX c s' ∨ srcRowX c s' + 128 ≤ srcRowX c s := by
  revert c s s'; decide
/-- A chunk that is not kept whole is the one some forward reads. -/
theorem fwd_cover (s : Slot) (h : s ∉ keptSlots) : ∃ t : Slot, 10 ≤ t.val ∧ fwdSrc t = s := by
  revert s; decide

omit [FloatOps F] in
/-- Every index of the result lies in the own block or in a chunk: its row's band of 128 does. -/
theorem row_cover (c : Dev nD) (i : S8192x1024.Idx) :
    i ∈ (ownSl c).view.set ∨ ∃ s : Slot, i ∈ (outSl c s).view.set := by
  have hr : (i 0).val < 8192 := (i 0).isLt
  rcases rows_cover c ⟨(i 0).val / 128, by omega⟩ with h | ⟨s, h⟩
  · left; rw [mem_ownSet]; simp only at h; omega
  · right; refine ⟨s, ?_⟩; rw [mem_slotSet]; simp only at h; omega

/-! ## Cutting the arrays -/

omit [FloatOps F] in
/-- The result array, whole at contents f, is its own block and its 32 chunks. -/
theorem out_split (c : Dev nD) (f : Buf (Elt F) ((c : Thread nD τ).loc main_v1)) :
    ((((c : Thread nD τ).loc main_v1) ↦{fullShare} f) : sProp 𝕄) ⊢ iprop(ownPts c f ∗ bigSep Finset.univ fun s : Slot => slotPts c s fullShare f) := by
  classical
  -- all indices = the own block's ∪ the union of the chunks', the 33 sets pairwise disjoint
  have hcov : (Finset.univ : Finset (Idx ((c : Thread nD τ).loc main_v1)))
      = (ownSl c).view.set ∪ Finset.univ.biUnion (fun s : Slot => (outSl c s).view.set) := by
    ext i
    simp only [Finset.mem_univ, true_iff, Finset.mem_union, Finset.mem_biUnion, true_and]
    exact row_cover c i
  have hd1 : Disjoint (ownSl c).view.set (Finset.univ.biUnion fun s : Slot => (outSl c s).view.set) := by
    rw [Finset.disjoint_biUnion_right]; intro s _; rw [Finset.disjoint_left]; intro i hi hj
    have h1 := (mem_ownSet c i).mp hi; have h2 := (mem_slotSet c s i).mp hj; have h3 := rows_own_disj c s; omega
  have hd2 : ∀ s ∈ (Finset.univ : Finset Slot), ∀ s' ∈ (Finset.univ : Finset Slot), s ≠ s' →
      Disjoint (outSl c s).view.set (outSl c s').view.set := by
    intro s _ s' _ hne; rw [Finset.disjoint_left]; intro i hi hj
    have h1 := (mem_slotSet c s i).mp hi; have h2 := (mem_slotSet c s' i).mp hj; have h3 := rows_disj c s s' hne; omega
  rw [hcov]
  refine (pointsTo_union hd1).1.trans ?_
  rw [pointsTo_biUnion _ _ hd2]
  exact .rfl

omit [FloatOps F] in
/-- The input block: half of it whole, and of the other half the ten chunks sent to the x-neighbour. -/
theorem x_split (c : Dev nD) :
    (xPts m c fullShare : sProp 𝕄) ⊢ iprop(xPts m c fullShare.left ∗ bigSep (slotsOf 0) fun s => inPts m c s fullShare.right) := by
  classical
  unfold xPts inPts
  -- the two half shares; of the right one keep the ten chunks and let the other rows go
  refine (pointsTo_share (PosShare.mem_left_op_right fullShare)).1.trans (sep_mono_r ?_)
  have hsub : (slotsOf 0).biUnion (fun s => (inSl (xp c) s).view.set)
      ⊆ (xM : Memref sig .tc .hbm S4096x1024 .f32).view.set := by
    intro i _
    have hu : (xM : Memref sig .tc .hbm S4096x1024 .f32).view.set = Finset.univ := View.set_whole _
    rw [hu]; exact Finset.mem_univ _
  have hd : ∀ s ∈ slotsOf 0, ∀ s' ∈ slotsOf 0, s ≠ s' →
      Disjoint (inSl (xp c) s).view.set (inSl (xp c) s').view.set := by
    intro s hs s' hs' hne; rw [Finset.disjoint_left]; intro i hi hj
    have h1 := (mem_inSet (xp c) s i).mp hi; have h2 := (mem_inSet (xp c) s' i).mp hj
    have h3 := srcRows_disj (xp c) s s' (Finset.mem_filter.mp hs).2 (Finset.mem_filter.mp hs').2 hne; omega
  refine (pointsTo_split_subset hsub).1.trans ?_
  rw [pointsTo_biUnion _ _ hd]
  iintro ⟨H, -⟩
  iexact H

omit [FloatOps F] in
/-- A chunk held whole is its two half shares. -/
theorem slot_halves (c : Dev nD) (s : Slot) (f : Buf (Elt F) ((c : Thread nD τ).loc main_v1)) :
    (slotPts c s fullShare f : sProp 𝕄) ⊢ iprop(slotPts c s fullShare.left f ∗ slotPts c s fullShare.right f) := by
  unfold slotPts
  exact (pointsTo_share (PosShare.mem_left_op_right fullShare)).1

/-! ## Reading the result at the end -/

omit [FloatOps F] in
/-- Every chunk of the result is among the final pieces, at some share, at its final contents: a kept chunk
    at the full share, any other as the source share some forward gave back. -/
theorem outFinal_slot (c : Dev nD) (s : Slot) : ∃ q, outFinal m c ⊢ (slotPts c s q (Wout m c) : sProp 𝕄) := by
  classical
  by_cases hk : s ∈ keptSlots
  · refine ⟨fullShare, ?_⟩
    unfold outFinal
    have hke : bigSep keptSlots (fun s => slotPts c s fullShare (Wout m c)) ⊢ (slotPts c s fullShare (Wout m c) : sProp 𝕄) :=
      bigSep_elim hk
    iintro ⟨-, Hk, -, -⟩
    iapply hke
    iexact Hk
  · obtain ⟨t, ht, hts⟩ := fwd_cover s hk
    refine ⟨fwdShare t, ?_⟩
    have e : sendPay m c t = slotPts c s (fwdShare t) (Wout m c) := by
      unfold sendPay; rw [if_neg (by omega), hts]
    have hmem : t ∈ (Finset.univ.filter fun s : Slot => 10 ≤ s.val) := Finset.mem_filter.mpr ⟨Finset.mem_univ _, ht⟩
    unfold outFinal
    have hke : bigSep (Finset.univ.filter fun s : Slot => 10 ≤ s.val) (fun s => sendPay m c s) ⊢ (sendPay m c t : sProp 𝕄) :=
      bigSep_elim hmem
    rw [← e]
    iintro ⟨-, -, Hs, -⟩
    iapply hke
    iexact Hs

omit [FloatOps F] in
/-- At the end the pieces cover the result array, and the input is held: memory is pinned at both. -/
theorem final_read (c : Dev nD) (s' : Phys nD τ sig (Elt F)) :
    iprop(outFinal m c ∗ SI s') ⊢ (⌜s'.mem.mem ((c : Thread nD τ).loc main_v1) = Wout m c ∧ s'.mem.mem ((c : Thread nD τ).loc main_arg0) = xin m c⌝ : sProp 𝕄) := by
  classical
  -- each piece, at whatever share, pins memory on its rows
  have hown : iprop(outFinal m c ∗ SI s') ⊢ (⌜∀ i ∈ (ownSl c).view.set, s'.mem.mem ((c : Thread nD τ).loc main_v1) i = Wout m c i⌝ : sProp 𝕄) := by
    unfold outFinal ownPts
    iintro ⟨⟨Hown, -, -, -⟩, HSI⟩
    icombine HSI Hown gives %h
    ipureintro; exact h
  have hslot : ∀ s : Slot, iprop(outFinal m c ∗ SI s') ⊢ (⌜∀ i ∈ (outSl c s).view.set, s'.mem.mem ((c : Thread nD τ).loc main_v1) i = Wout m c i⌝ : sProp 𝕄) := by
    intro s
    obtain ⟨q, hq⟩ := outFinal_slot m c s
    refine (sep_mono_left hq).trans ?_
    unfold slotPts
    iintro ⟨H, HSI⟩
    icombine HSI H gives %h
    ipureintro; exact h
  have hx : iprop(outFinal m c ∗ SI s') ⊢ (⌜∀ i ∈ (xM : Memref sig .tc .hbm S4096x1024 .f32).view.set, s'.mem.mem ((c : Thread nD τ).loc main_arg0) i = xin m c i⌝ : sProp 𝕄) := by
    unfold outFinal xPts
    iintro ⟨⟨-, -, -, Hx⟩, HSI⟩
    icombine HSI Hx gives %h
    ipureintro; exact h
  -- the facts are pure: all of them hold together, and the rows of the pieces are all the rows
  intro a ha
  have h1 := hown a ha
  have h2 := fun s => hslot s a ha
  have h3 := hx a ha
  show _ ∧ _
  refine ⟨?_, ?_⟩
  · funext i
    rcases row_cover c i with h | ⟨s, h⟩
    · exact h1 i h
    · exact h2 s i h
  · funext i
    refine h3 i ?_
    have hu : (xM : Memref sig .tc .hbm S4096x1024 .f32).view.set = Finset.univ := View.set_whole _
    rw [hu]; exact Finset.mem_univ _

end Cert.Kernel.AG

end
-- ==== Proof.Bits.Land.lean ====
/-
  What each copy lands. A transfer writes, element by element, what it read; the final contents of a result array
  are defined row by row as some device's input row, and the device a row comes from is the same seen from the
  sender's chunk and from the receiver's: so every landing leaves the chunk, or the own block, at its final contents.
-/
import proofs.«900662_g7700000000000663_dist_ag_v7x_xyz2x2x2_x_m4096_n1024_f32_1_alg».proof.Proof.Bits.Geom
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Arithmetic of rows -/

/-- The device a row is attributed to depends on the row only through its chunk of 128 rows. -/
private theorem srcDev_chunk (c : Dev nD) (t k : ℕ) (hk : k < 128) : srcDev c (128 * t + k) = srcDev c (128 * t) := by
  have h1 : (128 * t + k) / 4096 = (128 * t) / 4096 := by omega
  have h2 : (128 * t + k) % 4096 / 1024 = (128 * t) % 4096 / 1024 := by omega
  have h3 : (128 * t + k) % 1024 / 128 = (128 * t) % 1024 / 128 := by omega
  simp only [srcDev, h1, h2, h3]

/-- Every row of a chunk that starts at a multiple of 128 is attributed as the chunk's first row is. -/
private theorem srcDev_of_chunk (c : Dev nD) (R r : ℕ) (hR : R % 128 = 0) (h1 : R ≤ r) (h2 : r < R + 128) : srcDev c r = srcDev c R := by
  obtain ⟨t, rfl⟩ : ∃ t, R = 128 * t := ⟨R / 128, by omega⟩
  obtain ⟨k, rfl⟩ : ∃ k, r = 128 * t + k := ⟨r - 128 * t, by omega⟩
  exact srcDev_chunk c t k (by omega)

/-- Every chunk starts at a multiple of 128; the own block at a multiple of 4096. -/
private theorem rowOf_mod (c : Dev nD) (s : Slot) : rowOf c s % 128 = 0 := by revert c s; decide
private theorem ownRow_mod (c : Dev nD) : ownRow c % 4096 = 0 := by revert c; decide

/-- First hop: the first row of the chunk of slot s on the x-neighbour is attributed to the sender, and is,
    within its block of 4096 rows, the first row of the input chunk the sender reads. -/
private theorem x_first (c : Dev nD) (s : Slot) (hs : s.val < 10) :
    srcDev (xp c) (rowOf (xp c) s) = c ∧ rowOf (xp c) s % 4096 = srcRowX (xp c) s := by revert c s; decide

/-- Forward: the chunk written on the peer covers the rows of the chunk read on the sender, and both devices
    attribute it to the same origin. -/
private theorem fwd_first (c : Dev nD) (s : Slot) (hs : 10 ≤ s.val) :
    rowOf (peer s c) s = rowOf c (fwdSrc s) ∧ srcDev (peer s c) (rowOf (peer s c) s) = srcDev c (rowOf c (fwdSrc s)) := by revert c s; decide

/-- Own block: row k of it is attributed to the device itself and is row k of its input. -/
private theorem loc_row (c : Dev nD) (k : ℕ) (hk : k < 4096) : srcDev c (ownRow c + k) = c ∧ (ownRow c + k) % 4096 = k := by
  have h0 := ownRow_mod c
  have hb : (ownRow c + k) / 4096 = cx c := by unfold ownRow; omega
  refine ⟨?_, by omega⟩
  simp only [srcDev, hb, if_true]

/-! ## Where a slice's index sits in its array -/

private theorem outSl_emb0 (c : Dev nD) (s : Slot) (y : S128x1024.Idx) :
    (((outSl c s).view.emb y : S8192x1024.Idx) 0).val = rowOf c s + (y 0).val := by
  show rowOf c s + 1 * (y 0).val = _; omega
private theorem outSl_emb1 (c : Dev nD) (s : Slot) (y : S128x1024.Idx) :
    (((outSl c s).view.emb y : S8192x1024.Idx) 1).val = (y 1).val := by
  show 0 + 1 * (y 1).val = _; omega
private theorem ownSl_emb0 (c : Dev nD) (y : S4096x1024.Idx) :
    (((ownSl c).view.emb y : S8192x1024.Idx) 0).val = ownRow c + (y 0).val := by
  show ownRow c + 1 * (y 0).val = _; omega
private theorem ownSl_emb1 (c : Dev nD) (y : S4096x1024.Idx) :
    (((ownSl c).view.emb y : S8192x1024.Idx) 1).val = (y 1).val := by
  show 0 + 1 * (y 1).val = _; omega
private theorem inSl_emb0 (c : Dev nD) (s : Slot) (y : S128x1024.Idx) :
    (((inSl c s).view.emb y : S4096x1024.Idx) 0).val = srcRowX c s + (y 0).val := by
  show srcRowX c s + 1 * (y 0).val = _; omega
private theorem inSl_emb1 (c : Dev nD) (s : Slot) (y : S128x1024.Idx) :
    (((inSl c s).view.emb y : S4096x1024.Idx) 1).val = (y 1).val := by
  show 0 + 1 * (y 1).val = _; omega

/-! ## The final contents at an index, by coordinates -/

omit [FloatOps F] in
/-- The final contents at index i are the input of device c' at index j as soon as row i₀ is attributed to c',
    j's row is i₀ % 4096 and the columns agree. -/
private theorem Wout_eq (c c' : Dev nD) (i : S8192x1024.Idx) (j : S4096x1024.Idx) (hd : srcDev c (i 0).val = c')
    (h0 : (j 0).val = (i 0).val % 4096) (h1 : (j 1).val = (i 1).val) : Wout m c i = xin m c' j := by
  have hj : j = ValueIdx.ix2 (⟨(i 0).val % 4096, Nat.mod_lt _ (by decide)⟩ : Fin 4096) (i 1) := by
    funext a
    match a with
    | ⟨0, _⟩ => exact Fin.ext h0
    | ⟨1, _⟩ => exact Fin.ext h1
  subst hd; rw [hj]; rfl

/-! ## The three landings -/

omit [FloatOps F] in
/-- A first-hop transfer lands the chunk at its final contents. -/
theorem land_x (c : Dev nD) (s : Slot) (hs : s.val < 10) (fd : Buf (Elt F) ((outSl (xp c) s).view.loc ((xp c : Dev nD) : Thread nD τ))) :
    (((outSl (xp c) s).view.loc ((xp c : Dev nD) : Thread nD τ) ↦[(outSl (xp c) s).view.set]{fullShare}
        ((outSl (xp c) s).view.write (Elt F) fd ((inSl (xp c) s).view.read (Elt F) (xin m c)) Finset.univ)) : sProp 𝕄)
      ⊢ recvPay m (xp c) s := by
  unfold recvPay slotPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 128 := (y 0).isLt
  have hR := rowOf_mod (xp c) s
  obtain ⟨hd, hr⟩ := x_first c s hs
  refine (Wout_eq m (xp c) c _ ((inSl (xp c) s).view.emb y) ?_ ?_ ?_).symm
  · rw [outSl_emb0, srcDev_of_chunk (xp c) (rowOf (xp c) s) _ hR (by omega) (by omega)]; exact hd
  · rw [outSl_emb0, inSl_emb0, ← hr]; omega
  · rw [outSl_emb1, inSl_emb1]

omit [FloatOps F] in
/-- A forward lands the chunk at its final contents: the sender's chunk already held them. -/
theorem land_fwd (c : Dev nD) (s : Slot) (hs : 10 ≤ s.val) (fd : Buf (Elt F) ((outSl (peer s c) s).view.loc ((peer s c : Dev nD) : Thread nD τ))) :
    (((outSl (peer s c) s).view.loc ((peer s c : Dev nD) : Thread nD τ) ↦[(outSl (peer s c) s).view.set]{fullShare}
        ((outSl (peer s c) s).view.write (Elt F) fd ((outSl c (fwdSrc s)).view.read (Elt F) (Wout m c)) Finset.univ)) : sProp 𝕄)
      ⊢ recvPay m (peer s c) s := by
  unfold recvPay slotPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 128 := (y 0).isLt
  obtain ⟨hrow, hd⟩ := fwd_first c s hs
  have hR := rowOf_mod c (fwdSrc s)
  have hR' := rowOf_mod (peer s c) s
  have e0 := outSl_emb0 c (fwdSrc s) y
  have e0' := outSl_emb0 (peer s c) s y
  refine (Wout_eq m c _ _ (ValueIdx.ix2 (⟨(((outSl c (fwdSrc s)).view.emb y : S8192x1024.Idx) 0).val % 4096, Nat.mod_lt _ (by decide)⟩ : Fin 4096) (((outSl c (fwdSrc s)).view.emb y : S8192x1024.Idx) 1)) rfl rfl rfl).trans
    (Wout_eq m (peer s c) _ _ _ ?_ ?_ ?_).symm
  · rw [e0, e0', srcDev_of_chunk (peer s c) (rowOf (peer s c) s) _ hR' (by omega) (by omega),
      srcDev_of_chunk c (rowOf c (fwdSrc s)) _ hR (by omega) (by omega)]; exact hd
  · show (((outSl c (fwdSrc s)).view.emb y : S8192x1024.Idx) 0).val % 4096 = _
    rw [e0, e0', hrow]
  · show (((outSl c (fwdSrc s)).view.emb y : S8192x1024.Idx) 1).val = _
    rw [outSl_emb1, outSl_emb1]

omit [FloatOps F] in
/-- The local copy lands the own block at its final contents. -/
theorem land_loc (c : Dev nD) (fd : Buf (Elt F) ((ownSl c).view.loc (c : Thread nD τ))) :
    (((ownSl c).view.loc (c : Thread nD τ) ↦[(ownSl c).view.set]{fullShare}
        ((ownSl c).view.write (Elt F) fd ((xM : Memref sig .tc .hbm S4096x1024 .f32).view.read (Elt F) (xin m c)) Finset.univ)) : sProp 𝕄)
      ⊢ ownPts c (Wout m c) := by
  unfold ownPts
  refine Entails.of_eq (pointsTo_congr fun i hi => ?_)
  obtain ⟨y, rfl⟩ := View.exists_emb_of_mem_set _ hi
  rw [View.write_emb_of_mem _ _ (Finset.mem_univ y), View.read_apply, cast_cast, cast_eq]
  have hk : (y 0).val < 4096 := (y 0).isLt
  refine (Wout_eq m c c _ y ?_ ?_ ?_).symm
  · rw [ownSl_emb0]; exact (loc_row c _ hk).1
  · rw [ownSl_emb0]; exact (loc_row c _ hk).2.symm
  · exact (ownSl_emb1 c y).symm

end Cert.Kernel.AG

end
-- ==== Proof.Bits.Steps.lean ====
/-
  The rules one device's body is stepped with. A device's protocol state is the assertion BodySt over a record of
  finite sets of slots; each rule fires one operation of the program and moves one slot from one set to another:
  a receive wait takes the slot out of the pending receives and hands back its chunk at the final contents;
  a transfer takes the slot out of the dues and the held destinations and puts it among the sends in flight;
  a send wait takes it out of those and hands back the share of the source that was read.
-/
import proofs.«900662_g7700000000000663_dist_ag_v7x_xyz2x2x2_x_m4096_n1024_f32_1_alg».proof.Proof.Bits.State
import proofs.«900662_g7700000000000663_dist_ag_v7x_xyz2x2x2_x_m4096_n1024_f32_1_alg».proof.Proof.Bits.SchedTables
import proofs.«900662_g7700000000000663_dist_ag_v7x_xyz2x2x2_x_m4096_n1024_f32_1_alg».proof.Proof.Bits.Levels
import proofs.«900662_g7700000000000663_dist_ag_v7x_xyz2x2x2_x_m4096_n1024_f32_1_alg».proof.Proof.Bits.Chains
import proofs.«900662_g7700000000000663_dist_ag_v7x_xyz2x2x2_x_m4096_n1024_f32_1_alg».proof.Proof.Bits.Geom
import proofs.«900662_g7700000000000663_dist_ag_v7x_xyz2x2x2_x_m4096_n1024_f32_1_alg».proof.Proof.Bits.Land
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the records -/

omit [FloatOps F] in
theorem inv_at (K : Dev nD × Fin 66 → ℕ) (ck : Dev nD × Fin 66) :
    (bigSep Finset.univ fun ck : Dev nD × Fin 66 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 66) :
    (bigSep Finset.univ fun ck : Dev nD × Fin 66 => (reached ER (kcell ck) 0 : sProp 𝕄)) ⊢ reached ER (kcell ck) 0 :=
  bigSep_elim (Finset.mem_univ ck)
omit [FloatOps F] in
theorem inv_cell (K : Dev nD × Fin 66 → ℕ) (ck : Dev nD × Fin 66) : (records m K : sProp 𝕄) ⊢ cellInv ER (Rd m) (K ck) (kcell ck) := by
  unfold records; iintro ⟨HI, -⟩; iapply (inv_at m K ck); iexact HI
omit [FloatOps F] in
theorem reached_cell (K : Dev nD × Fin 66 → ℕ) (ck : Dev nD × Fin 66) : (records m K : sProp 𝕄) ⊢ reached ER (kcell ck) 0 := by
  unfold records; iintro ⟨-, HR⟩; iapply (reached_at (F := F) ck); iexact HR

omit [FloatOps F] in
/-- A big separation with one index taken out, and with one put in, in the form the proof mode opens. -/
theorem bigSep_take {I : Type} [DecidableEq I] {s : Finset I} {i : I} (hi : i ∈ s) (Φ : I → sProp 𝕄) :
    bigSep s Φ = iprop(Φ i ∗ bigSep (s.erase i) Φ) := bigSep_erase hi
omit [FloatOps F] in
theorem bigSep_put {I : Type} [DecidableEq I] {s : Finset I} {i : I} (hi : i ∉ s) (Φ : I → sProp 𝕄) :
    bigSep (insert i s) Φ = iprop(Φ i ∗ bigSep s Φ) := bigSep_insert hi

omit [FloatOps F] in
/-- The units of a transfer depend on the view's buffer, shape and element type only. -/
theorem dmaCredit_congr {sp : Space} {s : Shape} {e : EltTy} (v v' : View sig .tc sp s e) (h : v.buf = v'.buf) : v.dmaCredit = v'.dmaCredit := by
  unfold View.dmaCredit; rw [h]
omit [FloatOps F] in
theorem credit_own (c : Dev nD) : (ownSl c).view.dmaCredit = NL := dmaCredit_congr _ _ rfl
omit [FloatOps F] in
theorem credit_out (c : Dev nD) (s : Slot) : (outSl c s).view.dmaCredit = N := dmaCredit_congr _ _ rfl

omit [FloatOps F] in
/-- A forward writes, on the peer, the rows it reads on the sender: the two chunks are one memref. -/
theorem rowOf_fwd (c : Dev nD) (s : Slot) (hs : 10 ≤ s.val) : rowOf (peer s c) s = rowOf c (fwdSrc s) := by revert c s; decide
omit [FloatOps F] in
theorem outSl_fwd (c : Dev nD) (s : Slot) (hs : 10 ≤ s.val) : outSl (peer s c) s = outSl c (fwdSrc s) :=
  slice_unit_congr oM (by rw [rowOf_fwd c s hs]) _ _ _ _ _

omit [FloatOps F] in
theorem kcell_dma (c : Dev nD) (q : DmaSem sig) : kcell (c, kDma q) = ((c : Thread nD τ), SemLoc.dma q) := by
  show ((c : Thread nD τ), csem (kDma q)) = _; rw [csem_kDma]

omit [FloatOps F] in
theorem inv_dma (K : Dev nD × Fin 66 → ℕ) (c : Dev nD) (q : DmaSem sig) :
    (records m K : sProp 𝕄) ⊢ cellInv ER (Rd m) (K (c, kDma q)) ((c : Thread nD τ), SemLoc.dma q) := by
  have h := inv_cell m K (c, kDma q); rw [kcell_dma] at h; exact h
omit [FloatOps F] in
theorem reached_dma (K : Dev nD × Fin 66 → ℕ) (c : Dev nD) (q : DmaSem sig) :
    (records m K : sProp 𝕄) ⊢ reached ER ((c : Thread nD τ), SemLoc.dma q) 0 := by
  have h := reached_cell m K (c, kDma q); rw [kcell_dma] at h; exact h
omit [FloatOps F] in
theorem inv_bar (K : Dev nD × Fin 66 → ℕ) (c : Dev nD) : (records m K : sProp 𝕄) ⊢ cellInv ER (Rd m) (K (c, kBar)) (barCell c) :=
  inv_cell m K (c, kBar)
omit [FloatOps F] in
theorem reached_bar (K : Dev nD × Fin 66 → ℕ) (c : Dev nD) : (records m K : sProp 𝕄) ⊢ reached ER (barCell c) 0 :=
  reached_cell m K (c, kBar)

/-! ## A receive wait -/

/-- Waiting for slot s's chunk while the transfers still owed all sit at higher levels: the receive cell's round ends,
    the cell closes at zero, and the chunk is held, whole, at its final contents. -/
theorem step_waitRecv (K : Dev nD × Fin 66 → ℕ) (c : Dev nD) (s : Slot) (σ : BSt) (hs : s ∈ σ.Sr)
    (hlv : ∀ t ∈ σ.St, lvSlot s < lvSlot t) (hnz : recvSem s ∉ σ.Sz) (hnl : (s, (0 : Fin 3)) ∉ σ.Sl)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = recvSem s) (hN : dst.view.dmaCredit = N)
    {α : Type} {Q : α → sProp 𝕄} {k : PUnit → Prog (TpuEff nD τ sig (Elt F) Λ₀ .tc) α} :
    (BodySt m K c σ : sProp 𝕄)
      ⊢ iprop((BodySt m K c { σ with Sr := σ.Sr.erase s, Sz := insert (recvSem s) σ.Sz, Sl := insert (s, 0) σ.Sl }
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [bigSep_take hs, bigSep_put hnz, bigSep_put hnl]
  iintro ⟨#Hrec, #Hlev, ⟨%W, HO⟩, ⟨⟨Hc, Hat⟩, Hr⟩, Hd, Ht, Hss, Hl, Hb, Hx, Hz, Hlc⟩ Hk
  iapply (Rounds.wp_wait_rest_token 𝒱₀ ER (Rd m) (c : Thread nD τ) none (κ := K (c, kDma (recvSem s)))
      (wpE_waitDma2_eq 𝒱₀ (c : Thread nD τ) none Set.univ) (Set.mem_univ _) () (O := Otal c σ.St) (W := W) (R := 0) (m := 0) (T := ∅)
      (by rw [Nat.zero_add, expect_recv, hN])) $$ [Hc HO Hat]
  · isplitr; · iapply (inv_dma m K c (recvSem s)); iexact Hrec
    isplitl [Hc]; · rw [hN]; iexact Hc
    isplitl [HO]; · iexact HO
    isplitr; · iapply (mayWait_recv c s σ.St hlv); iexact Hlev
    iexact Hat
  iintro ⟨HO, Hat, -, Hpay⟩
  ihave Hp := (Entails.of_eq (rest_recv m c s)) $$ Hpay
  imod (Rounds.cell_close ER (Rd m) (Set.mem_univ (K (c, kDma (recvSem s)))) (fun h => h) (R := 0 + 1) (duties_later m (recvCell c s))) $$ [Hat] with Hzero
  · isplitr; · iapply (inv_dma m K c (recvSem s)); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl Hp]
  · isplitl [Hp]
    · unfold recvPay shareOf; iexact Hp
    · iexact Hl
  isplitl [Hb]
  · iexact Hb
  isplitl [Hx]
  · iexact Hx
  isplitl [Hz Hzero]
  · isplitl [Hzero] <;> iassumption
  iexact Hlc

/-! ## Halving a held chunk -/

/-- A chunk held whole is held as its two halves: what the two forwards of one chunk each read. -/
theorem step_halve (K : Dev nD × Fin 66 → ℕ) (c : Dev nD) (s : Slot) (σ : BSt) (hs : (s, (0 : Fin 3)) ∈ σ.Sl)
    (h1 : (s, (1 : Fin 3)) ∉ σ.Sl) (h2 : (s, (2 : Fin 3)) ∉ σ.Sl) :
    (BodySt m K c σ : sProp 𝕄) ⊢ BodySt m K c { σ with Sl := insert (s, 1) (insert (s, 2) (σ.Sl.erase (s, 0))) } := by
  have e1 : (s, (1 : Fin 3)) ∉ insert (s, (2 : Fin 3)) (σ.Sl.erase (s, 0)) := by
    rw [Finset.mem_insert, Finset.mem_erase]
    exact fun h => h.elim (fun h => absurd (congrArg Prod.snd h) (show ((1 : Fin 3)) ≠ 2 from by decide)) (fun h => h1 h.2)
  have e2 : (s, (2 : Fin 3)) ∉ σ.Sl.erase (s, 0) := by rw [Finset.mem_erase]; exact fun h => h2 h.2
  unfold BodySt
  dsimp only
  rw [bigSep_take hs, bigSep_put e1, bigSep_put e2]
  iintro ⟨#Hrec, #Hlev, ⟨%W, HO⟩, Hr, Hd, Ht, Hss, ⟨Hw, Hl⟩, Hb, Hx, Hz, Hlc⟩
  ihave Hh := (slot_halves c s (Wout m c)) $$ [Hw]
  · unfold shareOf; iexact Hw
  icases Hh with ⟨HL, HR⟩
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl HL HR]
  · isplitl [HL]
    · unfold shareOf; iexact HL
    isplitl [HR]
    · unfold shareOf; iexact HR
    · iexact Hl
  isplitl [Hb]
  · iexact Hb
  isplitl [Hx]
  · iexact Hx
  isplitl [Hz]
  · iexact Hz
  iexact Hlc

/-! ## A transfer -/

/-- Issuing the transfer into slot s of the peer from a source held at share q and contents fs: the peer's
    destination chunk and both duty tokens go in; the send credit comes back; what lands on the peer is the chunk
    at its final contents (hpay₂), what the send cell returns is the source share (hpay₁). -/
theorem step_send (K : Dev nD × Fin 66 → ℕ) (c : Dev nD) (s : Slot) (σ : BSt) (hd : s ∈ σ.Sd) (ht : s ∈ σ.St) (hns : s ∉ σ.Ss)
    {c' : Dev nD} (hc' : c' = peer s c)
    {src : Memref sig .tc .hbm S128x1024 .f32} {dst : Memref sig .tc .hbm S128x1024 .f32} (hdst : dst = outSl (peer s c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    (q : PosShare TreeShare) (fs : Buf (Elt F) (src.view.loc (c : Thread nD τ)))
    (hpay₁ : ((src.view.loc (c : Thread nD τ) ↦[src.view.set]{q} fs) : sProp 𝕄) ⊢ sendPay m c s)
    (hpay₂ : ∀ fd : Buf (Elt F) ((outSl (peer s c) s).view.loc ((peer s c : Dev nD) : Thread nD τ)),
      (((outSl (peer s c) s).view.loc ((peer s c : Dev nD) : Thread nD τ) ↦[(outSl (peer s c) s).view.set]{fullShare}
        ((outSl (peer s c) s).view.write (Elt F) fd (src.view.read (Elt F) fs) Finset.univ)) : sProp 𝕄) ⊢ recvPay m (peer s c) s)
    {α : Type} {Q : α → sProp 𝕄} {k : PUnit → Prog (TpuEff nD τ sig (Elt F) Λ₀ .tc) α} :
    iprop(BodySt m K c σ ∗ (src.view.loc (c : Thread nD τ) ↦[src.view.set]{q} fs))
      ⊢ iprop((BodySt m K c { σ with Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hc' hdst hsS hsR
  unfold BodySt slotPts
  dsimp only
  rw [bigSep_take hd, bigSep_take ht, bigSep_put hns]
  iintro ⟨⟨#Hrec, #Hlev, ⟨%W, HO⟩, Hr, ⟨⟨%fd, Hdst⟩, Hd⟩, ⟨⟨HtS, HtR, HatS⟩, Ht⟩, Hss, Hl, Hb, Hx, Hz, Hlc⟩, Hsrc⟩ Hk
  iapply (Rounds.wp_send_pointsTo 𝒱₀ ER (Rd m) (c : Thread nD τ) none (c' := ((peer s c : Dev nD) : Thread nD τ)) (src := src) (dst := outSl (peer s c) s)
      (sS := SemLoc.dma (sendSem s)) (sem := SemLoc.dma (recvSem s)) (κ₁ := K (c, kDma (sendSem s))) (κ₂ := K (peer s c, kDma (recvSem s)))
      (r₁ := 0) (r₂ := 0) (d₁ := 0) (d₂ := 0) (fd := fd) (q := q) (fs := fs)
      (by rw [duties_dma]; exact Finset.mem_singleton_self _) (by rw [duties_dma]; exact Finset.mem_singleton_self _)
      () () N (credit_out (peer s c) s) (amount_send m c s 0) (amount_recv m (peer s c) s 0) (Otal c (σ.St.erase s)) (Otal_erase c σ.St s ht) (W := W)
      (by rw [payload_send]; exact hpay₁)
      (by rw [payload_recv]; exact hpay₂ fd)) $$ [Hsrc Hdst HO HtS HtR]
  · isplitr; · iapply (inv_dma m K c (sendSem s)); iexact Hrec
    isplitr; · iapply (inv_dma m K (peer s c) (recvSem s)); iexact Hrec
    isplitl [Hsrc]; · iexact Hsrc
    isplitl [Hdst]; · iexact Hdst
    isplitl [HO]; · iexact HO
    isplitl [HtS]; · iexact HtS
    isplitr; · iapply (reached_dma m K c (sendSem s)); iexact Hrec
    isplitl [HtR]; · iexact HtR
    iapply (reached_dma m K (peer s c) (recvSem s)); iexact Hrec
  iintro ⟨HcS, HO⟩
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss HcS HatS]
  · isplitl [HcS HatS]
    · isplitl [HcS] <;> iassumption
    · iexact Hss
  isplitl [Hl]
  · iexact Hl
  isplitl [Hb]
  · iexact Hb
  isplitl [Hx]
  · iexact Hx
  isplitl [Hz]
  · iexact Hz
  iexact Hlc

/-- Taking one input chunk out of the state. -/
theorem take_in (K : Dev nD × Fin 66 → ℕ) (c : Dev nD) (s : Slot) (σ : BSt) (hx : s ∈ σ.Sx) :
    (BodySt m K c σ : sProp 𝕄) ⊢ iprop(BodySt m K c { σ with Sx := σ.Sx.erase s } ∗ inPts m c s fullShare.right) := by
  unfold BodySt
  dsimp only
  rw [bigSep_take hx]
  iintro ⟨#Hrec, #Hlev, ⟨%W, HO⟩, Hr, Hd, Ht, Hss, Hl, Hb, ⟨Hin, Hx⟩, Hz, Hlc⟩
  isplitr [Hin]
  ·
    isplitr; · iexact Hrec
    isplitr; · iexact Hlev
    isplitl [HO]
    · iexists _; iexact HO
    isplitl [Hr]
    · iexact Hr
    isplitl [Hd]
    · iexact Hd
    isplitl [Ht]
    · iexact Ht
    isplitl [Hss]
    · iexact Hss
    isplitl [Hl]
    · iexact Hl
    isplitl [Hb]
    · iexact Hb
    isplitl [Hx]
    · iexact Hx
    isplitl [Hz]
    · iexact Hz
    iexact Hlc

  · iexact Hin

/-- Taking one held piece out of the state. -/
theorem take_piece (K : Dev nD × Fin 66 → ℕ) (c : Dev nD) (p : Slot × Fin 3) (σ : BSt) (hl : p ∈ σ.Sl) :
    (BodySt m K c σ : sProp 𝕄) ⊢ iprop(BodySt m K c { σ with Sl := σ.Sl.erase p } ∗ slotPts c p.1 (shareOf p.2) (Wout m c)) := by
  unfold BodySt
  dsimp only
  rw [bigSep_take hl]
  iintro ⟨#Hrec, #Hlev, ⟨%W, HO⟩, Hr, Hd, Ht, Hss, ⟨Hsrc, Hl⟩, Hb, Hx, Hz, Hlc⟩
  isplitr [Hsrc]
  ·
    isplitr; · iexact Hrec
    isplitr; · iexact Hlev
    isplitl [HO]
    · iexists _; iexact HO
    isplitl [Hr]
    · iexact Hr
    isplitl [Hd]
    · iexact Hd
    isplitl [Ht]
    · iexact Ht
    isplitl [Hss]
    · iexact Hss
    isplitl [Hl]
    · iexact Hl
    isplitl [Hb]
    · iexact Hb
    isplitl [Hx]
    · iexact Hx
    isplitl [Hz]
    · iexact Hz
    iexact Hlc

  · iexact Hsrc

/-- A first-hop transfer: the source is the chunk of the input block held among the input chunks. -/
theorem step_sendX (K : Dev nD × Fin 66 → ℕ) (c : Dev nD) (s : Slot) (hs : s.val < 10) (σ : BSt) (hx : s ∈ σ.Sx) (hd : s ∈ σ.Sd) (ht : s ∈ σ.St) (hns : s ∉ σ.Ss)
    {c' : Dev nD} (hc' : c' = xp c)
    {src : Memref sig .tc .hbm S128x1024 .f32} (hsrc : src = inSl (xp c) s) {dst : Memref sig .tc .hbm S128x1024 .f32} (hdst : dst = outSl (xp c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    {α : Type} {Q : α → sProp 𝕄} {k : PUnit → Prog (TpuEff nD τ sig (Elt F) Λ₀ .tc) α} :
    (BodySt m K c σ : sProp 𝕄)
      ⊢ iprop((BodySt m K c { σ with Sx := σ.Sx.erase s, Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hsrc
  have hp : peer s c = xp c := peer_x c s hs
  iintro H Hk
  ihave H2 := (take_in m K c s σ hx) $$ H
  icases H2 with ⟨H, Hin⟩
  iapply (step_send m K c s { σ with Sx := σ.Sx.erase s } hd ht hns (hc'.trans hp.symm) (hdst.trans (by rw [hp])) hsS hsR fullShare.right (xin m c)
      (by unfold sendPay; rw [if_pos hs]; unfold inPts; exact BI.Entails.refl _)
      (by intro fd; rw [hp]; exact land_x m c s hs _)) $$ [H Hin]
  · isplitl [H]; · iexact H
    unfold inPts; iexact Hin
  iexact Hk

/-- A forward: the source is an own chunk, held at the share the forward reads. -/
theorem step_fwd (K : Dev nD × Fin 66 → ℕ) (c : Dev nD) (s : Slot) (hs : 10 ≤ s.val) (σ : BSt) (hl : (fwdSrc s, fwdCode s) ∈ σ.Sl) (hd : s ∈ σ.Sd) (ht : s ∈ σ.St) (hns : s ∉ σ.Ss)
    {c' : Dev nD} (hc' : c' = peer s c)
    {src : Memref sig .tc .hbm S128x1024 .f32} (hsrc : src = outSl c (fwdSrc s)) {dst : Memref sig .tc .hbm S128x1024 .f32} (hdst : dst = outSl (peer s c) s)
    {sS sR : DmaSem sig} (hsS : sS = sendSem s) (hsR : sR = recvSem s)
    {hsc : dst.view.ref.isScScratch = false} {hsrcW : src.view.WordExact} {hdstW : dst.view.WordExact}
    {hsem : DmaTarget.Typed .hbm (.dma sR) (.remote (Dev.tc c' : Thread nD τ) dst (.dma sS) hsc)}
    {α : Type} {Q : α → sProp 𝕄} {k : PUnit → Prog (TpuEff nD τ sig (Elt F) Λ₀ .tc) α} :
    (BodySt m K c σ : sProp 𝕄)
      ⊢ iprop((BodySt m K c { σ with Sl := σ.Sl.erase (fwdSrc s, fwdCode s), Sd := σ.Sd.erase s, St := σ.St.erase s, Ss := insert s σ.Ss }
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst (.dma sS) hsc) (.dma sR) hsrcW hdstW hsem) k) Q) := by
  subst hsrc
  iintro H Hk
  ihave H2 := (take_piece m K c (fwdSrc s, fwdCode s) σ hl) $$ H
  icases H2 with ⟨H, Hsrc⟩
  iapply (step_send m K c s { σ with Sl := σ.Sl.erase (fwdSrc s, fwdCode s) } hd ht hns hc' hdst hsS hsR (fwdShare s) (Wout m c)
      (by unfold sendPay; rw [if_neg (by omega)]; unfold slotPts; exact BI.Entails.refl _)
      (by intro fd; exact land_fwd m c s hs _)) $$ [H Hsrc]
  · isplitl [H]; · iexact H
    rw [fwdShare_eq]; unfold slotPts; iexact Hsrc
  iexact Hk

/-! ## A send wait -/

/-- Waiting for the transfer into the peer's slot s to have left, nothing owed any more: the send cell's round
    ends, the cell closes at zero, and the source share comes back. -/
theorem step_waitSend (K : Dev nD × Fin 66 → ℕ) (c : Dev nD) (s : Slot) (σ : BSt) (hs : s ∈ σ.Ss) (h0 : σ.St = ∅)
    (hnb : s ∉ σ.Sb) (hnz : sendSem s ∉ σ.Sz)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = sendSem s) (hN : dst.view.dmaCredit = N)
    {α : Type} {Q : α → sProp 𝕄} {k : PUnit → Prog (TpuEff nD τ sig (Elt F) Λ₀ .tc) α} :
    (BodySt m K c σ : sProp 𝕄)
      ⊢ iprop((BodySt m K c { σ with Ss := σ.Ss.erase s, Sb := insert s σ.Sb, Sz := insert (sendSem s) σ.Sz }
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [bigSep_take hs, bigSep_put hnb, bigSep_put hnz, h0, Otal_empty]
  iintro ⟨#Hrec, #Hlev, ⟨%W, HO⟩, Hr, Hd, Ht, ⟨⟨Hc, Hat⟩, Hss⟩, Hl, Hb, Hx, Hz, Hlc⟩ Hk
  iapply (Rounds.wp_wait_rest_token 𝒱₀ ER (Rd m) (c : Thread nD τ) none (κ := K (c, kDma (sendSem s)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_dma m K c (sendSem s)); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c s)) $$ Hpay
  imod (Rounds.cell_close ER (Rd m) (Set.mem_univ (K (c, kDma (sendSem s)))) (fun h => h) (R := 0 + 1) (duties_later m (sendCell c s))) $$ [Hat] with Hzero
  · isplitr; · iapply (inv_dma m K c (sendSem s)); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb Hp]
  · isplitl [Hp] <;> iassumption
  isplitl [Hx]
  · iexact Hx
  isplitl [Hz Hzero]
  · isplitl [Hzero] <;> iassumption
  iexact Hlc

/-! ## The local copy -/

omit [FloatOps F] in
theorem locSt_zero (c : Dev nD) : locSt m c 0
    = iprop(xPts m c fullShare.left ∗ (∃ f, ownPts (F := F) c f) ∗ dutyTok ER (locCell c) 0 0 ∗ atPos ER (locCell c) 0 ∅ 0) := rfl
omit [FloatOps F] in
theorem locSt_one (c : Dev nD) : locSt m c 1 = iprop(cred (tallyAt (locCell c) () NL) ∗ atPos ER (locCell c) 0 ∅ 0) := rfl
omit [FloatOps F] in
theorem locSt_two (c : Dev nD) : locSt m c 2 = iprop(ownPts c (Wout m c) ∗ xPts m c fullShare.left ∗ semVal (locCell c) 0) := rfl

/-- Issuing the local copy of the input block onto the own block: half the input and the own block go in, the
    credit comes back. -/
theorem step_local (K : Dev nD × Fin 66 → ℕ) (c : Dev nD) (σ : BSt) (h : σ.lc = 0)
    {dst : Memref sig .tc .hbm S4096x1024 .f32} (hdst : dst = ownSl c) {sem : DmaSem sig} (hsem : sem = locSem)
    {hsrcW : (xM : Memref sig .tc .hbm S4096x1024 .f32).view.WordExact} {hdstW : dst.view.WordExact}
    {hsemT : DmaTarget.Typed (nD := nD) .hbm (.dma sem) (.here dst : DmaTarget nD τ sig .tc .hbm S4096x1024 .f32)}
    {α : Type} {Q : α → sProp 𝕄} {k : PUnit → Prog (TpuEff nD τ sig (Elt F) Λ₀ .tc) α} :
    (BodySt m K c σ : sProp 𝕄)
      ⊢ iprop((BodySt m K c { σ with lc := 1 } -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xM : Memref sig .tc .hbm S4096x1024 .f32) (.here dst) (.dma sem) hsrcW hdstW hsemT) k) Q) := by
  subst hdst hsem
  unfold BodySt
  dsimp only
  rw [h, locSt_zero, locSt_one]
  unfold xPts ownPts
  iintro ⟨#Hrec, #Hlev, ⟨%W, HO⟩, Hr, Hd, Ht, Hss, Hl, Hb, Hx, Hz, ⟨Hxl, ⟨%f, Hown⟩, Htok, Hat⟩⟩ Hk
  iapply (Rounds.wp_copy_pointsTo 𝒱₀ ER (Rd m) (c : Thread nD τ) none (src := (xM : Memref sig .tc .hbm S4096x1024 .f32)) (dst := ownSl c) (sem := SemLoc.dma locSem)
      (κ := K (c, kDma locSem)) (r := 0) (d := 0) (q := fullShare.left) (fs := xin m c) (fd := f)
      (by rw [duties_dma]; exact Finset.mem_singleton_self _) () NL (credit_own c) (amount_loc m c 0)
      (by rw [payload_loc]; unfold locPay xPts; exact sep_mono_left (land_loc m c f))) $$ [Hxl Hown Htok]
  · isplitr; · iapply (inv_dma m K c locSem); iexact Hrec
    isplitl [Hxl]; · iexact Hxl
    isplitl [Hown]; · iexact Hown
    isplitl [Htok]; · iexact Htok
    iapply (reached_dma m K c locSem); iexact Hrec
  iintro Hc
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb]
  · iexact Hb
  isplitl [Hx]
  · iexact Hx
  isplitl [Hz]
  · iexact Hz
  isplitl [Hc] <;> iassumption

/-- Waiting for the local copy, nothing owed any more: the own block is held at its final contents, half the input
    is back, the cell closes at zero. -/
theorem step_waitLocal (K : Dev nD × Fin 66 → ℕ) (c : Dev nD) (σ : BSt) (h : σ.lc = 1) (h0 : σ.St = ∅)
    {sp' : Space} {s' sh : Shape} {e e' : EltTy} {sem : DmaSem sig} {src : Memref sig .tc sp' s' e'} {κ' : Kind} {sp : Space} {dst : Memref sig κ' sp sh e}
    {hsrc : src.view.WordExact} {hdst : dst.view.WordExact}
    (hsem : sem = locSem) (hN : dst.view.dmaCredit = NL)
    {α : Type} {Q : α → sProp 𝕄} {k : PUnit → Prog (TpuEff nD τ sig (Elt F) Λ₀ .tc) α} :
    (BodySt m K c σ : sProp 𝕄)
      ⊢ iprop((BodySt m K c { σ with lc := 2 } -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold BodySt
  dsimp only
  rw [h, locSt_one, locSt_two, h0, Otal_empty]
  iintro ⟨#Hrec, #Hlev, ⟨%W, HO⟩, Hr, Hd, Ht, Hss, Hl, Hb, Hx, Hz, ⟨Hc, Hat⟩⟩ Hk
  iapply (Rounds.wp_wait_rest_token 𝒱₀ ER (Rd m) (c : Thread nD τ) none (κ := K (c, kDma locSem))
      (wpE_waitDma2_eq 𝒱₀ (c : Thread nD τ) none Set.univ) (Set.mem_univ _) () (O := 0) (W := W) (R := 0) (m := 0) (T := ∅)
      (by rw [Nat.zero_add, expect_loc, hN])) $$ [Hc HO Hat]
  · isplitr; · iapply (inv_dma m K c locSem); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq ((rest_loc m c).trans (show locPay m c = iprop(ownPts c (Wout m c) ∗ xPts m c fullShare.left) from rfl))) $$ Hpay
  icases Hp with ⟨Hown, Hxl⟩
  imod (Rounds.cell_close ER (Rd m) (Set.mem_univ (K (c, kDma locSem))) (fun h => h) (R := 0 + 1) (duties_later m (locCell c))) $$ [Hat] with Hzero
  · isplitr; · iapply (inv_dma m K c locSem); iexact Hrec
    iexact Hat
  iapply Hk
  isplitr; · iexact Hrec
  isplitr; · iexact Hlev
  isplitl [HO]
  · iexists _; iexact HO
  isplitl [Hr]
  · iexact Hr
  isplitl [Hd]
  · iexact Hd
  isplitl [Ht]
  · iexact Ht
  isplitl [Hss]
  · iexact Hss
  isplitl [Hl]
  · iexact Hl
  isplitl [Hb]
  · iexact Hb
  isplitl [Hx]
  · iexact Hx
  isplitl [Hz]
  · iexact Hz
  isplitl [Hown]; · iexact Hown
  isplitl [Hxl] <;> iassumption

end Cert.Kernel.AG

end
-- ==== Proof.Bits.Time.lean ====
/-
  The body's program order, as arithmetic. The body fires 102 operations: 0..2 the three barrier signals, 3 the barrier
  wait, 4..13 the ten first-hop transfers, 14 the local copy, then for each chunk j of the own quarter its receive wait
  and its two forwards (15 + 3j ..), the three second-hop forwards along y and along z each after its receive wait
  (39..50), the eighteen remaining receive waits (51..68), the 32 send waits (69..100) and the local copy's wait (101).
  For each slot: when its transfer is issued, when its chunk is waited for, when its send is waited for; and from
  those the protocol state BEFORE operation t.
-/
import proofs.«900662_g7700000000000663_dist_ag_v7x_xyz2x2x2_x_m4096_n1024_f32_1_alg».proof.Proof.Bits.State
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The step at which the transfer into the peer's slot s is issued. -/
def tS (s : Slot) : ℕ :=
  if s.val < 10 then 4 + s.val else if s.val < 18 then 16 + 3 * (s.val - 10) else if s.val < 26 then 17 + 3 * (s.val - 18)
  else if s.val < 29 then 40 + 2 * (s.val - 26) else 46 + 2 * (s.val - 29)

/-- The step at which slot s's chunk is waited for. -/
def tR (s : Slot) : ℕ :=
  if s.val < 8 then 15 + 3 * s.val                                   -- own quarter, chunk by chunk
  else if s.val < 10 then 67 + (s.val - 8)                            -- the two chunks straight from x
  else if s.val < 13 then 51 + (s.val - 10)                           -- y's quarter, chunks 0..2
  else if s.val < 16 then 45 + 2 * (s.val - 13)                       -- chunks 3..5, forwarded on along z
  else if s.val = 16 then 58 else if s.val = 17 then 60               -- chunks 6, 7
  else if s.val < 21 then 39 + 2 * (s.val - 18)                       -- z's quarter, chunks 0..2, forwarded on along y
  else if s.val < 25 then 54 + (s.val - 21)                           -- chunks 3..6
  else if s.val = 25 then 59                                          -- chunk 7
  else if s.val < 29 then 61 + (s.val - 26) else 64 + (s.val - 29)    -- the opposite quarter through y, through z

/-- The step at which the send into the peer's slot s is waited for. -/
def tW (s : Slot) : ℕ :=
  if s.val < 10 then 69 + s.val else if s.val < 18 then 79 + 2 * (s.val - 10) else if s.val < 26 then 80 + 2 * (s.val - 18)
  else if s.val < 29 then 95 + (s.val - 26) else 98 + (s.val - 29)

/-- Until which step a held piece (slot, share code) stays held: a forwarded piece until its forward is issued, a kept
    one for good. A chunk of the own quarter is held as its two halves, every other chunk whole. -/
def tUse (p : Slot × Fin 3) : ℕ :=
  if p.1.val < 8 then (if p.2 = 1 then 16 + 3 * p.1.val else if p.2 = 2 then 17 + 3 * p.1.val else 0)
  else if p.2 ≠ 0 then 0
  else if 18 ≤ p.1.val ∧ p.1.val < 21 then 40 + 2 * (p.1.val - 18)
  else if 13 ≤ p.1.val ∧ p.1.val < 16 then 46 + 2 * (p.1.val - 13)
  else 1000

/-- The protocol state before operation t (4 ≤ t ≤ 102), a chunk of the own quarter counted as halved as soon as received. -/
def σAt (t : ℕ) : BSt where
  Sr := Finset.univ.filter fun s => t ≤ tR s
  Sd := Finset.univ.filter fun s => t ≤ tS s
  St := Finset.univ.filter fun s => t ≤ tS s
  Ss := Finset.univ.filter fun s => tS s < t ∧ t ≤ tW s
  Sl := Finset.univ.filter fun p => tR p.1 < t ∧ t ≤ tUse p
  Sb := Finset.univ.filter fun s => tW s < t
  Sx := Finset.univ.filter fun s => s.val < 10 ∧ t ≤ tS s
  Sz := Finset.univ.filter fun q : DmaSem sig => ∃ s : Slot, (q = recvSem s ∧ tR s < t) ∨ (q = sendSem s ∧ tW s < t)
  lc := if t ≤ 14 then 0 else if t ≤ 101 then 1 else 2

omit [FloatOps F] in
/-- Two equal states are one assertion. -/
theorem BodySt_of_eq (K : Dev nD × Fin 66 → ℕ) (c : Dev nD) {σ σ' : BSt} (h : σ = σ') : (BodySt m K c σ : sProp 𝕄) ⊢ BodySt m K c σ' := by
  subst h; exact BI.Entails.refl _

omit [FloatOps F] in
/-- Two states with the same nine components are one state. -/
theorem BSt_eq {σ σ' : BSt} (h1 : σ.Sr = σ'.Sr) (h2 : σ.Sd = σ'.Sd) (h3 : σ.St = σ'.St) (h4 : σ.Ss = σ'.Ss) (h5 : σ.Sl = σ'.Sl)
    (h6 : σ.Sb = σ'.Sb) (h7 : σ.Sx = σ'.Sx) (h8 : σ.Sz = σ'.Sz) (h9 : σ.lc = σ'.lc) : σ = σ' := by
  cases σ; cases σ'; simp only at h1 h2 h3 h4 h5 h6 h7 h8 h9; subst_vars; rfl

/-- Equality of two concrete states, component by component. -/
macro "bst" : tactic => `(tactic| (refine BSt_eq ?_ ?_ ?_ ?_ ?_ ?_ ?_ ?_ ?_ <;> decide))

end Cert.Kernel.AG

end
-- ==== Proof.Bits.Views.lean ====
/-
  The printed program names every chunk by a slice of an array at one of its nine offset chains. Here each such slice
  is identified with the chunk of a slot: on the sender's side with the peer's slot it fills, on the receiver's side
  with the own slot; and the units a wait on such a slice takes are a chunk's.
-/
import proofs.«900662_g7700000000000663_dist_ag_v7x_xyz2x2x2_x_m4096_n1024_f32_1_alg».proof.Proof.Bits.Steps
import proofs.«900662_g7700000000000663_dist_ag_v7x_xyz2x2x2_x_m4096_n1024_f32_1_alg».proof.Proof.Bits.Time
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Slices
variable (c : Dev nD)

omit [FloatOps F] in
theorem sl1 (j : Fin 8) (inb) (hs) :
    (oM : Memref sig .tc .hbm S8192x1024 .f32).slice (Rect.unit (s := S8192x1024) (k0_off1 c (BitVec.ofNat 32 (128 * j.val))) S128x1024.size inb) hs = outSl (xp c) (sRx j) :=
  slice_unit_congr oM (off1_row c j) _ _ _ _ _
omit [FloatOps F] in
theorem sl2 (j : Fin 8) (inb) (hs) :
    (xM : Memref sig .tc .hbm S4096x1024 .f32).slice (Rect.unit (s := S4096x1024) (k0_off2 c (BitVec.ofNat 32 (128 * j.val))) S128x1024.size inb) hs = inSl (xp c) (sRx j) :=
  slice_unit_congr xM (off2_row c j) _ _ _ _ _
omit [FloatOps F] in
theorem sl3 (i : Fin 2) (inb) (hs) :
    (oM : Memref sig .tc .hbm S8192x1024 .f32).slice (Rect.unit (s := S8192x1024) (k0_off3 c (BitVec.ofNat 32 (768 + 128 * i.val))) S128x1024.size inb) hs = outSl (xp c) (sRmx i) :=
  slice_unit_congr oM (off3_row c i) _ _ _ _ _
omit [FloatOps F] in
theorem sl4 (i : Fin 2) (inb) (hs) :
    (xM : Memref sig .tc .hbm S4096x1024 .f32).slice (Rect.unit (s := S4096x1024) (k0_off4 c (BitVec.ofNat 32 (768 + 128 * i.val))) S128x1024.size inb) hs = inSl (xp c) (sRmx i) :=
  slice_unit_congr xM (off4_row c i) _ _ _ _ _
omit [FloatOps F] in
theorem sl5 (inb) (hs) :
    (oM : Memref sig .tc .hbm S8192x1024 .f32).slice (Rect.unit (s := S8192x1024) (k0_off5 c) S4096x1024.size inb) hs = ownSl c :=
  slice_unit_congr oM (off5_row c) _ _ _ _ _
omit [FloatOps F] in
theorem sl6 (j : Fin 8) (inb) (hs) :
    (oM : Memref sig .tc .hbm S8192x1024 .f32).slice (Rect.unit (s := S8192x1024) (k0_off6 c (BitVec.ofNat 32 (128 * j.val))) S128x1024.size inb) hs = outSl c (sRx j) :=
  slice_unit_congr oM (off6_row c j) _ _ _ _ _
omit [FloatOps F] in
theorem sl7 (j : Fin 8) (inb) (hs) :
    (oM : Memref sig .tc .hbm S8192x1024 .f32).slice (Rect.unit (s := S8192x1024) (k0_off7 c (BitVec.ofNat 32 (128 * j.val))) S128x1024.size inb) hs = outSl c (sRz j) :=
  slice_unit_congr oM (off7_row c j) _ _ _ _ _
omit [FloatOps F] in
theorem sl8 (j : Fin 8) (inb) (hs) :
    (oM : Memref sig .tc .hbm S8192x1024 .f32).slice (Rect.unit (s := S8192x1024) (k0_off8 c (BitVec.ofNat 32 (128 * j.val))) S128x1024.size inb) hs = outSl c (sRy j) :=
  slice_unit_congr oM (off8_row c j) _ _ _ _ _

end Slices

omit [FloatOps F] in
/-- A wait on any chunk-shaped slice of either array takes a chunk's units; on the own block's slice, the block's. -/
theorem credit_chunk {sp : Space} (v : View sig .tc sp S128x1024 .f32) : v.dmaCredit = N := rfl
omit [FloatOps F] in
theorem credit_block (v : View sig .tc .hbm S4096x1024 .f32) (h : v.buf = (ownSl (0 : Dev nD)).view.buf) : v.dmaCredit = NL :=
  dmaCredit_congr _ _ h

end Cert.Kernel.AG

end
-- ==== Proof.Bits.Enter.lean ====
/-
  Entering the protocol. A device cuts its result array into the own block and its 32 chunks and hands, with its signal
  to the neighbour along each axis, the chunks that neighbour will fill; it cuts its input block into the half the local
  copy reads and the ten chunks it sends on. After the barrier wait it holds, from its three neighbours, the chunks of
  THEIR result arrays that it fills: the protocol state before the first transfer.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots by direction -/

omit [FloatOps F] in
theorem univ_dirs : (Finset.univ : Finset Slot) = slotsOf 0 ∪ (slotsOf 1 ∪ slotsOf 2) := by decide
omit [FloatOps F] in
theorem disj_0 : Disjoint (slotsOf 0) (slotsOf 1 ∪ slotsOf 2) := by decide
omit [FloatOps F] in
theorem disj_12 : Disjoint (slotsOf 1) (slotsOf 2) := by decide

omit [FloatOps F] in
theorem bigSep_dirs (Φ : Slot → sProp 𝕄) :
    bigSep Finset.univ Φ = iprop(bigSep (slotsOf 0) Φ ∗ bigSep (slotsOf 1) Φ ∗ bigSep (slotsOf 2) Φ) := by
  rw [univ_dirs, bigSep_union disj_0, bigSep_union disj_12]; rfl

omit [FloatOps F] in
theorem bigSep_fin3' (Φ : Fin 3 → sProp 𝕄) : bigSep Finset.univ Φ = iprop(Φ 0 ∗ Φ 1 ∗ Φ 2) :=
  bigSep_univ_eq_bigSepL [0, 1, 2] (by decide) (by decide) Φ

omit [FloatOps F] in
theorem give_one (c : Dev nD) (s : Slot) (f : Buf (Elt F) ((c : Thread nD τ).loc main_v1)) :
    (slotPts c s fullShare f : sProp 𝕄) ⊢ iprop(∃ f, slotPts (F := F) c s fullShare f) := by
  iintro H; iexists f; iexact H

omit [FloatOps F] in
/-- The own chunks of direction d, at any contents, are what the signal to the neighbour along d hands over. -/
theorem give_dir (c : Dev nD) (d : Fin 3) (f : Buf (Elt F) ((c : Thread nD τ).loc main_v1)) :
    (bigSep (slotsOf d) fun s => slotPts c s fullShare f : sProp 𝕄) ⊢ barPay (F := F) (nb d c) d := by
  unfold barPay
  rw [nb_nb]
  exact bigSep_mono fun s _ => give_one c s f

omit [FloatOps F] in
/-- What the three neighbours hand over: for every slot, the chunk of the peer's result array that this device fills. -/
theorem take_dirs (c : Dev nD) :
    iprop(barPay (F := F) c 0 ∗ barPay (F := F) c 1 ∗ barPay (F := F) c 2)
      ⊢ (bigSep Finset.univ fun s : Slot => iprop(∃ f, slotPts (F := F) (peer s c) s fullShare f) : sProp 𝕄) := by
  rw [bigSep_dirs]
  have h (d : Fin 3) : (barPay (F := F) c d : sProp 𝕄) ⊢ bigSep (slotsOf d) fun s : Slot => iprop(∃ f, slotPts (F := F) (peer s c) s fullShare f) := by
    unfold barPay
    refine Entails.of_eq (bigSep_congr fun s hs => ?_)
    have hd : dir s = d := (Finset.mem_filter.mp hs).2
    unfold peer; rw [hd]
  exact BIClass.sep_mono (h 0) (BIClass.sep_mono (h 1) (h 2))

omit [FloatOps F] in
theorem Obar_step0 (c : Dev nD) : O₀ c = (Otal c Finset.univ + Obar c (Finset.univ.erase 0)) + tallyAt (barCell (nb 0 c)) () 1 := by
  unfold O₀; rw [Obar_erase c Finset.univ 0 (Finset.mem_univ _), add_assoc]
omit [FloatOps F] in
theorem Obar_step1 (c : Dev nD) : Otal c Finset.univ + Obar c (Finset.univ.erase 0)
    = (Otal c Finset.univ + Obar c ((Finset.univ.erase 0).erase 1)) + tallyAt (barCell (nb 1 c)) () 1 := by
  rw [Obar_erase c (Finset.univ.erase 0) 1 (by decide), add_assoc]
omit [FloatOps F] in
theorem Obar_step2 (c : Dev nD) : Otal c Finset.univ + Obar c ((Finset.univ.erase 0).erase 1)
    = Otal c Finset.univ + tallyAt (barCell (nb 2 c)) () 1 := by
  rw [Obar_erase c ((Finset.univ.erase 0).erase 1) 2 (by decide), show (((Finset.univ : Finset (Fin 3)).erase 0).erase 1).erase 2 = ∅ from by decide, Obar_empty, zero_add]

/-! ## The assertion the body starts from -/

/-- Before the body: the start assertion with both arrays whole, and all the launch dues owed. -/
def Enter (c : Dev nD) : sProp 𝕄 := iprop(Φ₀ m c ∗ ∃ W, owes (c : Thread nD τ) (O₀ c) W)

variable (c : Dev nD)

set_option maxRecDepth 65536 in
set_option maxHeartbeats 1600000 in
/-- Part 2 (operations 0 to 4): the three barrier signals, each with its hand-over; the barrier wait; the first transfer. -/
theorem part2 (v2 v5 v8 v9 v10 v11 v13 v24 : BitVec 32) (Kt : PUnit → sProp 𝕄) :
    iprop(Enter m c ∗ (∀ K, BodySt m K c (σAt 5) -∗ Kt ⟨⟩))
      ⊢ wp frame (wpE (defs₀ (F := F)) 𝒱₀ (c : Thread nD τ) none) Set.univ (k0_part2 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v24 (SemArray.scalar (sig.barrier 0 rfl))) Kt := by
  simp only [k0_part2_eq_skeleton]; unfold k0_part2_skel
  simp only [semSignalWord, semWaitWord, Prog.lift, Prog.bind_op, Prog.bind_ret, Prog.pure_eq_ret]
  have e1 : (⟨k0_dev1 c, k0_dev1_lt c⟩ : Dev nD) = nb 0 c := dev_x c _ (k0_dev1_eq c)
  have e2 : (⟨k0_dev2 c, k0_dev2_lt c⟩ : Dev nD) = nb 1 c := dev_y c _ (k0_dev2_eq c)
  have e3 : (⟨k0_dev3 c, k0_dev3_lt c⟩ : Dev nD) = nb 2 c := dev_z c _ (k0_dev3_eq c)
  simp only [e1, e2, e3]
  unfold Enter Φ₀ start ghost
  rw [bigSep_fin3' (fun d : Fin 3 => dutyTok ER (barCell (nb d c)) 0 d)]
  iintro ⟨⟨⟨⟨⟨%K, #Hrec, HatB, HatL, HtokL, HatR, Htoks, Ht0, Ht1, Ht2⟩, HcB, HcR, #Hlev⟩, Hx, ⟨%f, Hout⟩⟩, ⟨%W, HO⟩⟩, Hk⟩
  ihave Hx2 := (x_split m c) $$ Hx
  icases Hx2 with ⟨Hxl, Hxs⟩
  ihave Ho2 := (out_split c f) $$ Hout
  icases Ho2 with ⟨Hown, Hsl⟩
  ihave Hsd := (Entails.of_eq (bigSep_dirs (fun s => slotPts c s fullShare f))) $$ Hsl
  icases Hsd with ⟨Hs0, Hs1, Hs2⟩
  rw [Obar_step0 c]
  -- the signal along x
  iapply (Rounds.wp_signal 𝒱₀ ER (Rd m) (c : Thread nD τ) none (dst := ((nb 0 c : Dev nD) : Thread nD τ)) (κ := K (nb 0 c, kBar))
      (d := 0) (by rw [duties_bar]; exact Finset.mem_univ _) ((amount_bar m (nb 0 c) 0).trans (by decide)) () (Otal c Finset.univ + Obar c (Finset.univ.erase 0)) rfl)
    $$ [HO Ht0 Hs0]
  · isplitr; · iapply (inv_bar m K (nb 0 c)); iexact Hrec
    isplitl [HO]; · iexact HO
    isplitl [Ht0]; · iexact Ht0
    isplitl [Hs0]; · rw [payload_bar]; iapply (give_dir c 0 f); iexact Hs0
    iapply (reached_bar m K (nb 0 c)); iexact Hrec
  iintro HO
  rw [Obar_step1 c]
  -- the signal along y
  iapply (Rounds.wp_signal 𝒱₀ ER (Rd m) (c : Thread nD τ) none (dst := ((nb 1 c : Dev nD) : Thread nD τ)) (κ := K (nb 1 c, kBar))
      (d := 1) (by rw [duties_bar]; exact Finset.mem_univ _) ((amount_bar m (nb 1 c) 1).trans (by decide)) () (Otal c Finset.univ + Obar c ((Finset.univ.erase 0).erase 1)) rfl)
    $$ [HO Ht1 Hs1]
  · isplitr; · iapply (inv_bar m K (nb 1 c)); iexact Hrec
    isplitl [HO]; · iexact HO
    isplitl [Ht1]; · iexact Ht1
    isplitl [Hs1]; · rw [payload_bar]; iapply (give_dir c 1 f); iexact Hs1
    iapply (reached_bar m K (nb 1 c)); iexact Hrec
  iintro HO
  rw [Obar_step2 c]
  -- the signal along z
  iapply (Rounds.wp_signal 𝒱₀ ER (Rd m) (c : Thread nD τ) none (dst := ((nb 2 c : Dev nD) : Thread nD τ)) (κ := K (nb 2 c, kBar))
      (d := 2) (by rw [duties_bar]; exact Finset.mem_univ _) ((amount_bar m (nb 2 c) 2).trans (by decide)) () (Otal c Finset.univ) rfl)
    $$ [HO Ht2 Hs2]
  · isplitr; · iapply (inv_bar m K (nb 2 c)); iexact Hrec
    isplitl [HO]; · iexact HO
    isplitl [Ht2]; · iexact Ht2
    isplitl [Hs2]; · rw [payload_bar]; iapply (give_dir c 2 f); iexact Hs2
    iapply (reached_bar m K (nb 2 c)); iexact Hrec
  iintro HO
  -- the barrier wait: three units, every receive duty still owed
  iapply (Rounds.wp_wait_rest_token 𝒱₀ ER (Rd m) (c : Thread nD τ) none (κ := K (c, kBar))
      (wpE_semWait_eq 𝒱₀ (c : Thread nD τ) none Set.univ) (Set.mem_univ _) () (O := Otal c Finset.univ) (W := W) (R := 0) (m := 0) (T := ∅)
      (by rw [expect_bar]; decide)) $$ [HcB HO HatB]
  · isplitr; · iapply (inv_bar m K c); iexact Hrec
    isplitl [HcB]; · iexact HcB
    isplitl [HO]; · iexact HO
    isplitr; · iapply (mayWait_bar c); iexact Hlev
    iexact HatB
  iintro ⟨HO, -, -, Hpay⟩
  ihave Hp := (Entails.of_eq (rest_bar m c)) $$ Hpay
  ihave Hd := (take_dirs c) $$ Hp
  -- the protocol state before the first transfer
  ihave Hr := (Entails.of_eq (bigSep_sep' Finset.univ (fun s : Slot => (cred (tallyAt (recvCell c s) () N) : sProp 𝕄)) (fun s => atPos ER (recvCell c s) 0 ∅ 0)).symm) $$ [HcR HatR]
  · isplitl [HcR] <;> iassumption
  ihave H : BodySt m K c (σAt 4) $$ [HO Hr Hd Htoks Hxs Hxl Hown HtokL HatL]
  · unfold BodySt
    rw [show (σAt 4).Sr = Finset.univ from by decide, show (σAt 4).Sd = Finset.univ from by decide, show (σAt 4).St = Finset.univ from by decide,
      show (σAt 4).Ss = ∅ from by decide, show (σAt 4).Sl = ∅ from by decide, show (σAt 4).Sb = ∅ from by decide,
      show (σAt 4).Sx = slotsOf 0 from by decide, show (σAt 4).Sz = ∅ from by decide, show (σAt 4).lc = 0 from by decide, locSt_zero]
    isplitr; · iexact Hrec
    isplitr; · iexact Hlev
    isplitl [HO]; · iexists _; iexact HO
    isplitl [Hr]; · iexact Hr
    isplitl [Hd]; · iexact Hd
    isplitl [Htoks]; · iexact Htoks
    isplitr; · rw [bigSep_empty]; iempintro
    isplitr; · rw [bigSep_empty]; iempintro
    isplitr; · rw [bigSep_empty]; iempintro
    isplitl [Hxs]; · iexact Hxs
    isplitr; · rw [bigSep_empty]; iempintro
    isplitl [Hxl]; · iexact Hxl
    isplitl [Hown]; · iexists f; iexact Hown
    isplitl [HtokL] <;> iassumption
  -- the first transfer: chunk 0 of the own quarter's counterpart goes to the x-neighbour
  iapply (step_sendX m K c (sRx 0) (by decide) (σAt 4) (by decide) (by decide) (by decide) (by decide)
      (dev_x c _ (k0_dev4_eq c)) (sl2 c 0 _ _) (sl1 c 0 _ _) rfl rfl) $$ H
  iintro H
  ihave H := (BodySt_of_eq m K c (σ' := σAt 5) (by bst)) $$ H
  rw [wp_ret]; imodintro
  iapply Hk; iexact H

end Cert.Kernel.AG

end
-- ==== Proof.Bits.PartsA.lean ====
/-
  Parts 3 to 6 of the body: the nine remaining first-hop transfers, each a chunk of the input block sent to the
  x-neighbour, and the local copy of the input block onto the own block.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 3 (operations 5 and 6): chunks 1 and 2 of the x-neighbour's quarter are sent to it. -/
theorem part3 (v5 v8 v9 v13 v24 : BitVec 32) (Kt : BitVec 32 → sProp 𝕄) :
    iprop(BodySt m K c (σAt 5) ∗ (∀ r, BodySt m K c (σAt 7) -∗ Kt r))
      ⊢ wp frame (wpE (defs₀ (F := F)) 𝒱₀ (c : Thread nD τ) none) Set.univ (k0_part3 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v24) Kt := by
  simp only [k0_part3_eq_skeleton]; unfold k0_part3_skel
  simp only [Prog.lift, Prog.bind_op, Prog.bind_ret, Prog.pure_eq_ret]
  iintro ⟨H, Hk⟩
  -- chunk 1 of the x-neighbour's quarter goes into its slot 1
  iapply (step_sendX m K c (sRx 1) (by decide) (σAt 5) (by decide) (by decide) (by decide) (by decide)
      (dev_x c _ (k0_dev5_eq c)) (sl2 c 1 _ _) (sl1 c 1 _ _) rfl rfl) $$ H
  iintro H
  ihave H := (BodySt_of_eq m K c (σ' := σAt 6) (by bst)) $$ H
  -- chunk 2 of the x-neighbour's quarter goes into its slot 2
  iapply (step_sendX m K c (sRx 2) (by decide) (σAt 6) (by decide) (by decide) (by decide) (by decide)
      (dev_x c _ (k0_dev6_eq c)) (sl2 c 2 _ _) (sl1 c 2 _ _) rfl rfl) $$ H
  iintro H
  ihave H := (BodySt_of_eq m K c (σ' := σAt 7) (by bst)) $$ H
  rw [wp_ret]; imodintro
  iapply Hk; iexact H

set_option maxRecDepth 65536 in
/-- Part 4 (operations 7 and 8): chunks 3 and 4 of the x-neighbour's quarter are sent to it. -/
theorem part4 (v5 v8 v9 v13 v24 v97 : BitVec 32) (Kt : PUnit → sProp 𝕄) :
    iprop(BodySt m K c (σAt 7) ∗ (∀ r, BodySt m K c (σAt 9) -∗ Kt r))
      ⊢ wp frame (wpE (defs₀ (F := F)) 𝒱₀ (c : Thread nD τ) none) Set.univ (k0_part4 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v24 v97) Kt := by
  simp only [k0_part4_eq_skeleton]; unfold k0_part4_skel
  simp only [Prog.lift, Prog.bind_op, Prog.bind_ret, Prog.pure_eq_ret]
  iintro ⟨H, Hk⟩
  -- chunk 3 of the x-neighbour's quarter goes into its slot 3
  iapply (step_sendX m K c (sRx 3) (by decide) (σAt 7) (by decide) (by decide) (by decide) (by decide)
      (dev_x c _ (k0_dev7_eq c)) (sl2 c 3 _ _) (sl1 c 3 _ _) rfl rfl) $$ H
  iintro H
  ihave H := (BodySt_of_eq m K c (σ' := σAt 8) (by bst)) $$ H
  -- chunk 4 of the x-neighbour's quarter goes into its slot 4
  iapply (step_sendX m K c (sRx 4) (by decide) (σAt 8) (by decide) (by decide) (by decide) (by decide)
      (dev_x c _ (k0_dev8_eq c)) (sl2 c 4 _ _) (sl1 c 4 _ _) rfl rfl) $$ H
  iintro H
  ihave H := (BodySt_of_eq m K c (σ' := σAt 9) (by bst)) $$ H
  rw [wp_ret]; imodintro
  iapply Hk; iexact H

set_option maxRecDepth 65536 in
/-- Part 5 (operations 9 to 11): chunks 5, 6 and 7 of the x-neighbour's quarter are sent to it. -/
theorem part5 (v5 v8 v9 v13 v23 v24 : BitVec 32) (Kt : BitVec 32 → sProp 𝕄) :
    iprop(BodySt m K c (σAt 9) ∗ (∀ r, BodySt m K c (σAt 12) -∗ Kt r))
      ⊢ wp frame (wpE (defs₀ (F := F)) 𝒱₀ (c : Thread nD τ) none) Set.univ (k0_part5 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v23 v24) Kt := by
  simp only [k0_part5_eq_skeleton]; unfold k0_part5_skel
  simp only [Prog.lift, Prog.bind_op, Prog.bind_ret, Prog.pure_eq_ret]
  iintro ⟨H, Hk⟩
  -- chunk 5 of the x-neighbour's quarter goes into its slot 5
  iapply (step_sendX m K c (sRx 5) (by decide) (σAt 9) (by decide) (by decide) (by decide) (by decide)
      (dev_x c _ (k0_dev9_eq c)) (sl2 c 5 _ _) (sl1 c 5 _ _) rfl rfl) $$ H
  iintro H
  ihave H := (BodySt_of_eq m K c (σ' := σAt 10) (by bst)) $$ H
  -- chunk 6 of the x-neighbour's quarter goes into its slot 6
  iapply (step_sendX m K c (sRx 6) (by decide) (σAt 10) (by decide) (by decide) (by decide) (by decide)
      (dev_x c _ (k0_dev10_eq c)) (sl2 c 6 _ _) (sl1 c 6 _ _) rfl rfl) $$ H
  iintro H
  ihave H := (BodySt_of_eq m K c (σ' := σAt 11) (by bst)) $$ H
  -- chunk 7 of the x-neighbour's quarter goes into its slot 7
  iapply (step_sendX m K c (sRx 7) (by decide) (σAt 11) (by decide) (by decide) (by decide) (by decide)
      (dev_x c _ (k0_dev11_eq c)) (sl2 c 7 _ _) (sl1 c 7 _ _) rfl rfl) $$ H
  iintro H
  ihave H := (BodySt_of_eq m K c (σ' := σAt 12) (by bst)) $$ H
  rw [wp_ret]; imodintro
  iapply Hk; iexact H

set_option maxRecDepth 65536 in
/-- Part 6 (operations 12 to 14): chunks 6 and 7 of the opposite quarter are sent to the x-neighbour, and the input block
    is copied onto the own block. -/
theorem part6 (v5 v8 v9 v13 v23 v24 v26 v167 : BitVec 32) (Kt : BitVec 32 → sProp 𝕄) :
    iprop(BodySt m K c (σAt 12) ∗ (∀ r, BodySt m K c (σAt 15) -∗ Kt r))
      ⊢ wp frame (wpE (defs₀ (F := F)) 𝒱₀ (c : Thread nD τ) none) Set.univ (k0_part6 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v13 v23 v24 v26 v167) Kt := by
  simp only [k0_part6_eq_skeleton]; unfold k0_part6_skel
  simp only [Prog.lift, Prog.bind_op, Prog.bind_ret, Prog.pure_eq_ret]
  iintro ⟨H, Hk⟩
  -- chunk 6 of the opposite quarter goes into the x-neighbour's slot 8
  iapply (step_sendX m K c (sRmx 0) (by decide) (σAt 12) (by decide) (by decide) (by decide) (by decide)
      (dev_x c _ (k0_dev12_eq c)) (sl4 c 0 _ _) (sl3 c 0 _ _) rfl rfl) $$ H
  iintro H
  ihave H := (BodySt_of_eq m K c (σ' := σAt 13) (by bst)) $$ H
  -- chunk 7 of the opposite quarter goes into the x-neighbour's slot 9
  iapply (step_sendX m K c (sRmx 1) (by decide) (σAt 13) (by decide) (by decide) (by decide) (by decide)
      (dev_x c _ (k0_dev13_eq c)) (sl4 c 1 _ _) (sl3 c 1 _ _) rfl rfl) $$ H
  iintro H
  ihave H := (BodySt_of_eq m K c (σ' := σAt 14) (by bst)) $$ H
  -- the local copy: half the input and the own block go in
  iapply (step_local m K c (σAt 14) (by decide) (sl5 c _ _) rfl) $$ H
  iintro H
  ihave H := (BodySt_of_eq m K c (σ' := σAt 15) (by bst)) $$ H
  rw [wp_ret]; imodintro
  iapply Hk; iexact H

end Cert.Kernel.AG

end
-- ==== Proof.Bits.PartsB.lean ====
/-
  Parts 7 to 15 of the body: for each chunk of the own quarter, its receive wait and its two forwards.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 7 (operations 15 to 17): chunk 0 of the own quarter is waited for, halved, and forwarded along y and along z. -/
theorem part7 (v2 v5 v8 v10 v11 v13 v26 v200 : BitVec 32) (Kt : BitVec 32 → sProp 𝕄) :
    iprop(BodySt m K c (σAt 15) ∗ (∀ r, BodySt m K c (σAt 18) -∗ Kt r))
      ⊢ wp frame (wpE (defs₀ (F := F)) 𝒱₀ (c : Thread nD τ) none) Set.univ (k0_part7 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v10 v11 v13 v26 v200) Kt := by
  simp only [k0_part7_eq_skeleton]; unfold k0_part7_skel
  simp only [Prog.lift, Prog.bind_op, Prog.bind_ret, Prog.pure_eq_ret]
  iintro ⟨H, Hk⟩
  -- the wait for chunk 0
  iapply (step_waitRecv m K c (sRx 0) (σAt 15) (by decide) (by decide) (by decide) (by decide) rfl (credit_chunk _)) $$ H
  iintro H
  ihave H := (step_halve m K c (sRx 0) _ (by decide) (by decide) (by decide)) $$ H
  ihave H := (BodySt_of_eq m K c (σ' := σAt 16) (by bst)) $$ H
  -- its forward along y: the left half goes into the y-neighbour's slot 10
  iapply (step_fwd m K c (sRy 0) (by decide) (σAt 16) (by decide) (by decide) (by decide) (by decide)
      ((dev_y c _ (k0_dev14_eq c)).trans (peer_y c (sRy 0) (by decide)).symm) (sl6 c 0 _ _) ((sl6 c 0 _ _).trans (outSl_fwd c (sRy 0) (by decide)).symm) rfl rfl) $$ H
  iintro H
  ihave H := (BodySt_of_eq m K c (σ' := σAt 17) (by bst)) $$ H
  -- its forward along z: the right half goes into the z-neighbour's slot 18
  iapply (step_fwd m K c (sRz 0) (by decide) (σAt 17) (by decide) (by decide) (by decide) (by decide)
      ((dev_z c _ (k0_dev15_eq c)).trans (peer_z c (sRz 0) (by decide)).symm) (sl6 c 0 _ _) ((sl6 c 0 _ _).trans (outSl_fwd c (sRz 0) (by decide)).symm) rfl rfl) $$ H
  iintro H
  ihave H := (BodySt_of_eq m K c (σ' := σAt 18) (by bst)) $$ H
  rw [wp_ret]; imodintro
  iapply Hk; iexact H

set_option maxRecDepth 65536 in
/-- Part 8 (operations 18 and 19): chunk 1 of the own quarter is waited for and halved, and its left half forwarded along y. -/
theorem part8 (v2 v5 v8 v9 v10 v11 v235 : BitVec 32) (Kt : PUnit → sProp 𝕄) :
    iprop(BodySt m K c (σAt 18) ∗ (∀ r, BodySt m K c (σAt 20) -∗ Kt r))
      ⊢ wp frame (wpE (defs₀ (F := F)) 𝒱₀ (c : Thread nD τ) none) Set.univ (k0_part8 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v235) Kt := by
  simp only [k0_part8_eq_skeleton]; unfold k0_part8_skel
  simp only [Prog.lift, Prog.bind_op, Prog.bind_ret, Prog.pure_eq_ret]
  iintro ⟨H, Hk⟩
  -- the wait for chunk 1
  iapply (step_waitRecv m K c (sRx 1) (σAt 18) (by decide) (by decide) (by decide) (by decide) rfl (credit_chunk _)) $$ H
  iintro H
  ihave H := (step_halve m K c (sRx 1) _ (by decide) (by decide) (by decide)) $$ H
  ihave H := (BodySt_of_eq m K c (σ' := σAt 19) (by bst)) $$ H
  -- chunk 1's forward along y: the left half goes into the y-neighbour's slot 11
  iapply (step_fwd m K c (sRy 1) (by decide) (σAt 19) (by decide) (by decide) (by decide) (by decide)
      ((dev_y c _ (k0_dev16_eq c)).trans (peer_y c (sRy 1) (by decide)).symm) (sl6 c 1 _ _) ((sl6 c 1 _ _).trans (outSl_fwd c (sRy 1) (by decide)).symm) rfl rfl) $$ H
  iintro H
  ihave H := (BodySt_of_eq m K c (σ' := σAt 20) (by bst)) $$ H
  rw [wp_ret]; imodintro
  iapply Hk; iexact H

set_option maxRecDepth 65536 in
/-- Part 9 (operations 20 to 22): the right half of chunk 1 is forwarded along z; chunk 2 is waited for, halved, and forwarded along y. -/
theorem part9 (v2 v5 v8 v9 v10 v11 v13 v26 : BitVec 32) (Kt : PUnit → sProp 𝕄) :
    iprop(BodySt m K c (σAt 20) ∗ (∀ r, BodySt m K c (σAt 23) -∗ Kt r))
      ⊢ wp frame (wpE (defs₀ (F := F)) 𝒱₀ (c : Thread nD τ) none) Set.univ (k0_part9 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part9_eq_skeleton]; unfold k0_part9_skel
  simp only [Prog.lift, Prog.bind_op, Prog.bind_ret, Prog.pure_eq_ret]
  iintro ⟨H, Hk⟩
  -- chunk 1's forward along z: the right half goes into the z-neighbour's slot 19
  iapply (step_fwd m K c (sRz 1) (by decide) (σAt 20) (by decide) (by decide) (by decide) (by decide)
      ((dev_z c _ (k0_dev17_eq c)).trans (peer_z c (sRz 1) (by decide)).symm) (sl6 c 1 _ _) ((sl6 c 1 _ _).trans (outSl_fwd c (sRz 1) (by decide)).symm) rfl rfl) $$ H
  iintro H
  ihave H := (BodySt_of_eq m K c (σ' := σAt 21) (by bst)) $$ H
  -- the wait for chunk 2
  iapply (step_waitRecv m K c (sRx 2) (σAt 21) (by decide) (by decide) (by decide) (by decide) rfl (credit_chunk _)) $$ H
  iintro H
  ihave H := (step_halve m K c (sRx 2) _ (by decide) (by decide) (by decide)) $$ H
  ihave H := (BodySt_of_eq m K c (σ' := σAt 22) (by bst)) $$ H
  -- chunk 2's forward along y: the left half goes into the y-neighbour's slot 12
  iapply (step_fwd m K c (sRy 2) (by decide) (σAt 22) (by decide) (by decide) (by decide) (by decide)
      ((dev_y c _ (k0_dev18_eq c)).trans (peer_y c (sRy 2) (by decide)).symm) (sl6 c 2 _ _) ((sl6 c 2 _ _).trans (outSl_fwd c (sRy 2) (by decide)).symm) rfl rfl) $$ H
  iintro H
  ihave H := (BodySt_of_eq m K c (σ' := σAt 23) (by bst)) $$ H
  rw [wp_ret]; imodintro
  iapply Hk; iexact H

set_option maxRecDepth 65536 in
/-- Part 10 (operations 23 to 25): the right half of chunk 2 is forwarded along z; chunk 3 is waited for, halved, and forwarded along y. -/
theorem part10 (v2 v5 v8 v9 v10 v13 v26 : BitVec 32) (Kt : BitVec 32 → sProp 𝕄) :
    iprop(BodySt m K c (σAt 23) ∗ (∀ r, BodySt m K c (σAt 26) -∗ Kt r))
      ⊢ wp frame (wpE (defs₀ (F := F)) 𝒱₀ (c : Thread nD τ) none) Set.univ (k0_part10 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v13 v26) Kt := by
  simp only [k0_part10_eq_skeleton]; unfold k0_part10_skel
  simp only [Prog.lift, Prog.bind_op, Prog.bind_ret, Prog.pure_eq_ret]
  iintro ⟨H, Hk⟩
  -- chunk 2's forward along z: the right half goes into the z-neighbour's slot 20
  iapply (step_fwd m K c (sRz 2) (by decide) (σAt 23) (by decide) (by decide) (by decide) (by decide)
      ((dev_z c _ (k0_dev19_eq c)).trans (peer_z c (sRz 2) (by decide)).symm) (sl6 c 2 _ _) ((sl6 c 2 _ _).trans (outSl_fwd c (sRz 2) (by decide)).symm) rfl rfl) $$ H
  iintro H
  ihave H := (BodySt_of_eq m K c (σ' := σAt 24) (by bst)) $$ H
  -- the wait for chunk 3
  iapply (step_waitRecv m K c (sRx 3) (σAt 24) (by decide) (by decide) (by decide) (by decide) rfl (credit_chunk _)) $$ H
  iintro H
  ihave H := (step_halve m K c (sRx 3) _ (by decide) (by decide) (by decide)) $$ H
  ihave H := (BodySt_of_eq m K c (σ' := σAt 25) (by bst)) $$ H
  -- chunk 3's forward along y: the left half goes into the y-neighbour's slot 13
  iapply (step_fwd m K c (sRy 3) (by decide) (σAt 25) (by decide) (by decide) (by decide) (by decide)
      ((dev_y c _ (k0_dev20_eq c)).trans (peer_y c (sRy 3) (by decide)).symm) (sl6 c 3 _ _) ((sl6 c 3 _ _).trans (outSl_fwd c (sRy 3) (by decide)).symm) rfl rfl) $$ H
  iintro H
  ihave H := (BodySt_of_eq m K c (σ' := σAt 26) (by bst)) $$ H
  rw [wp_ret]; imodintro
  iapply Hk; iexact H

set_option maxRecDepth 65536 in
/-- Part 11 (operations 26 to 28): the right half of chunk 3 is forwarded along z; chunk 4 is waited for, halved, and forwarded along y. -/
theorem part11 (v2 v5 v8 v9 v10 v11 v13 v26 v334 : BitVec 32) (Kt : PUnit → sProp 𝕄) :
    iprop(BodySt m K c (σAt 26) ∗ (∀ r, BodySt m K c (σAt 29) -∗ Kt r))
      ⊢ wp frame (wpE (defs₀ (F := F)) 𝒱₀ (c : Thread nD τ) none) Set.univ (k0_part11 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26 v334) Kt := by
  simp only [k0_part11_eq_skeleton]; unfold k0_part11_skel
  simp only [Prog.lift, Prog.bind_op, Prog.bind_ret, Prog.pure_eq_ret]
  iintro ⟨H, Hk⟩
  -- chunk 3's forward along z: the right half goes into the z-neighbour's slot 21
  iapply (step_fwd m K c (sRz 3) (by decide) (σAt 26) (by decide) (by decide) (by decide) (by decide)
      ((dev_z c _ (k0_dev21_eq c)).trans (peer_z c (sRz 3) (by decide)).symm) (sl6 c 3 _ _) ((sl6 c 3 _ _).trans (outSl_fwd c (sRz 3) (by decide)).symm) rfl rfl) $$ H
  iintro H
  ihave H := (BodySt_of_eq m K c (σ' := σAt 27) (by bst)) $$ H
  -- the wait for chunk 4
  iapply (step_waitRecv m K c (sRx 4) (σAt 27) (by decide) (by decide) (by decide) (by decide) rfl (credit_chunk _)) $$ H
  iintro H
  ihave H := (step_halve m K c (sRx 4) _ (by decide) (by decide) (by decide)) $$ H
  ihave H := (BodySt_of_eq m K c (σ' := σAt 28) (by bst)) $$ H
  -- chunk 4's forward along y: the left half goes into the y-neighbour's slot 14
  iapply (step_fwd m K c (sRy 4) (by decide) (σAt 28) (by decide) (by decide) (by decide) (by decide)
      ((dev_y c _ (k0_dev22_eq c)).trans (peer_y c (sRy 4) (by decide)).symm) (sl6 c 4 _ _) ((sl6 c 4 _ _).trans (outSl_fwd c (sRy 4) (by decide)).symm) rfl rfl) $$ H
  iintro H
  ihave H := (BodySt_of_eq m K c (σ' := σAt 29) (by bst)) $$ H
  rw [wp_ret]; imodintro
  iapply Hk; iexact H

set_option maxRecDepth 65536 in
/-- Part 12 (operations 29 and 30): the right half of chunk 4 is forwarded along z; chunk 5 is waited for and halved. -/
theorem part12 (v2 v5 v8 v9 v10 v11 v13 v26 : BitVec 32) (Kt : PUnit → sProp 𝕄) :
    iprop(BodySt m K c (σAt 29) ∗ (∀ r, BodySt m K c (σAt 31) -∗ Kt r))
      ⊢ wp frame (wpE (defs₀ (F := F)) 𝒱₀ (c : Thread nD τ) none) Set.univ (k0_part12 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part12_eq_skeleton]; unfold k0_part12_skel
  simp only [Prog.lift, Prog.bind_op, Prog.bind_ret, Prog.pure_eq_ret]
  iintro ⟨H, Hk⟩
  -- chunk 4's forward along z: the right half goes into the z-neighbour's slot 22
  iapply (step_fwd m K c (sRz 4) (by decide) (σAt 29) (by decide) (by decide) (by decide) (by decide)
      ((dev_z c _ (k0_dev23_eq c)).trans (peer_z c (sRz 4) (by decide)).symm) (sl6 c 4 _ _) ((sl6 c 4 _ _).trans (outSl_fwd c (sRz 4) (by decide)).symm) rfl rfl) $$ H
  iintro H
  ihave H := (BodySt_of_eq m K c (σ' := σAt 30) (by bst)) $$ H
  -- the wait for chunk 5
  iapply (step_waitRecv m K c (sRx 5) (σAt 30) (by decide) (by decide) (by decide) (by decide) rfl (credit_chunk _)) $$ H
  iintro H
  ihave H := (step_halve m K c (sRx 5) _ (by decide) (by decide) (by decide)) $$ H
  ihave H := (BodySt_of_eq m K c (σ' := σAt 31) (by bst)) $$ H
  rw [wp_ret]; imodintro
  iapply Hk; iexact H

set_option maxRecDepth 65536 in
/-- Part 13 (operations 31 to 33): chunk 5 is forwarded along y and along z; chunk 6 is waited for and halved. -/
theorem part13 (v2 v5 v8 v9 v10 v11 v13 v26 : BitVec 32) (Kt : BitVec 32 → sProp 𝕄) :
    iprop(BodySt m K c (σAt 31) ∗ (∀ r, BodySt m K c (σAt 34) -∗ Kt r))
      ⊢ wp frame (wpE (defs₀ (F := F)) 𝒱₀ (c : Thread nD τ) none) Set.univ (k0_part13 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v13 v26) Kt := by
  simp only [k0_part13_eq_skeleton]; unfold k0_part13_skel
  simp only [Prog.lift, Prog.bind_op, Prog.bind_ret, Prog.pure_eq_ret]
  iintro ⟨H, Hk⟩
  -- chunk 5's forward along y: the left half goes into the y-neighbour's slot 15
  iapply (step_fwd m K c (sRy 5) (by decide) (σAt 31) (by decide) (by decide) (by decide) (by decide)
      ((dev_y c _ (k0_dev24_eq c)).trans (peer_y c (sRy 5) (by decide)).symm) (sl6 c 5 _ _) ((sl6 c 5 _ _).trans (outSl_fwd c (sRy 5) (by decide)).symm) rfl rfl) $$ H
  iintro H
  ihave H := (BodySt_of_eq m K c (σ' := σAt 32) (by bst)) $$ H
  -- chunk 5's forward along z: the right half goes into the z-neighbour's slot 23
  iapply (step_fwd m K c (sRz 5) (by decide) (σAt 32) (by decide) (by decide) (by decide) (by decide)
      ((dev_z c _ (k0_dev25_eq c)).trans (peer_z c (sRz 5) (by decide)).symm) (sl6 c 5 _ _) ((sl6 c 5 _ _).trans (outSl_fwd c (sRz 5) (by decide)).symm) rfl rfl) $$ H
  iintro H
  ihave H := (BodySt_of_eq m K c (σ' := σAt 33) (by bst)) $$ H
  -- the wait for chunk 6
  iapply (step_waitRecv m K c (sRx 6) (σAt 33) (by decide) (by decide) (by decide) (by decide) rfl (credit_chunk _)) $$ H
  iintro H
  ihave H := (step_halve m K c (sRx 6) _ (by decide) (by decide) (by decide)) $$ H
  ihave H := (BodySt_of_eq m K c (σ' := σAt 34) (by bst)) $$ H
  rw [wp_ret]; imodintro
  iapply Hk; iexact H

set_option maxRecDepth 65536 in
/-- Part 14 (operations 34 to 36): chunk 6 is forwarded along y and along z; chunk 7 is waited for and halved. -/
theorem part14 (v2 v5 v8 v9 v11 v13 v26 v435 : BitVec 32) (Kt : BitVec 32 → sProp 𝕄) :
    iprop(BodySt m K c (σAt 34) ∗ (∀ r, BodySt m K c (σAt 37) -∗ Kt r))
      ⊢ wp frame (wpE (defs₀ (F := F)) 𝒱₀ (c : Thread nD τ) none) Set.univ (k0_part14 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v13 v26 v435) Kt := by
  simp only [k0_part14_eq_skeleton]; unfold k0_part14_skel
  simp only [Prog.lift, Prog.bind_op, Prog.bind_ret, Prog.pure_eq_ret]
  iintro ⟨H, Hk⟩
  -- chunk 6's forward along y: the left half goes into the y-neighbour's slot 16
  iapply (step_fwd m K c (sRy 6) (by decide) (σAt 34) (by decide) (by decide) (by decide) (by decide)
      ((dev_y c _ (k0_dev26_eq c)).trans (peer_y c (sRy 6) (by decide)).symm) (sl6 c 6 _ _) ((sl6 c 6 _ _).trans (outSl_fwd c (sRy 6) (by decide)).symm) rfl rfl) $$ H
  iintro H
  ihave H := (BodySt_of_eq m K c (σ' := σAt 35) (by bst)) $$ H
  -- chunk 6's forward along z: the right half goes into the z-neighbour's slot 24
  iapply (step_fwd m K c (sRz 6) (by decide) (σAt 35) (by decide) (by decide) (by decide) (by decide)
      ((dev_z c _ (k0_dev27_eq c)).trans (peer_z c (sRz 6) (by decide)).symm) (sl6 c 6 _ _) ((sl6 c 6 _ _).trans (outSl_fwd c (sRz 6) (by decide)).symm) rfl rfl) $$ H
  iintro H
  ihave H := (BodySt_of_eq m K c (σ' := σAt 36) (by bst)) $$ H
  -- the wait for chunk 7
  iapply (step_waitRecv m K c (sRx 7) (σAt 36) (by decide) (by decide) (by decide) (by decide) rfl (credit_chunk _)) $$ H
  iintro H
  ihave H := (step_halve m K c (sRx 7) _ (by decide) (by decide) (by decide)) $$ H
  ihave H := (BodySt_of_eq m K c (σ' := σAt 37) (by bst)) $$ H
  rw [wp_ret]; imodintro
  iapply Hk; iexact H

set_option maxRecDepth 65536 in
/-- Part 15 (operations 37 and 38): chunk 7 is forwarded along y and along z. -/
theorem part15 (v2 v5 v8 v9 v10 v11 v19 v26 c4_i32_312 : BitVec 32) (Kt : PUnit → sProp 𝕄) :
    iprop(BodySt m K c (σAt 37) ∗ (∀ r, BodySt m K c (σAt 39) -∗ Kt r))
      ⊢ wp frame (wpE (defs₀ (F := F)) 𝒱₀ (c : Thread nD τ) none) Set.univ (k0_part15 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v11 v19 v26 c4_i32_312) Kt := by
  simp only [k0_part15_eq_skeleton]; unfold k0_part15_skel
  simp only [Prog.lift, Prog.bind_op, Prog.bind_ret, Prog.pure_eq_ret]
  iintro ⟨H, Hk⟩
  -- chunk 7's forward along y: the left half goes into the y-neighbour's slot 17
  iapply (step_fwd m K c (sRy 7) (by decide) (σAt 37) (by decide) (by decide) (by decide) (by decide)
      ((dev_y c _ (k0_dev28_eq c)).trans (peer_y c (sRy 7) (by decide)).symm) (sl6 c 7 _ _) ((sl6 c 7 _ _).trans (outSl_fwd c (sRy 7) (by decide)).symm) rfl rfl) $$ H
  iintro H
  ihave H := (BodySt_of_eq m K c (σ' := σAt 38) (by bst)) $$ H
  -- chunk 7's forward along z: the right half goes into the z-neighbour's slot 25
  iapply (step_fwd m K c (sRz 7) (by decide) (σAt 38) (by decide) (by decide) (by decide) (by decide)
      ((dev_z c _ (k0_dev29_eq c)).trans (peer_z c (sRz 7) (by decide)).symm) (sl6 c 7 _ _) ((sl6 c 7 _ _).trans (outSl_fwd c (sRz 7) (by decide)).symm) rfl rfl) $$ H
  iintro H
  ihave H := (BodySt_of_eq m K c (σ' := σAt 39) (by bst)) $$ H
  rw [wp_ret]; imodintro
  iapply Hk; iexact H

end Cert.Kernel.AG

end
-- ==== Proof.Bits.PartsC.lean ====
/-
  Parts 16 to 20 of the body: the second-hop forwards. Chunks 0..2 of the z-neighbour's quarter are waited for and sent
  on along y; chunks 3..5 of the y-neighbour's quarter are waited for and sent on along z; each forwarded chunk is held
  whole until its forward is issued. The part closes with the waits for chunks 0 and 1 of the y-neighbour's quarter.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 16 (operations 39 to 41): chunk 0 of the z-neighbour's quarter is waited for and forwarded along y; chunk 1 is waited for. -/
theorem part16 (v2 v5 v8 v9 v10 v19 v26 : BitVec 32) (Kt : PUnit → sProp 𝕄) :
    iprop(BodySt m K c (σAt 39) ∗ (∀ r, BodySt m K c (σAt 42) -∗ Kt r))
      ⊢ wp frame (wpE (defs₀ (F := F)) 𝒱₀ (c : Thread nD τ) none) Set.univ (k0_part16 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v19 v26) Kt := by
  simp only [k0_part16_eq_skeleton]; unfold k0_part16_skel
  simp only [Prog.lift, Prog.bind_op, Prog.bind_ret, Prog.pure_eq_ret]
  iintro ⟨H, Hk⟩
  -- the wait for chunk 0 of the z-neighbour's quarter
  iapply (step_waitRecv m K c (sRz 0) (σAt 39) (by decide) (by decide) (by decide) (by decide) rfl (credit_chunk _)) $$ H
  iintro H
  ihave H := (BodySt_of_eq m K c (σ' := σAt 40) (by bst)) $$ H
  -- its forward along y, whole, into the y-neighbour's slot 26
  iapply (step_fwd m K c (sRmy 0) (by decide) (σAt 40) (by decide) (by decide) (by decide) (by decide)
      ((dev_y c _ (k0_dev30_eq c)).trans (peer_y c (sRmy 0) (by decide)).symm) (sl7 c 0 _ _) ((sl7 c 0 _ _).trans (outSl_fwd c (sRmy 0) (by decide)).symm) rfl rfl) $$ H
  iintro H
  ihave H := (BodySt_of_eq m K c (σ' := σAt 41) (by bst)) $$ H
  -- the wait for chunk 1 of the z-neighbour's quarter
  iapply (step_waitRecv m K c (sRz 1) (σAt 41) (by decide) (by decide) (by decide) (by decide) rfl (credit_chunk _)) $$ H
  iintro H
  ihave H := (BodySt_of_eq m K c (σ' := σAt 42) (by bst)) $$ H
  rw [wp_ret]; imodintro
  iapply Hk; iexact H

set_option maxRecDepth 65536 in
/-- Part 17 (operations 42 to 44): chunk 1 of the z-neighbour's quarter is forwarded along y; chunk 2 is waited for and forwarded along y. -/
theorem part17 (v2 v5 v8 v9 v10 v16 v19 v26 : BitVec 32) (Kt : PUnit → sProp 𝕄) :
    iprop(BodySt m K c (σAt 42) ∗ (∀ r, BodySt m K c (σAt 45) -∗ Kt r))
      ⊢ wp frame (wpE (defs₀ (F := F)) 𝒱₀ (c : Thread nD τ) none) Set.univ (k0_part17 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v10 v16 v19 v26) Kt := by
  simp only [k0_part17_eq_skeleton]; unfold k0_part17_skel
  simp only [Prog.lift, Prog.bind_op, Prog.bind_ret, Prog.pure_eq_ret]
  iintro ⟨H, Hk⟩
  -- chunk 1 goes, whole, into the y-neighbour's slot 27
  iapply (step_fwd m K c (sRmy 1) (by decide) (σAt 42) (by decide) (by decide) (by decide) (by decide)
      ((dev_y c _ (k0_dev31_eq c)).trans (peer_y c (sRmy 1) (by decide)).symm) (sl7 c 1 _ _) ((sl7 c 1 _ _).trans (outSl_fwd c (sRmy 1) (by decide)).symm) rfl rfl) $$ H
  iintro H
  ihave H := (BodySt_of_eq m K c (σ' := σAt 43) (by bst)) $$ H
  -- the wait for chunk 2 of the z-neighbour's quarter
  iapply (step_waitRecv m K c (sRz 2) (σAt 43) (by decide) (by decide) (by decide) (by decide) rfl (credit_chunk _)) $$ H
  iintro H
  ihave H := (BodySt_of_eq m K c (σ' := σAt 44) (by bst)) $$ H
  -- its forward along y into the y-neighbour's slot 28
  iapply (step_fwd m K c (sRmy 2) (by decide) (σAt 44) (by decide) (by decide) (by decide) (by decide)
      ((dev_y c _ (k0_dev32_eq c)).trans (peer_y c (sRmy 2) (by decide)).symm) (sl7 c 2 _ _) ((sl7 c 2 _ _).trans (outSl_fwd c (sRmy 2) (by decide)).symm) rfl rfl) $$ H
  iintro H
  ihave H := (BodySt_of_eq m K c (σ' := σAt 45) (by bst)) $$ H
  rw [wp_ret]; imodintro
  iapply Hk; iexact H

set_option maxRecDepth 65536 in
/-- Part 18 (operations 45 and 46): chunk 3 of the y-neighbour's quarter is waited for and forwarded along z. -/
theorem part18 (v2 v5 v8 v9 v11 v16 v26 : BitVec 32) (Kt : PUnit → sProp 𝕄) :
    iprop(BodySt m K c (σAt 45) ∗ (∀ r, BodySt m K c (σAt 47) -∗ Kt r))
      ⊢ wp frame (wpE (defs₀ (F := F)) 𝒱₀ (c : Thread nD τ) none) Set.univ (k0_part18 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v16 v26) Kt := by
  simp only [k0_part18_eq_skeleton]; unfold k0_part18_skel
  simp only [Prog.lift, Prog.bind_op, Prog.bind_ret, Prog.pure_eq_ret]
  iintro ⟨H, Hk⟩
  -- the wait for chunk 3 of the y-neighbour's quarter
  iapply (step_waitRecv m K c (sRy 3) (σAt 45) (by decide) (by decide) (by decide) (by decide) rfl (credit_chunk _)) $$ H
  iintro H
  ihave H := (BodySt_of_eq m K c (σ' := σAt 46) (by bst)) $$ H
  -- its forward along z, whole, into the z-neighbour's slot 29
  iapply (step_fwd m K c (sRmz 0) (by decide) (σAt 46) (by decide) (by decide) (by decide) (by decide)
      ((dev_z c _ (k0_dev33_eq c)).trans (peer_z c (sRmz 0) (by decide)).symm) (sl8 c 3 _ _) ((sl8 c 3 _ _).trans (outSl_fwd c (sRmz 0) (by decide)).symm) rfl rfl) $$ H
  iintro H
  ihave H := (BodySt_of_eq m K c (σ' := σAt 47) (by bst)) $$ H
  rw [wp_ret]; imodintro
  iapply Hk; iexact H

set_option maxRecDepth 65536 in
/-- Part 19 (operations 47 to 49): chunk 4 of the y-neighbour's quarter is waited for and forwarded along z; chunk 5 is waited for. -/
theorem part19 (v2 v5 v8 v9 v11 v16 v26 : BitVec 32) (Kt : PUnit → sProp 𝕄) :
    iprop(BodySt m K c (σAt 47) ∗ (∀ r, BodySt m K c (σAt 50) -∗ Kt r))
      ⊢ wp frame (wpE (defs₀ (F := F)) 𝒱₀ (c : Thread nD τ) none) Set.univ (k0_part19 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v2 v5 v8 v9 v11 v16 v26) Kt := by
  simp only [k0_part19_eq_skeleton]; unfold k0_part19_skel
  simp only [Prog.lift, Prog.bind_op, Prog.bind_ret, Prog.pure_eq_ret]
  iintro ⟨H, Hk⟩
  -- the wait for chunk 4 of the y-neighbour's quarter
  iapply (step_waitRecv m K c (sRy 4) (σAt 47) (by decide) (by decide) (by decide) (by decide) rfl (credit_chunk _)) $$ H
  iintro H
  ihave H := (BodySt_of_eq m K c (σ' := σAt 48) (by bst)) $$ H
  -- its forward along z into the z-neighbour's slot 30
  iapply (step_fwd m K c (sRmz 1) (by decide) (σAt 48) (by decide) (by decide) (by decide) (by decide)
      ((dev_z c _ (k0_dev34_eq c)).trans (peer_z c (sRmz 1) (by decide)).symm) (sl8 c 4 _ _) ((sl8 c 4 _ _).trans (outSl_fwd c (sRmz 1) (by decide)).symm) rfl rfl) $$ H
  iintro H
  ihave H := (BodySt_of_eq m K c (σ' := σAt 49) (by bst)) $$ H
  -- the wait for chunk 5 of the y-neighbour's quarter
  iapply (step_waitRecv m K c (sRy 5) (σAt 49) (by decide) (by decide) (by decide) (by decide) rfl (credit_chunk _)) $$ H
  iintro H
  ihave H := (BodySt_of_eq m K c (σ' := σAt 50) (by bst)) $$ H
  rw [wp_ret]; imodintro
  iapply Hk; iexact H

set_option maxRecDepth 65536 in
/-- Part 20 (operations 50 to 52): chunk 5 of the y-neighbour's quarter is forwarded along z; chunks 0 and 1 of that quarter are waited for. -/
theorem part20 (v5 v8 v9 v16 v26 : BitVec 32) (Kt : BitVec 32 → sProp 𝕄) :
    iprop(BodySt m K c (σAt 50) ∗ (∀ r, BodySt m K c (σAt 53) -∗ Kt r))
      ⊢ wp frame (wpE (defs₀ (F := F)) 𝒱₀ (c : Thread nD τ) none) Set.univ (k0_part20 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v26) Kt := by
  simp only [k0_part20_eq_skeleton]; unfold k0_part20_skel
  simp only [Prog.lift, Prog.bind_op, Prog.bind_ret, Prog.pure_eq_ret]
  iintro ⟨H, Hk⟩
  -- chunk 5 goes, whole, into the z-neighbour's slot 31
  iapply (step_fwd m K c (sRmz 2) (by decide) (σAt 50) (by decide) (by decide) (by decide) (by decide)
      ((dev_z c _ (k0_dev35_eq c)).trans (peer_z c (sRmz 2) (by decide)).symm) (sl8 c 5 _ _) ((sl8 c 5 _ _).trans (outSl_fwd c (sRmz 2) (by decide)).symm) rfl rfl) $$ H
  iintro H
  ihave H := (BodySt_of_eq m K c (σ' := σAt 51) (by bst)) $$ H
  -- the wait for chunk 0 of the y-neighbour's quarter
  iapply (step_waitRecv m K c (sRy 0) (σAt 51) (by decide) (by decide) (by decide) (by decide) rfl (credit_chunk _)) $$ H
  iintro H
  ihave H := (BodySt_of_eq m K c (σ' := σAt 52) (by bst)) $$ H
  -- the wait for chunk 1 of the y-neighbour's quarter
  iapply (step_waitRecv m K c (sRy 1) (σAt 52) (by decide) (by decide) (by decide) (by decide) rfl (credit_chunk _)) $$ H
  iintro H
  ihave H := (BodySt_of_eq m K c (σ' := σAt 53) (by bst)) $$ H
  rw [wp_ret]; imodintro
  iapply Hk; iexact H

end Cert.Kernel.AG

end
-- ==== Proof.Bits.PartsD.lean ====
/-
  Parts 21 to 27 of the body: the remaining receive waits (the rest of the y- and the z-neighbour's quarters, the
  opposite quarter's chunks forwarded a second time, and the two chunks that came straight from the x-neighbour),
  then the first three send waits.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 21 (operations 53, 54): the waits for chunk 2 of the y-neighbour's quarter and chunk 3 of the z-neighbour's. -/
theorem part21 (v5 v8 v9 v19 v26 v670 : BitVec 32) (Kt : (Σ' (_ : BitVec 32), BitVec 32) → sProp 𝕄) :
    iprop(BodySt m K c (σAt 53) ∗ (∀ r, BodySt m K c (σAt 55) -∗ Kt r))
      ⊢ wp frame (wpE (defs₀ (F := F)) 𝒱₀ (c : Thread nD τ) none) Set.univ (k0_part21 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v19 v26 v670) Kt := by
  simp only [k0_part21_eq_skeleton]; unfold k0_part21_skel
  simp only [Prog.lift, Prog.bind_op, Prog.bind_ret, Prog.pure_eq_ret]
  iintro ⟨H, Hk⟩
  -- the wait for chunk 2 of the y-neighbour's quarter (slot 12)
  iapply (step_waitRecv m K c (12 : Slot) (σAt 53) (by decide) (by decide) (by decide) (by decide) rfl (credit_chunk _)) $$ H
  iintro H
  ihave H := (BodySt_of_eq m K c (σ' := σAt 54) (by bst)) $$ H
  -- the wait for chunk 3 of the z-neighbour's quarter (slot 21)
  iapply (step_waitRecv m K c (21 : Slot) (σAt 54) (by decide) (by decide) (by decide) (by decide) rfl (credit_chunk _)) $$ H
  iintro H
  ihave H := (BodySt_of_eq m K c (σ' := σAt 55) (by bst)) $$ H
  rw [wp_ret]; imodintro
  iapply Hk; iexact H

set_option maxRecDepth 65536 in
/-- Part 22 (operations 55 to 57): the waits for chunks 4, 5, 6 of the z-neighbour's quarter. -/
theorem part22 (v5 v8 v9 v16 v19 v26 v701 c1_i32_480 : BitVec 32) (Kt : BitVec 32 → sProp 𝕄) :
    iprop(BodySt m K c (σAt 55) ∗ (∀ r, BodySt m K c (σAt 58) -∗ Kt r))
      ⊢ wp frame (wpE (defs₀ (F := F)) 𝒱₀ (c : Thread nD τ) none) Set.univ (k0_part22 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v19 v26 v701 c1_i32_480) Kt := by
  simp only [k0_part22_eq_skeleton]; unfold k0_part22_skel
  simp only [Prog.lift, Prog.bind_op, Prog.bind_ret, Prog.pure_eq_ret]
  iintro ⟨H, Hk⟩
  -- the wait for chunk 4 of the z-neighbour's quarter (slot 22)
  iapply (step_waitRecv m K c (22 : Slot) (σAt 55) (by decide) (by decide) (by decide) (by decide) rfl (credit_chunk _)) $$ H
  iintro H
  ihave H := (BodySt_of_eq m K c (σ' := σAt 56) (by bst)) $$ H
  -- the wait for chunk 5 of the z-neighbour's quarter (slot 23)
  iapply (step_waitRecv m K c (23 : Slot) (σAt 56) (by decide) (by decide) (by decide) (by decide) rfl (credit_chunk _)) $$ H
  iintro H
  ihave H := (BodySt_of_eq m K c (σ' := σAt 57) (by bst)) $$ H
  -- the wait for chunk 6 of the z-neighbour's quarter (slot 24)
  iapply (step_waitRecv m K c (24 : Slot) (σAt 57) (by decide) (by decide) (by decide) (by decide) rfl (credit_chunk _)) $$ H
  iintro H
  ihave H := (BodySt_of_eq m K c (σ' := σAt 58) (by bst)) $$ H
  rw [wp_ret]; imodintro
  iapply Hk; iexact H

set_option maxRecDepth 65536 in
/-- Part 23 (operations 58, 59): the waits for chunk 6 of the y-neighbour's quarter and chunk 7 of the z-neighbour's. -/
theorem part23 (v5 v8 v9 v16 v19 v26 v735 : BitVec 32) (Kt : (Σ' (_ : BitVec 32), BitVec 32) → sProp 𝕄) :
    iprop(BodySt m K c (σAt 58) ∗ (∀ r, BodySt m K c (σAt 60) -∗ Kt r))
      ⊢ wp frame (wpE (defs₀ (F := F)) 𝒱₀ (c : Thread nD τ) none) Set.univ (k0_part23 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v16 v19 v26 v735) Kt := by
  simp only [k0_part23_eq_skeleton]; unfold k0_part23_skel
  simp only [Prog.lift, Prog.bind_op, Prog.bind_ret, Prog.pure_eq_ret]
  iintro ⟨H, Hk⟩
  -- the wait for chunk 6 of the y-neighbour's quarter (slot 16)
  iapply (step_waitRecv m K c (16 : Slot) (σAt 58) (by decide) (by decide) (by decide) (by decide) rfl (credit_chunk _)) $$ H
  iintro H
  ihave H := (BodySt_of_eq m K c (σ' := σAt 59) (by bst)) $$ H
  -- the wait for chunk 7 of the z-neighbour's quarter (slot 25)
  iapply (step_waitRecv m K c (25 : Slot) (σAt 59) (by decide) (by decide) (by decide) (by decide) rfl (credit_chunk _)) $$ H
  iintro H
  ihave H := (BodySt_of_eq m K c (σ' := σAt 60) (by bst)) $$ H
  rw [wp_ret]; imodintro
  iapply Hk; iexact H

set_option maxRecDepth 65536 in
/-- Part 24 (operations 60 to 62): the waits for chunk 7 of the y-neighbour's quarter and chunks 0, 1 of the opposite quarter. -/
theorem part24 (v5 v8 v9 v23 v26 v766 c1_i32_530 : BitVec 32) (Kt : BitVec 32 → sProp 𝕄) :
    iprop(BodySt m K c (σAt 60) ∗ (∀ r, BodySt m K c (σAt 63) -∗ Kt r))
      ⊢ wp frame (wpE (defs₀ (F := F)) 𝒱₀ (c : Thread nD τ) none) Set.univ (k0_part24 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v766 c1_i32_530) Kt := by
  simp only [k0_part24_eq_skeleton]; unfold k0_part24_skel
  simp only [Prog.lift, Prog.bind_op, Prog.bind_ret, Prog.pure_eq_ret]
  iintro ⟨H, Hk⟩
  -- the wait for chunk 7 of the y-neighbour's quarter (slot 17)
  iapply (step_waitRecv m K c (17 : Slot) (σAt 60) (by decide) (by decide) (by decide) (by decide) rfl (credit_chunk _)) $$ H
  iintro H
  ihave H := (BodySt_of_eq m K c (σ' := σAt 61) (by bst)) $$ H
  -- the wait for chunk 0 of the opposite quarter, through the y-neighbour (slot 26)
  iapply (step_waitRecv m K c (26 : Slot) (σAt 61) (by decide) (by decide) (by decide) (by decide) rfl (credit_chunk _)) $$ H
  iintro H
  ihave H := (BodySt_of_eq m K c (σ' := σAt 62) (by bst)) $$ H
  -- the wait for chunk 1 of the opposite quarter, through the y-neighbour (slot 27)
  iapply (step_waitRecv m K c (27 : Slot) (σAt 62) (by decide) (by decide) (by decide) (by decide) rfl (credit_chunk _)) $$ H
  iintro H
  ihave H := (BodySt_of_eq m K c (σ' := σAt 63) (by bst)) $$ H
  rw [wp_ret]; imodintro
  iapply Hk; iexact H

set_option maxRecDepth 65536 in
/-- Part 25 (operations 63, 64): the waits for chunks 2 and 3 of the opposite quarter. -/
theorem part25 (v5 v8 v9 v23 v26 v800 : BitVec 32) (Kt : (Σ' (_ : BitVec 32), BitVec 32) → sProp 𝕄) :
    iprop(BodySt m K c (σAt 63) ∗ (∀ r, BodySt m K c (σAt 65) -∗ Kt r))
      ⊢ wp frame (wpE (defs₀ (F := F)) 𝒱₀ (c : Thread nD τ) none) Set.univ (k0_part25 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v800) Kt := by
  simp only [k0_part25_eq_skeleton]; unfold k0_part25_skel
  simp only [Prog.lift, Prog.bind_op, Prog.bind_ret, Prog.pure_eq_ret]
  iintro ⟨H, Hk⟩
  -- the wait for chunk 2 of the opposite quarter, through the y-neighbour (slot 28)
  iapply (step_waitRecv m K c (28 : Slot) (σAt 63) (by decide) (by decide) (by decide) (by decide) rfl (credit_chunk _)) $$ H
  iintro H
  ihave H := (BodySt_of_eq m K c (σ' := σAt 64) (by bst)) $$ H
  -- the wait for chunk 3 of the opposite quarter, through the z-neighbour (slot 29)
  iapply (step_waitRecv m K c (29 : Slot) (σAt 64) (by decide) (by decide) (by decide) (by decide) rfl (credit_chunk _)) $$ H
  iintro H
  ihave H := (BodySt_of_eq m K c (σ' := σAt 65) (by bst)) $$ H
  rw [wp_ret]; imodintro
  iapply Hk; iexact H

set_option maxRecDepth 65536 in
/-- Part 26 (operations 65 to 67): the waits for chunks 4, 5, 6 of the opposite quarter. -/
theorem part26 (v5 v8 v9 v23 v26 v831 c1_i32_580 : BitVec 32) (Kt : BitVec 32 → sProp 𝕄) :
    iprop(BodySt m K c (σAt 65) ∗ (∀ r, BodySt m K c (σAt 68) -∗ Kt r))
      ⊢ wp frame (wpE (defs₀ (F := F)) 𝒱₀ (c : Thread nD τ) none) Set.univ (k0_part26 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v23 v26 v831 c1_i32_580) Kt := by
  simp only [k0_part26_eq_skeleton]; unfold k0_part26_skel
  simp only [Prog.lift, Prog.bind_op, Prog.bind_ret, Prog.pure_eq_ret]
  iintro ⟨H, Hk⟩
  -- the wait for chunk 4 of the opposite quarter, through the z-neighbour (slot 30)
  iapply (step_waitRecv m K c (30 : Slot) (σAt 65) (by decide) (by decide) (by decide) (by decide) rfl (credit_chunk _)) $$ H
  iintro H
  ihave H := (BodySt_of_eq m K c (σ' := σAt 66) (by bst)) $$ H
  -- the wait for chunk 5 of the opposite quarter, through the z-neighbour (slot 31)
  iapply (step_waitRecv m K c (31 : Slot) (σAt 66) (by decide) (by decide) (by decide) (by decide) rfl (credit_chunk _)) $$ H
  iintro H
  ihave H := (BodySt_of_eq m K c (σ' := σAt 67) (by bst)) $$ H
  -- the wait for chunk 6 of the opposite quarter, straight from the x-neighbour (slot 8)
  iapply (step_waitRecv m K c (8 : Slot) (σAt 67) (by decide) (by decide) (by decide) (by decide) rfl (credit_chunk _)) $$ H
  iintro H
  ihave H := (BodySt_of_eq m K c (σ' := σAt 68) (by bst)) $$ H
  rw [wp_ret]; imodintro
  iapply Hk; iexact H

set_option maxRecDepth 65536 in
/-- Part 27 (operations 68 to 71): the wait for chunk 7 of the opposite quarter, the last receive; then the waits for the first three transfers to the x-neighbour to have left. -/
theorem part27 (v5 v8 v9 v865 : BitVec 32) (Kt : PUnit → sProp 𝕄) :
    iprop(BodySt m K c (σAt 68) ∗ (∀ r, BodySt m K c (σAt 72) -∗ Kt r))
      ⊢ wp frame (wpE (defs₀ (F := F)) 𝒱₀ (c : Thread nD τ) none) Set.univ (k0_part27 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c v5 v8 v9 v865) Kt := by
  simp only [k0_part27_eq_skeleton]; unfold k0_part27_skel
  simp only [Prog.lift, Prog.bind_op, Prog.bind_ret, Prog.pure_eq_ret]
  iintro ⟨H, Hk⟩
  -- the wait for chunk 7 of the opposite quarter, straight from the x-neighbour (slot 9)
  iapply (step_waitRecv m K c (9 : Slot) (σAt 68) (by decide) (by decide) (by decide) (by decide) rfl (credit_chunk _)) $$ H
  iintro H
  ihave H := (BodySt_of_eq m K c (σ' := σAt 69) (by bst)) $$ H
  -- the wait for the transfer into the x-neighbour's slot 0 to have left
  iapply (step_waitSend m K c (0 : Slot) (σAt 69) (by decide) (by decide) (by decide) (by decide) rfl (credit_chunk _)) $$ H
  iintro H
  ihave H := (BodySt_of_eq m K c (σ' := σAt 70) (by bst)) $$ H
  -- the wait for the transfer into the x-neighbour's slot 1 to have left
  iapply (step_waitSend m K c (1 : Slot) (σAt 70) (by decide) (by decide) (by decide) (by decide) rfl (credit_chunk _)) $$ H
  iintro H
  ihave H := (BodySt_of_eq m K c (σ' := σAt 71) (by bst)) $$ H
  -- the wait for the transfer into the x-neighbour's slot 2 to have left
  iapply (step_waitSend m K c (2 : Slot) (σAt 71) (by decide) (by decide) (by decide) (by decide) rfl (credit_chunk _)) $$ H
  iintro H
  ihave H := (BodySt_of_eq m K c (σ' := σAt 72) (by bst)) $$ H
  rw [wp_ret]; imodintro
  iapply Hk; iexact H

end Cert.Kernel.AG

end
-- ==== Proof.Bits.PartsE.lean ====
/-
  Parts 28 to 31 of the body: the waits for twenty-four of the sends to have left; each hands back the share of the
  source its transfer read.
-/
import proofs.«900662_g7700000000000663_dist_ag_v7x_xyz2x2x2_x_m4096_n1024_f32_1_alg».proof.Proof.Bits.Views
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 66 → ℕ) (c : Dev nD)

set_option maxRecDepth 65536 in
/-- Part 28 (operations 72 to 77): the sends into the x-neighbour's slots 3 to 8. -/
theorem part28 (Kt : PUnit → sProp 𝕄) :
    iprop(BodySt m K c (σAt 72) ∗ (∀ r, BodySt m K c (σAt 78) -∗ Kt r))
      ⊢ wp frame (wpE (defs₀ (F := F)) 𝒱₀ (c : Thread nD τ) none) Set.univ (k0_part28 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part28_eq_skeleton]; unfold k0_part28_skel
  simp only [Prog.lift, Prog.bind_op, Prog.bind_ret, Prog.pure_eq_ret]
  iintro ⟨H, Hk⟩
  -- the transfer into the x-neighbour's slot 3 has left: the input chunk's share is back
  iapply (step_waitSend m K c (3 : Slot) (σAt 72) (by decide) (by decide) (by decide) (by decide) rfl (credit_chunk _)) $$ H
  iintro H
  ihave H := (BodySt_of_eq m K c (σ' := σAt 73) (by bst)) $$ H
  -- the transfer into the x-neighbour's slot 4 has left: the input chunk's share is back
  iapply (step_waitSend m K c (4 : Slot) (σAt 73) (by decide) (by decide) (by decide) (by decide) rfl (credit_chunk _)) $$ H
  iintro H
  ihave H := (BodySt_of_eq m K c (σ' := σAt 74) (by bst)) $$ H
  -- the transfer into the x-neighbour's slot 5 has left: the input chunk's share is back
  iapply (step_waitSend m K c (5 : Slot) (σAt 74) (by decide) (by decide) (by decide) (by decide) rfl (credit_chunk _)) $$ H
  iintro H
  ihave H := (BodySt_of_eq m K c (σ' := σAt 75) (by bst)) $$ H
  -- the transfer into the x-neighbour's slot 6 has left: the input chunk's share is back
  iapply (step_waitSend m K c (6 : Slot) (σAt 75) (by decide) (by decide) (by decide) (by decide) rfl (credit_chunk _)) $$ H
  iintro H
  ihave H := (BodySt_of_eq m K c (σ' := σAt 76) (by bst)) $$ H
  -- the transfer into the x-neighbour's slot 7 has left: the input chunk's share is back
  iapply (step_waitSend m K c (7 : Slot) (σAt 76) (by decide) (by decide) (by decide) (by decide) rfl (credit_chunk _)) $$ H
  iintro H
  ihave H := (BodySt_of_eq m K c (σ' := σAt 77) (by bst)) $$ H
  -- the transfer into the x-neighbour's slot 8 has left: the input chunk's share is back
  iapply (step_waitSend m K c (8 : Slot) (σAt 77) (by decide) (by decide) (by decide) (by decide) rfl (credit_chunk _)) $$ H
  iintro H
  ihave H := (BodySt_of_eq m K c (σ' := σAt 78) (by bst)) $$ H
  rw [wp_ret]; imodintro
  iapply Hk; iexact H

set_option maxRecDepth 65536 in
/-- Part 29 (operations 78 to 83): the send into the x-neighbour's slot 9, then the two forwards of chunks 0, 1 and the
    forward along y of chunk 2 of the own quarter. -/
theorem part29 (Kt : PUnit → sProp 𝕄) :
    iprop(BodySt m K c (σAt 78) ∗ (∀ r, BodySt m K c (σAt 84) -∗ Kt r))
      ⊢ wp frame (wpE (defs₀ (F := F)) 𝒱₀ (c : Thread nD τ) none) Set.univ (k0_part29 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part29_eq_skeleton]; unfold k0_part29_skel
  simp only [Prog.lift, Prog.bind_op, Prog.bind_ret, Prog.pure_eq_ret]
  iintro ⟨H, Hk⟩
  -- the transfer into the x-neighbour's slot 9 has left: the input chunk's share is back
  iapply (step_waitSend m K c (9 : Slot) (σAt 78) (by decide) (by decide) (by decide) (by decide) rfl (credit_chunk _)) $$ H
  iintro H
  ihave H := (BodySt_of_eq m K c (σ' := σAt 79) (by bst)) $$ H
  -- the transfer into the peer's slot 10 has left: the source share is back
  iapply (step_waitSend m K c (10 : Slot) (σAt 79) (by decide) (by decide) (by decide) (by decide) rfl (credit_chunk _)) $$ H
  iintro H
  ihave H := (BodySt_of_eq m K c (σ' := σAt 80) (by bst)) $$ H
  -- the transfer into the peer's slot 18 has left: the source share is back
  iapply (step_waitSend m K c (18 : Slot) (σAt 80) (by decide) (by decide) (by decide) (by decide) rfl (credit_chunk _)) $$ H
  iintro H
  ihave H := (BodySt_of_eq m K c (σ' := σAt 81) (by bst)) $$ H
  -- the transfer into the peer's slot 11 has left: the source share is back
  iapply (step_waitSend m K c (11 : Slot) (σAt 81) (by decide) (by decide) (by decide) (by decide) rfl (credit_chunk _)) $$ H
  iintro H
  ihave H := (BodySt_of_eq m K c (σ' := σAt 82) (by bst)) $$ H
  -- the transfer into the peer's slot 19 has left: the source share is back
  iapply (step_waitSend m K c (19 : Slot) (σAt 82) (by decide) (by decide) (by decide) (by decide) rfl (credit_chunk _)) $$ H
  iintro H
  ihave H := (BodySt_of_eq m K c (σ' := σAt 83) (by bst)) $$ H
  -- the transfer into the peer's slot 12 has left: the source share is back
  iapply (step_waitSend m K c (12 : Slot) (σAt 83) (by decide) (by decide) (by decide) (by decide) rfl (credit_chunk _)) $$ H
  iintro H
  ihave H := (BodySt_of_eq m K c (σ' := σAt 84) (by bst)) $$ H
  rw [wp_ret]; imodintro
  iapply Hk; iexact H

set_option maxRecDepth 65536 in
/-- Part 30 (operations 84 to 89): the forwards of chunks 2 (along z), 3, 4 and 5 (along y) of the own quarter. -/
theorem part30 (Kt : PUnit → sProp 𝕄) :
    iprop(BodySt m K c (σAt 84) ∗ (∀ r, BodySt m K c (σAt 90) -∗ Kt r))
      ⊢ wp frame (wpE (defs₀ (F := F)) 𝒱₀ (c : Thread nD τ) none) Set.univ (k0_part30 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part30_eq_skeleton]; unfold k0_part30_skel
  simp only [Prog.lift, Prog.bind_op, Prog.bind_ret, Prog.pure_eq_ret]
  iintro ⟨H, Hk⟩
  -- the transfer into the peer's slot 20 has left: the source share is back
  iapply (step_waitSend m K c (20 : Slot) (σAt 84) (by decide) (by decide) (by decide) (by decide) rfl (credit_chunk _)) $$ H
  iintro H
  ihave H := (BodySt_of_eq m K c (σ' := σAt 85) (by bst)) $$ H
  -- the transfer into the peer's slot 13 has left: the source share is back
  iapply (step_waitSend m K c (13 : Slot) (σAt 85) (by decide) (by decide) (by decide) (by decide) rfl (credit_chunk _)) $$ H
  iintro H
  ihave H := (BodySt_of_eq m K c (σ' := σAt 86) (by bst)) $$ H
  -- the transfer into the peer's slot 21 has left: the source share is back
  iapply (step_waitSend m K c (21 : Slot) (σAt 86) (by decide) (by decide) (by decide) (by decide) rfl (credit_chunk _)) $$ H
  iintro H
  ihave H := (BodySt_of_eq m K c (σ' := σAt 87) (by bst)) $$ H
  -- the transfer into the peer's slot 14 has left: the source share is back
  iapply (step_waitSend m K c (14 : Slot) (σAt 87) (by decide) (by decide) (by decide) (by decide) rfl (credit_chunk _)) $$ H
  iintro H
  ihave H := (BodySt_of_eq m K c (σ' := σAt 88) (by bst)) $$ H
  -- the transfer into the peer's slot 22 has left: the source share is back
  iapply (step_waitSend m K c (22 : Slot) (σAt 88) (by decide) (by decide) (by decide) (by decide) rfl (credit_chunk _)) $$ H
  iintro H
  ihave H := (BodySt_of_eq m K c (σ' := σAt 89) (by bst)) $$ H
  -- the transfer into the peer's slot 15 has left: the source share is back
  iapply (step_waitSend m K c (15 : Slot) (σAt 89) (by decide) (by decide) (by decide) (by decide) rfl (credit_chunk _)) $$ H
  iintro H
  ihave H := (BodySt_of_eq m K c (σ' := σAt 90) (by bst)) $$ H
  rw [wp_ret]; imodintro
  iapply Hk; iexact H

set_option maxRecDepth 65536 in
/-- Part 31 (operations 90 to 95): the forwards of chunks 5 (along z), 6 and 7 of the own quarter, and the first second-hop
    forward along y. -/
theorem part31 (Kt : PUnit → sProp 𝕄) :
    iprop(BodySt m K c (σAt 90) ∗ (∀ r, BodySt m K c (σAt 96) -∗ Kt r))
      ⊢ wp frame (wpE (defs₀ (F := F)) 𝒱₀ (c : Thread nD τ) none) Set.univ (k0_part31 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 c) Kt := by
  simp only [k0_part31_eq_skeleton]; unfold k0_part31_skel
  simp only [Prog.lift, Prog.bind_op, Prog.bind_ret, Prog.pure_eq_ret]
  iintro ⟨H, Hk⟩
  -- the transfer into the peer's slot 23 has left: the source share is back
  iapply (step_waitSend m K c (23 : Slot) (σAt 90) (by decide) (by decide) (by decide) (by decide) rfl (credit_chunk _)) $$ H
  iintro H
  ihave H := (BodySt_of_eq m K c (σ' := σAt 91) (by bst)) $$ H
  -- the transfer into the peer's slot 16 has left: the source share is back
  iapply (step_waitSend m K c (16 : Slot) (σAt 91) (by decide) (by decide) (by decide) (by decide) rfl (credit_chunk _)) $$ H
  iintro H
  ihave H := (BodySt_of_eq m K c (σ' := σAt 92) (by bst)) $$ H
  -- the transfer into the peer's slot 24 has left: the source share is back
  iapply (step_waitSend m K c (24 : Slot) (σAt 92) (by decide) (by decide) (by decide) (by decide) rfl (credit_chunk _)) $$ H
  iintro H
  ihave H := (BodySt_of_eq m K c (σ' := σAt 93) (by bst)) $$ H
  -- the transfer into the peer's slot 17 has left: the source share is back
  iapply (step_waitSend m K c (17 : Slot) (σAt 93) (by decide) (by decide) (by decide) (by decide) rfl (credit_chunk _)) $$ H
  iintro H
  ihave H := (BodySt_of_eq m K c (σ' := σAt 94) (by bst)) $$ H
  -- the transfer into the peer's slot 25 has left: the source share is back
  iapply (step_waitSend m K c (25 : Slot) (σAt 94) (by decide) (by decide) (by decide) (by decide) rfl (credit_chunk _)) $$ H
  iintro H
  ihave H := (BodySt_of_eq m K c (σ' := σAt 95) (by bst)) $$ H
  -- the transfer into the peer's slot 26 has left: the source share is back
  iapply (step_waitSend m K c (26 : Slot) (σAt 95) (by decide) (by decide) (by decide) (by decide) rfl (credit_chunk _)) $$ H
  iintro H
  ihave H := (BodySt_of_eq m K c (σ' := σAt 96) (by bst)) $$ H
  rw [wp_ret]; imodintro
  iapply Hk; iexact H

end Cert.Kernel.AG

end
-- ==== Proof.Bits.Dats.lean ====
/-
  The pipeline's proof data of the one region: no window is staged, so the data are the two assertions around the
  body and what is owed before and after it.
-/
import proofs.«900662_g7700000000000663_dist_ag_v7x_xyz2x2x2_x_m4096_n1024_f32_1_alg».proof.Proof.Bits.State
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.AG

end
-- ==== Proof.Bits.Spine.lean ====
/-
  The outermost part of one device's body: the 31 parts in the order the printed body calls them, then three send waits.
-/
import proofs.«900662_g7700000000000663_dist_ag_v7x_xyz2x2x2_x_m4096_n1024_f32_1_alg».proof.Proof.Bits.Enter
import proofs.«900662_g7700000000000663_dist_ag_v7x_xyz2x2x2_x_m4096_n1024_f32_1_alg».proof.Proof.Bits.PartsA
import proofs.«900662_g7700000000000663_dist_ag_v7x_xyz2x2x2_x_m4096_n1024_f32_1_alg».proof.Proof.Bits.PartsB
import proofs.«900662_g7700000000000663_dist_ag_v7x_xyz2x2x2_x_m4096_n1024_f32_1_alg».proof.Proof.Bits.PartsC
import proofs.«900662_g7700000000000663_dist_ag_v7x_xyz2x2x2_x_m4096_n1024_f32_1_alg».proof.Proof.Bits.PartsD
import proofs.«900662_g7700000000000663_dist_ag_v7x_xyz2x2x2_x_m4096_n1024_f32_1_alg».proof.Proof.Bits.PartsE
import proofs.«900662_g7700000000000663_dist_ag_v7x_xyz2x2x2_x_m4096_n1024_f32_1_alg».proof.Proof.Bits.Dats
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The last operations: three send waits in the outermost part, two more and the local copy's wait at the root -/

set_option maxRecDepth 65536 in
set_option maxHeartbeats 3200000 in
/-- The outermost part: it calls the 31 parts in order, then waits for three more sends. -/
theorem part32 (Kt : Dev nD → sProp 𝕄) :
    iprop(Enter m c ∗ (∀ K, BodySt m K c (σAt 99) -∗ Kt c))
      ⊢ wp frame (wpE (defs₀ (F := F)) 𝒱₀ (c : Thread nD τ) none) Set.univ (k0_part32 (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9) Kt := by
  simp only [k0_part32_eq_skeleton]; unfold k0_part32_skel
  simp only [k0_part1_eq_skeleton]; unfold k0_part1_skel
  simp only [Prog.lift, Prog.bind_op, Prog.bind_ret, Prog.pure_eq_ret, wp_deviceId, wp_bind]
  iintro ⟨HE, Hk⟩
  iapply (part2 m c _ _ _ _ _ _ _ _ _); isplitl [HE]; · iexact HE
  iintro %K H
  iapply (part3 m K c _ _ _ _ _ _); isplitl [H]; · iexact H
  iintro %r H
  iapply (part4 m K c _ _ _ _ _ _ _); isplitl [H]; · iexact H
  iintro %r H
  iapply (part5 m K c _ _ _ _ _ _ _); isplitl [H]; · iexact H
  iintro %r H
  iapply (part6 m K c _ _ _ _ _ _ _ _ _); isplitl [H]; · iexact H
  iintro %r H
  iapply (part7 m K c _ _ _ _ _ _ _ _ _); isplitl [H]; · iexact H
  iintro %r H
  iapply (part8 m K c _ _ _ _ _ _ _ _); isplitl [H]; · iexact H
  iintro %r H
  iapply (part9 m K c _ _ _ _ _ _ _ _ _); isplitl [H]; · iexact H
  iintro %r H
  iapply (part10 m K c _ _ _ _ _ _ _ _); isplitl [H]; · iexact H
  iintro %r H
  iapply (part11 m K c _ _ _ _ _ _ _ _ _ _); isplitl [H]; · iexact H
  iintro %r H
  iapply (part12 m K c _ _ _ _ _ _ _ _ _); isplitl [H]; · iexact H
  iintro %r H
  iapply (part13 m K c _ _ _ _ _ _ _ _ _); isplitl [H]; · iexact H
  iintro %r H
  iapply (part14 m K c _ _ _ _ _ _ _ _ _); isplitl [H]; · iexact H
  iintro %r H
  iapply (part15 m K c _ _ _ _ _ _ _ _ _ _); isplitl [H]; · iexact H
  iintro %r H
  iapply (part16 m K c _ _ _ _ _ _ _ _); isplitl [H]; · iexact H
  iintro %r H
  iapply (part17 m K c _ _ _ _ _ _ _ _ _); isplitl [H]; · iexact H
  iintro %r H
  iapply (part18 m K c _ _ _ _ _ _ _ _); isplitl [H]; · iexact H
  iintro %r H
  iapply (part19 m K c _ _ _ _ _ _ _ _); isplitl [H]; · iexact H
  iintro %r H
  iapply (part20 m K c _ _ _ _ _ _); isplitl [H]; · iexact H
  iintro %r H
  iapply (part21 m K c _ _ _ _ _ _ _); isplitl [H]; · iexact H
  iintro %r H; obtain ⟨r1, r2⟩ := r; dsimp only
  iapply (part22 m K c _ _ _ _ _ _ _ _ _); isplitl [H]; · iexact H
  iintro %r H
  iapply (part23 m K c _ _ _ _ _ _ _ _); isplitl [H]; · iexact H
  iintro %r H; obtain ⟨r1, r2⟩ := r; dsimp only
  iapply (part24 m K c _ _ _ _ _ _ _ _); isplitl [H]; · iexact H
  iintro %r H
  iapply (part25 m K c _ _ _ _ _ _ _); isplitl [H]; · iexact H
  iintro %r H; obtain ⟨r1, r2⟩ := r; dsimp only
  iapply (part26 m K c _ _ _ _ _ _ _ _); isplitl [H]; · iexact H
  iintro %r H
  iapply (part27 m K c _ _ _ _ _); isplitl [H]; · iexact H
  iintro %r H
  iapply (part28 m K c _); isplitl [H]; · iexact H
  iintro %r H
  iapply (part29 m K c _); isplitl [H]; · iexact H
  iintro %r H
  iapply (part30 m K c _); isplitl [H]; · iexact H
  iintro %r H
  iapply (part31 m K c _); isplitl [H]; · iexact H
  iintro %r H
  -- the three send waits of this part
  iapply (step_waitSend m K c (sRmy 1) (σAt 96) (by decide) (by decide) (by decide) (by decide) rfl (credit_chunk _)) $$ H
  iintro H
  ihave H := (BodySt_of_eq m K c (σ' := σAt 97) (by bst)) $$ H
  iapply (step_waitSend m K c (sRmy 2) (σAt 97) (by decide) (by decide) (by decide) (by decide) rfl (credit_chunk _)) $$ H
  iintro H
  ihave H := (BodySt_of_eq m K c (σ' := σAt 98) (by bst)) $$ H
  iapply (step_waitSend m K c (sRmz 0) (σAt 98) (by decide) (by decide) (by decide) (by decide) rfl (credit_chunk _)) $$ H
  iintro H
  ihave H := (BodySt_of_eq m K c (σ' := σAt 99) (by bst)) $$ H
  rw [wp_ret]; imodintro
  iapply Hk; iexact H

end Cert.Kernel.AG

end
-- ==== Proof.Bits.Body.lean ====
/-
  One device's body, whole: the outermost part, the last two send waits and the local copy's wait; what the state is
  after the last operation; and the library's body obligation.
-/
import proofs.«900662_g7700000000000663_dist_ag_v7x_xyz2x2x2_x_m4096_n1024_f32_1_alg».proof.Proof.Bits.Spine
import proofs.«900662_g7700000000000663_dist_ag_v7x_xyz2x2x2_x_m4096_n1024_f32_1_alg».proof.Proof.Bits.Dats
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

set_option maxRecDepth 65536 in
set_option maxHeartbeats 1600000 in
/-- The whole body: from the start assertion to the protocol state after the last operation. -/
theorem sound_body (Kt : PUnit → sProp 𝕄) :
    iprop(Enter m c ∗ (∀ K, BodySt m K c (σAt 102) -∗ Kt ⟨⟩))
      ⊢ wp frame (wpE (defs₀ (F := F)) 𝒱₀ (c : Thread nD τ) none) Set.univ (cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9) Kt := by
  simp only [cc0_body_eq_skeleton]; unfold cc0_body_skel
  simp only [Prog.lift, Prog.bind_op, Prog.bind_ret, Prog.pure_eq_ret, wp_bind]
  iintro ⟨HE, Hk⟩
  iapply (part32 m c _); isplitl [HE]; · iexact HE
  iintro %K H
  iapply (step_waitSend m K c (sRmz 1) (σAt 99) (by decide) (by decide) (by decide) (by decide) rfl (credit_chunk _)) $$ H
  iintro H
  ihave H := (BodySt_of_eq m K c (σ' := σAt 100) (by bst)) $$ H
  iapply (step_waitSend m K c (sRmz 2) (σAt 100) (by decide) (by decide) (by decide) (by decide) rfl (credit_chunk _)) $$ H
  iintro H
  ihave H := (BodySt_of_eq m K c (σ' := σAt 101) (by bst)) $$ H
  iapply (step_waitLocal m K c (σAt 101) (by decide) (by decide)
      (dst := (oM : Memref sig .tc .hbm S8192x1024 .f32).slice (Rect.unit (s := S8192x1024) (k0_off5 c) S4096x1024.size (k0_off5_inb c)) (fun _ => rfl))
      rfl (dmaCredit_congr _ _ rfl)) $$ H
  iintro H
  ihave H := (BodySt_of_eq m K c (σ' := σAt 102) (by bst)) $$ H
  rw [wp_ret]; imodintro
  iapply Hk; iexact H

/-! ## After the last operation -/

omit [FloatOps F] in
/-- Of the source shares that came back, those of the forwards. -/
theorem back_fwd : (bigSep Finset.univ fun s : Slot => sendPay m c s : sProp 𝕄) ⊢ bigSep (Finset.univ.filter fun s : Slot => 10 ≤ s.val) fun s => sendPay m c s :=
  bigSep_subset (Finset.subset_univ _)

omit [FloatOps F] in
theorem kept_map : (σAt 102).Sl = keptSlots.map ⟨fun s : Slot => (s, (0 : Fin 3)), fun a b h => congrArg Prod.fst h⟩ := by decide

omit [FloatOps F] in
/-- After the last operation the state is the after-body assertion: the result array covered at its final contents, half
    the input, every own semaphore back at zero; nothing owed. -/
theorem finish (K : Dev nD × Fin 66 → ℕ) :
    (BodySt m K c (σAt 102) : sProp 𝕄) ⊢ iprop(Φ₁ m c ∗ ∃ W, owes (c : Thread nD τ) 0 W) := by
  unfold BodySt Φ₁ outFinal
  rw [show (σAt 102).St = ∅ from by decide, Otal_empty, kept_map, bigSep_map, show (σAt 102).Sb = Finset.univ from by decide,
    show (σAt 102).Sz = Finset.univ.erase locSem from by decide, show (σAt 102).lc = 2 from by decide, locSt_two,
    bigSep_take (Finset.mem_univ locSem) (fun q : DmaSem sig => semVal ((c : Thread nD τ), SemLoc.dma q) 0)]
  iintro ⟨-, -, ⟨%W, HO⟩, -, -, -, -, Hl, Hb, -, Hz, Hown, Hxl, HzL⟩
  isplitr [HO]
  · isplitr [Hz HzL]
    · isplitl [Hown]; · iexact Hown
      isplitl [Hl]; · unfold shareOf; iexact Hl
      isplitl [Hb]; · iapply (back_fwd m c); iexact Hb
      iexact Hxl
    · isplitl [HzL] <;> iassumption
  · iexists W; iexact HO

/-! ## The body obligation -/

omit [FloatOps F] in
/-- The pipeline calls the body, at its one point, on the two arrays whole and the kernel's semaphore arrays. -/
theorem body_call : defs₀ (F := F) Proc.tc cfg0.body (cfg0.bodyArgs t₀ (cfg0.slots t₀))
    = cc0_body (Memref.whole main_arg0) (Memref.isWhole_whole _) (Memref.whole main_v1) (Memref.isWhole_whole _) cc0_scratch0 cc0_scratch1 cc0_scratch2 cc0_scratch3 cc0_scratch4 cc0_scratch5 cc0_scratch6 cc0_scratch7 cc0_scratch8 cc0_scratch9 := rfl

set_option maxRecDepth 8000 in
/-- The library's body obligation on device c. -/
theorem body_obligation : BodyObligation (dats (F := F) m 0 c) (defs₀ (F := F)) 𝒱₀ () Set.univ := fun t => by
  rw [fin_N t]
  rw [show (Finset.univ : Finset (Fin cfg0.W)) = ∅ from Finset.univ_eq_empty, bigSep_empty, bigSep_empty]
  unfold Dat.owesAt Pipeline.owesWithin
  rw [body_call, show (dats m 0 c).Φ t₀.castSucc = Φ₀ m c from rfl, show (dats m 0 c).Φ t₀.succ = Φ₁ m c from rfl,
    show (dats m 0 c).owed t₀.castSucc = O₀ c from rfl, show (dats m 0 c).owed t₀.succ = 0 from rfl]
  iintro ⟨HΦ, ⟨%W, %hW, HO⟩, -⟩
  iapply (sound_body m c _)
  isplitl [HΦ HO]
  · unfold Enter
    isplitl [HΦ]; · iexact HΦ
    iexists W; iexact HO
  iintro %K H
  ihave H2 := (finish m c K) $$ H
  icases H2 with ⟨HΦ1, ⟨%W', HO⟩⟩
  isplitl [HΦ1]; · iexact HΦ1
  isplitl [HO]
  · iexists W'
    isplitr; · ipureintro; exact fun _ _ => Or.inl trivial
    iexact HO
  iempintro

end Cert.Kernel.AG

end
-- ==== Proof.Bits.Fund.lean ====
/-
  The protocol's ghost state at launch: every cell of every device funded at round 0, every duty's token minted, and
  then dealt: a token goes to the device that PAYS the duty — a barrier duty and a receive duty to the neighbour, a
  send duty and the local copy's to the device itself.
-/
import proofs.«900662_g7700000000000663_dist_ag_v7x_xyz2x2x2_x_m4096_n1024_f32_1_alg».proof.Proof.Bits.State
import proofs.«900662_g7700000000000663_dist_ag_v7x_xyz2x2x2_x_m4096_n1024_f32_1_alg».proof.Proof.Bits.SchedTables
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the tokens, enumerated -/

/-- The cell index determines the semaphore: index 0 is the barrier, index 1 + q the DMA semaphore q. -/
theorem csem_injective : Function.Injective csem := by
  intro k k' h
  unfold csem at h
  split at h <;> split at h
  · exact Fin.ext (by omega)
  · cases h
  · cases h
  · have h1 := SemLoc.dma.inj h
    have h2 : k.val - 1 = k'.val - 1 := congrArg Fin.val h1
    exact Fin.ext (by omega)

theorem kcell_injective : Function.Injective (kcell : Dev nD × Fin 66 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens of a device's own cells as minted: the three duties of its barrier, and the one duty of each DMA cell. -/
def tokOf (cj : Dev nD × (Fin 3 ⊕ DmaSem sig)) : GSem nD τ sig × ℕ × Fin 3 :=
  match cj.2 with
  | .inl d => (barCell cj.1, 0, d)
  | .inr q => (((cj.1 : Thread nD τ), SemLoc.dma q), 0, 0)
theorem tokOf_injective : Function.Injective (tokOf : Dev nD × (Fin 3 ⊕ DmaSem sig) → GSem nD τ sig × ℕ × Fin 3) := by
  rintro ⟨c, j⟩ ⟨c', j'⟩ h
  have h1 : c = c' := by
    have := congrArg (fun x : GSem nD τ sig × ℕ × Fin 3 => x.1.1.1) h
    rcases j with d | q <;> rcases j' with d' | q' <;> exact this
  subst h1
  rcases j with d | q <;> rcases j' with d' | q'
  · have h2 : d = d' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma q : SemLoc sig) = SemLoc.dma q' := congrArg (fun x : GSem nD τ sig × ℕ × Fin 3 => x.1.2) h
    rw [SemLoc.dma.inj h2]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  bigSep Finset.univ fun j : Fin 3 ⊕ DmaSem sig => dutyTok ER (tokOf (c, j)).1 (tokOf (c, j)).2.1 (tokOf (c, j)).2.2

/-- What the launch element deals device c. -/
def G (c : Dev nD) : sProp 𝕄 :=
  iprop((bigSep Finset.univ fun k : Fin 66 => roundState ER (Rd m) (kcell (c, k)) 0)
    ∗ (bigSep Finset.univ fun k : Fin 66 => iprop(atPos ER (kcell (c, k)) 0 ∅ 0 ∗ reached ER (kcell (c, k)) 0)) ∗ toks (F := F) c)

/-- What the global step makes of it. -/
def G' (c : Dev nD) : sProp 𝕄 := iprop(∃ K, ghost m K c)

/-! ## Funding -/

omit [FloatOps F] in
/-- The launch element of the protocol's algebra is every cell's round state, position and reached-round-0 fact, and
    every duty's token, grouped by device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 66 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## A device's 66 cells, and its 65 DMA cells, sorted by role -/

/-- The 65 DMA semaphores are the local copy's, the 32 sends' and the 32 receives'. -/
def dmaEquiv : Unit ⊕ Slot ⊕ Slot ≃ DmaSem sig where
  toFun := Sum.elim (fun _ => locSem) (Sum.elim sendSem recvSem)
  invFun q := if q.val = 0 then .inl () else if 33 ≤ q.val then .inr (.inr ⟨(q.val - 33) % 32, Nat.mod_lt _ (by decide)⟩) else .inr (.inl (slotOfSend q.val))
  left_inv := by intro x; revert x; decide
  right_inv := by intro x; revert x; decide

/-- A device's 66 cells are its barrier cell and its 65 DMA cells. -/
def cellEquiv : Unit ⊕ DmaSem sig ≃ Fin 66 where
  toFun := Sum.elim (fun _ => kBar) kDma
  invFun k := if h : k.val = 0 then .inl () else .inr ⟨k.val - 1, by have := k.isLt; show k.val - 1 < 65; omega⟩
  left_inv := by intro x; revert x; decide
  right_inv := by intro x; revert x; decide

omit [FloatOps F] in
theorem bigSep_dma (Φ : DmaSem sig → sProp 𝕄) :
    bigSep Finset.univ Φ = iprop(Φ locSem ∗ (bigSep Finset.univ fun s : Slot => Φ (sendSem s)) ∗ bigSep Finset.univ fun s : Slot => Φ (recvSem s)) := by
  rw [bigSep_univ_equiv dmaEquiv Φ, bigSep_univ_sum, bigSep_univ_sum, bigSep_univ_of_subsingleton ()]
  rfl

omit [FloatOps F] in
theorem bigSep_cells (c : Dev nD) (Φ : GSem nD τ sig → sProp 𝕄) :
    (bigSep Finset.univ fun k : Fin 66 => Φ (kcell (c, k)))
      = iprop(Φ (barCell c) ∗ bigSep Finset.univ fun q : DmaSem sig => Φ ((c : Thread nD τ), SemLoc.dma q)) := by
  rw [bigSep_univ_equiv cellEquiv (fun k : Fin 66 => Φ (kcell (c, k))), bigSep_univ_sum, bigSep_univ_of_subsingleton ()]
  rfl

/-! ## The global step, device by device: every cell's invariant allocated -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 66 => semVal (kcell (c, k)) 0 : sProp 𝕄) := by
  rw [bigSep_cells c (fun g => semVal g 0), unscopedSems0_eq]
  exact BI.sep_comm

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 66 => semVal (kcell (c, k)) 0) ∗ bigSep Finset.univ fun k : Fin 66 => roundState ER (Rd m) (kcell (c, k)) 0)
      ⊢ (|={Set.univ}=> bigSep Finset.univ fun k : Fin 66 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to their payers -/

/-- Device c's positions, at round 0 of each of its cells. -/
def posOf (c : Dev nD) : sProp 𝕄 :=
  iprop(atPos ER (barCell c) 0 ∅ 0 ∗ atPos ER (locCell c) 0 ∅ 0
    ∗ (bigSep Finset.univ fun s : Slot => atPos ER (sendCell c s) 0 ∅ 0)
    ∗ (bigSep Finset.univ fun s : Slot => atPos ER (recvCell c s) 0 ∅ 0))
/-- The tokens of the duties on device c's own cells, sorted by cell. -/
def ownToks (c : Dev nD) : sProp 𝕄 :=
  iprop((bigSep Finset.univ fun d : Fin 3 => dutyTok ER (barCell c) 0 d)
    ∗ dutyTok ER (locCell c) 0 0
    ∗ (bigSep Finset.univ fun s : Slot => dutyTok ER (sendCell c s) 0 0)
    ∗ (bigSep Finset.univ fun s : Slot => dutyTok ER (recvCell c s) 0 0))
/-- The tokens of the duties device c PAYS: on each neighbour's barrier, on its own local and send cells, and on
    the receive cell of each slot's peer. -/
def payToks (c : Dev nD) : sProp 𝕄 :=
  iprop((bigSep Finset.univ fun d : Fin 3 => dutyTok ER (barCell (nb d c)) 0 d)
    ∗ dutyTok ER (locCell c) 0 0
    ∗ (bigSep Finset.univ fun s : Slot => dutyTok ER (sendCell c s) 0 0)
    ∗ (bigSep Finset.univ fun s : Slot => dutyTok ER (recvCell (peer s c) s) 0 0))

omit [FloatOps F] in
theorem toks_eq (c : Dev nD) : (toks c : sProp 𝕄) = ownToks c := by
  unfold toks ownToks
  rw [bigSep_univ_sum, bigSep_dma]; rfl

omit [FloatOps F] in
theorem pos_eq (c : Dev nD) : (bigSep Finset.univ fun k : Fin 66 => (atPos ER (kcell (c, k)) 0 ∅ 0 : sProp 𝕄)) = posOf c := by
  unfold posOf
  rw [bigSep_cells c (fun g => atPos ER g 0 ∅ 0), bigSep_dma]

def nbE (d : Fin 3) : Dev nD ≃ Dev nD := ⟨nb d, nb d, nb_nb d, nb_nb d⟩
def peerE (s : Slot) : Dev nD ≃ Dev nD := ⟨peer s, peer s, peer_peer s, peer_peer s⟩

omit [FloatOps F] in
/-- A family indexed by device and by j, regrouped along one permutation of the devices per j. -/
theorem bigSep_deal {J : Type} [Fintype J] (e : J → Dev nD ≃ Dev nD) (Φ : Dev nD → J → sProp 𝕄) :
    (bigSep Finset.univ fun c : Dev nD => bigSep Finset.univ fun j : J => Φ c j)
      = bigSep Finset.univ fun c : Dev nD => bigSep Finset.univ fun j : J => Φ (e j c) j := by
  rw [bigSep_univ_comm Φ, bigSep_univ_comm (fun c j => Φ (e j c) j)]
  exact bigSep_congr fun j _ => bigSep_univ_equiv (e j) (fun c => Φ c j)

omit [FloatOps F] in
/-- All devices' tokens, dealt: a barrier duty's and a receive duty's token go to the neighbour that pays it. -/
theorem toks_around : (bigSep Finset.univ fun c : Dev nD => (toks c : sProp 𝕄)) ⊢ bigSep Finset.univ fun c : Dev nD => payToks c := by
  have h : (bigSep Finset.univ fun c : Dev nD => (toks c : sProp 𝕄)) = bigSep Finset.univ fun c : Dev nD => payToks c := by
    rw [bigSep_congr (fun c _ => toks_eq c)]
    unfold ownToks payToks
    rw [bigSep_sep', bigSep_sep', bigSep_sep', bigSep_sep', bigSep_sep', bigSep_sep',
      bigSep_deal nbE (fun c d => (dutyTok ER (barCell c) 0 d : sProp 𝕄)),
      bigSep_deal peerE (fun c s => (dutyTok ER (recvCell c s) 0 0 : sProp 𝕄))]
    rfl
  exact Entails.of_eq h

omit [FloatOps F] in
theorem ghost_intro (K : Dev nD × Fin 66 → ℕ) (c : Dev nD) : iprop(records m K ∗ posOf c ∗ payToks c) ⊢ G' m c := by
  unfold posOf payToks G' ghost
  simp only [bigSep_sep']
  iintro ⟨#HR, ⟨HaB, HaL, HaS, HaV⟩, HtB, HtL, HtS, HtV⟩
  iexists K
  isplitr; · iexact HR
  isplitl [HaB]; · iexact HaB
  isplitl [HaL]; · iexact HaL
  isplitl [HtL]; · iexact HtL
  isplitl [HaV]; · iexact HaV
  isplitl [HtS HtV HaS]
  · isplitl [HtS]; · iexact HtS
    isplitl [HtV]; · iexact HtV
    iexact HaS
  iexact HtB

omit [FloatOps F] in
theorem regroup :
    (bigSep Finset.univ fun c : Dev nD => iprop((bigSep Finset.univ fun k : Fin 66 => iprop(∃ κ : ℕ, cellInv ER (Rd m) κ (kcell (c, k))))
          ∗ (bigSep Finset.univ fun k : Fin 66 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 66 => iprop(∃ κ : ℕ, cellInv ER (Rd m) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 66 => (atPos ER (kcell (c, k)) 0 ∅ 0 : sProp 𝕄)) payToks).symm).trans
      (bigSep_mono fun c _ => show _ ⊢ iprop(posOf c ∗ payToks c) from Entails.of_eq (by rw [pos_eq])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.AG

end
-- ==== Proof.Bits.Launch.lean ====
/-
  The launch: the protocol's ghost state funded and dealt to the devices, each device's start assembled, and the
  run of @main on the whole mesh with every device's final arrays named.
-/
import proofs.«900662_g7700000000000663_dist_ag_v7x_xyz2x2x2_x_m4096_n1024_f32_1_alg».proof.Proof.Bits.Body
import proofs.«900662_g7700000000000663_dist_ag_v7x_xyz2x2x2_x_m4096_n1024_f32_1_alg».proof.Proof.Bits.SchedTables
import proofs.«900662_g7700000000000663_dist_ag_v7x_xyz2x2x2_x_m4096_n1024_f32_1_alg».proof.Proof.Bits.Levels
import proofs.«900662_g7700000000000663_dist_ag_v7x_xyz2x2x2_x_m4096_n1024_f32_1_alg».proof.Proof.Bits.Geom
import proofs.«900662_g7700000000000663_dist_ag_v7x_xyz2x2x2_x_m4096_n1024_f32_1_alg».proof.Proof.Bits.Fund
noncomputable section

namespace Cert.Kernel.AG

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The layout facts the launch takes -/

theorem ownSemFacts : Pipeline.OwnSemFacts cfg0.spec osem := by decide

theorem share_eq (c : Dev nD) (w : Fin cfg0.W) : (dats m 0 c).share w = fullShare := w.elim0

omit [FloatOps F] in
/-- The own semaphores at zero are the 65 DMA semaphores at zero. -/
theorem ownSems0_all (c : Dev nD) : (Pipeline.ownSems0 (Ix := Unit) (Name := ℕ) (U := UU) (Lvl := ℕ) (Val := Elt F) (τ := τ) osem c : sProp 𝕄)
    = bigSep Finset.univ fun q : DmaSem sig => semVal ((c : Thread nD τ), SemLoc.dma q) 0 := rfl

omit [FloatOps F] in
/-- The whole input block as a plain points-to. -/
theorem xPts_plain (c : Dev nD) (q : PosShare TreeShare) :
    xPts m c q = (((c : Thread nD τ).loc main_arg0) ↦{q} xin m c : sProp 𝕄) := by
  unfold xPts; rw [View.set_whole]

/-- What a device has after the launch has dealt the ghost state and before the arrays are cut: its start and its two
    arrays whole at their launch contents. -/
def X₀ (c : Dev nD) : sProp 𝕄 :=
  iprop(start m c ∗ (((c : Thread nD τ).loc main_arg0) ↦{fullShare} m ((c : Thread nD τ).loc main_arg0))
    ∗ (((c : Thread nD τ).loc main_v1) ↦{fullShare} m ((c : Thread nD τ).loc main_v1)))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(X₀ m c ∗ emp) := by
  rw [Pipeline.unscopedRestP_none, unscopedRest0_eq]
  iintro ⟨⟨Hx, Ho⟩, Hlev, Hcr, -, HG⟩
  ihave Hc := (creds (F := F) c) $$ Hcr
  icases Hc with ⟨H3, HN⟩
  imodintro
  unfold X₀ start
  isplitl
  · isplitl [HG H3 HN Hlev]
    · isplitl [HG]; · iexact HG
      isplitl [H3]; · iexact H3
      isplitl [HN]; · iexact HN
      iexact Hlev
    · isplitl [Hx] <;> iassumption
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X₀
  iintro ⟨⟨Hs, Hx, Ho⟩, -, -⟩
  isplitl [Hs]; · iexact Hs
  isplitl [Hx]
  · rw [xPts_plain]; iexact Hx
  · iexists (m ((c : Thread nD τ).loc main_v1)); iexact Ho

theorem phi1_exit (c : Dev nD) :
    (dats m 0 c).Φ (Fin.last cfg0.N) ⊢ iprop(outFinal m c ∗ Pipeline.ownSems0 osem c ∗ Pipeline.scopedRest cfg0.spec c) := by
  rw [show (dats m 0 c).Φ (Fin.last cfg0.N) = Φ₁ m c from rfl, scopedRest0_eq, ownSems0_all]
  unfold Φ₁
  iintro ⟨Ho, Hz⟩
  isplitl [Ho]; · iexact Ho
  isplitl [Hz]; · iexact Hz
  iempintro

theorem waits (c : Dev nD) : (levAts L lv : sProp 𝕄) ⊢ Pipeline.cellsWaits cfgs (dats m) () 0 c :=
  Pipeline.cellsWaits_intro cfgs (dats m) () 0 c fun w s t => w.elim0

omit [FloatOps F] in
/-- The final pieces against the state interpretation: both arrays read off, the interpretation kept. -/
theorem final_pin (c : Dev nD) (s' : Phys nD τ sig (Elt F)) :
    iprop(outFinal m c ∗ emp ∗ SI s') ⊢ (|={Set.univ}=> iprop(⌜s'.mem.mem ((c : Thread nD τ).loc main_v1) = Wout m c
      ∧ s'.mem.mem ((c : Thread nD τ).loc main_arg0) = m ((c : Thread nD τ).loc main_arg0)⌝ ∗ SI s') : sProp 𝕄) := by
  iintro ⟨HY, -, HSI⟩
  ihave H := (persistent_entails_right (final_read m c s')) $$ [HY HSI]
  · isplitl [HY] <;> iassumption
  icases H with ⟨%h, -, HSI⟩
  imodintro
  isplitr; · ipureintro; exact h
  iexact HSI

/-! ## The run -/

/-- At the compiled mesh, from any memory with every semaphore at zero: every weakly fair execution of @main terminates,
    nothing faults, and in every final state each device's result array holds its final contents and its input block
    what it held. -/
theorem run_main : θ_run defs (onTc (τ := τ) (main (F := F))) ⟨m, fun _ => 0, ρ⟩
    (fun r => ∀ c : Dev nD, r.2.mem ((c : Thread nD τ).loc main_v1) = Wout m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := X₀ m) (Y := outFinal m) (Z := fun _ => iprop(emp))
    (hX := start_intro m ρ) (hin := phi0_intro m) (hout := phi1_exit m)
    (QY := fun c s => s.mem ((c : Thread nD τ).loc main_v1) = Wout m c
      ∧ s.mem ((c : Thread nD τ).loc main_arg0) = m ((c : Thread nD τ).loc main_arg0))
    (hY := final_pin m)
    (hQ := fun _ h c => (h c).2.2)

end Cert.Kernel.AG

end
-- ==== Proof.ClaimsBits.lean ====
/-
  The word-level program's frame. The body proof is written once, generic in the float instance; read at the word-level
  instance it gives the same run of the printed program itself: every weakly fair execution on the eight devices ends,
  nothing faults, and each device's input block is what it was (that its result array ends at the gathered contents is
  proved too, and dropped here).
-/
import proofs.«900662_g7700000000000663_dist_ag_v7x_xyz2x2x2_x_m4096_n1024_f32_1_alg».proof.Defs
import proofs.«900662_g7700000000000663_dist_ag_v7x_xyz2x2x2_x_m4096_n1024_f32_1_alg».proof.Proof.Bits.Launch
import proofs.«900662_g7700000000000663_dist_ag_v7x_xyz2x2x2_x_m4096_n1024_f32_1_alg».proof.Proof.Gen.Pre_finite_inputs_Kernel
noncomputable section

namespace Cert.Proof.AGClaims

open Idealize.ShloMosaic Idealize.SL.Sem

/-- The printed kernel's run with the result array dropped: its input block ends unchanged on every device. -/
theorem frame_Kernel : Cert.frame_Kernel := fun m g _ =>
  (θ_run Cert.Kernel.defs _ _).mono (fun _ h c => (h c).2) (Cert.Kernel.AG.run_main (F := Bits) m g)

end Cert.Proof.AGClaims

end
-- ==== Proof.lean ====
/-
  An all-gather on a 2 x 2 x 2 mesh against the identity. The [8192, 1024] array is cut in two row blocks along the mesh's
  first axis; device (x, y, z) holds block x and must end with the whole array. Each device copies its own block into its
  result array and receives the other block in 32 chunks of 128 rows: one quarter of it straight from its x-neighbour,
  one quarter each forwarded by its y- and its z-neighbour (which received them from THEIR x-neighbours), and the last
  quarter partly forwarded a second time and partly straight from the x-neighbour. Every chunk has its own pair of
  semaphores; before any transfer each device signals its three neighbours and waits for their three signals.

  The proof: a schedule of one round per semaphore in which a barrier signal hands the neighbour the chunks of the
  signaller's result array that the neighbour will fill, a landing hands the receiver the chunk at its FINAL contents, and
  a send's completion hands back the share of the source that was read (Proof/Sched.lean); the final contents of a result
  array are defined row by row as a row of the input block of the device the row originates from, so that a forwarded
  chunk has the same contents seen from the forwarder and from the receiver (Proof/Base.lean, Proof/Land.lean); levels
  barrier < first hop < forwards < second-hop forwards order the waits (Proof/Levels.lean); one device's body is stepped
  operation by operation through eight generic rules over a state indexed by the program step (Proof/Steps.lean,
  Proof/Time.lean, Proof/Parts*.lean, Proof/Body.lean); the launch funds the ghost state and deals each duty's token to
  the device that pays it (Proof/Fund.lean, Proof/Launch.lean). Under the hypothesis that each device's input block is its
  block of the whole array the final contents ARE the whole array, which is what the reference returns (Proof/Value.lean,
  Proof/Claims.lean). The idealization rewrote nothing, so 'preserves' is trivial, and the word-level frame is the same
  proof read at the word-level instance (Proof/Bits/).
-/
import proofs.«900662_g7700000000000663_dist_ag_v7x_xyz2x2x2_x_m4096_n1024_f32_1_alg».proof.Defs
import proofs.«900662_g7700000000000663_dist_ag_v7x_xyz2x2x2_x_m4096_n1024_f32_1_alg».proof.Proof.Gen.Kernel
import proofs.«900662_g7700000000000663_dist_ag_v7x_xyz2x2x2_x_m4096_n1024_f32_1_alg».proof.Proof.Gen.KernelIdeal
import proofs.«900662_g7700000000000663_dist_ag_v7x_xyz2x2x2_x_m4096_n1024_f32_1_alg».proof.Proof.Gen.ReferenceIdeal
import proofs.«900662_g7700000000000663_dist_ag_v7x_xyz2x2x2_x_m4096_n1024_f32_1_alg».proof.Proof.Gen.Pre_finite_inputs_Kernel
import proofs.«900662_g7700000000000663_dist_ag_v7x_xyz2x2x2_x_m4096_n1024_f32_1_alg».proof.Proof.Gen.Pre_finite_inputs_ReferenceIdeal
import proofs.«900662_g7700000000000663_dist_ag_v7x_xyz2x2x2_x_m4096_n1024_f32_1_alg».proof.Proof.Claims
import proofs.«900662_g7700000000000663_dist_ag_v7x_xyz2x2x2_x_m4096_n1024_f32_1_alg».proof.Proof.ClaimsBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.AGClaims.frame_Kernel, Cert.Proof.AGClaims.frame_KernelIdeal, Cert.Proof.AGClaims.frame_ReferenceIdeal,
    Cert.Proof.AGClaims.preserves_Kernel_KernelIdeal, Cert.Proof.AGClaims.algebraic_KernelIdeal_ReferenceIdeal⟩

end Cert.Proof

end
